-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S2x160000 : Shape := ⟨2, ![2, 160000]⟩
abbrev S128x256 : Shape := ⟨2, ![128, 256]⟩
abbrev S256 : Shape := ⟨1, ![256]⟩
abbrev S256x1024 : Shape := ⟨2, ![256, 1024]⟩
abbrev S1024 : Shape := ⟨1, ![1024]⟩
abbrev S1024x64 : Shape := ⟨2, ![1024, 64]⟩
abbrev S64 : Shape := ⟨1, ![64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_
  bcast_S_S2x160000 : S_.BroadcastsInDim S2x160000 (![] : Fin 0 → Fin S2x160000.rank)
  reducesTo_S2x160000_S_d0_1 : S2x160000.ReducesTo [0, 1] S_

variable [Facts]

def fn_part3 {F : FTy → Type} [FloatOps F] (main_arg1 : IVec S2x160000 32) (main_v48 : IVec S_ 1) (main_v50 : IVec S2x160000 1) : IVec S_ 1 :=
  let main_c_19 : IVec S_ 1 := constantI S_ 1 1#1
  let main_v51 : IVec S_ 1 := (fun x v => Host.reduce IntOp.andi x v reducesTo_S2x160000_S_d0_1 h_S_) main_v50 main_c_19
  let main_v52 : IVec S_ 1 := andi main_v48 main_v51
  let main_c_20 : IVec S_ 32 := constantI S_ 32 10000#32
  let main_v53 : IVec S2x160000 32 := broadcastInDim S2x160000 ![] bcast_S_S2x160000 main_c_20
  let main_v54 : IVec S2x160000 1 := cmpi .slt main_arg1 main_v53
  let main_c_21 : IVec S_ 1 := constantI S_ 1 1#1
  let main_v55 : IVec S_ 1 := (fun x v => Host.reduce IntOp.andi x v reducesTo_S2x160000_S_d0_1 h_S_) main_v54 main_c_21
  let main_v56 : IVec S_ 1 := andi main_v52 main_v55
  main_v56

def fn_part2 {F : FTy → Type} [FloatOps F] (main_arg1 : IVec S2x160000 32) (main_arg8 : FVec F S1024x64 .f32) (main_arg9 : FVec F S1024x64 .f32) (main_arg10 : FVec F S64 .f32) (main_v33 : IVec S_ 1) : IVec S_ 1 :=
  let main_v34 : FVec F S1024x64 .f32 := Host.absf main_arg8
  let main_cst_12 : FVec F S_ .f32 := constant S_ .f32 0x7F800000#32
  let main_v35 : FVec F S1024x64 .f32 := broadcastInDim S1024x64 ![] bcast_S_S1024x64 main_cst_12
  let main_v36 : IVec S1024x64 1 := cmpf .olt main_v34 main_v35
  let main_c_13 : IVec S_ 1 := constantI S_ 1 1#1
  let main_v37 : IVec S_ 1 := (fun x v => Host.reduce IntOp.andi x v reducesTo_S1024x64_S_d0_1 h_S_) main_v36 main_c_13
  let main_v38 : IVec S_ 1 := andi main_v33 main_v37
  let main_v39 : FVec F S1024x64 .f32 := Host.absf main_arg9
  let main_cst_14 : FVec F S_ .f32 := constant S_ .f32 0x7F800000#32
  let main_v40 : FVec F S1024x64 .f32 := broadcastInDim S1024x64 ![] bcast_S_S1024x64 main_cst_14
  let main_v41 : IVec S1024x64 1 := cmpf .olt main_v39 main_v40
  let main_c_15 : IVec S_ 1 := constantI S_ 1 1#1
  let main_v42 : IVec S_ 1 := (fun x v => Host.reduce IntOp.andi x v reducesTo_S1024x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_c_18 : IVec S_ 32 := constantI S_ 32 0#32
  let main_v49 : IVec S2x160000 32 := broadcastInDim S2x160000 ![] bcast_S_S2x160000 main_c_18
  let main_v50 : IVec S2x160000 1 := cmpi .sge main_arg1 main_v49
  fn_part3 (F := F) main_arg1 main_v48 main_v50

def fn_part1 {F : FTy → Type} [FloatOps F] (main_arg1 : IVec S2x160000 32) (main_arg5 : FVec F S256x1024 .f32) (main_arg6 : FVec F S256x1024 .f32) (main_arg7 : FVec F S1024 .f32) (main_arg8 : FVec F S1024x64 .f32) (main_arg9 : FVec F S1024x64 .f32) (main_arg10 : FVec F S64 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x1024 .f32 := Host.absf main_arg5
  let main_cst_6 : FVec F S_ .f32 := constant S_ .f32 0x7F800000#32
  let main_v20 : FVec F S256x1024 .f32 := broadcastInDim S256x1024 ![] bcast_S_S256x1024 main_cst_6
  let main_v21 : IVec S256x1024 1 := cmpf .olt main_v19 main_v20
  let main_c_7 : IVec S_ 1 := constantI S_ 1 1#1
  let main_v22 : IVec S_ 1 := (fun x v => Host.reduce IntOp.andi x v reducesTo_S256x1024_S_d0_1 h_S_) main_v21 main_c_7
  let main_v23 : IVec S_ 1 := andi main_v18 main_v22
  let main_v24 : FVec F S256x1024 .f32 := Host.absf main_arg6
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S1024 .f32 := Host.absf main_arg7
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S10000x128 .f32) (main_arg1 : IVec S2x160000 32) (main_arg2 : FVec F S128x256 .f32) (main_arg3 : FVec F S128x256 .f32) (main_arg4 : FVec F S256 .f32) (main_arg5 : FVec F S256x1024 .f32) (main_arg6 : FVec F S256x1024 .f32) (main_arg7 : FVec F S1024 .f32) (main_arg8 : FVec F S1024x64 .f32) (main_arg9 : FVec F S1024x64 .f32) (main_arg10 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S128x256 .f32 := Host.absf main_arg2
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S128x256 .f32 := Host.absf main_arg3
  let main_cst_2 : FVec F S_ .f32 := constant S_ .f32 0x7F800000#32
  let main_v10 : FVec F S128x256 .f32 := broadcastInDim S128x256 ![] bcast_S_S128x256 main_cst_2
  let main_v11 : IVec S128x256 1 := cmpf .olt main_v9 main_v10
  let main_c_3 : IVec S_ 1 := constantI S_ 1 1#1
  let main_v12 : IVec S_ 1 := (fun x v => Host.reduce IntOp.andi x v reducesTo_S128x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg1 main_arg5 main_arg6 main_arg7 main_arg8 main_arg9 main_arg10 main_v13 main_v16
-- ==== Kernel.lean ====
abbrev S10000x128 : Shape := ⟨2, ![10000, 128]⟩
abbrev S2x160000 : Shape := ⟨2, ![2, 160000]⟩
abbrev S128x256 : Shape := ⟨2, ![128, 256]⟩
abbrev S256 : Shape := ⟨1, ![256]⟩
abbrev S256x1024 : Shape := ⟨2, ![256, 1024]⟩
abbrev S1024 : Shape := ⟨1, ![1024]⟩
abbrev S1024x64 : Shape := ⟨2, ![1024, 64]⟩
abbrev S64 : Shape := ⟨1, ![64]⟩
abbrev S1x160000 : Shape := ⟨2, ![1, 160000]⟩
abbrev S160000 : Shape := ⟨1, ![160000]⟩
abbrev S_ : Shape := ⟨0, ![]⟩
abbrev S10240 : Shape := ⟨1, ![10240]⟩
abbrev S160000x1 : Shape := ⟨2, ![160000, 1]⟩
abbrev S10240x10240 : Shape := ⟨2, ![10240, 10240]⟩
abbrev S160000x2 : Shape := ⟨2, ![160000, 2]⟩
abbrev S10240x1 : Shape := ⟨2, ![10240, 1]⟩
abbrev S10240x128 : Shape := ⟨2, ![10240, 128]⟩
abbrev S1 : Shape := ⟨1, ![1]⟩
abbrev S2048x1280 : Shape := ⟨2, ![2048, 1280]⟩
abbrev S1280x128 : Shape := ⟨2, ![1280, 128]⟩
abbrev S2048x128 : Shape := ⟨2, ![2048, 128]⟩
abbrev S1x256 : Shape := ⟨2, ![1, 256]⟩
abbrev S10240x256 : Shape := ⟨2, ![10240, 256]⟩
abbrev S2048x256 : Shape := ⟨2, ![2048, 256]⟩
abbrev S1280x256 : Shape := ⟨2, ![1280, 256]⟩
abbrev S1x1024 : Shape := ⟨2, ![1, 1024]⟩
abbrev S10240x1024 : Shape := ⟨2, ![10240, 1024]⟩
abbrev S2048x1024 : Shape := ⟨2, ![2048, 1024]⟩
abbrev S1280x1024 : Shape := ⟨2, ![1280, 1024]⟩
abbrev S1x64 : Shape := ⟨2, ![1, 64]⟩
abbrev S10240x64 : Shape := ⟨2, ![10240, 64]⟩
abbrev S2048x64 : Shape := ⟨2, ![2048, 64]⟩
abbrev S10000x64 : Shape := ⟨2, ![10000, 64]⟩
abbrev S10000 : Shape := ⟨1, ![10000]⟩
abbrev S10000x1 : Shape := ⟨2, ![10000, 1]⟩

abbrev nBuf : Space → Nat
  | .hbm => 83
  | .vmem => 48
  | .smem => 0
  | _ => 0

abbrev bufTy : (tb : Table) → Fin (tcTables nBuf tb) → BufTy
  | .hbm, ⟨0, _⟩ => ⟨S10000x128, .f32⟩
  | .hbm, ⟨1, _⟩ => ⟨S2x160000, .i32⟩
  | .hbm, ⟨2, _⟩ => ⟨S128x256, .f32⟩
  | .hbm, ⟨3, _⟩ => ⟨S128x256, .f32⟩
  | .hbm, ⟨4, _⟩ => ⟨S256, .f32⟩
  | .hbm, ⟨5, _⟩ => ⟨S256x1024, .f32⟩
  | .hbm, ⟨6, _⟩ => ⟨S256x1024, .f32⟩
  | .hbm, ⟨7, _⟩ => ⟨S1024, .f32⟩
  | .hbm, ⟨8, _⟩ => ⟨S1024x64, .f32⟩
  | .hbm, ⟨9, _⟩ => ⟨S1024x64, .f32⟩
  | .hbm, ⟨10, _⟩ => ⟨S64, .f32⟩
  | .hbm, ⟨11, _⟩ => ⟨S1x160000, .i32⟩
  | .hbm, ⟨12, _⟩ => ⟨S160000, .i32⟩
  | .hbm, ⟨13, _⟩ => ⟨S1x160000, .i32⟩
  | .hbm, ⟨14, _⟩ => ⟨S160000, .i32⟩
  | .hbm, ⟨15, _⟩ => ⟨S_, .f32⟩
  | .hbm, ⟨16, _⟩ => ⟨S160000, .f32⟩
  | .hbm, ⟨17, _⟩ => ⟨S_, .f32⟩
  | .hbm, ⟨18, _⟩ => ⟨S10240, .f32⟩
  | .hbm, ⟨19, _⟩ => ⟨S160000x1, .i32⟩
  | .hbm, ⟨20, _⟩ => ⟨S10240, .f32⟩
  | .hbm, ⟨21, _⟩ => ⟨S_, .f32⟩
  | .hbm, ⟨22, _⟩ => ⟨S10240x10240, .f32⟩
  | .hbm, ⟨23, _⟩ => ⟨S_, .i32⟩
  | .hbm, ⟨24, _⟩ => ⟨S160000, .i32⟩
  | .hbm, ⟨25, _⟩ => ⟨S160000, .i1⟩
  | .hbm, ⟨26, _⟩ => ⟨S_, .i32⟩
  | .hbm, ⟨27, _⟩ => ⟨S160000, .i32⟩
  | .hbm, ⟨28, _⟩ => ⟨S160000, .i32⟩
  | .hbm, ⟨29, _⟩ => ⟨S160000, .i32⟩
  | .hbm, ⟨30, _⟩ => ⟨S_, .i32⟩
  | .hbm, ⟨31, _⟩ => ⟨S160000, .i32⟩
  | .hbm, ⟨32, _⟩ => ⟨S160000, .i1⟩
  | .hbm, ⟨33, _⟩ => ⟨S_, .i32⟩
  | .hbm, ⟨34, _⟩ => ⟨S160000, .i32⟩
  | .hbm, ⟨35, _⟩ => ⟨S160000, .i32⟩
  | .hbm, ⟨36, _⟩ => ⟨S160000, .i32⟩
  | .hbm, ⟨37, _⟩ => ⟨S160000x1, .i32⟩
  | .hbm, ⟨38, _⟩ => ⟨S160000x1, .i32⟩
  | .hbm, ⟨39, _⟩ => ⟨S160000x2, .i32⟩
  | .hbm, ⟨40, _⟩ => ⟨S_, .f32⟩
  | .hbm, ⟨41, _⟩ => ⟨S160000, .f32⟩
  | .hbm, ⟨42, _⟩ => ⟨S10240x10240, .f32⟩
  | .hbm, ⟨43, _⟩ => ⟨S_, .f32⟩
  | .hbm, ⟨44, _⟩ => ⟨S10240, .f32⟩
  | .hbm, ⟨45, _⟩ => ⟨S10240, .f32⟩
  | .hbm, ⟨46, _⟩ => ⟨S_, .f32⟩
  | .hbm, ⟨47, _⟩ => ⟨S10240, .f32⟩
  | .hbm, ⟨48, _⟩ => ⟨S10240, .f32⟩
  | .hbm, ⟨49, _⟩ => ⟨S10240x1, .f32⟩
  | .hbm, ⟨50, _⟩ => ⟨S10240x10240, .f32⟩
  | .hbm, ⟨51, _⟩ => ⟨S10240x10240, .f32⟩
  | .hbm, ⟨52, _⟩ => ⟨S10240x10240, .bf16⟩
  | .hbm, ⟨53, _⟩ => ⟨S_, .f32⟩
  | .hbm, ⟨54, _⟩ => ⟨S10240x128, .f32⟩
  | .hbm, ⟨55, _⟩ => ⟨S_, .i32⟩
  | .hbm, ⟨56, _⟩ => ⟨S1, .i32⟩
  | .hbm, ⟨57, _⟩ => ⟨S10240x128, .f32⟩
  | .hbm, ⟨58, _⟩ => ⟨S10240x128, .f32⟩
  | .hbm, ⟨59, _⟩ => ⟨S1x256, .f32⟩
  | .hbm, ⟨60, _⟩ => ⟨S10240x256, .f32⟩
  | .hbm, ⟨61, _⟩ => ⟨S10240x256, .f32⟩
  | .hbm, ⟨62, _⟩ => ⟨S1x1024, .f32⟩
  | .hbm, ⟨63, _⟩ => ⟨S10240x1024, .f32⟩
  | .hbm, ⟨64, _⟩ => ⟨S10240x1024, .f32⟩
  | .hbm, ⟨65, _⟩ => ⟨S1x64, .f32⟩
  | .hbm, ⟨66, _⟩ => ⟨S10240x64, .f32⟩
  | .hbm, ⟨67, _⟩ => ⟨S10000x64, .f32⟩
  | .hbm, ⟨68, _⟩ => ⟨S_, .f32⟩
  | .hbm, ⟨69, _⟩ => ⟨S10000, .f32⟩
  | .hbm, ⟨70, _⟩ => ⟨S_, .f32⟩
  | .hbm, ⟨71, _⟩ => ⟨S10000, .f32⟩
  | .hbm, ⟨72, _⟩ => ⟨S10000, .f32⟩
  | .hbm, ⟨73, _⟩ => ⟨S10000x1, .f32⟩
  | .hbm, ⟨74, _⟩ => ⟨S10000x64, .f32⟩
  | .hbm, ⟨75, _⟩ => ⟨S10000x64, .f32⟩
  | .hbm, ⟨76, _⟩ => ⟨S10000x64, .f32⟩
  | .hbm, ⟨77, _⟩ => ⟨S_, .f32⟩
  | .hbm, ⟨78, _⟩ => ⟨S10000, .f32⟩
  | .hbm, ⟨79, _⟩ => ⟨S10000x1, .f32⟩
  | .hbm, ⟨80, _⟩ => ⟨S10000x1, .f32⟩
  | .hbm, ⟨81, _⟩ => ⟨S10000x64, .f32⟩
  | .hbm, ⟨82, _⟩ => ⟨S10000x64, .f32⟩
  | .local _ .vmem, ⟨0, _⟩ => ⟨S2048x1280, .bf16⟩
  | .local _ .vmem, ⟨1, _⟩ => ⟨S2048x1280, .bf16⟩
  | .local _ .vmem, ⟨2, _⟩ => ⟨S1280x128, .f32⟩
  | .local _ .vmem, ⟨3, _⟩ => ⟨S1280x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S128x256, .f32⟩
  | .local _ .vmem, ⟨12, _⟩ => ⟨S128x256, .f32⟩
  | .local _ .vmem, ⟨13, _⟩ => ⟨S1x256, .f32⟩
  | .local _ .vmem, ⟨14, _⟩ => ⟨S2048x256, .f32⟩
  | .local _ .vmem, ⟨15, _⟩ => ⟨S2048x256, .f32⟩
  | .local _ .vmem, ⟨16, _⟩ => ⟨S2048x1280, .bf16⟩
  | .local _ .vmem, ⟨17, _⟩ => ⟨S2048x1280, .bf16⟩
  | .local _ .vmem, ⟨18, _⟩ => ⟨S1280x256, .f32⟩
  | .local _ .vmem, ⟨19, _⟩ => ⟨S1280x256, .f32⟩
  | .local _ .vmem, ⟨20, _⟩ => ⟨S2048x256, .f32⟩
  | .local _ .vmem, ⟨21, _⟩ => ⟨S2048x256, .f32⟩
  | .local _ .vmem, ⟨22, _⟩ => ⟨S2048x256, .f32⟩
  | .local _ .vmem, ⟨23, _⟩ => ⟨S2048x256, .f32⟩
  | .local _ .vmem, ⟨24, _⟩ => ⟨S2048x256, .f32⟩
  | .local _ .vmem, ⟨25, _⟩ => ⟨S2048x256, .f32⟩
  | .local _ .vmem, ⟨26, _⟩ => ⟨S2048x256, .f32⟩
  | .local _ .vmem, ⟨27, _⟩ => ⟨S256x1024, .f32⟩
  | .local _ .vmem, ⟨28, _⟩ => ⟨S256x1024, .f32⟩
  | .local _ .vmem, ⟨29, _⟩ => ⟨S1x1024, .f32⟩
  | .local _ .vmem, ⟨30, _⟩ => ⟨S2048x1024, .f32⟩
  | .local _ .vmem, ⟨31, _⟩ => ⟨S2048x1024, .f32⟩
  | .local _ .vmem, ⟨32, _⟩ => ⟨S2048x1280, .bf16⟩
  | .local _ .vmem, ⟨33, _⟩ => ⟨S2048x1280, .bf16⟩
  | .local _ .vmem, ⟨34, _⟩ => ⟨S1280x1024, .f32⟩
  | .local _ .vmem, ⟨35, _⟩ => ⟨S1280x1024, .f32⟩
  | .local _ .vmem, ⟨36, _⟩ => ⟨S2048x1024, .f32⟩
  | .local _ .vmem, ⟨37, _⟩ => ⟨S2048x1024, .f32⟩
  | .local _ .vmem, ⟨38, _⟩ => ⟨S2048x1024, .f32⟩
  | .local _ .vmem, ⟨39, _⟩ => ⟨S2048x1024, .f32⟩
  | .local _ .vmem, ⟨40, _⟩ => ⟨S2048x1024, .f32⟩
  | .local _ .vmem, ⟨41, _⟩ => ⟨S2048x1024, .f32⟩
  | .local _ .vmem, ⟨42, _⟩ => ⟨S2048x1024, .f32⟩
  | .local _ .vmem, ⟨43, _⟩ => ⟨S1024x64, .f32⟩
  | .local _ .vmem, ⟨44, _⟩ => ⟨S1024x64, .f32⟩
  | .local _ .vmem, ⟨45, _⟩ => ⟨S1x64, .f32⟩
  | .local _ .vmem, ⟨46, _⟩ => ⟨S2048x64, .f32⟩
  | .local _ .vmem, ⟨47, _⟩ => ⟨S2048x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_c : Ref sig .tc := ⟨.hbm, 23, rfl⟩
abbrev main_v9 : Ref sig .tc := ⟨.hbm, 24, rfl⟩
abbrev main_v10 : Ref sig .tc := ⟨.hbm, 25, rfl⟩
abbrev main_c_2 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_c_3 : Ref sig .tc := ⟨.hbm, 30, rfl⟩
abbrev main_v14 : Ref sig .tc := ⟨.hbm, 31, rfl⟩
abbrev main_v15 : Ref sig .tc := ⟨.hbm, 32, rfl⟩
abbrev main_c_4 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_5 : Ref sig .tc := ⟨.hbm, 40, rfl⟩
abbrev main_v22 : Ref sig .tc := ⟨.hbm, 41, rfl⟩
abbrev main_v23 : Ref sig .tc := ⟨.hbm, 42, rfl⟩
abbrev main_cst_6 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_cst_8 : Ref sig .tc := ⟨.hbm, 53, rfl⟩
abbrev main_v32 : Ref sig .tc := ⟨.hbm, 54, rfl⟩
abbrev main_c_9 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_call0_cst : Ref sig .tc := ⟨.hbm, 68, rfl⟩
abbrev main_call0_v0 : Ref sig .tc := ⟨.hbm, 69, rfl⟩
abbrev main_call0_cst_0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_cst_1 : Ref sig .tc := ⟨.hbm, 77, rfl⟩
abbrev main_call0_v7 : Ref sig .tc := ⟨.hbm, 78, rfl⟩
abbrev main_call0_v8 : Ref sig .tc := ⟨.hbm, 79, rfl⟩
abbrev main_call0_v9 : Ref sig .tc := ⟨.hbm, 80, rfl⟩
abbrev main_call0_v10 : Ref sig .tc := ⟨.hbm, 81, rfl⟩
abbrev main_v45 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc2_scratch0 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc4_scratch0 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem5_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem2_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29
abbrev cc4_sem0_0 : DmaSem sig := 30
abbrev cc4_sem0_1 : DmaSem sig := 31
abbrev cc4_sem1_0 : DmaSem sig := 32
abbrev cc4_sem1_1 : DmaSem sig := 33
abbrev cc4_sem2_0 : DmaSem sig := 34
abbrev cc4_sem2_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem4_0 : DmaSem sig := 42
abbrev cc5_sem5_0 : DmaSem sig := 43
abbrev cc5_sem5_1 : DmaSem sig := 44

abbrev nD : Nat := 1
abbrev τ : Topo := Topo.v7x

variable {F : FTy → Type} [FloatOps F]

abbrev grid0 : Pipeline.Grid := ⟨2, ![5, 8], ![false, false]⟩

def k0_cond2 (i : grid0.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1280x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2048x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2048x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨2, ![5, 8], ![false, false]⟩

def k2_cond2 (i : grid2.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S2048x1280 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1280x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2048x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2048x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2048x256 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S256x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S256x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1024 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2048x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨2, ![5, 8], ![false, false]⟩

def k4_cond2 (i : grid4.Coords) : BitVec 1 :=
  let arg1 : BitVec 32 := BitVec.ofNat 32 (i 1).val
  let c7_i32 : BitVec 32 := 7#32
  let v14 : BitVec 1 := Scalar.cmpi .eq arg1 c7_i32
  let v15 : BitVec 32 := Scalar.extui v14
  let c0_i32_8 : BitVec 32 := 0#32
  let v16 : BitVec 1 := Scalar.cmpi .ne v15 c0_i32_8
  v16

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage4_0 : Fin 2 → Memref sig .tc .vmem S2048x1280 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, true]

abbrev stage4_1 : Fin 2 → Memref sig .tc .vmem S1280x1024 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S2048x1024 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2048x1024 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2048x1024 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1024x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1024x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S2048x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S_S10240 : S_.BroadcastsInDim S10240 (![] : Fin 0 → Fin S10240.rank)
  bcast_S160000_S160000x1_0 : S160000.BroadcastsInDim S160000x1 (![0] : Fin 1 → Fin S160000x1.rank)
  bcast_S_S10240x10240 : S_.BroadcastsInDim S10240x10240 (![] : Fin 0 → Fin S10240x10240.rank)
  concatenates_S160000x1_S160000x1_S160000x2_d1 : Shape.Concatenates [S160000x1, S160000x1] S160000x2 1
  bcast_S10240_S10240x1_0 : S10240.BroadcastsInDim S10240x1 (![0] : Fin 1 → Fin S10240x1.rank)
  bcast_S10240x1_S10240x10240_0_1 : S10240x1.BroadcastsInDim S10240x10240 (![0, 1] : Fin 2 → Fin S10240x10240.rank)
  bitsLt_bf16_f32 : FTy.bits .bf16 < FTy.bits .f32
  bcast_S_S10240x128 : S_.BroadcastsInDim S10240x128 (![] : Fin 0 → Fin S10240x128.rank)
  bcast_S_S1 : S_.BroadcastsInDim S1 (![] : Fin 0 → Fin S1.rank)
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x1280_S2048x1280_0_0 : ∀ a, (![0, 0] : Fin 2 → Nat) a + S2048x1280.size a ≤ S2048x1280.size a
  h_S2048x1280 : 0 < S2048x1280.numel
  shapeCasts_S2048x1280_S2048x1280 : S2048x1280.ShapeCasts S2048x1280
  inb_S1280x128_S1280x128_0_0 : ∀ a, (![0, 0] : Fin 2 → Nat) a + S1280x128.size a ≤ S1280x128.size a
  h_S1280x128 : 0 < S1280x128.numel
  shapeCasts_S1280x128_S1280x128 : S1280x128.ShapeCasts S1280x128
  shapeCasts_S256_S1x256 : S256.ShapeCasts S1x256
  inb_S128x256_S128x256_0_0 : ∀ a, (![0, 0] : Fin 2 → Nat) a + S128x256.size a ≤ S128x256.size a
  h_S128x256 : 0 < S128x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  inb_S1280x256_S1280x256_0_0 : ∀ a, (![0, 0] : Fin 2 → Nat) a + S1280x256.size a ≤ S1280x256.size a
  h_S1280x256 : 0 < S1280x256.numel
  shapeCasts_S1280x256_S1280x256 : S1280x256.ShapeCasts S1280x256
  shapeCasts_S1024_S1x1024 : S1024.ShapeCasts S1x1024
  inb_S256x1024_S256x1024_0_0 : ∀ a, (![0, 0] : Fin 2 → Nat) a + S256x1024.size a ≤ S256x1024.size a
  h_S256x1024 : 0 < S256x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  inb_S2048x64_S2048x64_0_0 : ∀ a, (![0, 0] : Fin 2 → Nat) a + S2048x64.size a ≤ S2048x64.size a
  h_S2048x64 : 0 < S2048x64.numel
  slices_S10240x64_S10000x64_0_0 : S10240x64.Slices ![0, 0] S10000x64
  reducesTo_S10000x64_S10000_d1 : S10000x64.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x64_0_1 : S10000x1.BroadcastsInDim S10000x64 (![0, 1] : Fin 2 → Fin S10000x64.rank)
  scatter_S10240_S160000x1_S160000_n_0_0_1_wf : ScatterDims.WF S10240 S160000x1 S160000 [] [0] [0] 1
  scatter_S10240x10240_S160000x2_S160000_n_01_01_1_wf : ScatterDims.WF S10240x10240 S160000x2 S160000 [] [0, 1] [0, 1] 1
  scatter_S10240x128_S1_S10000x128_01_n_0_0_wf : ScatterDims.WF S10240x128 S1 S10000x128 [0, 1] [] [0] 0
  dot_S2048x1280_S1280x128_S2048x128_1_0_0_1_n_n_wf : DotDims.WF S2048x1280 S1280x128 S2048x128 [1] [0] [0] [1] [] []
  dot_S2048x128_S128x256_S2048x256_1_0_0_1_n_n_wf : DotDims.WF S2048x128 S128x256 S2048x256 [1] [0] [0] [1] [] []
  dot_S2048x1280_S1280x256_S2048x256_1_0_0_1_n_n_wf : DotDims.WF S2048x1280 S1280x256 S2048x256 [1] [0] [0] [1] [] []
  dot_S2048x256_S256x1024_S2048x1024_1_0_0_1_n_n_wf : DotDims.WF S2048x256 S256x1024 S2048x1024 [1] [0] [0] [1] [] []
  dot_S2048x1280_S1280x1024_S2048x1024_1_0_0_1_n_n_wf : DotDims.WF S2048x1280 S1280x1024 S2048x1024 [1] [0] [0] [1] [] []
  dot_S2048x1024_S1024x64_S2048x64_1_0_0_1_n_n_wf : DotDims.WF S2048x1024 S1024x64 S2048x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1280.size a ≤ S10240x10240.size a
  hwx0_0 : ∀ i : grid0.Coords, EltTy.bits .bf16 = 32 ∨ (Rect.block (s := S10240x10240) S2048x1280.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1280x128.size a ≤ S10240x128.size a
  hwx0_1 : ∀ i : grid0.Coords, EltTy.bits .f32 = 32 ∨ (Rect.block (s := S10240x128) S1280x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S10240x128.size a
  hwx0_2 : ∀ i : grid0.Coords, EltTy.bits .f32 = 32 ∨ (Rect.block (s := S10240x128) S2048x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x128.size a ≤ S10240x128.size a
  hwx1_0 : ∀ i : grid1.Coords, EltTy.bits .f32 = 32 ∨ (Rect.block (s := S10240x128) S2048x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x128.size a ≤ S10240x128.size a
  hwx1_1 : ∀ i : grid1.Coords, EltTy.bits .f32 = 32 ∨ (Rect.block (s := S10240x128) S2048x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x256.size a ≤ S128x256.size a
  hwx1_2 : ∀ i : grid1.Coords, EltTy.bits .f32 = 32 ∨ (Rect.block (s := S128x256) S128x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x256.size a ≤ S128x256.size a
  hwx1_3 : ∀ i : grid1.Coords, EltTy.bits .f32 = 32 ∨ (Rect.block (s := S128x256) S128x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2048x256.size a ≤ S10240x256.size a
  hwx1_5 : ∀ i : grid1.Coords, EltTy.bits .f32 = 32 ∨ (Rect.block (s := S10240x256) S2048x256.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1280.size a ≤ S10240x10240.size a
  hwx2_0 : ∀ i : grid2.Coords, EltTy.bits .bf16 = 32 ∨ (Rect.block (s := S10240x10240) S2048x1280.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1280x256.size a ≤ S10240x256.size a
  hwx2_1 : ∀ i : grid2.Coords, EltTy.bits .f32 = 32 ∨ (Rect.block (s := S10240x256) S1280x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2048x256.size a ≤ S10240x256.size a
  hwx2_2 : ∀ i : grid2.Coords, EltTy.bits .f32 = 32 ∨ (Rect.block (s := S10240x256) S2048x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2048x256.size a ≤ S10240x256.size a
  hwx3_0 : ∀ i : grid3.Coords, EltTy.bits .f32 = 32 ∨ (Rect.block (s := S10240x256) S2048x256.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2048x256.size a ≤ S10240x256.size a
  hwx3_1 : ∀ i : grid3.Coords, EltTy.bits .f32 = 32 ∨ (Rect.block (s := S10240x256) S2048x256.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S256x1024.size a ≤ S256x1024.size a
  hwx3_2 : ∀ i : grid3.Coords, EltTy.bits .f32 = 32 ∨ (Rect.block (s := S256x1024) S256x1024.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S256x1024.size a ≤ S256x1024.size a
  hwx3_3 : ∀ i : grid3.Coords, EltTy.bits .f32 = 32 ∨ (Rect.block (s := S256x1024) S256x1024.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x1024.size a ≤ S1x1024.size a
  hwx3_4 : ∀ i : grid3.Coords, EltTy.bits .f32 = 32 ∨ (Rect.block (s := S1x1024) S1x1024.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2048x1024.size a ≤ S10240x1024.size a
  hwx3_5 : ∀ i : grid3.Coords, EltTy.bits .f32 = 32 ∨ (Rect.block (s := S10240x1024) S2048x1024.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2048x1280.size a ≤ S10240x10240.size a
  hwx4_0 : ∀ i : grid4.Coords, EltTy.bits .bf16 = 32 ∨ (Rect.block (s := S10240x10240) S2048x1280.size (cc4_transform_0 i) (hinb4_0 i)).WholeWords (EltTy.packing .bf16)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S1280x1024.size a ≤ S10240x1024.size a
  hwx4_1 : ∀ i : grid4.Coords, EltTy.bits .f32 = 32 ∨ (Rect.block (s := S10240x1024) S1280x1024.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2048x1024.size a ≤ S10240x1024.size a
  hwx4_2 : ∀ i : grid4.Coords, EltTy.bits .f32 = 32 ∨ (Rect.block (s := S10240x1024) S2048x1024.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2048x1024.size a ≤ S10240x1024.size a
  hwx5_0 : ∀ i : grid5.Coords, EltTy.bits .f32 = 32 ∨ (Rect.block (s := S10240x1024) S2048x1024.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2048x1024.size a ≤ S10240x1024.size a
  hwx5_1 : ∀ i : grid5.Coords, EltTy.bits .f32 = 32 ∨ (Rect.block (s := S10240x1024) S2048x1024.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1024x64.size a ≤ S1024x64.size a
  hwx5_2 : ∀ i : grid5.Coords, EltTy.bits .f32 = 32 ∨ (Rect.block (s := S1024x64) S1024x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1024x64.size a ≤ S1024x64.size a
  hwx5_3 : ∀ i : grid5.Coords, EltTy.bits .f32 = 32 ∨ (Rect.block (s := S1024x64) S1024x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S2048x64.size a ≤ S10240x64.size a
  hwx5_5 : ∀ i : grid5.Coords, EltTy.bits .f32 = 32 ∨ (Rect.block (s := S10240x64) S2048x64.size (cc5_transform_5 i) (hinb5_5 i)).WholeWords (EltTy.packing .f32)

variable [Facts₀]

def scatter_S10240_S160000x1_S160000_n_0_0_1 : ScatterDims S10240 S160000x1 S160000 where
  updateWindowDims := []
  insertedWindowDims := [0]
  scatterDimsToOperandDims := [0]
  indexVectorDim := 1
  wf := scatter_S10240_S160000x1_S160000_n_0_0_1_wf
def scatter_S10240x10240_S160000x2_S160000_n_01_01_1 : ScatterDims S10240x10240 S160000x2 S160000 where
  updateWindowDims := []
  insertedWindowDims := [0, 1]
  scatterDimsToOperandDims := [0, 1]
  indexVectorDim := 1
  wf := scatter_S10240x10240_S160000x2_S160000_n_01_01_1_wf
def scatter_S10240x128_S1_S10000x128_01_n_0_0 : ScatterDims S10240x128 S1 S10000x128 where
  updateWindowDims := [0, 1]
  insertedWindowDims := []
  scatterDimsToOperandDims := [0]
  indexVectorDim := 0
  wf := scatter_S10240x128_S1_S10000x128_01_n_0_0_wf
def dot_S2048x1280_S1280x128_S2048x128_1_0_0_1_n_n : DotDims S2048x1280 S1280x128 S2048x128 where
  lhsContracting := [1]
  rhsContracting := [0]
  lhsNonContracting := [0]
  rhsNonContracting := [1]
  lhsBatch := []
  rhsBatch := []
  wf := dot_S2048x1280_S1280x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x1280_S1280x256_S2048x256_1_0_0_1_n_n : DotDims S2048x1280 S1280x256 S2048x256 where
  lhsContracting := [1]
  rhsContracting := [0]
  lhsNonContracting := [0]
  rhsNonContracting := [1]
  lhsBatch := []
  rhsBatch := []
  wf := dot_S2048x1280_S1280x256_S2048x256_1_0_0_1_n_n_wf
def dot_S2048x256_S256x1024_S2048x1024_1_0_0_1_n_n : DotDims S2048x256 S256x1024 S2048x1024 where
  lhsContracting := [1]
  rhsContracting := [0]
  lhsNonContracting := [0]
  rhsNonContracting := [1]
  lhsBatch := []
  rhsBatch := []
  wf := dot_S2048x256_S256x1024_S2048x1024_1_0_0_1_n_n_wf
def dot_S2048x1280_S1280x1024_S2048x1024_1_0_0_1_n_n : DotDims S2048x1280 S1280x1024 S2048x1024 where
  lhsContracting := [1]
  rhsContracting := [0]
  lhsNonContracting := [0]
  rhsNonContracting := [1]
  lhsBatch := []
  rhsBatch := []
  wf := dot_S2048x1280_S1280x1024_S2048x1024_1_0_0_1_n_n_wf
def dot_S2048x1024_S1024x64_S2048x64_1_0_0_1_n_n : DotDims S2048x1024 S1024x64 S2048x64 where
  lhsContracting := [1]
  rhsContracting := [0]
  lhsNonContracting := [0]
  rhsNonContracting := [1]
  lhsBatch := []
  rhsBatch := []
  wf := dot_S2048x1024_S1024x64_S2048x64_1_0_0_1_n_n_wf

abbrev win0_0 : Pipeline.Window sig grid0 :=
  Pipeline.Window.ofSpec (Memref.whole main_v31) S2048x1280.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1280x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v35) S2048x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v35) S2048x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S2048x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S128x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S2048x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v31) S2048x1280.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v37) S1280x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v38) S2048x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev idle2 : Fin 3 → grid2.Coords → Bool := fun | 0 => fun _ => false | 1 => fun _ => false | 2 => fun i => !(k2_cond2 i == 1#1) | ⟨_ + 3, h⟩ => absurd h (Nat.not_lt.2 (Nat.le_add_left _ _))

abbrev win3_0 : Pipeline.Window sig grid3 :=
  Pipeline.Window.ofSpec (Memref.whole main_v38) S2048x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S2048x256.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg5) S256x1024.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg6) S256x1024.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v39) S1x1024.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v40) S2048x1024.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v31) S2048x1280.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v40) S1280x1024.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v41) S2048x1024.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev idle4 : Fin 3 → grid4.Coords → Bool := fun | 0 => fun _ => false | 1 => fun _ => false | 2 => fun i => !(k4_cond2 i == 1#1) | ⟨_ + 3, h⟩ => absurd h (Nat.not_lt.2 (Nat.le_add_left _ _))

abbrev win5_0 : Pipeline.Window sig grid5 :=
  Pipeline.Window.ofSpec (Memref.whole main_v41) S2048x1024.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v40) S2048x1024.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg8) S1024x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_arg9) S1024x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v42) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v43) S2048x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S10000x128 : Shape := ⟨2, ![10000, 128]⟩
abbrev S2x160000 : Shape := ⟨2, ![2, 160000]⟩
abbrev S128x256 : Shape := ⟨2, ![128, 256]⟩
abbrev S256 : Shape := ⟨1, ![256]⟩
abbrev S256x1024 : Shape := ⟨2, ![256, 1024]⟩
abbrev S1024 : Shape := ⟨1, ![1024]⟩
abbrev S1024x64 : Shape := ⟨2, ![1024, 64]⟩
abbrev S64 : Shape := ⟨1, ![64]⟩
abbrev S1x160000 : Shape := ⟨2, ![1, 160000]⟩
abbrev S160000 : Shape := ⟨1, ![160000]⟩
abbrev S_ : Shape := ⟨0, ![]⟩
abbrev S160000x1 : Shape := ⟨2, ![160000, 1]⟩
abbrev S160000x128 : Shape := ⟨2, ![160000, 128]⟩
abbrev S10000 : Shape := ⟨1, ![10000]⟩
abbrev S10000x1 : Shape := ⟨2, ![10000, 1]⟩
abbrev S10000x256 : Shape := ⟨2, ![10000, 256]⟩
abbrev S1x256 : Shape := ⟨2, ![1, 256]⟩
abbrev S160000x256 : Shape := ⟨2, ![160000, 256]⟩
abbrev S10000x1024 : Shape := ⟨2, ![10000, 1024]⟩
abbrev S1x1024 : Shape := ⟨2, ![1, 1024]⟩
abbrev S160000x1024 : Shape := ⟨2, ![160000, 1024]⟩
abbrev S10000x64 : Shape := ⟨2, ![10000, 64]⟩
abbrev S1x64 : Shape := ⟨2, ![1, 64]⟩

abbrev nBuf : Space → Nat
  | .hbm => 137
  | .vmem => 0
  | .smem => 0
  | _ => 0

abbrev hbmTy0_0 (i : Nat) : BufTy := match i % 128 with
  | 0 => ⟨S10000x128, .f32⟩
  | 1 => ⟨S2x160000, .i32⟩
  | 2 => ⟨S128x256, .f32⟩
  | 3 => ⟨S128x256, .f32⟩
  | 4 => ⟨S256, .f32⟩
  | 5 => ⟨S256x1024, .f32⟩
  | 6 => ⟨S256x1024, .f32⟩
  | 7 => ⟨S1024, .f32⟩
  | 8 => ⟨S1024x64, .f32⟩
  | 9 => ⟨S1024x64, .f32⟩
  | 10 => ⟨S64, .f32⟩
  | 11 => ⟨S1x160000, .i32⟩
  | 12 => ⟨S160000, .i32⟩
  | 13 => ⟨S1x160000, .i32⟩
  | 14 => ⟨S160000, .i32⟩
  | 15 => ⟨S_, .i32⟩
  | 16 => ⟨S160000, .i32⟩
  | 17 => ⟨S160000, .i1⟩
  | 18 => ⟨S_, .i32⟩
  | 19 => ⟨S160000, .i32⟩
  | 20 => ⟨S160000, .i32⟩
  | 21 => ⟨S160000, .i32⟩
  | 22 => ⟨S160000x1, .i32⟩
  | 23 => ⟨S160000x128, .f32⟩
  | 24 => ⟨S_, .f32⟩
  | 25 => ⟨S10000x128, .f32⟩
  | 26 => ⟨S160000x1, .i32⟩
  | 27 => ⟨S10000x128, .f32⟩
  | 28 => ⟨S_, .f32⟩
  | 29 => ⟨S160000, .f32⟩
  | 30 => ⟨S_, .f32⟩
  | 31 => ⟨S10000, .f32⟩
  | 32 => ⟨S160000x1, .i32⟩
  | 33 => ⟨S10000, .f32⟩
  | 34 => ⟨S_, .f32⟩
  | 35 => ⟨S10000, .f32⟩
  | 36 => ⟨S10000, .f32⟩
  | 37 => ⟨S10000x1, .f32⟩
  | 38 => ⟨S10000x128, .f32⟩
  | 39 => ⟨S10000x128, .f32⟩
  | 40 => ⟨S10000x256, .f32⟩
  | 41 => ⟨S10000x256, .f32⟩
  | 42 => ⟨S10000x256, .f32⟩
  | 43 => ⟨S1x256, .f32⟩
  | 44 => ⟨S10000x256, .f32⟩
  | 45 => ⟨S10000x256, .f32⟩
  | 46 => ⟨S_, .f32⟩
  | 47 => ⟨S10000x256, .f32⟩
  | 48 => ⟨S10000x256, .f32⟩
  | 49 => ⟨S1x160000, .i32⟩
  | 50 => ⟨S160000, .i32⟩
  | 51 => ⟨S1x160000, .i32⟩
  | 52 => ⟨S160000, .i32⟩
  | 53 => ⟨S_, .i32⟩
  | 54 => ⟨S160000, .i32⟩
  | 55 => ⟨S160000, .i1⟩
  | 56 => ⟨S_, .i32⟩
  | 57 => ⟨S160000, .i32⟩
  | 58 => ⟨S160000, .i32⟩
  | 59 => ⟨S160000, .i32⟩
  | 60 => ⟨S160000x1, .i32⟩
  | 61 => ⟨S160000x256, .f32⟩
  | 62 => ⟨S_, .f32⟩
  | 63 => ⟨S10000x256, .f32⟩
  | 64 => ⟨S160000x1, .i32⟩
  | 65 => ⟨S10000x256, .f32⟩
  | 66 => ⟨S_, .f32⟩
  | 67 => ⟨S160000, .f32⟩
  | 68 => ⟨S_, .f32⟩
  | 69 => ⟨S10000, .f32⟩
  | 70 => ⟨S160000x1, .i32⟩
  | 71 => ⟨S10000, .f32⟩
  | 72 => ⟨S_, .f32⟩
  | 73 => ⟨S10000, .f32⟩
  | 74 => ⟨S10000, .f32⟩
  | 75 => ⟨S10000x1, .f32⟩
  | 76 => ⟨S10000x256, .f32⟩
  | 77 => ⟨S10000x256, .f32⟩
  | 78 => ⟨S10000x1024, .f32⟩
  | 79 => ⟨S10000x1024, .f32⟩
  | 80 => ⟨S10000x1024, .f32⟩
  | 81 => ⟨S1x1024, .f32⟩
  | 82 => ⟨S10000x1024, .f32⟩
  | 83 => ⟨S10000x1024, .f32⟩
  | 84 => ⟨S_, .f32⟩
  | 85 => ⟨S10000x1024, .f32⟩
  | 86 => ⟨S10000x1024, .f32⟩
  | 87 => ⟨S1x160000, .i32⟩
  | 88 => ⟨S160000, .i32⟩
  | 89 => ⟨S1x160000, .i32⟩
  | 90 => ⟨S160000, .i32⟩
  | 91 => ⟨S_, .i32⟩
  | 92 => ⟨S160000, .i32⟩
  | 93 => ⟨S160000, .i1⟩
  | 94 => ⟨S_, .i32⟩
  | 95 => ⟨S160000, .i32⟩
  | 96 => ⟨S160000, .i32⟩
  | 97 => ⟨S160000, .i32⟩
  | 98 => ⟨S160000x1, .i32⟩
  | 99 => ⟨S160000x1024, .f32⟩
  | 100 => ⟨S_, .f32⟩
  | 101 => ⟨S10000x1024, .f32⟩
  | 102 => ⟨S160000x1, .i32⟩
  | 103 => ⟨S10000x1024, .f32⟩
  | 104 => ⟨S_, .f32⟩
  | 105 => ⟨S160000, .f32⟩
  | 106 => ⟨S_, .f32⟩
  | 107 => ⟨S10000, .f32⟩
  | 108 => ⟨S160000x1, .i32⟩
  | 109 => ⟨S10000, .f32⟩
  | 110 => ⟨S_, .f32⟩
  | 111 => ⟨S10000, .f32⟩
  | 112 => ⟨S10000, .f32⟩
  | 113 => ⟨S10000x1, .f32⟩
  | 114 => ⟨S10000x1024, .f32⟩
  | 115 => ⟨S10000x1024, .f32⟩
  | 116 => ⟨S10000x64, .f32⟩
  | 117 => ⟨S10000x64, .f32⟩
  | 118 => ⟨S10000x64, .f32⟩
  | 119 => ⟨S1x64, .f32⟩
  | 120 => ⟨S10000x64, .f32⟩
  | 121 => ⟨S10000x64, .f32⟩
  | 122 => ⟨S_, .f32⟩
  | 123 => ⟨S10000, .f32⟩
  | 124 => ⟨S_, .f32⟩
  | 125 => ⟨S10000, .f32⟩
  | 126 => ⟨S10000, .f32⟩
  | 127 => ⟨S10000x1, .f32⟩
  | _ => ⟨S10000x128, .f32⟩

abbrev hbmTy0_1 (i : Nat) : BufTy := match i % 128 with
  | 0 => ⟨S10000x64, .f32⟩
  | 1 => ⟨S10000x64, .f32⟩
  | 2 => ⟨S10000x64, .f32⟩
  | 3 => ⟨S_, .f32⟩
  | 4 => ⟨S10000, .f32⟩
  | 5 => ⟨S10000x1, .f32⟩
  | 6 => ⟨S10000x1, .f32⟩
  | 7 => ⟨S10000x64, .f32⟩
  | 8 => ⟨S10000x64, .f32⟩
  | _ => ⟨S10000x128, .f32⟩

abbrev hbmTy (i : Nat) : BufTy := match i / 128 with
  | 0 => hbmTy0_0 i
  | 1 => hbmTy0_1 i
  | _ => ⟨S10000x128, .f32⟩

abbrev bufTy : (tb : Table) → Fin (tcTables nBuf tb) → BufTy
  | .hbm, ⟨i, _⟩ => hbmTy i
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_call0_cst : Ref sig .tc := ⟨.hbm, 46, rfl⟩
abbrev main_call0_v0 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_4 : Ref sig .tc := ⟨.hbm, 53, rfl⟩
abbrev main_v34 : Ref sig .tc := ⟨.hbm, 54, rfl⟩
abbrev main_v35 : Ref sig .tc := ⟨.hbm, 55, rfl⟩
abbrev main_c_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_6 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_7 : Ref sig .tc := ⟨.hbm, 66, rfl⟩
abbrev main_v44 : Ref sig .tc := ⟨.hbm, 67, rfl⟩
abbrev main_cst_8 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_9 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_c_10 : Ref sig .tc := ⟨.hbm, 91, rfl⟩
abbrev main_v64 : Ref sig .tc := ⟨.hbm, 92, rfl⟩
abbrev main_v65 : Ref sig .tc := ⟨.hbm, 93, rfl⟩
abbrev main_c_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_12 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_13 : Ref sig .tc := ⟨.hbm, 104, rfl⟩
abbrev main_v74 : Ref sig .tc := ⟨.hbm, 105, rfl⟩
abbrev main_cst_14 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_15 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_call2_cst : Ref sig .tc := ⟨.hbm, 122, rfl⟩
abbrev main_call2_v0 : Ref sig .tc := ⟨.hbm, 123, rfl⟩
abbrev main_call2_cst_0 : Ref sig .tc := ⟨.hbm, 124, rfl⟩
abbrev main_call2_v1 : Ref sig .tc := ⟨.hbm, 125, rfl⟩
abbrev main_call2_v2 : Ref sig .tc := ⟨.hbm, 126, rfl⟩
abbrev main_call2_v3 : Ref sig .tc := ⟨.hbm, 127, rfl⟩
abbrev main_call2_v4 : Ref sig .tc := ⟨.hbm, 128, rfl⟩
abbrev main_call2_v5 : Ref sig .tc := ⟨.hbm, 129, rfl⟩
abbrev main_call2_v6 : Ref sig .tc := ⟨.hbm, 130, rfl⟩
abbrev main_call2_cst_1 : Ref sig .tc := ⟨.hbm, 131, rfl⟩
abbrev main_call2_v7 : Ref sig .tc := ⟨.hbm, 132, rfl⟩
abbrev main_call2_v8 : Ref sig .tc := ⟨.hbm, 133, rfl⟩
abbrev main_call2_v9 : Ref sig .tc := ⟨.hbm, 134, rfl⟩
abbrev main_call2_v10 : Ref sig .tc := ⟨.hbm, 135, rfl⟩
abbrev main_v89 : Ref sig .tc := ⟨.hbm, 136, rfl⟩

abbrev nD : Nat := 1
abbrev τ : Topo := Topo.v7x

variable {F : FTy → Type} [FloatOps F]

class Facts₀ : Prop where
  slices_S2x160000_S1x160000_0_0 : S2x160000.Slices ![0, 0] S1x160000
  shapeCasts_S1x160000_S160000 : S1x160000.ShapeCasts S160000
  slices_S2x160000_S1x160000_1_0 : S2x160000.Slices ![1, 0] S1x160000
  bcast_S_S160000 : S_.BroadcastsInDim S160000 (![] : Fin 0 → Fin S160000.rank)
  bcast_S160000_S160000x1_0 : S160000.BroadcastsInDim S160000x1 (![0] : Fin 1 → Fin S160000x1.rank)
  bcast_S_S10000x128 : S_.BroadcastsInDim S10000x128 (![] : Fin 0 → Fin S10000x128.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S10000x256 : S_.BroadcastsInDim S10000x256 (![] : Fin 0 → Fin S10000x256.rank)
  bcast_S10000x1_S10000x256_0_1 : S10000x1.BroadcastsInDim S10000x256 (![0, 1] : Fin 2 → Fin S10000x256.rank)
  bcast_S1024_S1x1024_1 : S1024.BroadcastsInDim S1x1024 (![1] : Fin 1 → Fin S1x1024.rank)
  bcast_S1x1024_S10000x1024_0_1 : S1x1024.BroadcastsInDim S10000x1024 (![0, 1] : Fin 2 → Fin S10000x1024.rank)
  bcast_S_S10000x1024 : S_.BroadcastsInDim S10000x1024 (![] : Fin 0 → Fin S10000x1024.rank)
  bcast_S10000x1_S10000x1024_0_1 : S10000x1.BroadcastsInDim S10000x1024 (![0, 1] : Fin 2 → Fin S10000x1024.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  reducesTo_S10000x64_S10000_d1 : S10000x64.ReducesTo [1] S10000
  h_S_ : 0 < S_.numel
  bcast_S10000x1_S10000x64_0_1 : S10000x1.BroadcastsInDim S10000x64 (![0, 1] : Fin 2 → Fin S10000x64.rank)
  gather_S10000x128_S160000x1_S160000x128_1_0_n_n_0_1_1128_wf : GatherDims.WF S10000x128 S160000x1 S160000x128 [1] [0] [] [0] [] 1 ![1, 128]
  scatter_S10000x128_S160000x1_S160000x128_1_0_0_1_wf : ScatterDims.WF S10000x128 S160000x1 S160000x128 [1] [0] [0] 1
  scatter_S10000_S160000x1_S160000_n_0_0_1_wf : ScatterDims.WF S10000 S160000x1 S160000 [] [0] [0] 1
  dot_S10000x128_S128x256_S10000x256_1_0_0_1_n_n_wf : DotDims.WF S10000x128 S128x256 S10000x256 [1] [0] [0] [1] [] []
  gather_S10000x256_S160000x1_S160000x256_1_0_n_n_0_1_1256_wf : GatherDims.WF S10000x256 S160000x1 S160000x256 [1] [0] [] [0] [] 1 ![1, 256]
  scatter_S10000x256_S160000x1_S160000x256_1_0_0_1_wf : ScatterDims.WF S10000x256 S160000x1 S160000x256 [1] [0] [0] 1
  dot_S10000x256_S256x1024_S10000x1024_1_0_0_1_n_n_wf : DotDims.WF S10000x256 S256x1024 S10000x1024 [1] [0] [0] [1] [] []
  gather_S10000x1024_S160000x1_S160000x1024_1_0_n_n_0_1_11024_wf : GatherDims.WF S10000x1024 S160000x1 S160000x1024 [1] [0] [] [0] [] 1 ![1, 1024]
  scatter_S10000x1024_S160000x1_S160000x1024_1_0_0_1_wf : ScatterDims.WF S10000x1024 S160000x1 S160000x1024 [1] [0] [0] 1
  dot_S10000x1024_S1024x64_S10000x64_1_0_0_1_n_n_wf : DotDims.WF S10000x1024 S1024x64 S10000x64 [1] [0] [0] [1] [] []

variable [Facts₀]

def gather_S10000x128_S160000x1_S160000x128_1_0_n_n_0_1_1128 : GatherDims S10000x128 S160000x1 S160000x128 where
  offsetDims := [1]
  collapsedSliceDims := [0]
  operandBatchingDims := []
  startIndicesBatchingDims := []
  startIndexMap := [0]
  indexVectorDim := 1
  sliceSizes := ![1, 128]
  wf := gather_S10000x128_S160000x1_S160000x128_1_0_n_n_0_1_1128_wf
def scatter_S10000x128_S160000x1_S160000x128_1_0_0_1 : ScatterDims S10000x128 S160000x1 S160000x128 where
  updateWindowDims := [1]
  insertedWindowDims := [0]
  scatterDimsToOperandDims := [0]
  indexVectorDim := 1
  wf := scatter_S10000x128_S160000x1_S160000x128_1_0_0_1_wf
def scatter_S10000_S160000x1_S160000_n_0_0_1 : ScatterDims S10000 S160000x1 S160000 where
  updateWindowDims := []
  insertedWindowDims := [0]
  scatterDimsToOperandDims := [0]
  indexVectorDim := 1
  wf := scatter_S10000_S160000x1_S160000_n_0_0_1_wf
def dot_S10000x128_S128x256_S10000x256_1_0_0_1_n_n : DotDims S10000x128 S128x256 S10000x256 where
  lhsContracting := [1]
  rhsContracting := [0]
  lhsNonContracting := [0]
  rhsNonContracting := [1]
  lhsBatch := []
  rhsBatch := []
  wf := dot_S10000x128_S128x256_S10000x256_1_0_0_1_n_n_wf
def gather_S10000x256_S160000x1_S160000x256_1_0_n_n_0_1_1256 : GatherDims S10000x256 S160000x1 S160000x256 where
  offsetDims := [1]
  collapsedSliceDims := [0]
  operandBatchingDims := []
  startIndicesBatchingDims := []
  startIndexMap := [0]
  indexVectorDim := 1
  sliceSizes := ![1, 256]
  wf := gather_S10000x256_S160000x1_S160000x256_1_0_n_n_0_1_1256_wf
def scatter_S10000x256_S160000x1_S160000x256_1_0_0_1 : ScatterDims S10000x256 S160000x1 S160000x256 where
  updateWindowDims := [1]
  insertedWindowDims := [0]
  scatterDimsToOperandDims := [0]
  indexVectorDim := 1
  wf := scatter_S10000x256_S160000x1_S160000x256_1_0_0_1_wf
def dot_S10000x256_S256x1024_S10000x1024_1_0_0_1_n_n : DotDims S10000x256 S256x1024 S10000x1024 where
  lhsContracting := [1]
  rhsContracting := [0]
  lhsNonContracting := [0]
  rhsNonContracting := [1]
  lhsBatch := []
  rhsBatch := []
  wf := dot_S10000x256_S256x1024_S10000x1024_1_0_0_1_n_n_wf
def gather_S10000x1024_S160000x1_S160000x1024_1_0_n_n_0_1_11024 : GatherDims S10000x1024 S160000x1 S160000x1024 where
  offsetDims := [1]
  collapsedSliceDims := [0]
  operandBatchingDims := []
  startIndicesBatchingDims := []
  startIndexMap := [0]
  indexVectorDim := 1
  sliceSizes := ![1, 1024]
  wf := gather_S10000x1024_S160000x1_S160000x1024_1_0_n_n_0_1_11024_wf
def scatter_S10000x1024_S160000x1_S160000x1024_1_0_0_1 : ScatterDims S10000x1024 S160000x1 S160000x1024 where
  updateWindowDims := [1]
  insertedWindowDims := [0]
  scatterDimsToOperandDims := [0]
  indexVectorDim := 1
  wf := scatter_S10000x1024_S160000x1_S160000x1024_1_0_0_1_wf
def dot_S10000x1024_S1024x64_S10000x64_1_0_0_1_n_n : DotDims S10000x1024 S1024x64 S10000x64 where
  lhsContracting := [1]
  rhsContracting := [0]
  lhsNonContracting := [0]
  rhsNonContracting := [1]
  lhsBatch := []
  rhsBatch := []
  wf := dot_S10000x1024_S1024x64_S10000x64_1_0_0_1_n_n_wf

class Facts : Prop extends Facts₀ where

variable [Facts]
-- ==== Proof.K.Agg0.lean ====
/- The frame half of region 0 (custom_call 0, the aggregation kernel `cc0__agg_kernel`, pipeline `cfg0`, 40 grid
   points, k = t mod 8), generic in the float family and at a PARAMETER `V`: the TensorCore's buffer contents when the
   region is entered. The kernel carries a scratch accumulator between points: it is reset at the first point of each
   group of eight (k = 0), updated at every point by the product of the two input blocks, and stored into the output
   block at the last point of the group (k = 7); at the other points the output window is idle and not written back.
   The module states what the scratch holds after each point (`acc0`, with `acc0_reset` / `acc0_step`), what the
   output's staging buffer holds after a storing point (`after0_2_store`), the proof data `dat0`, the body obligation
   and the passage of the region invariant in and out. -/
import proofs.«427327_j68599217652368_1_alg».proof.Proof.Gen.Kernel.Launch
import proofs.«427327_j68599217652368_1_alg».proof.Proof.Gen.Kernel.Skeleton
import proofs.«427327_j68599217652368_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the store of the accumulator into the output block). -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A the output window 2 is idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the output window 2 is idle. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the output window 2 is live: the case stores into it. -/
theorem liveAt0_2_C : ∀ t : Fin cfg0.N, ¬cond0_0 (grid0.coords t) → cond0_1 (grid0.coords t) → cfg0.idle 2 (grid0.coords t) = false := by decide +kernel

/-! ## The kernel body on any staging memrefs -/

/-- One staging buffer of output window 2, through which its contents are stated (the choice does not matter). -/
abbrev VO0_2 : View sig .tc .vmem S2048x128 .f32 := (Memref.whole cc0_stg2_0 : Memref sig .tc .vmem S2048x128 .f32).view
/-- Each window's current staging memref at point `t`, spelled as the pipeline passes it, and its wholeness. -/
abbrev ms0_0 (t : Fin cfg0.N) : Memref sig .tc .vmem S2048x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S2048x128 .f32 := Memref.whole cc0_scratch0
/-- The scratch the kernel carries between points, as a view: what it holds is stated through it. -/
abbrev VS0_0 : View sig .tc .vmem S2048x128 .f32 := scM0_0.view

/-- Every other scoped buffer of the core (the other calls' staging buffers and scratch), unopened: carried along
    unchanged at every point. -/
abbrev rest0 (c : Dev nD) : sProp 𝕄 :=
  Pipeline.scopedRestBut (Ix := Unit) (Name := ℕ) (U := UR sig nD τ) (Lvl := ℕ) (Val := Elt F) spec0 c [cc0_scratch0]

/-- The class's invariant with the scratch operand as a memref owned at some contents: what the body obligation
    hands the run and takes back. -/
theorem PhiA0_eq (c : Dev nD) :
    (Pipeline.ΦA spec0 c : sProp 𝕄)
      = iprop(iprop(iprop((∃ d, owns (c : Thread nD τ) scM0_0 fullShare d)) ∗ rest0 (F := F) c) ∗ (∃ r, prngReg c r)) := by
  unfold Pipeline.ΦA; rw [scopedRest0_split]; simp only [scM0_0, owns_whole]; try rfl

-- (the run's proof term is large: the definition's epilogue walks it past the default budget)
set_option maxHeartbeats 1000000 in
/-- What the body's stores leave in the output's staging memref and in the scratch, as pieces (last first), IN CASE A (the reset
    taken, the output store not taken: the points ≡ 0 mod 8), WITH the proof that on whole memrefs — the inputs' at their contents,
    the output's (idle: no store) at contents `xi2` handed back untouched, the scratch at anything — the body runs to the
    continuation holding the inputs' and the output's as they were and the scratch with its pieces written. The pieces are the
    witness the run finds. -/
noncomputable def kernelRun0_A (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__agg_kernel i arg2 harg2 arg3 harg3 arg4 harg4 arg5 harg5) K } := by
  refine ⟨[], ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE B (neither conditional taken: the points ≢ 0, 7 mod 8), the scratch entered at the contents the point
    before left (`xs0`). -/
noncomputable def kernelRun0_B (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__agg_kernel i arg2 harg2 arg3 harg3 arg4 harg4 arg5 harg5) K } := by
  refine ⟨[], ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE C (the reset not taken, the output store taken: the points ≡ 7 mod 8), the scratch entered at the contents
    the point before left (`xs0`), the output's memref at anything and left with its pieces written. -/
noncomputable def kernelRun0_C (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__agg_kernel i arg2 harg2 arg3 harg3 arg4 harg4 arg5 harg5) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- Case A stores nothing into output 2 (the window is idle at its points and not written back there): no pieces — a
    placeholder (junk read back) that nothing consults. -/
def out0_A_2 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) : Vec F S2048x128 .f32 :=
  VO0_2.read (Elt F) (VO0_2.writes (Elt F) VO0_2.junk (kernelRun0_A c i arg2 harg2 arg3 harg3 arg4 harg4 arg5 harg5 hc0 hc1 x0 x1).1)

/-- Case A's pieces for the scratch, which the kernel carries between points, cover it. -/
theorem scover0_A_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) (y : S2048x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x128.size (by sl_kernel_rfl) y

/-- What case A leaves in the scratch: its pieces read back over junk. -/
def sout0_A_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) : Vec F S2048x128 .f32 :=
  VS0_0.read (Elt F) (VS0_0.writes (Elt F) VS0_0.junk (kernelRun0_A c i arg2 harg2 arg3 harg3 arg4 harg4 arg5 harg5 hc0 hc1 x0 x1).2.1)

/-- Case B stores nothing into output 2 (the window is idle at its points and not written back there): no pieces — a
    placeholder (junk read back) that nothing consults. -/
def out0_B_2 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) : Vec F S2048x128 .f32 :=
  VO0_2.read (Elt F) (VO0_2.writes (Elt F) VO0_2.junk (kernelRun0_B c i arg2 harg2 arg3 harg3 arg4 harg4 arg5 harg5 hc0 hc1 x0 x1 xs0).1)

/-- Case B's pieces for the scratch, which the kernel carries between points, cover it. -/
theorem scover0_B_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) (y : S2048x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x128.size (by sl_kernel_rfl) y

/-- What case B leaves in the scratch: its pieces read back over junk. -/
def sout0_B_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) : Vec F S2048x128 .f32 :=
  VS0_0.read (Elt F) (VS0_0.writes (Elt F) VS0_0.junk (kernelRun0_B c i arg2 harg2 arg3 harg3 arg4 harg4 arg5 harg5 hc0 hc1 x0 x1 xs0).2.1)

/-- Case C's pieces for output 2 tile its block (one store of the whole block), so they cover it. -/
theorem cover0_C_2 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) (y : S2048x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x128.size (by sl_kernel_rfl) y

/-- What case C leaves in output 2's staging buffer: its pieces read back over junk. -/
def out0_C_2 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) : Vec F S2048x128 .f32 :=
  VO0_2.read (Elt F) (VO0_2.writes (Elt F) VO0_2.junk (kernelRun0_C c i arg2 harg2 arg3 harg3 arg4 harg4 arg5 harg5 hc0 hc1 x0 x1 xs0).1)

/-- Case C's pieces for the scratch, which the kernel carries between points, cover it. -/
theorem scover0_C_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y

/-- What case C leaves in the scratch: its pieces read back over junk. -/
def sout0_C_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) : Vec F S2048x128 .f32 :=
  VS0_0.read (Elt F) (VS0_0.writes (Elt F) VS0_0.junk (kernelRun0_C c i arg2 harg2 arg3 harg3 arg4 harg4 arg5 harg5 hc0 hc1 x0 x1 xs0).2.1)

/-! ## The found pieces, in the payloads -/

/-- Case B leaves the scratch at the update of what it held by the point's blocks. -/
theorem sout0_B_0_eq (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) :
    sout0_B_0 c i arg2 harg2 arg3 harg3 arg4 harg4 arg5 harg5 hc0 hc1 x0 x1 xs0 = k0_pay2 x0 x1 xs0 := by
  have hz : (![0, 0] : Fin S2048x128.rank → Nat) = fun _ => 0 := by funext a; fin_cases a <;> rfl
  have hz0 : (![0, 0] : Fin S2048x1280.rank → Nat) = fun _ => 0 := by funext a; fin_cases a <;> rfl
  have hz1 : (![0, 0] : Fin S1280x128.rank → Nat) = fun _ => 0 := by funext a; fin_cases a <;> rfl
  unfold sout0_B_0
  rw [View.read_writes_eq_canon _ _ _ (scover0_B_0 c i arg2 harg2 arg3 harg3 arg4 harg4 arg5 harg5 hc0 hc1 x0 x1 xs0)]
  unfold kernelRun0_B; dsimp only
  sl_unfold_words
  rw [View.canon_unit_zero (S := S2048x128) hz]
  simp only [View.readAt_eq_ld, harg2.read_unread, harg3.read_unread, harg5.read_unread,
    View.ld_unit_zero (S := S2048x1280) hz0, View.ld_unit_zero (S := S1280x128) hz1, View.ld_unit_zero (S := S2048x128) hz,
    View.readCov_unit_zero (S := S2048x128) _ hz]

/-- Case A leaves the scratch at the update of the zero accumulator by the point's blocks: the reset, then the update
    read back over it. -/
theorem sout0_A_0_eq (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) :
    sout0_A_0 c i arg2 harg2 arg3 harg3 arg4 harg4 arg5 harg5 hc0 hc1 x0 x1 = k0_pay2 x0 x1 (k0_pay1 (F := F)) := by
  have hz : (![0, 0] : Fin S2048x128.rank → Nat) = fun _ => 0 := by funext a; fin_cases a <;> rfl
  have hz0 : (![0, 0] : Fin S2048x1280.rank → Nat) = fun _ => 0 := by funext a; fin_cases a <;> rfl
  have hz1 : (![0, 0] : Fin S1280x128.rank → Nat) = fun _ => 0 := by funext a; fin_cases a <;> rfl
  unfold sout0_A_0
  rw [View.read_writes_eq_canon _ _ _ (scover0_A_0 c i arg2 harg2 arg3 harg3 arg4 harg4 arg5 harg5 hc0 hc1 x0 x1)]
  unfold kernelRun0_A; dsimp only
  sl_unfold_words
  rw [View.canon_cons_unit_zero (S := S2048x128) hz]
  simp only [View.readAt_eq_ld, harg2.read_unread, harg3.read_unread, harg5.read_unread,
    View.ld_unit_zero (S := S2048x1280) hz0, View.ld_unit_zero (S := S1280x128) hz1, View.ld_unit_zero (S := S2048x128) hz,
    View.readCov_unit_zero (S := S2048x128) _ hz]

/-- Case C leaves the scratch at the update of what it held by the point's blocks. -/
theorem sout0_C_0_eq (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) :
    sout0_C_0 c i arg2 harg2 arg3 harg3 arg4 harg4 arg5 harg5 hc0 hc1 x0 x1 xs0 = k0_pay2 x0 x1 xs0 := by
  have hz : (![0, 0] : Fin S2048x128.rank → Nat) = fun _ => 0 := by funext a; fin_cases a <;> rfl
  have hz0 : (![0, 0] : Fin S2048x1280.rank → Nat) = fun _ => 0 := by funext a; fin_cases a <;> rfl
  have hz1 : (![0, 0] : Fin S1280x128.rank → Nat) = fun _ => 0 := by funext a; fin_cases a <;> rfl
  unfold sout0_C_0
  rw [View.read_writes_eq_canon _ _ _ (scover0_C_0 c i arg2 harg2 arg3 harg3 arg4 harg4 arg5 harg5 hc0 hc1 x0 x1 xs0)]
  unfold kernelRun0_C; dsimp only
  sl_unfold_words
  rw [View.canon_unit_zero (S := S2048x128) hz]
  simp only [View.readAt_eq_ld, harg2.read_unread, harg3.read_unread, harg5.read_unread,
    View.ld_unit_zero (S := S2048x1280) hz0, View.ld_unit_zero (S := S1280x128) hz1, View.ld_unit_zero (S := S2048x128) hz,
    View.readCov_unit_zero (S := S2048x128) _ hz]

/-- Case C leaves the output's staging buffer at what it has just put in the scratch. -/
theorem out0_C_2_eq (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) :
    out0_C_2 c i arg2 harg2 arg3 harg3 arg4 harg4 arg5 harg5 hc0 hc1 x0 x1 xs0 = k0_pay2 x0 x1 xs0 := by
  have hz : (![0, 0] : Fin S2048x128.rank → Nat) = fun _ => 0 := by funext a; fin_cases a <;> rfl
  have hz0 : (![0, 0] : Fin S2048x1280.rank → Nat) = fun _ => 0 := by funext a; fin_cases a <;> rfl
  have hz1 : (![0, 0] : Fin S1280x128.rank → Nat) = fun _ => 0 := by funext a; fin_cases a <;> rfl
  unfold out0_C_2
  rw [View.read_writes_eq_canon _ _ _ (cover0_C_2 c i arg2 harg2 arg3 harg3 arg4 harg4 arg5 harg5 hc0 hc1 x0 x1 xs0)]
  unfold kernelRun0_C; dsimp only
  sl_unfold_words
  rw [View.canon_unit_zero (S := S2048x128) hz]
  simp only [View.readAt_eq_ld, harg2.read_unread, harg3.read_unread, harg5.read_unread,
    View.ld_unit_zero (S := S2048x1280) hz0, View.ld_unit_zero (S := S1280x128) hz1, View.ld_unit_zero (S := S2048x128) hz,
    View.readCov_unit_zero (S := S2048x128) _ hz]

/-! ## What the output and the scratch hold after each point -/

/-- THE ACCUMULATION. What output 2's staging buffer and the scratch hold after the body at position `n` (a pair: the
    output, then the scratch): the case the closed forms select at `n`, run at the point's memrefs and input blocks, the
    scratch entered at what this leaves at `n - 1`. -/
def outsAt0 (c : Dev nD) : (n : ℕ) → n < cfg0.N → Vec F S2048x128 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the scratch holds after point `n`. -/
def acc0 (c : Dev nD) : (n : ℕ) → n < cfg0.N → Vec F S2048x128 .f32 := fun n hn => (outsAt0 V c n hn).2

/-- The region invariant before position `n`: before the first point the class's (the scratch at anything); afterwards
    the scratch at what the point before left in it, every other scoped buffer unopened, and the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; so that
    case's run applies; the invariant hands the body the carried scratch at what the point before left (at anything at the
    first point) and takes it back at this point's contents; every other scoped buffer, the generator register and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _)
            iexact Hr
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hr⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, Hr⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out V c _ (by rw [Fin.val_last]; have : cfg0.N = 40 := N_0; omega)

/-! ## What the scratch and the output hold, in the payloads -/

theorem acc0_eq (c : Dev nD) (n : ℕ) (hn : n < cfg0.N) : acc0 V c n hn = (outsAt0 V c n hn).2 := rfl

/-- At the first point of a group the scratch ends at the update of the zero accumulator by the point's blocks. -/
theorem acc0_reset (c : Dev nD) (t : Fin cfg0.N) (h : t.val % 8 = 0) :
    acc0 V c t.val t.isLt = k0_pay2 (iblk0 V c 0 t) (iblk0 V c 1 t) (k0_pay1 (F := F)) := by
  have h1 : ¬t.val % 8 = 7 := by omega
  rw [acc0_eq, outsAt0_A V c t h h1]; dsimp only
  exact sout0_A_0_eq c (grid0.coords t) (ms0_0 t) (hs0_0 t) (ms0_1 t) (hs0_1 t) (ms0_2 t) (hs0_2 t) scM0_0 (Memref.isWhole_whole _) ((hcond0_0 t).mpr h) (fun h' => h1 ((hcond0_1 t).mp h')) (iblk0 V c 0 t) (iblk0 V c 1 t)

/-- At any other point it ends at the update of what the point before left. -/
theorem acc0_step (c : Dev nD) (t : Fin cfg0.N) (h : t.val % 8 ≠ 0) :
    acc0 V c t.val t.isLt = k0_pay2 (iblk0 V c 0 t) (iblk0 V c 1 t) (acc0 V c (t.val - 1) (Nat.lt_of_le_of_lt (Nat.sub_le _ _) t.isLt)) := by
  rw [acc0_eq V c (t.val - 1), acc0_eq V c t.val]
  by_cases h1 : t.val % 8 = 7
  · rw [outsAt0_C V c t h h1]; dsimp only
    exact sout0_C_0_eq c (grid0.coords t) (ms0_0 t) (hs0_0 t) (ms0_1 t) (hs0_1 t) (ms0_2 t) (hs0_2 t) scM0_0 (Memref.isWhole_whole _) (fun h' => h ((hcond0_0 t).mp h')) ((hcond0_1 t).mpr h1) (iblk0 V c 0 t) (iblk0 V c 1 t) (outsAt0 V c (t.val - 1) (Nat.lt_of_le_of_lt (Nat.sub_le _ _) t.isLt)).2
  · rw [outsAt0_B V c t h h1]; dsimp only
    exact sout0_B_0_eq c (grid0.coords t) (ms0_0 t) (hs0_0 t) (ms0_1 t) (hs0_1 t) (ms0_2 t) (hs0_2 t) scM0_0 (Memref.isWhole_whole _) (fun h' => h ((hcond0_0 t).mp h')) (fun h' => h1 ((hcond0_1 t).mp h')) (iblk0 V c 0 t) (iblk0 V c 1 t) (outsAt0 V c (t.val - 1) (Nat.lt_of_le_of_lt (Nat.sub_le _ _) t.isLt)).2

/-- At the last point of a group the output's staging buffer is left at what the scratch ends at. -/
theorem after0_2_store (c : Dev nD) (t : Fin cfg0.N) (h : t.val % 8 = 7) : (dat0 V c).after 2 t = acc0 V c t.val t.isLt := by
  have h0 : ¬t.val % 8 = 0 := by omega
  rw [after0_2, acc0_eq, outsAt0_C V c t h0 h]; dsimp only
  exact (out0_C_2_eq c (grid0.coords t) (ms0_0 t) (hs0_0 t) (ms0_1 t) (hs0_1 t) (ms0_2 t) (hs0_2 t) scM0_0 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2).trans
    (sout0_C_0_eq c (grid0.coords t) (ms0_0 t) (hs0_0 t) (ms0_1 t) (hs0_1 t) (ms0_2 t) (hs0_2 t) scM0_0 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2).symm

/-- The shares are full and nothing is owed, by definition. -/
example (c : Dev nD) (w : Fin cfg0.W) : (dat0 V c).q w = fullShare := rfl
example (c : Dev nD) (t : Fin (cfg0.N + 1)) : (dat0 V c).owed t = 0 := rfl

end Cert.Kernel.Hand

end
-- ==== Proof.K.Lin1.lean ====
import proofs.«427327_j68599217652368_1_alg».proof.Proof.Gen.Kernel.Launch
import proofs.«427327_j68599217652368_1_alg».proof.Proof.Gen.Kernel.Skeleton
import proofs.«427327_j68599217652368_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The linear layer's pipeline (custom_call 1): its frame half, at any float family

The region runs a grid of `cfg1.N` points. At a point the body reads five input windows whole — a block
of the aggregated features, the matching block of the layer's input, the two weight matrices and the bias —
and writes one output window whole: the payload `k1_pay1` of the five values read. The body also reads the
output buffer before it overwrites it; the value read is not used, so the buffer may hold anything.

Everything is stated at a parameter `V`: the buffer contents of the core when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- Every access of the body is through the whole-shape rectangle at offset zero of its buffer. -/
abbrev r1_0 : Rect S2048x128 := Rect.unit (s := S2048x128) ![0, 0] S2048x128.size inb_S2048x128_S2048x128_0_0
abbrev r1_2 : Rect S128x256 := Rect.unit (s := S128x256) ![0, 0] S128x256.size inb_S128x256_S128x256_0_0
abbrev r1_4 : Rect S1x256 := Rect.unit (s := S1x256) ![0, 0] S1x256.size inb_S1x256_S1x256_0_0
abbrev r1_5 : Rect S2048x256 := Rect.unit (s := S2048x256) ![0, 0] S2048x256.size inb_S2048x256_S2048x256_0_0

/-- The offsets of those rectangles are zero on both axes. -/
theorem zeros1 : (![0, 0] : Fin 2 → Nat) = fun _ => 0 := funext fun a => by fin_cases a <;> rfl

/-! ## What the body leaves in the output window's buffer -/

/-- Window 5's staging buffer after the body, from the five values read: its one store, which covers the
    buffer, as a single piece. -/
def out1_5 (x0 : Vec F S2048x128 .f32) (x1 : Vec F S2048x128 .f32) (x2 : Vec F S128x256 .f32) (x3 : Vec F S128x256 .f32)
    (x4 : Vec F S1x256 .f32) : Vec F S2048x256 .f32 :=
  View.canon [⟨r1_5, k1_pay1 (View.ld x0 r1_0) (View.ld x1 r1_0) (View.ld x2 r1_2) (View.ld x3 r1_2) (View.ld x4 r1_4)⟩]

/-- Its store tiles the buffer, so it covers it. -/
theorem cover1_5 (p0 : Vec F S2048x256 .f32) (y : S2048x256.Idx) :
    ∃ pc ∈ ([⟨r1_5, p0⟩] : List (View.Piece (Elt F) S2048x256 .f32)), y ∈ pc.1.set :=
  ⟨_, List.mem_singleton_self _, View.mem_set_unit_zero zeros1 inb_S2048x256_S2048x256_0_0 y⟩

/-! ## The pipeline's proof data -/

/-- The proof data of the pipeline on core `c`: the arrays as the region finds them (`V`); after the body at
    point `t` each input's buffer at its block and the output's at `out1_5` of the input blocks; the invariant
    keeps the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

example (c : Dev nD) (t) : (dat1 V c).Φ t = Pipeline.ΦA spec1 c := rfl
example (c : Dev nD) (w) : (dat1 V c).q w = fullShare := rfl
example (c : Dev nD) (w) : (dat1 V c).owed w = 0 := rfl

/-- The output window after the body at a point: the payload of the five input blocks there. -/
theorem after1_5 (c : Dev nD) (t : Fin cfg1.N) : (dat1 V c).after 5 t = k1_pay1 (iblk1 V c 0 t) (iblk1 V c 1 t) (iblk1 V c 2 t) (iblk1 V c 3 t) (iblk1 V c 4 t) := by
  dsimp only [dat1]
  unfold out1_5
  rw [View.canon_unit_zero zeros1]
  simp only [View.ld_unit_zero (S := S2048x128) zeros1, View.ld_unit_zero (S := S128x256) zeros1,
    View.ld_unit_zero (S := S1x256) zeros1]

/-! ## What the body finds in each input window's buffer -/

/-- Input window 0's current staging buffer holds its block at every point, fetched there or not, for any proof
    data whose array is `V`'s (`hA`) and whose body leaves the block in place (`hafter`): where the window is not
    fetched its block index has not moved, so the block of the point before is this point's. The window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the block of the point before is this point's. The window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, so the block of the point before is this point's. The window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, so the block of the point before is this point's. The window is uncut
    and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, so the block of the point before is this point's. The window is uncut
    and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The kernel body on whole staging memrefs, the inputs' at read contents and the output's at anything, runs to
    the continuation holding the inputs' as they were and the output's at `out1_5` of the inputs': the printed
    function is its skeleton of memory operations, run one operation at a time. The load of the output buffer
    reads whatever it holds; its value goes nowhere. -/
theorem sound_kernel1 (c : Dev nD) (E : Set ℕ) (i : grid1.Coords)
    (arg1 : Memref sig .tc .vmem S2048x128 .f32) (harg1 : arg1.IsWhole) (arg2 : Memref sig .tc .vmem S2048x128 .f32) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S2048x256 .f32) (harg6 : arg6.IsWhole)
    (x0 : Vec F S2048x128 .f32) (x1 : Vec F S2048x128 .f32) (x2 : Vec F S128x256 .f32) (x3 : Vec F S128x256 .f32) (x4 : Vec F S1x256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__linear_kernel i arg1 harg1 arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data's fields, window by window -/

/-- What the body leaves in each input window's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- The output window's buffer after the body, as one store over the input blocks. -/
theorem after1_5_out (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's owed amounts, and each window's current
    staging buffer at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's owed amounts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5_out]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Agg2.lean ====
/- The frame half of region 0 (custom_call 0, the aggregation kernel `cc2__agg_kernel`, pipeline `cfg2`, 40 grid
   points, k = t mod 8), generic in the float family and at a PARAMETER `V`: the TensorCore's buffer contents when the
   region is entered. The kernel carries a scratch accumulator between points: it is reset at the first point of each
   group of eight (k = 0), updated at every point by the product of the two input blocks, and stored into the output
   block at the last point of the group (k = 7); at the other points the output window is idle and not written back.
   The module states what the scratch holds after each point (`acc2`, with `acc2_reset` / `acc2_step`), what the
   output's staging buffer holds after a storing point (`after2_2_store`), the proof data `dat2`, the body obligation
   and the passage of the region invariant in and out. -/
import proofs.«427327_j68599217652368_1_alg».proof.Proof.Gen.Kernel.Launch
import proofs.«427327_j68599217652368_1_alg».proof.Proof.Gen.Kernel.Skeleton
import proofs.«427327_j68599217652368_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): the window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reset of the accumulator), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second conditional (the store of the accumulator into the output block). -/
abbrev cond2_1 (i : grid2.Coords) : Prop := k2_cond2 i = 1#1
/-- It holds at the points ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Windows 0 and 1 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
/-- At the points of case A the output window 2 is idle: the case stores nothing into it. -/
theorem idleAt2_2_A : ∀ t : Fin cfg2.N, cond2_0 (grid2.coords t) → ¬cond2_1 (grid2.coords t) → cfg2.idle 2 (grid2.coords t) = true := by decide +kernel
/-- At the points of case A the pipeline does not write output 2's block back. -/
theorem noFlush2_2_A : ∀ t : Fin cfg2.N, cond2_0 (grid2.coords t) → ¬cond2_1 (grid2.coords t) → (cfg2.win 2).flush t = false := by decide +kernel
/-- At the points of case B the output window 2 is idle. -/
theorem idleAt2_2_B : ∀ t : Fin cfg2.N, ¬cond2_0 (grid2.coords t) → ¬cond2_1 (grid2.coords t) → cfg2.idle 2 (grid2.coords t) = true := by decide +kernel
/-- At the points of case B the pipeline does not write output 2's block back. -/
theorem noFlush2_2_B : ∀ t : Fin cfg2.N, ¬cond2_0 (grid2.coords t) → ¬cond2_1 (grid2.coords t) → (cfg2.win 2).flush t = false := by decide +kernel
/-- At the points of case C the output window 2 is live: the case stores into it. -/
theorem liveAt2_2_C : ∀ t : Fin cfg2.N, ¬cond2_0 (grid2.coords t) → cond2_1 (grid2.coords t) → cfg2.idle 2 (grid2.coords t) = false := by decide +kernel

/-! ## The kernel body on any staging memrefs -/

/-- One staging buffer of output window 2, through which its contents are stated (the choice does not matter). -/
abbrev VO2_2 : View sig .tc .vmem S2048x256 .f32 := (Memref.whole cc2_stg2_0 : Memref sig .tc .vmem S2048x256 .f32).view
/-- Each window's current staging memref at point `t`, spelled as the pipeline passes it, and its wholeness. -/
abbrev ms2_0 (t : Fin cfg2.N) : Memref sig .tc .vmem S2048x1280 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1280x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
/-- The scratch operand: a whole scoped buffer of the kernel's own, passed beside the windows. -/
abbrev scM2_0 : Memref sig .tc .vmem S2048x256 .f32 := Memref.whole cc2_scratch0
/-- The scratch the kernel carries between points, as a view: what it holds is stated through it. -/
abbrev VS2_0 : View sig .tc .vmem S2048x256 .f32 := scM2_0.view

/-- Every other scoped buffer of the core (the other calls' staging buffers and scratch), unopened: carried along
    unchanged at every point. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the scratch operand as a memref owned at some contents: what the body obligation
    hands the run and takes back. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

-- (the run's proof term is large: the definition's epilogue walks it past the default budget)
set_option maxHeartbeats 1000000 in
/-- What the body's stores leave in the output's staging memref and in the scratch, as pieces (last first), IN CASE A (the reset
    taken, the output store not taken: the points ≡ 0 mod 8), WITH the proof that on whole memrefs — the inputs' at their contents,
    the output's (idle: no store) at contents `xi2` handed back untouched, the scratch at anything — the body runs to the
    continuation holding the inputs' and the output's as they were and the scratch with its pieces written. The pieces are the
    witness the run finds. -/
noncomputable def kernelRun2_A (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) :
    Σ' (L2 : List (View.Piece (Elt F) S2048x256 .f32)), { LS0 : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__agg_kernel i arg2 harg2 arg3 harg3 arg4 harg4 arg5 harg5) K } := by
  refine ⟨[], ?_, fun xi2 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE B (neither conditional taken: the points ≢ 0, 7 mod 8), the scratch entered at the contents the point
    before left (`xs0`). -/
noncomputable def kernelRun2_B (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) :
    Σ' (L2 : List (View.Piece (Elt F) S2048x256 .f32)), { LS0 : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__agg_kernel i arg2 harg2 arg3 harg3 arg4 harg4 arg5 harg5) K } := by
  refine ⟨[], ?_, fun xi2 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE C (the reset not taken, the output store taken: the points ≡ 7 mod 8), the scratch entered at the contents
    the point before left (`xs0`), the output's memref at anything and left with its pieces written. -/
noncomputable def kernelRun2_C (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) :
    Σ' (L2 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__agg_kernel i arg2 harg2 arg3 harg3 arg4 harg4 arg5 harg5) K } := by
  refine ⟨?_, ?_, fun E K => ?run⟩
  case run =>
    simp only [cc2__agg_kernel_eq_skeleton]; unfold cc2__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- Case A stores nothing into output 2 (the window is idle at its points and not written back there): no pieces — a
    placeholder (junk read back) that nothing consults. -/
def out2_A_2 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) : Vec F S2048x256 .f32 :=
  VO2_2.read (Elt F) (VO2_2.writes (Elt F) VO2_2.junk (kernelRun2_A c i arg2 harg2 arg3 harg3 arg4 harg4 arg5 harg5 hc0 hc1 x0 x1).1)

/-- Case A's pieces for the scratch, which the kernel carries between points, cover it. -/
theorem scover2_A_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) (y : S2048x256.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x256.size (by sl_kernel_rfl) y

/-- What case A leaves in the scratch: its pieces read back over junk. -/
def sout2_A_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) : Vec F S2048x256 .f32 :=
  VS2_0.read (Elt F) (VS2_0.writes (Elt F) VS2_0.junk (kernelRun2_A c i arg2 harg2 arg3 harg3 arg4 harg4 arg5 harg5 hc0 hc1 x0 x1).2.1)

/-- Case B stores nothing into output 2 (the window is idle at its points and not written back there): no pieces — a
    placeholder (junk read back) that nothing consults. -/
def out2_B_2 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) : Vec F S2048x256 .f32 :=
  VO2_2.read (Elt F) (VO2_2.writes (Elt F) VO2_2.junk (kernelRun2_B c i arg2 harg2 arg3 harg3 arg4 harg4 arg5 harg5 hc0 hc1 x0 x1 xs0).1)

/-- Case B's pieces for the scratch, which the kernel carries between points, cover it. -/
theorem scover2_B_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) (y : S2048x256.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x256.size (by sl_kernel_rfl) y

/-- What case B leaves in the scratch: its pieces read back over junk. -/
def sout2_B_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) : Vec F S2048x256 .f32 :=
  VS2_0.read (Elt F) (VS2_0.writes (Elt F) VS2_0.junk (kernelRun2_B c i arg2 harg2 arg3 harg3 arg4 harg4 arg5 harg5 hc0 hc1 x0 x1 xs0).2.1)

/-- Case C's pieces for output 2 tile its block (one store of the whole block), so they cover it. -/
theorem cover2_C_2 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) (y : S2048x256.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x256.size (by sl_kernel_rfl) y

/-- What case C leaves in output 2's staging buffer: its pieces read back over junk. -/
def out2_C_2 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) : Vec F S2048x256 .f32 :=
  VO2_2.read (Elt F) (VO2_2.writes (Elt F) VO2_2.junk (kernelRun2_C c i arg2 harg2 arg3 harg3 arg4 harg4 arg5 harg5 hc0 hc1 x0 x1 xs0).1)

/-- Case C's pieces for the scratch, which the kernel carries between points, cover it. -/
theorem scover2_C_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) (y : S2048x256.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x256.size (by sl_kernel_rfl) y

/-- What case C leaves in the scratch: its pieces read back over junk. -/
def sout2_C_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) : Vec F S2048x256 .f32 :=
  VS2_0.read (Elt F) (VS2_0.writes (Elt F) VS2_0.junk (kernelRun2_C c i arg2 harg2 arg3 harg3 arg4 harg4 arg5 harg5 hc0 hc1 x0 x1 xs0).2.1)

/-! ## The found pieces, in the payloads -/

/-- Case B leaves the scratch at the update of what it held by the point's blocks. -/
theorem sout2_B_0_eq (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) :
    sout2_B_0 c i arg2 harg2 arg3 harg3 arg4 harg4 arg5 harg5 hc0 hc1 x0 x1 xs0 = k2_pay2 x0 x1 xs0 := by
  have hz : (![0, 0] : Fin S2048x256.rank → Nat) = fun _ => 0 := by funext a; fin_cases a <;> rfl
  have hz0 : (![0, 0] : Fin S2048x1280.rank → Nat) = fun _ => 0 := by funext a; fin_cases a <;> rfl
  have hz1 : (![0, 0] : Fin S1280x256.rank → Nat) = fun _ => 0 := by funext a; fin_cases a <;> rfl
  unfold sout2_B_0
  rw [View.read_writes_eq_canon _ _ _ (scover2_B_0 c i arg2 harg2 arg3 harg3 arg4 harg4 arg5 harg5 hc0 hc1 x0 x1 xs0)]
  unfold kernelRun2_B; dsimp only
  sl_unfold_words
  rw [View.canon_unit_zero (S := S2048x256) hz]
  simp only [View.readAt_eq_ld, harg2.read_unread, harg3.read_unread, harg5.read_unread,
    View.ld_unit_zero (S := S2048x1280) hz0, View.ld_unit_zero (S := S1280x256) hz1, View.ld_unit_zero (S := S2048x256) hz,
    View.readCov_unit_zero (S := S2048x256) _ hz]

/-- Case A leaves the scratch at the update of the zero accumulator by the point's blocks: the reset, then the update
    read back over it. -/
theorem sout2_A_0_eq (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) :
    sout2_A_0 c i arg2 harg2 arg3 harg3 arg4 harg4 arg5 harg5 hc0 hc1 x0 x1 = k2_pay2 x0 x1 (k2_pay1 (F := F)) := by
  have hz : (![0, 0] : Fin S2048x256.rank → Nat) = fun _ => 0 := by funext a; fin_cases a <;> rfl
  have hz0 : (![0, 0] : Fin S2048x1280.rank → Nat) = fun _ => 0 := by funext a; fin_cases a <;> rfl
  have hz1 : (![0, 0] : Fin S1280x256.rank → Nat) = fun _ => 0 := by funext a; fin_cases a <;> rfl
  unfold sout2_A_0
  rw [View.read_writes_eq_canon _ _ _ (scover2_A_0 c i arg2 harg2 arg3 harg3 arg4 harg4 arg5 harg5 hc0 hc1 x0 x1)]
  unfold kernelRun2_A; dsimp only
  sl_unfold_words
  rw [View.canon_cons_unit_zero (S := S2048x256) hz]
  simp only [View.readAt_eq_ld, harg2.read_unread, harg3.read_unread, harg5.read_unread,
    View.ld_unit_zero (S := S2048x1280) hz0, View.ld_unit_zero (S := S1280x256) hz1, View.ld_unit_zero (S := S2048x256) hz,
    View.readCov_unit_zero (S := S2048x256) _ hz]

/-- Case C leaves the scratch at the update of what it held by the point's blocks. -/
theorem sout2_C_0_eq (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) :
    sout2_C_0 c i arg2 harg2 arg3 harg3 arg4 harg4 arg5 harg5 hc0 hc1 x0 x1 xs0 = k2_pay2 x0 x1 xs0 := by
  have hz : (![0, 0] : Fin S2048x256.rank → Nat) = fun _ => 0 := by funext a; fin_cases a <;> rfl
  have hz0 : (![0, 0] : Fin S2048x1280.rank → Nat) = fun _ => 0 := by funext a; fin_cases a <;> rfl
  have hz1 : (![0, 0] : Fin S1280x256.rank → Nat) = fun _ => 0 := by funext a; fin_cases a <;> rfl
  unfold sout2_C_0
  rw [View.read_writes_eq_canon _ _ _ (scover2_C_0 c i arg2 harg2 arg3 harg3 arg4 harg4 arg5 harg5 hc0 hc1 x0 x1 xs0)]
  unfold kernelRun2_C; dsimp only
  sl_unfold_words
  rw [View.canon_unit_zero (S := S2048x256) hz]
  simp only [View.readAt_eq_ld, harg2.read_unread, harg3.read_unread, harg5.read_unread,
    View.ld_unit_zero (S := S2048x1280) hz0, View.ld_unit_zero (S := S1280x256) hz1, View.ld_unit_zero (S := S2048x256) hz,
    View.readCov_unit_zero (S := S2048x256) _ hz]

/-- Case C leaves the output's staging buffer at what it has just put in the scratch. -/
theorem out2_C_2_eq (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) :
    out2_C_2 c i arg2 harg2 arg3 harg3 arg4 harg4 arg5 harg5 hc0 hc1 x0 x1 xs0 = k2_pay2 x0 x1 xs0 := by
  have hz : (![0, 0] : Fin S2048x256.rank → Nat) = fun _ => 0 := by funext a; fin_cases a <;> rfl
  have hz0 : (![0, 0] : Fin S2048x1280.rank → Nat) = fun _ => 0 := by funext a; fin_cases a <;> rfl
  have hz1 : (![0, 0] : Fin S1280x256.rank → Nat) = fun _ => 0 := by funext a; fin_cases a <;> rfl
  unfold out2_C_2
  rw [View.read_writes_eq_canon _ _ _ (cover2_C_2 c i arg2 harg2 arg3 harg3 arg4 harg4 arg5 harg5 hc0 hc1 x0 x1 xs0)]
  unfold kernelRun2_C; dsimp only
  sl_unfold_words
  rw [View.canon_unit_zero (S := S2048x256) hz]
  simp only [View.readAt_eq_ld, harg2.read_unread, harg3.read_unread, harg5.read_unread,
    View.ld_unit_zero (S := S2048x1280) hz0, View.ld_unit_zero (S := S1280x256) hz1, View.ld_unit_zero (S := S2048x256) hz,
    View.readCov_unit_zero (S := S2048x256) _ hz]

/-! ## What the output and the scratch hold after each point -/

/-- THE ACCUMULATION. What output 2's staging buffer and the scratch hold after the body at position `n` (a pair: the
    output, then the scratch): the case the closed forms select at `n`, run at the point's memrefs and input blocks, the
    scratch entered at what this leaves at `n - 1`. -/
def outsAt2 (c : Dev nD) : (n : ℕ) → n < cfg2.N → Vec F S2048x256 .f32 × Vec F S2048x256 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the scratch holds after point `n`. -/
def acc2 (c : Dev nD) : (n : ℕ) → n < cfg2.N → Vec F S2048x256 .f32 := fun n hn => (outsAt2 V c n hn).2

/-- The region invariant before position `n`: before the first point the class's (the scratch at anything); afterwards
    the scratch at what the point before left in it, every other scoped buffer unopened, and the generator register at some
    state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; so that
    case's run applies; the invariant hands the body the carried scratch at what the point before left (at anything at the
    first point) and takes it back at this point's contents; every other scoped buffer, the generator register and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _)
            iexact Hr
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hr⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 40 := N_2; omega)

/-! ## What the scratch and the output hold, in the payloads -/

theorem acc2_eq (c : Dev nD) (n : ℕ) (hn : n < cfg2.N) : acc2 V c n hn = (outsAt2 V c n hn).2 := rfl

/-- At the first point of a group the scratch ends at the update of the zero accumulator by the point's blocks. -/
theorem acc2_reset (c : Dev nD) (t : Fin cfg2.N) (h : t.val % 8 = 0) :
    acc2 V c t.val t.isLt = k2_pay2 (iblk2 V c 0 t) (iblk2 V c 1 t) (k2_pay1 (F := F)) := by
  have h1 : ¬t.val % 8 = 7 := by omega
  rw [acc2_eq, outsAt2_A V c t h h1]; dsimp only
  exact sout2_A_0_eq c (grid2.coords t) (ms2_0 t) (hs2_0 t) (ms2_1 t) (hs2_1 t) (ms2_2 t) (hs2_2 t) scM2_0 (Memref.isWhole_whole _) ((hcond2_0 t).mpr h) (fun h' => h1 ((hcond2_1 t).mp h')) (iblk2 V c 0 t) (iblk2 V c 1 t)

/-- At any other point it ends at the update of what the point before left. -/
theorem acc2_step (c : Dev nD) (t : Fin cfg2.N) (h : t.val % 8 ≠ 0) :
    acc2 V c t.val t.isLt = k2_pay2 (iblk2 V c 0 t) (iblk2 V c 1 t) (acc2 V c (t.val - 1) (Nat.lt_of_le_of_lt (Nat.sub_le _ _) t.isLt)) := by
  rw [acc2_eq V c (t.val - 1), acc2_eq V c t.val]
  by_cases h1 : t.val % 8 = 7
  · rw [outsAt2_C V c t h h1]; dsimp only
    exact sout2_C_0_eq c (grid2.coords t) (ms2_0 t) (hs2_0 t) (ms2_1 t) (hs2_1 t) (ms2_2 t) (hs2_2 t) scM2_0 (Memref.isWhole_whole _) (fun h' => h ((hcond2_0 t).mp h')) ((hcond2_1 t).mpr h1) (iblk2 V c 0 t) (iblk2 V c 1 t) (outsAt2 V c (t.val - 1) (Nat.lt_of_le_of_lt (Nat.sub_le _ _) t.isLt)).2
  · rw [outsAt2_B V c t h h1]; dsimp only
    exact sout2_B_0_eq c (grid2.coords t) (ms2_0 t) (hs2_0 t) (ms2_1 t) (hs2_1 t) (ms2_2 t) (hs2_2 t) scM2_0 (Memref.isWhole_whole _) (fun h' => h ((hcond2_0 t).mp h')) (fun h' => h1 ((hcond2_1 t).mp h')) (iblk2 V c 0 t) (iblk2 V c 1 t) (outsAt2 V c (t.val - 1) (Nat.lt_of_le_of_lt (Nat.sub_le _ _) t.isLt)).2

/-- At the last point of a group the output's staging buffer is left at what the scratch ends at. -/
theorem after2_2_store (c : Dev nD) (t : Fin cfg2.N) (h : t.val % 8 = 7) : (dat2 V c).after 2 t = acc2 V c t.val t.isLt := by
  have h0 : ¬t.val % 8 = 0 := by omega
  rw [after2_2, acc2_eq, outsAt2_C V c t h0 h]; dsimp only
  exact (out2_C_2_eq c (grid2.coords t) (ms2_0 t) (hs2_0 t) (ms2_1 t) (hs2_1 t) (ms2_2 t) (hs2_2 t) scM2_0 (Memref.isWhole_whole _) (fun h' => h0 ((hcond2_0 t).mp h')) ((hcond2_1 t).mpr h) (iblk2 V c 0 t) (iblk2 V c 1 t) (outsAt2 V c (t.val - 1) (Nat.lt_of_le_of_lt (Nat.sub_le _ _) t.isLt)).2).trans
    (sout2_C_0_eq c (grid2.coords t) (ms2_0 t) (hs2_0 t) (ms2_1 t) (hs2_1 t) (ms2_2 t) (hs2_2 t) scM2_0 (Memref.isWhole_whole _) (fun h' => h0 ((hcond2_0 t).mp h')) ((hcond2_1 t).mpr h) (iblk2 V c 0 t) (iblk2 V c 1 t) (outsAt2 V c (t.val - 1) (Nat.lt_of_le_of_lt (Nat.sub_le _ _) t.isLt)).2).symm

/-- The shares are full and nothing is owed, by definition. -/
example (c : Dev nD) (w : Fin cfg2.W) : (dat2 V c).q w = fullShare := rfl
example (c : Dev nD) (t : Fin (cfg2.N + 1)) : (dat2 V c).owed t = 0 := rfl

end Cert.Kernel.Hand

end
-- ==== Proof.K.Lin3.lean ====
import proofs.«427327_j68599217652368_1_alg».proof.Proof.Gen.Kernel.Launch
import proofs.«427327_j68599217652368_1_alg».proof.Proof.Gen.Kernel.Skeleton
import proofs.«427327_j68599217652368_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The linear layer's pipeline (custom_call 1): its frame half, at any float family

The region runs a grid of `cfg3.N` points. At a point the body reads five input windows whole — a block
of the aggregated features, the matching block of the layer's input, the two weight matrices and the bias —
and writes one output window whole: the payload `k3_pay1` of the five values read. The body also reads the
output buffer before it overwrites it; the value read is not used, so the buffer may hold anything.

Everything is stated at a parameter `V`: the buffer contents of the core when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

/-- Every access of the body is through the whole-shape rectangle at offset zero of its buffer. -/
abbrev r3_0 : Rect S2048x256 := Rect.unit (s := S2048x256) ![0, 0] S2048x256.size inb_S2048x256_S2048x256_0_0
abbrev r3_2 : Rect S256x1024 := Rect.unit (s := S256x1024) ![0, 0] S256x1024.size inb_S256x1024_S256x1024_0_0
abbrev r3_4 : Rect S1x1024 := Rect.unit (s := S1x1024) ![0, 0] S1x1024.size inb_S1x1024_S1x1024_0_0
abbrev r3_5 : Rect S2048x1024 := Rect.unit (s := S2048x1024) ![0, 0] S2048x1024.size inb_S2048x1024_S2048x1024_0_0

/-- The offsets of those rectangles are zero on both axes. -/
theorem zeros3 : (![0, 0] : Fin 2 → Nat) = fun _ => 0 := funext fun a => by fin_cases a <;> rfl

/-! ## What the body leaves in the output window's buffer -/

/-- Window 5's staging buffer after the body, from the five values read: its one store, which covers the
    buffer, as a single piece. -/
def out3_5 (x0 : Vec F S2048x256 .f32) (x1 : Vec F S2048x256 .f32) (x2 : Vec F S256x1024 .f32) (x3 : Vec F S256x1024 .f32)
    (x4 : Vec F S1x1024 .f32) : Vec F S2048x1024 .f32 :=
  View.canon [⟨r3_5, k3_pay1 (View.ld x0 r3_0) (View.ld x1 r3_0) (View.ld x2 r3_2) (View.ld x3 r3_2) (View.ld x4 r3_4)⟩]

/-- Its store tiles the buffer, so it covers it. -/
theorem cover3_5 (p0 : Vec F S2048x1024 .f32) (y : S2048x1024.Idx) :
    ∃ pc ∈ ([⟨r3_5, p0⟩] : List (View.Piece (Elt F) S2048x1024 .f32)), y ∈ pc.1.set :=
  ⟨_, List.mem_singleton_self _, View.mem_set_unit_zero zeros3 inb_S2048x1024_S2048x1024_0_0 y⟩

/-! ## The pipeline's proof data -/

/-- The proof data of the pipeline on core `c`: the arrays as the region finds them (`V`); after the body at
    point `t` each input's buffer at its block and the output's at `out3_5` of the input blocks; the invariant
    keeps the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

example (c : Dev nD) (t) : (dat3 V c).Φ t = Pipeline.ΦA spec3 c := rfl
example (c : Dev nD) (w) : (dat3 V c).q w = fullShare := rfl
example (c : Dev nD) (w) : (dat3 V c).owed w = 0 := rfl

/-- The output window after the body at a point: the payload of the five input blocks there. -/
theorem after3_5 (c : Dev nD) (t : Fin cfg3.N) : (dat3 V c).after 5 t = k3_pay1 (iblk3 V c 0 t) (iblk3 V c 1 t) (iblk3 V c 2 t) (iblk3 V c 3 t) (iblk3 V c 4 t) := by
  dsimp only [dat3]
  unfold out3_5
  rw [View.canon_unit_zero zeros3]
  simp only [View.ld_unit_zero (S := S2048x256) zeros3, View.ld_unit_zero (S := S256x1024) zeros3,
    View.ld_unit_zero (S := S1x1024) zeros3]

/-! ## What the body finds in each input window's buffer -/

/-- Input window 0's current staging buffer holds its block at every point, fetched there or not, for any proof
    data whose array is `V`'s (`hA`) and whose body leaves the block in place (`hafter`): where the window is not
    fetched its block index has not moved, so the block of the point before is this point's. The window is uncut
    and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): where the window is not
    fetched its block index has not moved, so the block of the point before is this point's. The window is uncut
    and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): where the window is not
    fetched its block index has not moved, so the block of the point before is this point's. The window is uncut
    and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): where the window is not
    fetched its block index has not moved, so the block of the point before is this point's. The window is uncut
    and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): where the window is not
    fetched its block index has not moved, so the block of the point before is this point's. The window is uncut
    and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

set_option maxHeartbeats 1000000 in
/-- The kernel body on whole staging memrefs, the inputs' at read contents and the output's at anything, runs to
    the continuation holding the inputs' as they were and the output's at `out3_5` of the inputs': the printed
    function is its skeleton of memory operations, run one operation at a time. The load of the output buffer
    reads whatever it holds; its value goes nowhere. -/
theorem sound_kernel3 (c : Dev nD) (E : Set ℕ) (i : grid3.Coords)
    (arg1 : Memref sig .tc .vmem S2048x256 .f32) (harg1 : arg1.IsWhole) (arg2 : Memref sig .tc .vmem S2048x256 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S1x1024 .f32) (harg5 : arg5.IsWhole) (arg6 : Memref sig .tc .vmem S2048x1024 .f32) (harg6 : arg6.IsWhole)
    (x0 : Vec F S2048x256 .f32) (x1 : Vec F S2048x256 .f32) (x2 : Vec F S256x1024 .f32) (x3 : Vec F S256x1024 .f32) (x4 : Vec F S1x1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__linear_kernel i arg1 harg1 arg2 harg2 arg3 harg3 arg4 harg4 arg5 harg5 arg6 harg6) K := by
  simp only [cc3__linear_kernel_eq_skeleton]; unfold cc3__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data's fields, window by window -/

/-- What the body leaves in each input window's buffer: its block. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]

/-- The output window's buffer after the body, as one store over the input blocks. -/
theorem after3_5_out (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`: the invariant, the core's owed amounts, and each window's current
    staging buffer at what the pipeline has put there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's owed amounts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5_out]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Agg4.lean ====
/- The frame half of region 0 (custom_call 0, the aggregation kernel `cc4__agg_kernel`, pipeline `cfg4`, 40 grid
   points, k = t mod 8), generic in the float family and at a PARAMETER `V`: the TensorCore's buffer contents when the
   region is entered. The kernel carries a scratch accumulator between points: it is reset at the first point of each
   group of eight (k = 0), updated at every point by the product of the two input blocks, and stored into the output
   block at the last point of the group (k = 7); at the other points the output window is idle and not written back.
   The module states what the scratch holds after each point (`acc4`, with `acc4_reset` / `acc4_step`), what the
   output's staging buffer holds after a storing point (`after4_2_store`), the proof data `dat4`, the body obligation
   and the passage of the region invariant in and out. -/
import proofs.«427327_j68599217652368_1_alg».proof.Proof.Gen.Kernel.Launch
import proofs.«427327_j68599217652368_1_alg».proof.Proof.Gen.Kernel.Skeleton
import proofs.«427327_j68599217652368_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

-- membership in a rectangle of production extents: the elaborator's structural look recurses once per coordinate of
-- the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): the window is uncut and
    never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the reset of the accumulator), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 8) — decided over the grid. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's second conditional (the store of the accumulator into the output block). -/
abbrev cond4_1 (i : grid4.Coords) : Prop := k4_cond2 i = 1#1
/-- It holds at the points ≡ 7 (mod 8) — decided over the grid. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- Windows 0 and 1 are never idle (inputs). -/
theorem liveAt4_0 : ∀ t : Fin cfg4.N, cfg4.idle 0 (grid4.coords t) = false := by decide +kernel
theorem liveAt4_1 : ∀ t : Fin cfg4.N, cfg4.idle 1 (grid4.coords t) = false := by decide +kernel
/-- At the points of case A the output window 2 is idle: the case stores nothing into it. -/
theorem idleAt4_2_A : ∀ t : Fin cfg4.N, cond4_0 (grid4.coords t) → ¬cond4_1 (grid4.coords t) → cfg4.idle 2 (grid4.coords t) = true := by decide +kernel
/-- At the points of case A the pipeline does not write output 2's block back. -/
theorem noFlush4_2_A : ∀ t : Fin cfg4.N, cond4_0 (grid4.coords t) → ¬cond4_1 (grid4.coords t) → (cfg4.win 2).flush t = false := by decide +kernel
/-- At the points of case B the output window 2 is idle. -/
theorem idleAt4_2_B : ∀ t : Fin cfg4.N, ¬cond4_0 (grid4.coords t) → ¬cond4_1 (grid4.coords t) → cfg4.idle 2 (grid4.coords t) = true := by decide +kernel
/-- At the points of case B the pipeline does not write output 2's block back. -/
theorem noFlush4_2_B : ∀ t : Fin cfg4.N, ¬cond4_0 (grid4.coords t) → ¬cond4_1 (grid4.coords t) → (cfg4.win 2).flush t = false := by decide +kernel
/-- At the points of case C the output window 2 is live: the case stores into it. -/
theorem liveAt4_2_C : ∀ t : Fin cfg4.N, ¬cond4_0 (grid4.coords t) → cond4_1 (grid4.coords t) → cfg4.idle 2 (grid4.coords t) = false := by decide +kernel

/-! ## The kernel body on any staging memrefs -/

/-- One staging buffer of output window 2, through which its contents are stated (the choice does not matter). -/
abbrev VO4_2 : View sig .tc .vmem S2048x1024 .f32 := (Memref.whole cc4_stg2_0 : Memref sig .tc .vmem S2048x1024 .f32).view
/-- Each window's current staging memref at point `t`, spelled as the pipeline passes it, and its wholeness. -/
abbrev ms4_0 (t : Fin cfg4.N) : Memref sig .tc .vmem S2048x1280 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1280x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1024 .f32 := win4_2.stage (cfg4.slots t 2)
abbrev hs4_2 (t : Fin cfg4.N) : (ms4_2 t).IsWhole := hstage4_2 ((cfg4.slots t 2).cast nbuf4_2)
/-- The scratch operand: a whole scoped buffer of the kernel's own, passed beside the windows. -/
abbrev scM4_0 : Memref sig .tc .vmem S2048x1024 .f32 := Memref.whole cc4_scratch0
/-- The scratch the kernel carries between points, as a view: what it holds is stated through it. -/
abbrev VS4_0 : View sig .tc .vmem S2048x1024 .f32 := scM4_0.view

/-- Every other scoped buffer of the core (the other calls' staging buffers and scratch), unopened: carried along
    unchanged at every point. -/
abbrev rest4 (c : Dev nD) : sProp 𝕄 :=
  Pipeline.scopedRestBut (Ix := Unit) (Name := ℕ) (U := UR sig nD τ) (Lvl := ℕ) (Val := Elt F) spec4 c [cc4_scratch0]

/-- The class's invariant with the scratch operand as a memref owned at some contents: what the body obligation
    hands the run and takes back. -/
theorem PhiA4_eq (c : Dev nD) :
    (Pipeline.ΦA spec4 c : sProp 𝕄)
      = iprop(iprop(iprop((∃ d, owns (c : Thread nD τ) scM4_0 fullShare d)) ∗ rest4 (F := F) c) ∗ (∃ r, prngReg c r)) := by
  unfold Pipeline.ΦA; rw [scopedRest4_split]; simp only [scM4_0, owns_whole]; try rfl

-- (the run's proof term is large: the definition's epilogue walks it past the default budget)
set_option maxHeartbeats 1000000 in
/-- What the body's stores leave in the output's staging memref and in the scratch, as pieces (last first), IN CASE A (the reset
    taken, the output store not taken: the points ≡ 0 mod 8), WITH the proof that on whole memrefs — the inputs' at their contents,
    the output's (idle: no store) at contents `xi2` handed back untouched, the scratch at anything — the body runs to the
    continuation holding the inputs' and the output's as they were and the scratch with its pieces written. The pieces are the
    witness the run finds. -/
noncomputable def kernelRun4_A (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) :
    Σ' (L2 : List (View.Piece (Elt F) S2048x1024 .f32)), { LS0 : List (View.Piece (Elt F) S2048x1024 .f32) //
      ∀ (xi2 : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__agg_kernel i arg2 harg2 arg3 harg3 arg4 harg4 arg5 harg5) K } := by
  refine ⟨[], ?_, fun xi2 E K => ?run⟩
  case run =>
    simp only [cc4__agg_kernel_eq_skeleton]; unfold cc4__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE B (neither conditional taken: the points ≢ 0, 7 mod 8), the scratch entered at the contents the point
    before left (`xs0`). -/
noncomputable def kernelRun4_B (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) :
    Σ' (L2 : List (View.Piece (Elt F) S2048x1024 .f32)), { LS0 : List (View.Piece (Elt F) S2048x1024 .f32) //
      ∀ (xi2 : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__agg_kernel i arg2 harg2 arg3 harg3 arg4 harg4 arg5 harg5) K } := by
  refine ⟨[], ?_, fun xi2 E K => ?run⟩
  case run =>
    simp only [cc4__agg_kernel_eq_skeleton]; unfold cc4__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE C (the reset not taken, the output store taken: the points ≡ 7 mod 8), the scratch entered at the contents
    the point before left (`xs0`), the output's memref at anything and left with its pieces written. -/
noncomputable def kernelRun4_C (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) :
    Σ' (L2 : List (View.Piece (Elt F) S2048x1024 .f32)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__agg_kernel i arg2 harg2 arg3 harg3 arg4 harg4 arg5 harg5) K } := by
  refine ⟨?_, ?_, fun E K => ?run⟩
  case run =>
    simp only [cc4__agg_kernel_eq_skeleton]; unfold cc4__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- Case A stores nothing into output 2 (the window is idle at its points and not written back there): no pieces — a
    placeholder (junk read back) that nothing consults. -/
def out4_A_2 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) : Vec F S2048x1024 .f32 :=
  VO4_2.read (Elt F) (VO4_2.writes (Elt F) VO4_2.junk (kernelRun4_A c i arg2 harg2 arg3 harg3 arg4 harg4 arg5 harg5 hc0 hc1 x0 x1).1)

/-- Case A's pieces for the scratch, which the kernel carries between points, cover it. -/
theorem scover4_A_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) (y : S2048x1024.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S2048x1024.size (by sl_kernel_rfl) y

/-- What case A leaves in the scratch: its pieces read back over junk. -/
def sout4_A_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) : Vec F S2048x1024 .f32 :=
  VS4_0.read (Elt F) (VS4_0.writes (Elt F) VS4_0.junk (kernelRun4_A c i arg2 harg2 arg3 harg3 arg4 harg4 arg5 harg5 hc0 hc1 x0 x1).2.1)

/-- Case B stores nothing into output 2 (the window is idle at its points and not written back there): no pieces — a
    placeholder (junk read back) that nothing consults. -/
def out4_B_2 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) : Vec F S2048x1024 .f32 :=
  VO4_2.read (Elt F) (VO4_2.writes (Elt F) VO4_2.junk (kernelRun4_B c i arg2 harg2 arg3 harg3 arg4 harg4 arg5 harg5 hc0 hc1 x0 x1 xs0).1)

/-- Case B's pieces for the scratch, which the kernel carries between points, cover it. -/
theorem scover4_B_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) (y : S2048x1024.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S2048x1024.size (by sl_kernel_rfl) y

/-- What case B leaves in the scratch: its pieces read back over junk. -/
def sout4_B_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) : Vec F S2048x1024 .f32 :=
  VS4_0.read (Elt F) (VS4_0.writes (Elt F) VS4_0.junk (kernelRun4_B c i arg2 harg2 arg3 harg3 arg4 harg4 arg5 harg5 hc0 hc1 x0 x1 xs0).2.1)

/-- Case C's pieces for output 2 tile its block (one store of the whole block), so they cover it. -/
theorem cover4_C_2 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) (y : S2048x1024.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S2048x1024.size (by sl_kernel_rfl) y

/-- What case C leaves in output 2's staging buffer: its pieces read back over junk. -/
def out4_C_2 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) : Vec F S2048x1024 .f32 :=
  VO4_2.read (Elt F) (VO4_2.writes (Elt F) VO4_2.junk (kernelRun4_C c i arg2 harg2 arg3 harg3 arg4 harg4 arg5 harg5 hc0 hc1 x0 x1 xs0).1)

/-- Case C's pieces for the scratch, which the kernel carries between points, cover it. -/
theorem scover4_C_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) (y : S2048x1024.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S2048x1024.size (by sl_kernel_rfl) y

/-- What case C leaves in the scratch: its pieces read back over junk. -/
def sout4_C_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) : Vec F S2048x1024 .f32 :=
  VS4_0.read (Elt F) (VS4_0.writes (Elt F) VS4_0.junk (kernelRun4_C c i arg2 harg2 arg3 harg3 arg4 harg4 arg5 harg5 hc0 hc1 x0 x1 xs0).2.1)

/-! ## The found pieces, in the payloads -/

/-- Case B leaves the scratch at the update of what it held by the point's blocks. -/
theorem sout4_B_0_eq (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) :
    sout4_B_0 c i arg2 harg2 arg3 harg3 arg4 harg4 arg5 harg5 hc0 hc1 x0 x1 xs0 = k4_pay2 x0 x1 xs0 := by
  have hz : (![0, 0] : Fin S2048x1024.rank → Nat) = fun _ => 0 := by funext a; fin_cases a <;> rfl
  have hz0 : (![0, 0] : Fin S2048x1280.rank → Nat) = fun _ => 0 := by funext a; fin_cases a <;> rfl
  have hz1 : (![0, 0] : Fin S1280x1024.rank → Nat) = fun _ => 0 := by funext a; fin_cases a <;> rfl
  unfold sout4_B_0
  rw [View.read_writes_eq_canon _ _ _ (scover4_B_0 c i arg2 harg2 arg3 harg3 arg4 harg4 arg5 harg5 hc0 hc1 x0 x1 xs0)]
  unfold kernelRun4_B; dsimp only
  sl_unfold_words
  rw [View.canon_unit_zero (S := S2048x1024) hz]
  simp only [View.readAt_eq_ld, harg2.read_unread, harg3.read_unread, harg5.read_unread,
    View.ld_unit_zero (S := S2048x1280) hz0, View.ld_unit_zero (S := S1280x1024) hz1, View.ld_unit_zero (S := S2048x1024) hz,
    View.readCov_unit_zero (S := S2048x1024) _ hz]

/-- Case A leaves the scratch at the update of the zero accumulator by the point's blocks: the reset, then the update
    read back over it. -/
theorem sout4_A_0_eq (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) :
    sout4_A_0 c i arg2 harg2 arg3 harg3 arg4 harg4 arg5 harg5 hc0 hc1 x0 x1 = k4_pay2 x0 x1 (k4_pay1 (F := F)) := by
  have hz : (![0, 0] : Fin S2048x1024.rank → Nat) = fun _ => 0 := by funext a; fin_cases a <;> rfl
  have hz0 : (![0, 0] : Fin S2048x1280.rank → Nat) = fun _ => 0 := by funext a; fin_cases a <;> rfl
  have hz1 : (![0, 0] : Fin S1280x1024.rank → Nat) = fun _ => 0 := by funext a; fin_cases a <;> rfl
  unfold sout4_A_0
  rw [View.read_writes_eq_canon _ _ _ (scover4_A_0 c i arg2 harg2 arg3 harg3 arg4 harg4 arg5 harg5 hc0 hc1 x0 x1)]
  unfold kernelRun4_A; dsimp only
  sl_unfold_words
  rw [View.canon_cons_unit_zero (S := S2048x1024) hz]
  simp only [View.readAt_eq_ld, harg2.read_unread, harg3.read_unread, harg5.read_unread,
    View.ld_unit_zero (S := S2048x1280) hz0, View.ld_unit_zero (S := S1280x1024) hz1, View.ld_unit_zero (S := S2048x1024) hz,
    View.readCov_unit_zero (S := S2048x1024) _ hz]

/-- Case C leaves the scratch at the update of what it held by the point's blocks. -/
theorem sout4_C_0_eq (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) :
    sout4_C_0 c i arg2 harg2 arg3 harg3 arg4 harg4 arg5 harg5 hc0 hc1 x0 x1 xs0 = k4_pay2 x0 x1 xs0 := by
  have hz : (![0, 0] : Fin S2048x1024.rank → Nat) = fun _ => 0 := by funext a; fin_cases a <;> rfl
  have hz0 : (![0, 0] : Fin S2048x1280.rank → Nat) = fun _ => 0 := by funext a; fin_cases a <;> rfl
  have hz1 : (![0, 0] : Fin S1280x1024.rank → Nat) = fun _ => 0 := by funext a; fin_cases a <;> rfl
  unfold sout4_C_0
  rw [View.read_writes_eq_canon _ _ _ (scover4_C_0 c i arg2 harg2 arg3 harg3 arg4 harg4 arg5 harg5 hc0 hc1 x0 x1 xs0)]
  unfold kernelRun4_C; dsimp only
  sl_unfold_words
  rw [View.canon_unit_zero (S := S2048x1024) hz]
  simp only [View.readAt_eq_ld, harg2.read_unread, harg3.read_unread, harg5.read_unread,
    View.ld_unit_zero (S := S2048x1280) hz0, View.ld_unit_zero (S := S1280x1024) hz1, View.ld_unit_zero (S := S2048x1024) hz,
    View.readCov_unit_zero (S := S2048x1024) _ hz]

/-- Case C leaves the output's staging buffer at what it has just put in the scratch. -/
theorem out4_C_2_eq (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) :
    out4_C_2 c i arg2 harg2 arg3 harg3 arg4 harg4 arg5 harg5 hc0 hc1 x0 x1 xs0 = k4_pay2 x0 x1 xs0 := by
  have hz : (![0, 0] : Fin S2048x1024.rank → Nat) = fun _ => 0 := by funext a; fin_cases a <;> rfl
  have hz0 : (![0, 0] : Fin S2048x1280.rank → Nat) = fun _ => 0 := by funext a; fin_cases a <;> rfl
  have hz1 : (![0, 0] : Fin S1280x1024.rank → Nat) = fun _ => 0 := by funext a; fin_cases a <;> rfl
  unfold out4_C_2
  rw [View.read_writes_eq_canon _ _ _ (cover4_C_2 c i arg2 harg2 arg3 harg3 arg4 harg4 arg5 harg5 hc0 hc1 x0 x1 xs0)]
  unfold kernelRun4_C; dsimp only
  sl_unfold_words
  rw [View.canon_unit_zero (S := S2048x1024) hz]
  simp only [View.readAt_eq_ld, harg2.read_unread, harg3.read_unread, harg5.read_unread,
    View.ld_unit_zero (S := S2048x1280) hz0, View.ld_unit_zero (S := S1280x1024) hz1, View.ld_unit_zero (S := S2048x1024) hz,
    View.readCov_unit_zero (S := S2048x1024) _ hz]

/-! ## What the output and the scratch hold after each point -/

/-- THE ACCUMULATION. What output 2's staging buffer and the scratch hold after the body at position `n` (a pair: the
    output, then the scratch): the case the closed forms select at `n`, run at the point's memrefs and input blocks, the
    scratch entered at what this leaves at `n - 1`. -/
def outsAt4 (c : Dev nD) : (n : ℕ) → n < cfg4.N → Vec F S2048x1024 .f32 × Vec F S2048x1024 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a point of case A: that case's contents. -/
theorem outsAt4_A (c : Dev nD) (t : Fin cfg4.N) (h0 : t.val % 8 = 0) (h1 : ¬t.val % 8 = 7) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 8 = 0) (h1 : ¬t.val % 8 = 7) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the scratch holds after point `n`. -/
def acc4 (c : Dev nD) : (n : ℕ) → n < cfg4.N → Vec F S2048x1024 .f32 := fun n hn => (outsAt4 V c n hn).2

/-- The region invariant before position `n`: before the first point the class's (the scratch at anything); afterwards
    the scratch at what the point before left in it, every other scoped buffer unopened, and the generator register at some
    state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(owns (c : Thread nD τ) scM4_0 fullShare ((outsAt4 V c n hn).2) ∗ rest4 (F := F) c) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; so that
    case's run applies; the invariant hands the body the carried scratch at what the point before left (at anything at the
    first point) and takes it back at this point's contents; every other scoped buffer, the generator register and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  by_cases h0 : t.val % 8 = 0
  · by_cases h1 : t.val % 8 = 7
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the carried scratch's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 40 := N_4; omega)

/-! ## What the scratch and the output hold, in the payloads -/

theorem acc4_eq (c : Dev nD) (n : ℕ) (hn : n < cfg4.N) : acc4 V c n hn = (outsAt4 V c n hn).2 := rfl

/-- At the first point of a group the scratch ends at the update of the zero accumulator by the point's blocks. -/
theorem acc4_reset (c : Dev nD) (t : Fin cfg4.N) (h : t.val % 8 = 0) :
    acc4 V c t.val t.isLt = k4_pay2 (iblk4 V c 0 t) (iblk4 V c 1 t) (k4_pay1 (F := F)) := by
  have h1 : ¬t.val % 8 = 7 := by omega
  rw [acc4_eq, outsAt4_A V c t h h1]; dsimp only
  exact sout4_A_0_eq c (grid4.coords t) (ms4_0 t) (hs4_0 t) (ms4_1 t) (hs4_1 t) (ms4_2 t) (hs4_2 t) scM4_0 (Memref.isWhole_whole _) ((hcond4_0 t).mpr h) (fun h' => h1 ((hcond4_1 t).mp h')) (iblk4 V c 0 t) (iblk4 V c 1 t)

/-- At any other point it ends at the update of what the point before left. -/
theorem acc4_step (c : Dev nD) (t : Fin cfg4.N) (h : t.val % 8 ≠ 0) :
    acc4 V c t.val t.isLt = k4_pay2 (iblk4 V c 0 t) (iblk4 V c 1 t) (acc4 V c (t.val - 1) (Nat.lt_of_le_of_lt (Nat.sub_le _ _) t.isLt)) := by
  rw [acc4_eq V c (t.val - 1), acc4_eq V c t.val]
  by_cases h1 : t.val % 8 = 7
  · rw [outsAt4_C V c t h h1]; dsimp only
    exact sout4_C_0_eq c (grid4.coords t) (ms4_0 t) (hs4_0 t) (ms4_1 t) (hs4_1 t) (ms4_2 t) (hs4_2 t) scM4_0 (Memref.isWhole_whole _) (fun h' => h ((hcond4_0 t).mp h')) ((hcond4_1 t).mpr h1) (iblk4 V c 0 t) (iblk4 V c 1 t) (outsAt4 V c (t.val - 1) (Nat.lt_of_le_of_lt (Nat.sub_le _ _) t.isLt)).2
  · rw [outsAt4_B V c t h h1]; dsimp only
    exact sout4_B_0_eq c (grid4.coords t) (ms4_0 t) (hs4_0 t) (ms4_1 t) (hs4_1 t) (ms4_2 t) (hs4_2 t) scM4_0 (Memref.isWhole_whole _) (fun h' => h ((hcond4_0 t).mp h')) (fun h' => h1 ((hcond4_1 t).mp h')) (iblk4 V c 0 t) (iblk4 V c 1 t) (outsAt4 V c (t.val - 1) (Nat.lt_of_le_of_lt (Nat.sub_le _ _) t.isLt)).2

/-- At the last point of a group the output's staging buffer is left at what the scratch ends at. -/
theorem after4_2_store (c : Dev nD) (t : Fin cfg4.N) (h : t.val % 8 = 7) : (dat4 V c).after 2 t = acc4 V c t.val t.isLt := by
  have h0 : ¬t.val % 8 = 0 := by omega
  rw [after4_2, acc4_eq, outsAt4_C V c t h0 h]; dsimp only
  exact (out4_C_2_eq c (grid4.coords t) (ms4_0 t) (hs4_0 t) (ms4_1 t) (hs4_1 t) (ms4_2 t) (hs4_2 t) scM4_0 (Memref.isWhole_whole _) (fun h' => h0 ((hcond4_0 t).mp h')) ((hcond4_1 t).mpr h) (iblk4 V c 0 t) (iblk4 V c 1 t) (outsAt4 V c (t.val - 1) (Nat.lt_of_le_of_lt (Nat.sub_le _ _) t.isLt)).2).trans
    (sout4_C_0_eq c (grid4.coords t) (ms4_0 t) (hs4_0 t) (ms4_1 t) (hs4_1 t) (ms4_2 t) (hs4_2 t) scM4_0 (Memref.isWhole_whole _) (fun h' => h0 ((hcond4_0 t).mp h')) ((hcond4_1 t).mpr h) (iblk4 V c 0 t) (iblk4 V c 1 t) (outsAt4 V c (t.val - 1) (Nat.lt_of_le_of_lt (Nat.sub_le _ _) t.isLt)).2).symm

/-- The shares are full and nothing is owed, by definition. -/
example (c : Dev nD) (w : Fin cfg4.W) : (dat4 V c).q w = fullShare := rfl
example (c : Dev nD) (t : Fin (cfg4.N + 1)) : (dat4 V c).owed t = 0 := rfl

end Cert.Kernel.Hand

end
-- ==== Proof.K.Lin5.lean ====
import proofs.«427327_j68599217652368_1_alg».proof.Proof.Gen.Kernel.Launch
import proofs.«427327_j68599217652368_1_alg».proof.Proof.Gen.Kernel.Skeleton
import proofs.«427327_j68599217652368_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The linear layer's pipeline (custom_call 1): its frame half, at any float family

The region runs a grid of `cfg5.N` points. At a point the body reads five input windows whole — a block
of the aggregated features, the matching block of the layer's input, the two weight matrices and the bias —
and writes one output window whole: the payload `k5_pay1` of the five values read. The body also reads the
output buffer before it overwrites it; the value read is not used, so the buffer may hold anything.

Everything is stated at a parameter `V`: the buffer contents of the core when the region is entered. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses -/

/-- Every access of the body is through the whole-shape rectangle at offset zero of its buffer. -/
abbrev r5_0 : Rect S2048x1024 := Rect.unit (s := S2048x1024) ![0, 0] S2048x1024.size inb_S2048x1024_S2048x1024_0_0
abbrev r5_2 : Rect S1024x64 := Rect.unit (s := S1024x64) ![0, 0] S1024x64.size inb_S1024x64_S1024x64_0_0
abbrev r5_4 : Rect S1x64 := Rect.unit (s := S1x64) ![0, 0] S1x64.size inb_S1x64_S1x64_0_0
abbrev r5_5 : Rect S2048x64 := Rect.unit (s := S2048x64) ![0, 0] S2048x64.size inb_S2048x64_S2048x64_0_0

/-- The offsets of those rectangles are zero on both axes. -/
theorem zeros5 : (![0, 0] : Fin 2 → Nat) = fun _ => 0 := funext fun a => by fin_cases a <;> rfl

/-! ## What the body leaves in the output window's buffer -/

/-- Window 5's staging buffer after the body, from the five values read: its one store, which covers the
    buffer, as a single piece. -/
def out5_5 (x0 : Vec F S2048x1024 .f32) (x1 : Vec F S2048x1024 .f32) (x2 : Vec F S1024x64 .f32) (x3 : Vec F S1024x64 .f32)
    (x4 : Vec F S1x64 .f32) : Vec F S2048x64 .f32 :=
  View.canon [⟨r5_5, k5_pay1 (View.ld x0 r5_0) (View.ld x1 r5_0) (View.ld x2 r5_2) (View.ld x3 r5_2) (View.ld x4 r5_4)⟩]

/-- Its store tiles the buffer, so it covers it. -/
theorem cover5_5 (p0 : Vec F S2048x64 .f32) (y : S2048x64.Idx) :
    ∃ pc ∈ ([⟨r5_5, p0⟩] : List (View.Piece (Elt F) S2048x64 .f32)), y ∈ pc.1.set :=
  ⟨_, List.mem_singleton_self _, View.mem_set_unit_zero zeros5 inb_S2048x64_S2048x64_0_0 y⟩

/-! ## The pipeline's proof data -/

/-- The proof data of the pipeline on core `c`: the arrays as the region finds them (`V`); after the body at
    point `t` each input's buffer at its block and the output's at `out5_5` of the input blocks; the invariant
    keeps the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

example (c : Dev nD) (t) : (dat5 V c).Φ t = Pipeline.ΦA spec5 c := rfl
example (c : Dev nD) (w) : (dat5 V c).q w = fullShare := rfl
example (c : Dev nD) (w) : (dat5 V c).owed w = 0 := rfl

/-- The output window after the body at a point: the payload of the five input blocks there. -/
theorem after5_5 (c : Dev nD) (t : Fin cfg5.N) : (dat5 V c).after 5 t = k5_pay1 (iblk5 V c 0 t) (iblk5 V c 1 t) (iblk5 V c 2 t) (iblk5 V c 3 t) (iblk5 V c 4 t) := by
  dsimp only [dat5]
  unfold out5_5
  rw [View.canon_unit_zero zeros5]
  simp only [View.ld_unit_zero (S := S2048x1024) zeros5, View.ld_unit_zero (S := S1024x64) zeros5,
    View.ld_unit_zero (S := S1x64) zeros5]

/-! ## What the body finds in each input window's buffer -/

/-- Input window 0's current staging buffer holds its block at every point, fetched there or not, for any proof
    data whose array is `V`'s (`hA`) and whose body leaves the block in place (`hafter`): where the window is not
    fetched its block index has not moved, so the block of the point before is this point's. The window is uncut
    and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved, so the block of the point before is this point's. The window is uncut
    and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved, so the block of the point before is this point's. The window is uncut
    and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved, so the block of the point before is this point's. The window is uncut
    and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved, so the block of the point before is this point's. The window is uncut
    and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's triple -/

set_option maxHeartbeats 1000000 in
/-- The kernel body on whole staging memrefs, the inputs' at read contents and the output's at anything, runs to
    the continuation holding the inputs' as they were and the output's at `out5_5` of the inputs': the printed
    function is its skeleton of memory operations, run one operation at a time. The load of the output buffer
    reads whatever it holds; its value goes nowhere. -/
theorem sound_kernel5 (c : Dev nD) (E : Set ℕ) (i : grid5.Coords)
    (arg1 : Memref sig .tc .vmem S2048x1024 .f32) (harg1 : arg1.IsWhole) (arg2 : Memref sig .tc .vmem S2048x1024 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1x64 .f32) (harg5 : arg5.IsWhole) (arg6 : Memref sig .tc .vmem S2048x64 .f32) (harg6 : arg6.IsWhole)
    (x0 : Vec F S2048x1024 .f32) (x1 : Vec F S2048x1024 .f32) (x2 : Vec F S1024x64 .f32) (x3 : Vec F S1024x64 .f32) (x4 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__linear_kernel i arg1 harg1 arg2 harg2 arg3 harg3 arg4 harg4 arg5 harg5 arg6 harg6) K := by
  simp only [cc5__linear_kernel_eq_skeleton]; unfold cc5__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data's fields, window by window -/

/-- What the body leaves in each input window's buffer: its block. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]

/-- The output window's buffer after the body, as one store over the input blocks. -/
theorem after5_5_out (c : Dev nD) (t : Fin cfg5.N) : (dat5 V c).after 5 t
    = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's owed amounts, and each window's current
    staging buffer at what the pipeline has put there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's owed amounts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5_out]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Stages.lean ====
/- The contents of the kernel program's unscoped buffers between the items of @main, with nothing left unknown:
   each region's output array is what the pipeline library computes from that region's proof data
   (`Dat.arrAt … N`: the write-backs folded over the entry contents), every other buffer what the item before
   left. These are the values at which the conditional frame's unknowns `outs` are taken. -/
import proofs.«427327_j68599217652368_1_alg».proof.Proof.Gen.Kernel.Regions
import proofs.«427327_j68599217652368_1_alg».proof.Proof.K.Agg0
import proofs.«427327_j68599217652368_1_alg».proof.Proof.K.Lin1
import proofs.«427327_j68599217652368_1_alg».proof.Proof.K.Agg2
import proofs.«427327_j68599217652368_1_alg».proof.Proof.K.Lin3
import proofs.«427327_j68599217652368_1_alg».proof.Proof.K.Agg4
import proofs.«427327_j68599217652368_1_alg».proof.Proof.K.Lin5
import Idealize.ShloMosaic.Lib.Pipeline.FrameSuffix

noncomputable section

namespace Cert.Kernel.Hand

open Cert.Kernel Cert.Kernel.Gen
open Idealize.ShloMosaic Idealize.ShloMosaic.TcCoe Idealize.SL.Sem
open Idealize.ShloMosaic.Pipeline (Dat)
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
variable (m : (ℓ : Loc nD τ sig) → Buf (Elt F) ℓ)

/-- A valuation read at the TensorCore's references: the form the regions' proof data take their entry contents in. -/
abbrev atTc (X : Dev nD → Valuation τ sig (Elt F)) : (c : Dev nD) → (b : Ref sig .tc) → Buf (Elt F) ((c : Thread nD τ).loc b) :=
  fun c b => X c b

/-- Before region 0: the launch contents after the first host stretch. -/
abbrev X1 (c : Dev nD) : Valuation τ sig (Elt F) := V1 m c
/-- Region 0's arrays at what its write-backs leave, every other buffer as entered. -/
def Y2 (c : Dev nD) : Valuation τ sig (Elt F) :=
  Pipeline.withArrays spec0 c (X1 m c) fun w => (dat0 (atTc (X1 m)) c).arrAt w cfg0.N
/-- After region 0: only its output array `main_v35` has changed. -/
abbrev X2 (c : Dev nD) : Valuation τ sig (Elt F) := Function.update (X1 m c) main_v35 (Y2 m c main_v35)
abbrev X3 (c : Dev nD) : Valuation τ sig (Elt F) := StableHlo.after hostOps1 (X2 m c)
def Y4 (c : Dev nD) : Valuation τ sig (Elt F) :=
  Pipeline.withArrays spec1 c (X3 m c) fun w => (dat1 (atTc (X3 m)) c).arrAt w cfg1.N
abbrev X4 (c : Dev nD) : Valuation τ sig (Elt F) := Function.update (X3 m c) main_v37 (Y4 m c main_v37)
def Y5 (c : Dev nD) : Valuation τ sig (Elt F) :=
  Pipeline.withArrays spec2 c (X4 m c) fun w => (dat2 (atTc (X4 m)) c).arrAt w cfg2.N
abbrev X5 (c : Dev nD) : Valuation τ sig (Elt F) := Function.update (X4 m c) main_v38 (Y5 m c main_v38)
abbrev X6 (c : Dev nD) : Valuation τ sig (Elt F) := StableHlo.after hostOps3 (X5 m c)
def Y7 (c : Dev nD) : Valuation τ sig (Elt F) :=
  Pipeline.withArrays spec3 c (X6 m c) fun w => (dat3 (atTc (X6 m)) c).arrAt w cfg3.N
abbrev X7 (c : Dev nD) : Valuation τ sig (Elt F) := Function.update (X6 m c) main_v40 (Y7 m c main_v40)
def Y8 (c : Dev nD) : Valuation τ sig (Elt F) :=
  Pipeline.withArrays spec4 c (X7 m c) fun w => (dat4 (atTc (X7 m)) c).arrAt w cfg4.N
abbrev X8 (c : Dev nD) : Valuation τ sig (Elt F) := Function.update (X7 m c) main_v41 (Y8 m c main_v41)
abbrev X9 (c : Dev nD) : Valuation τ sig (Elt F) := StableHlo.after hostOps5 (X8 m c)
def Y10 (c : Dev nD) : Valuation τ sig (Elt F) :=
  Pipeline.withArrays spec5 c (X9 m c) fun w => (dat5 (atTc (X9 m)) c).arrAt w cfg5.N

/-- What the regions leave, item by item: the unknowns of the conditional frame, named. -/
def outs : Outs (F := F) := fun J r c =>
  match J with
  | 2 => Y2 m c r
  | 4 => Y4 m c r
  | 5 => Y5 m c r
  | 7 => Y7 m c r
  | 8 => Y8 m c r
  | 10 => Y10 m c r
  | _ => X1 m c r

/-- The generated valuations at these contents are the stages above. -/
theorem V2_eq (c : Dev nD) : V2 m (outs m) c = X2 m c := rfl
theorem V3_eq (c : Dev nD) : V3 m (outs m) c = X3 m c := rfl
theorem V4_eq (c : Dev nD) : V4 m (outs m) c = X4 m c := rfl
theorem V5_eq (c : Dev nD) : V5 m (outs m) c = X5 m c := rfl
theorem V6_eq (c : Dev nD) : V6 m (outs m) c = X6 m c := rfl
theorem V7_eq (c : Dev nD) : V7 m (outs m) c = X7 m c := rfl
theorem V8_eq (c : Dev nD) : V8 m (outs m) c = X8 m c := rfl
theorem V9_eq (c : Dev nD) : V9 m (outs m) c = X9 m c := rfl

/-- Each region's output array after it, by name. -/
theorem outs2 (c : Dev nD) : outs m 2 main_v35 c = (dat0 (atTc (X1 m)) c).arrAt 2 cfg0.N := by
  show Y2 m c main_v35 = _; unfold Y2; exact Pipeline.withArrays_arr spec0 launch0.win.arr_inj c _ _ 2
theorem outs4 (c : Dev nD) : outs m 4 main_v37 c = (dat1 (atTc (X3 m)) c).arrAt 5 cfg1.N := by
  show Y4 m c main_v37 = _; unfold Y4; exact Pipeline.withArrays_arr spec1 launch1.win.arr_inj c _ _ 5
theorem outs5 (c : Dev nD) : outs m 5 main_v38 c = (dat2 (atTc (X4 m)) c).arrAt 2 cfg2.N := by
  show Y5 m c main_v38 = _; unfold Y5; exact Pipeline.withArrays_arr spec2 launch2.win.arr_inj c _ _ 2
theorem outs7 (c : Dev nD) : outs m 7 main_v40 c = (dat3 (atTc (X6 m)) c).arrAt 5 cfg3.N := by
  show Y7 m c main_v40 = _; unfold Y7; exact Pipeline.withArrays_arr spec3 launch3.win.arr_inj c _ _ 5
theorem outs8 (c : Dev nD) : outs m 8 main_v41 c = (dat4 (atTc (X7 m)) c).arrAt 2 cfg4.N := by
  show Y8 m c main_v41 = _; unfold Y8; exact Pipeline.withArrays_arr spec4 launch4.win.arr_inj c _ _ 2
theorem outs10 (c : Dev nD) : outs m 10 main_v43 c = (dat5 (atTc (X9 m)) c).arrAt 5 cfg5.N := by
  show Y10 m c main_v43 = _; unfold Y10; exact Pipeline.withArrays_arr spec5 launch5.win.arr_inj c _ _ 5

/-! ## The proof data family and what rides beside the buffers -/

local notation "𝕄" => MT nD τ sig Unit (Elt F) ℕ (UR sig nD τ) ℕ

/-- Every pipeline's proof data, each at its region's entry contents: a literal match on the pipeline. -/
def pdats : (p : Fin 6) → (c : Dev nD) → Dat τ (Elt F) Unit ℕ (UR sig nD τ) ℕ (cfgs p) c
  | ⟨0, _⟩ => fun c => dat0 (atTc (X1 m)) c
  | ⟨1, _⟩ => fun c => dat1 (atTc (X3 m)) c
  | ⟨2, _⟩ => fun c => dat2 (atTc (X4 m)) c
  | ⟨3, _⟩ => fun c => dat3 (atTc (X6 m)) c
  | ⟨4, _⟩ => fun c => dat4 (atTc (X7 m)) c
  | ⟨5, _⟩ => fun c => dat5 (atTc (X9 m)) c

/-- No core owes another anything: no level is assigned. -/
abbrev L0 : GSem nD τ sig → Finset Unit := fun _ => ∅
abbrev lv0 : GSem nD τ sig → Unit → ℕ := fun _ _ => 0
/-- What rides beside the buffers through every item: the core's generator register at some state and its
    `owes`, at nothing. -/
abbrev Rst (c : Dev nD) : sProp 𝕄 := iprop((∃ r, prngReg c r) ∗ ∃ W, owes (c : Thread nD τ) (0 : CellTallies nD τ sig Unit) W)
/-- The rest states of the conditional frame: the same at every boundary. -/
abbrev Est : Fin 7 → Dev nD → sProp 𝕄 := fun _ c => Rst (F := F) c

end Cert.Kernel.Hand

end
-- ==== Proof.K.RegsAgg.lean ====
/- The segment records of the three aggregation regions (regions 0, 2 and 4 of @main) over the thread state "every
   unscoped buffer of the core whole at the stage's valuation, the generator register at some state, nothing owed",
   generic in the float family. A region is entered at the valuation before it and left at that valuation updated at
   its output array alone, which then holds what the pipeline's write-backs leave. Each record splits the region's
   three arrays out of the unscoped buffers at the entry, hands the generator register and the scoped rest to the
   region's invariant at the first point and takes them back at the last, and puts the arrays back at the exit: the two
   input arrays as entered, the output array at its folded write-backs, every other buffer untouched. -/
import proofs.«427327_j68599217652368_1_alg».proof.Proof.K.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships over the program's references recurse past the default depth
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # Region 0: entered at X1, left at X2 -/

/-- At region 0's exit each of its arrays holds what the pipeline leaves: the two input arrays are not the output's
    buffer, so the exit contents there are the entry contents, which an input array keeps through every point; the
    output array holds its folded write-backs. -/
theorem hF0 (c : Dev nD) (w : Fin cfg0.W) :
    (dat0 (atTc (X1 m)) c).arrAt w cfg0.N = atTc (X2 m) c (Pipeline.arrRef spec0 w) := by
  match w with
  | ⟨0, _⟩ =>
    show _ = Function.update (X1 m c) main_v35 (Y2 m c main_v35) (Proc.devRef .tc main_v31)
    rw [Function.update_of_ne (StableHlo.devRef_ne_of_ne (by decide))]
    exact ((dat0 (atTc (X1 m)) c).arrAt_in 0 rfl _).trans (A_eq0 (atTc (X1 m)) c 0)
  | ⟨1, _⟩ =>
    show _ = Function.update (X1 m c) main_v35 (Y2 m c main_v35) (Proc.devRef .tc main_v34)
    rw [Function.update_of_ne (StableHlo.devRef_ne_of_ne (by decide))]
    exact ((dat0 (atTc (X1 m)) c).arrAt_in 1 rfl _).trans (A_eq0 (atTc (X1 m)) c 1)
  | ⟨2, _⟩ =>
    show _ = Function.update (X1 m c) main_v35 (Y2 m c main_v35) (Proc.devRef .tc main_v35)
    rw [Function.update_self]
    unfold Y2
    exact (Pipeline.withArrays_arr spec0 launch0.win.arr_inj c (X1 m c)
      (fun w => (dat0 (atTc (X1 m)) c).arrAt w cfg0.N) 2).symm

/-- Every buffer that is no array of region 0 holds at its exit what it held at its entry: only the output array's
    buffer differs between the two valuations. -/
theorem hrest0 (c : Dev nD) :
    ∀ b, b ∉ Finset.univ.image (Pipeline.arrRef spec0) → atTc (X2 m) c b = atTc (X1 m) c b :=
  fun b hb => Function.update_of_ne
    (StableHlo.devRef_ne_of_ne fun e => hb (Finset.mem_image.mpr ⟨2, Finset.mem_univ _, e.symm⟩)) _ _

-- a library lemma stated over the pinned configuration unifies with the printed one only when unification may unfold
-- plain definitions in a metavariable's type
set_option backward.isDefEq.respectTransparency.types false in
/-- REGION 0 over the thread state: entered from every unscoped buffer at X1, left at X2. Its arrays split
    out of the unscoped buffers and put back at the exit contents; the generator register and the scoped rest into the
    region's invariant at the first point and out of it at the last; nothing owed; no semaphore of the kernel's own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc (X1 m)) c).loose
  hwaits := Pipeline.hwaits_of_owed_zero _ _ _ _ L0 lv0 0 fun _ _ => rfl
  pre c := iprop(StableHlo.held (c : Thread nD τ) (Pipeline.ucRefs τ sig) (X1 m c) ∗ Rst c)
  post c := iprop(StableHlo.held (c : Thread nD τ) (Pipeline.ucRefs τ sig) (X2 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec0 c : sProp 𝕄) from by
      unfold Pipeline.ΦA
      iintro ⟨Hp, -, Hr⟩
      isplitl [Hr]; · iexact Hr
      iexact Hp).trans (hin0 (atTc (X1 m)) c)
  hout c := by
    rw [Pipeline.ownSems0_none]
    exact (hout0 (atTc (X1 m)) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X1 m) c) (atTc (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record's thread states are the stage valuations' by name. -/
theorem reg0_pre (c : Dev nD) :
    (reg0 m).pre c = iprop(StableHlo.held (c : Thread nD τ) (Pipeline.ucRefs τ sig) (X1 m c) ∗ Rst c) := rfl
theorem reg0_post (c : Dev nD) :
    (reg0 m).post c = iprop(StableHlo.held (c : Thread nD τ) (Pipeline.ucRefs τ sig) (X2 m c) ∗ Rst c) := rfl

/-! # Region 2: entered at X4, left at X5 -/

/-- At region 2's exit each of its arrays holds what the pipeline leaves: the two input arrays are not the output's
    buffer, so the exit contents there are the entry contents, which an input array keeps through every point; the
    output array holds its folded write-backs. -/
theorem hF2 (c : Dev nD) (w : Fin cfg2.W) :
    (dat2 (atTc (X4 m)) c).arrAt w cfg2.N = atTc (X5 m) c (Pipeline.arrRef spec2 w) := by
  match w with
  | ⟨0, _⟩ =>
    show _ = Function.update (X4 m c) main_v38 (Y5 m c main_v38) (Proc.devRef .tc main_v31)
    rw [Function.update_of_ne (StableHlo.devRef_ne_of_ne (by decide))]
    exact ((dat2 (atTc (X4 m)) c).arrAt_in 0 rfl _).trans (A_eq2 (atTc (X4 m)) c 0)
  | ⟨1, _⟩ =>
    show _ = Function.update (X4 m c) main_v38 (Y5 m c main_v38) (Proc.devRef .tc main_v37)
    rw [Function.update_of_ne (StableHlo.devRef_ne_of_ne (by decide))]
    exact ((dat2 (atTc (X4 m)) c).arrAt_in 1 rfl _).trans (A_eq2 (atTc (X4 m)) c 1)
  | ⟨2, _⟩ =>
    show _ = Function.update (X4 m c) main_v38 (Y5 m c main_v38) (Proc.devRef .tc main_v38)
    rw [Function.update_self]
    unfold Y5
    exact (Pipeline.withArrays_arr spec2 launch2.win.arr_inj c (X4 m c)
      (fun w => (dat2 (atTc (X4 m)) c).arrAt w cfg2.N) 2).symm

/-- Every buffer that is no array of region 2 holds at its exit what it held at its entry: only the output array's
    buffer differs between the two valuations. -/
theorem hrest2 (c : Dev nD) :
    ∀ b, b ∉ Finset.univ.image (Pipeline.arrRef spec2) → atTc (X5 m) c b = atTc (X4 m) c b :=
  fun b hb => Function.update_of_ne
    (StableHlo.devRef_ne_of_ne fun e => hb (Finset.mem_image.mpr ⟨2, Finset.mem_univ _, e.symm⟩)) _ _

-- a library lemma stated over the pinned configuration unifies with the printed one only when unification may unfold
-- plain definitions in a metavariable's type
set_option backward.isDefEq.respectTransparency.types false in
/-- REGION 2 over the thread state: entered from every unscoped buffer at X4, left at X5. Its arrays split
    out of the unscoped buffers and put back at the exit contents; the generator register and the scoped rest into the
    region's invariant at the first point and out of it at the last; nothing owed; no semaphore of the kernel's own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atTc (X4 m)) c).loose
  hwaits := Pipeline.hwaits_of_owed_zero _ _ _ _ L0 lv0 2 fun _ _ => rfl
  pre c := iprop(StableHlo.held (c : Thread nD τ) (Pipeline.ucRefs τ sig) (X4 m c) ∗ Rst c)
  post c := iprop(StableHlo.held (c : Thread nD τ) (Pipeline.ucRefs τ sig) (X5 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (X4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec2 c : sProp 𝕄) from by
      unfold Pipeline.ΦA
      iintro ⟨Hp, -, Hr⟩
      isplitl [Hr]; · iexact Hr
      iexact Hp).trans (hin2 (atTc (X4 m)) c)
  hout c := by
    rw [Pipeline.ownSems0_none]
    exact (hout2 (atTc (X4 m)) c).trans (show (Pipeline.ΦA spec2 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X4 m) c) (atTc (X5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record's thread states are the stage valuations' by name. -/
theorem reg2_pre (c : Dev nD) :
    (reg2 m).pre c = iprop(StableHlo.held (c : Thread nD τ) (Pipeline.ucRefs τ sig) (X4 m c) ∗ Rst c) := rfl
theorem reg2_post (c : Dev nD) :
    (reg2 m).post c = iprop(StableHlo.held (c : Thread nD τ) (Pipeline.ucRefs τ sig) (X5 m c) ∗ Rst c) := rfl

/-! # Region 4: entered at X7, left at X8 -/

/-- At region 4's exit each of its arrays holds what the pipeline leaves: the two input arrays are not the output's
    buffer, so the exit contents there are the entry contents, which an input array keeps through every point; the
    output array holds its folded write-backs. -/
theorem hF4 (c : Dev nD) (w : Fin cfg4.W) :
    (dat4 (atTc (X7 m)) c).arrAt w cfg4.N = atTc (X8 m) c (Pipeline.arrRef spec4 w) := by
  match w with
  | ⟨0, _⟩ =>
    show _ = Function.update (X7 m c) main_v41 (Y8 m c main_v41) (Proc.devRef .tc main_v31)
    rw [Function.update_of_ne (StableHlo.devRef_ne_of_ne (by decide))]
    exact ((dat4 (atTc (X7 m)) c).arrAt_in 0 rfl _).trans (A_eq4 (atTc (X7 m)) c 0)
  | ⟨1, _⟩ =>
    show _ = Function.update (X7 m c) main_v41 (Y8 m c main_v41) (Proc.devRef .tc main_v40)
    rw [Function.update_of_ne (StableHlo.devRef_ne_of_ne (by decide))]
    exact ((dat4 (atTc (X7 m)) c).arrAt_in 1 rfl _).trans (A_eq4 (atTc (X7 m)) c 1)
  | ⟨2, _⟩ =>
    show _ = Function.update (X7 m c) main_v41 (Y8 m c main_v41) (Proc.devRef .tc main_v41)
    rw [Function.update_self]
    unfold Y8
    exact (Pipeline.withArrays_arr spec4 launch4.win.arr_inj c (X7 m c)
      (fun w => (dat4 (atTc (X7 m)) c).arrAt w cfg4.N) 2).symm

/-- Every buffer that is no array of region 4 holds at its exit what it held at its entry: only the output array's
    buffer differs between the two valuations. -/
theorem hrest4 (c : Dev nD) :
    ∀ b, b ∉ Finset.univ.image (Pipeline.arrRef spec4) → atTc (X8 m) c b = atTc (X7 m) c b :=
  fun b hb => Function.update_of_ne
    (StableHlo.devRef_ne_of_ne fun e => hb (Finset.mem_image.mpr ⟨2, Finset.mem_univ _, e.symm⟩)) _ _

-- a library lemma stated over the pinned configuration unifies with the printed one only when unification may unfold
-- plain definitions in a metavariable's type
set_option backward.isDefEq.respectTransparency.types false in
/-- REGION 4 over the thread state: entered from every unscoped buffer at X7, left at X8. Its arrays split
    out of the unscoped buffers and put back at the exit contents; the generator register and the scoped rest into the
    region's invariant at the first point and out of it at the last; nothing owed; no semaphore of the kernel's own. -/
def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atTc (X7 m)) c).loose
  hwaits := Pipeline.hwaits_of_owed_zero _ _ _ _ L0 lv0 4 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (X7 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec4 c : sProp 𝕄) from by
      unfold Pipeline.ΦA
      iintro ⟨Hp, -, Hr⟩
      isplitl [Hr]; · iexact Hr
      iexact Hp).trans (hin4 (atTc (X7 m)) c)
  hout c := by
    rw [Pipeline.ownSems0_none]
    exact (hout4 (atTc (X7 m)) c).trans (show (Pipeline.ΦA spec4 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (X7 m) c) (atTc (X8 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record's thread states are the stage valuations' by name. -/
theorem reg4_pre (c : Dev nD) :
    (reg4 m).pre c = iprop(StableHlo.held (c : Thread nD τ) (Pipeline.ucRefs τ sig) (X7 m c) ∗ Rst c) := rfl
theorem reg4_post (c : Dev nD) :
    (reg4 m).post c = iprop(StableHlo.held (c : Thread nD τ) (Pipeline.ucRefs τ sig) (X8 m c) ∗ Rst c) := rfl

end Cert.Kernel.Hand

end
-- ==== Proof.K.RegsLin.lean ====
import proofs.«427327_j68599217652368_1_alg».proof.Proof.K.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear regions of @main as segments of its run

Each of the three linear regions (custom_calls 1, 3, 5) is entered with every unscoped buffer of the core at the
contents the items before it leave and is left with the same buffers, its output array alone changed: to what the
pipeline's write-backs make of it. Beside the buffers ride the core's generator register and its owed amounts,
at nothing, untouched. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After region 5: only its output array `main_v43` has changed, to what its write-backs leave in it. -/
abbrev X10 (c : Dev nD) : Valuation τ sig (Elt F) := Function.update (X9 m c) main_v43 (Y10 m c main_v43)
/-- The last region's exit contents are the conditional frame's valuation after it, at the named contents. -/
theorem V10_eq (c : Dev nD) : V10 m (outs m) c = X10 m c := rfl

/-! # Region 1: entered at `X3`, left at `X4` -/

/-- At the region's exit each of its arrays holds what the pipeline leaves in it: an input's array is never written
    back to, so it holds its entry contents, and its buffer is not the output's, which alone the exit contents
    change; the output's array holds its write-backs folded over the entry contents, which is how the exit
    contents are defined there. -/
theorem hF1 (c : Dev nD) : ∀ w : Fin cfg1.W, (dat1 (atTc (X3 m)) c).arrAt w cfg1.N = atTc (X4 m) c (Pipeline.arrRef spec1 w)
  | ⟨0, _⟩ => ((dat1 (atTc (X3 m)) c).arrAt_in 0 rfl _).trans ((A_eq1 (atTc (X3 m)) c 0).trans
      (Function.update_of_ne (StableHlo.devRef_ne_of_ne (by decide)) _ _).symm)
  | ⟨1, _⟩ => ((dat1 (atTc (X3 m)) c).arrAt_in 1 rfl _).trans ((A_eq1 (atTc (X3 m)) c 1).trans
      (Function.update_of_ne (StableHlo.devRef_ne_of_ne (by decide)) _ _).symm)
  | ⟨2, _⟩ => ((dat1 (atTc (X3 m)) c).arrAt_in 2 rfl _).trans ((A_eq1 (atTc (X3 m)) c 2).trans
      (Function.update_of_ne (StableHlo.devRef_ne_of_ne (by decide)) _ _).symm)
  | ⟨3, _⟩ => ((dat1 (atTc (X3 m)) c).arrAt_in 3 rfl _).trans ((A_eq1 (atTc (X3 m)) c 3).trans
      (Function.update_of_ne (StableHlo.devRef_ne_of_ne (by decide)) _ _).symm)
  | ⟨4, _⟩ => ((dat1 (atTc (X3 m)) c).arrAt_in 4 rfl _).trans ((A_eq1 (atTc (X3 m)) c 4).trans
      (Function.update_of_ne (StableHlo.devRef_ne_of_ne (by decide)) _ _).symm)
  | ⟨5, _⟩ => by
      show _ = Function.update (X3 m c) main_v37 (Y4 m c main_v37) main_v37
      rw [Function.update_self]; exact (outs4 m c).symm

/-- Every buffer that is no array of the region holds at the exit what it held at entry: it is not the output's. -/
theorem hrest1 (c : Dev nD) : ∀ b, b ∉ Finset.univ.image (Pipeline.arrRef spec1) → atTc (X4 m) c b = atTc (X3 m) c b :=
  fun b hb => Function.update_of_ne (StableHlo.devRef_ne_of_ne fun e =>
    hb (Finset.mem_image.mpr ⟨5, Finset.mem_univ _, e.symm⟩)) _ _

set_option backward.isDefEq.respectTransparency.types false in
/-- The region over the thread state: entered from every unscoped buffer at `X3`, left at `X4`. Its arrays
    are split out of the unscoped buffers at entry and put back at the exit contents; the generator register goes
    into the pipeline's invariant and comes out; nothing is owed; the kernel has no semaphore of its own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atTc (X3 m)) c).loose
  hwaits := Pipeline.hwaits_of_owed_zero _ _ _ _ L0 lv0 1 fun _ _ => rfl
  pre c := iprop(StableHlo.held (c : Thread nD τ) (Pipeline.ucRefs τ sig) (X3 m c) ∗ Rst c)
  post c := iprop(StableHlo.held (c : Thread nD τ) (Pipeline.ucRefs τ sig) (X4 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X3 m) c) (atTc (X4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's thread states are the boundary's buffers beside the rest, as stated. -/
example (c : Dev nD) : (reg1 m).pre c = iprop(StableHlo.held (c : Thread nD τ) (Pipeline.ucRefs τ sig) (X3 m c) ∗ Rst c) := rfl
example (c : Dev nD) : (reg1 m).post c = iprop(StableHlo.held (c : Thread nD τ) (Pipeline.ucRefs τ sig) (X4 m c) ∗ Rst c) := rfl

/-! # Region 3: entered at `X6`, left at `X7` -/

/-- At the region's exit each of its arrays holds what the pipeline leaves in it: an input's array is never written
    back to, so it holds its entry contents, and its buffer is not the output's, which alone the exit contents
    change; the output's array holds its write-backs folded over the entry contents, which is how the exit
    contents are defined there. -/
theorem hF3 (c : Dev nD) : ∀ w : Fin cfg3.W, (dat3 (atTc (X6 m)) c).arrAt w cfg3.N = atTc (X7 m) c (Pipeline.arrRef spec3 w)
  | ⟨0, _⟩ => ((dat3 (atTc (X6 m)) c).arrAt_in 0 rfl _).trans ((A_eq3 (atTc (X6 m)) c 0).trans
      (Function.update_of_ne (StableHlo.devRef_ne_of_ne (by decide)) _ _).symm)
  | ⟨1, _⟩ => ((dat3 (atTc (X6 m)) c).arrAt_in 1 rfl _).trans ((A_eq3 (atTc (X6 m)) c 1).trans
      (Function.update_of_ne (StableHlo.devRef_ne_of_ne (by decide)) _ _).symm)
  | ⟨2, _⟩ => ((dat3 (atTc (X6 m)) c).arrAt_in 2 rfl _).trans ((A_eq3 (atTc (X6 m)) c 2).trans
      (Function.update_of_ne (StableHlo.devRef_ne_of_ne (by decide)) _ _).symm)
  | ⟨3, _⟩ => ((dat3 (atTc (X6 m)) c).arrAt_in 3 rfl _).trans ((A_eq3 (atTc (X6 m)) c 3).trans
      (Function.update_of_ne (StableHlo.devRef_ne_of_ne (by decide)) _ _).symm)
  | ⟨4, _⟩ => ((dat3 (atTc (X6 m)) c).arrAt_in 4 rfl _).trans ((A_eq3 (atTc (X6 m)) c 4).trans
      (Function.update_of_ne (StableHlo.devRef_ne_of_ne (by decide)) _ _).symm)
  | ⟨5, _⟩ => by
      show _ = Function.update (X6 m c) main_v40 (Y7 m c main_v40) main_v40
      rw [Function.update_self]; exact (outs7 m c).symm

/-- Every buffer that is no array of the region holds at the exit what it held at entry: it is not the output's. -/
theorem hrest3 (c : Dev nD) : ∀ b, b ∉ Finset.univ.image (Pipeline.arrRef spec3) → atTc (X7 m) c b = atTc (X6 m) c b :=
  fun b hb => Function.update_of_ne (StableHlo.devRef_ne_of_ne fun e =>
    hb (Finset.mem_image.mpr ⟨5, Finset.mem_univ _, e.symm⟩)) _ _

set_option backward.isDefEq.respectTransparency.types false in
/-- The region over the thread state: entered from every unscoped buffer at `X6`, left at `X7`. Its arrays
    are split out of the unscoped buffers at entry and put back at the exit contents; the generator register goes
    into the pipeline's invariant and comes out; nothing is owed; the kernel has no semaphore of its own. -/
def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atTc (X6 m)) c).loose
  hwaits := Pipeline.hwaits_of_owed_zero _ _ _ _ L0 lv0 3 fun _ _ => rfl
  pre c := iprop(StableHlo.held (c : Thread nD τ) (Pipeline.ucRefs τ sig) (X6 m c) ∗ Rst c)
  post c := iprop(StableHlo.held (c : Thread nD τ) (Pipeline.ucRefs τ sig) (X7 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (X6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X6 m) c) (atTc (X7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's thread states are the boundary's buffers beside the rest, as stated. -/
example (c : Dev nD) : (reg3 m).pre c = iprop(StableHlo.held (c : Thread nD τ) (Pipeline.ucRefs τ sig) (X6 m c) ∗ Rst c) := rfl
example (c : Dev nD) : (reg3 m).post c = iprop(StableHlo.held (c : Thread nD τ) (Pipeline.ucRefs τ sig) (X7 m c) ∗ Rst c) := rfl

/-! # Region 5: entered at `X9`, left at `X10` -/

/-- At the region's exit each of its arrays holds what the pipeline leaves in it: an input's array is never written
    back to, so it holds its entry contents, and its buffer is not the output's, which alone the exit contents
    change; the output's array holds its write-backs folded over the entry contents, which is how the exit
    contents are defined there. -/
theorem hF5 (c : Dev nD) : ∀ w : Fin cfg5.W, (dat5 (atTc (X9 m)) c).arrAt w cfg5.N = atTc (X10 m) c (Pipeline.arrRef spec5 w)
  | ⟨0, _⟩ => ((dat5 (atTc (X9 m)) c).arrAt_in 0 rfl _).trans ((A_eq5 (atTc (X9 m)) c 0).trans
      (Function.update_of_ne (StableHlo.devRef_ne_of_ne (by decide)) _ _).symm)
  | ⟨1, _⟩ => ((dat5 (atTc (X9 m)) c).arrAt_in 1 rfl _).trans ((A_eq5 (atTc (X9 m)) c 1).trans
      (Function.update_of_ne (StableHlo.devRef_ne_of_ne (by decide)) _ _).symm)
  | ⟨2, _⟩ => ((dat5 (atTc (X9 m)) c).arrAt_in 2 rfl _).trans ((A_eq5 (atTc (X9 m)) c 2).trans
      (Function.update_of_ne (StableHlo.devRef_ne_of_ne (by decide)) _ _).symm)
  | ⟨3, _⟩ => ((dat5 (atTc (X9 m)) c).arrAt_in 3 rfl _).trans ((A_eq5 (atTc (X9 m)) c 3).trans
      (Function.update_of_ne (StableHlo.devRef_ne_of_ne (by decide)) _ _).symm)
  | ⟨4, _⟩ => ((dat5 (atTc (X9 m)) c).arrAt_in 4 rfl _).trans ((A_eq5 (atTc (X9 m)) c 4).trans
      (Function.update_of_ne (StableHlo.devRef_ne_of_ne (by decide)) _ _).symm)
  | ⟨5, _⟩ => by
      show _ = Function.update (X9 m c) main_v43 (Y10 m c main_v43) main_v43
      rw [Function.update_self]; exact (outs10 m c).symm

/-- Every buffer that is no array of the region holds at the exit what it held at entry: it is not the output's. -/
theorem hrest5 (c : Dev nD) : ∀ b, b ∉ Finset.univ.image (Pipeline.arrRef spec5) → atTc (X10 m) c b = atTc (X9 m) c b :=
  fun b hb => Function.update_of_ne (StableHlo.devRef_ne_of_ne fun e =>
    hb (Finset.mem_image.mpr ⟨5, Finset.mem_univ _, e.symm⟩)) _ _

set_option backward.isDefEq.respectTransparency.types false in
/-- The region over the thread state: entered from every unscoped buffer at `X9`, left at `X10`. Its arrays
    are split out of the unscoped buffers at entry and put back at the exit contents; the generator register goes
    into the pipeline's invariant and comes out; nothing is owed; the kernel has no semaphore of its own. -/
def reg5 : Pipeline.RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atTc (X9 m)) c).loose
  hwaits := Pipeline.hwaits_of_owed_zero _ _ _ _ L0 lv0 5 fun _ _ => rfl
  pre c := iprop(StableHlo.held (c : Thread nD τ) (Pipeline.ucRefs τ sig) (X9 m c) ∗ Rst c)
  post c := iprop(StableHlo.held (c : Thread nD τ) (Pipeline.ucRefs τ sig) (X10 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (X9 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (X9 m) c) (atTc (X10 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's thread states are the boundary's buffers beside the rest, as stated. -/
example (c : Dev nD) : (reg5 m).pre c = iprop(StableHlo.held (c : Thread nD τ) (Pipeline.ucRefs τ sig) (X9 m c) ∗ Rst c) := rfl
example (c : Dev nD) : (reg5 m).post c = iprop(StableHlo.held (c : Thread nD τ) (Pipeline.ucRefs τ sig) (X10 m c) ∗ Rst c) := rfl

end Cert.Kernel.Hand

end
-- ==== Proof.K.RunFrame.lean ====
/- The kernel program's run: the generated conditional frame at the six regions' segment records and at the
   stage contents of `Stages`. `frame` is the program's frame claim at any float family. -/
import proofs.«427327_j68599217652368_1_alg».proof.Proof.K.RegsAgg
import proofs.«427327_j68599217652368_1_alg».proof.Proof.K.RegsLin
import Idealize.ShloMosaic.Lib.Pipeline.Kit

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element is the pipeline library's at every staging cell; no ghost resource is left over. -/
theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the generator register at its launch state and the launch's `owes` at nothing are the rest state. -/
theorem launch_rest_core (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ (iprop((∃ r, prngReg c r) ∗ ∃ W, owes (c : Thread nD τ) (0 : CellTallies nD τ sig Unit) W) : sProp 𝕄) := by
  iintro ⟨-, HO, -, Hp, -⟩
  isplitl [Hp]; · iexists _; iexact Hp
  iexists ∅; iexact HO

/-- What the launch deals every core makes the first rest state: the generator register at its launch state, nothing owed. -/
theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L0 lv0)
    ⊢ (|={Set.univ}=> bigSep Finset.univ (Est (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ bigSep Finset.univ (Est (F := F) 0) :=
    bigSep_mono fun c _ => launch_rest_core ρ c
  iintro ⟨H, -⟩
  imodintro
  iapply hmono
  iexact H

/-- THE FRAME of the kernel program at any float family: every weakly fair execution terminates, nothing faults, and the
    eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () Variants.none L0 lv0 (fun _ _ => rfl) ρ (outs m) (pdats m) 0 (fun _ => iprop(emp))
    (initOf (Pipeline.cells cfgs cellOf_inj) (Pipeline.launchToks cfgs cellOf_inj)) launch_own
    (Est (F := F)) (launch_rest ρ) (fun c => by iintro ⟨-, H⟩; iexact H)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)

end Cert.Kernel.Hand

end
-- ==== Proof.KI.Agg0.lean ====
/- The frame half of region 0 (custom_call 0, the aggregation kernel `cc0__agg_kernel`, pipeline `cfg0`, 40 grid
   points, k = t mod 8), generic in the float family and at a PARAMETER `V`: the TensorCore's buffer contents when the
   region is entered. The kernel carries a scratch accumulator between points: it is reset at the first point of each
   group of eight (k = 0), updated at every point by the product of the two input blocks, and stored into the output
   block at the last point of the group (k = 7); at the other points the output window is idle and not written back.
   The module states what the scratch holds after each point (`acc0`, with `acc0_reset` / `acc0_step`), what the
   output's staging buffer holds after a storing point (`after0_2_store`), the proof data `dat0`, the body obligation
   and the passage of the region invariant in and out. -/
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): the window is uncut and
    never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same for input window 1. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's first conditional (the reset of the accumulator), from the grid coordinates. -/
abbrev cond0_0 (i : grid0.Coords) : Prop := (Scalar.cmpi .ne (Scalar.extui (Scalar.cmpi .eq (BitVec.ofNat 32 (i 1).val) 0#32)) 0#32) = 1#1
/-- It holds at the points ≡ 0 (mod 8) — decided over the grid. -/
theorem hcond0_0 : ∀ t : Fin cfg0.N, cond0_0 (grid0.coords t) ↔ t.val % 8 = 0 :=
  (by decide +kernel : ∀ t : Fin grid0.N, cond0_0 (grid0.coords t) ↔ t.val % 8 = 0)

/-- The condition of the body's second conditional (the store of the accumulator into the output block). -/
abbrev cond0_1 (i : grid0.Coords) : Prop := k0_cond2 i = 1#1
/-- It holds at the points ≡ 7 (mod 8) — decided over the grid. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

/-- Windows 0 and 1 are never idle (inputs). -/
theorem liveAt0_0 : ∀ t : Fin cfg0.N, cfg0.idle 0 (grid0.coords t) = false := by decide +kernel
theorem liveAt0_1 : ∀ t : Fin cfg0.N, cfg0.idle 1 (grid0.coords t) = false := by decide +kernel
/-- At the points of case A the output window 2 is idle: the case stores nothing into it. -/
theorem idleAt0_2_A : ∀ t : Fin cfg0.N, cond0_0 (grid0.coords t) → ¬cond0_1 (grid0.coords t) → cfg0.idle 2 (grid0.coords t) = true := by decide +kernel
/-- At the points of case A the pipeline does not write output 2's block back. -/
theorem noFlush0_2_A : ∀ t : Fin cfg0.N, cond0_0 (grid0.coords t) → ¬cond0_1 (grid0.coords t) → (cfg0.win 2).flush t = false := by decide +kernel
/-- At the points of case B the output window 2 is idle. -/
theorem idleAt0_2_B : ∀ t : Fin cfg0.N, ¬cond0_0 (grid0.coords t) → ¬cond0_1 (grid0.coords t) → cfg0.idle 2 (grid0.coords t) = true := by decide +kernel
/-- At the points of case B the pipeline does not write output 2's block back. -/
theorem noFlush0_2_B : ∀ t : Fin cfg0.N, ¬cond0_0 (grid0.coords t) → ¬cond0_1 (grid0.coords t) → (cfg0.win 2).flush t = false := by decide +kernel
/-- At the points of case C the output window 2 is live: the case stores into it. -/
theorem liveAt0_2_C : ∀ t : Fin cfg0.N, ¬cond0_0 (grid0.coords t) → cond0_1 (grid0.coords t) → cfg0.idle 2 (grid0.coords t) = false := by decide +kernel

/-! ## The kernel body on any staging memrefs -/

/-- One staging buffer of output window 2, through which its contents are stated (the choice does not matter). -/
abbrev VO0_2 : View sig .tc .vmem S2048x128 .f32 := (Memref.whole cc0_stg2_0 : Memref sig .tc .vmem S2048x128 .f32).view
/-- Each window's current staging memref at point `t`, spelled as the pipeline passes it, and its wholeness. -/
abbrev ms0_0 (t : Fin cfg0.N) : Memref sig .tc .vmem S2048x1280 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1280x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2048x128 .f32 := win0_2.stage (cfg0.slots t 2)
abbrev hs0_2 (t : Fin cfg0.N) : (ms0_2 t).IsWhole := hstage0_2 ((cfg0.slots t 2).cast nbuf0_2)
/-- The scratch operand: a whole scoped buffer of the kernel's own, passed beside the windows. -/
abbrev scM0_0 : Memref sig .tc .vmem S2048x128 .f32 := Memref.whole cc0_scratch0
/-- The scratch the kernel carries between points, as a view: what it holds is stated through it. -/
abbrev VS0_0 : View sig .tc .vmem S2048x128 .f32 := scM0_0.view

/-- Every other scoped buffer of the core (the other calls' staging buffers and scratch), unopened: carried along
    unchanged at every point. -/
abbrev rest0 (c : Dev nD) : sProp 𝕄 :=
  Pipeline.scopedRestBut (Ix := Unit) (Name := ℕ) (U := UR sig nD τ) (Lvl := ℕ) (Val := Elt F) spec0 c [cc0_scratch0]

/-- The class's invariant with the scratch operand as a memref owned at some contents: what the body obligation
    hands the run and takes back. -/
theorem PhiA0_eq (c : Dev nD) :
    (Pipeline.ΦA spec0 c : sProp 𝕄)
      = iprop(iprop(iprop((∃ d, owns (c : Thread nD τ) scM0_0 fullShare d)) ∗ rest0 (F := F) c) ∗ (∃ r, prngReg c r)) := by
  unfold Pipeline.ΦA; rw [scopedRest0_split]; simp only [scM0_0, owns_whole]; try rfl

-- (the run's proof term is large: the definition's epilogue walks it past the default budget)
set_option maxHeartbeats 1000000 in
/-- What the body's stores leave in the output's staging memref and in the scratch, as pieces (last first), IN CASE A (the reset
    taken, the output store not taken: the points ≡ 0 mod 8), WITH the proof that on whole memrefs — the inputs' at their contents,
    the output's (idle: no store) at contents `xi2` handed back untouched, the scratch at anything — the body runs to the
    continuation holding the inputs' and the output's as they were and the scratch with its pieces written. The pieces are the
    witness the run finds. -/
noncomputable def kernelRun0_A (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__agg_kernel i arg2 harg2 arg3 harg3 arg4 harg4 arg5 harg5) K } := by
  refine ⟨[], ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE B (neither conditional taken: the points ≢ 0, 7 mod 8), the scratch entered at the contents the point
    before left (`xs0`). -/
noncomputable def kernelRun0_B (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) :
    Σ' (L2 : List (View.Piece (Elt F) S2048x128 .f32)), { LS0 : List (View.Piece (Elt F) S2048x128 .f32) //
      ∀ (xi2 : Vec F S2048x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__agg_kernel i arg2 harg2 arg3 harg3 arg4 harg4 arg5 harg5) K } := by
  refine ⟨[], ?_, fun xi2 E K => ?run⟩
  case run =>
    simp only [cc0__agg_kernel_eq_skeleton]; unfold cc0__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE C (the reset not taken, the output store taken: the points ≡ 7 mod 8), the scratch entered at the contents
    the point before left (`xs0`), the output's memref at anything and left with its pieces written. -/
noncomputable def kernelRun0_C (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) :
    Σ' (L2 : List (View.Piece (Elt F) S2048x128 .f32)), { LS0 : List (View.Piece (Elt F) S2048x128 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__agg_kernel i arg2 harg2 arg3 harg3 arg4 harg4 arg5 harg5) K } := by
  refine ⟨?_, ?_, fun E K => ?run⟩
  case run =>
    simp only [cc0__agg_kernel_eq_skeleton]; unfold cc0__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- Case A stores nothing into output 2 (the window is idle at its points and not written back there): no pieces — a
    placeholder (junk read back) that nothing consults. -/
def out0_A_2 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) : Vec F S2048x128 .f32 :=
  VO0_2.read (Elt F) (VO0_2.writes (Elt F) VO0_2.junk (kernelRun0_A c i arg2 harg2 arg3 harg3 arg4 harg4 arg5 harg5 hc0 hc1 x0 x1).1)

/-- Case A's pieces for the scratch, which the kernel carries between points, cover it. -/
theorem scover0_A_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) (y : S2048x128.Idx) :
    ∃ pc ∈ (kernelRun0_A c i arg2 harg2 arg3 harg3 arg4 harg4 arg5 harg5 hc0 hc1 x0 x1).2.1, y ∈ pc.1.set :=
  View.cover_of_tiledL (kernelRun0_A c i arg2 harg2 arg3 harg3 arg4 harg4 arg5 harg5 hc0 hc1 x0 x1).2.1 S2048x128.size (by sl_kernel_rfl) y

/-- What case A leaves in the scratch: its pieces read back over junk. -/
def sout0_A_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) : Vec F S2048x128 .f32 :=
  VS0_0.read (Elt F) (VS0_0.writes (Elt F) VS0_0.junk (kernelRun0_A c i arg2 harg2 arg3 harg3 arg4 harg4 arg5 harg5 hc0 hc1 x0 x1).2.1)

/-- Case B stores nothing into output 2 (the window is idle at its points and not written back there): no pieces — a
    placeholder (junk read back) that nothing consults. -/
def out0_B_2 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) : Vec F S2048x128 .f32 :=
  VO0_2.read (Elt F) (VO0_2.writes (Elt F) VO0_2.junk (kernelRun0_B c i arg2 harg2 arg3 harg3 arg4 harg4 arg5 harg5 hc0 hc1 x0 x1 xs0).1)

/-- Case B's pieces for the scratch, which the kernel carries between points, cover it. -/
theorem scover0_B_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) (y : S2048x128.Idx) :
    ∃ pc ∈ (kernelRun0_B c i arg2 harg2 arg3 harg3 arg4 harg4 arg5 harg5 hc0 hc1 x0 x1 xs0).2.1, y ∈ pc.1.set :=
  View.cover_of_tiledL (kernelRun0_B c i arg2 harg2 arg3 harg3 arg4 harg4 arg5 harg5 hc0 hc1 x0 x1 xs0).2.1 S2048x128.size (by sl_kernel_rfl) y

/-- What case B leaves in the scratch: its pieces read back over junk. -/
def sout0_B_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) : Vec F S2048x128 .f32 :=
  VS0_0.read (Elt F) (VS0_0.writes (Elt F) VS0_0.junk (kernelRun0_B c i arg2 harg2 arg3 harg3 arg4 harg4 arg5 harg5 hc0 hc1 x0 x1 xs0).2.1)

/-- Case C's pieces for output 2 tile its block (one store of the whole block), so they cover it. -/
theorem cover0_C_2 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) (y : S2048x128.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S2048x128.size (by sl_kernel_rfl) y

/-- What case C leaves in output 2's staging buffer: its pieces read back over junk. -/
def out0_C_2 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) : Vec F S2048x128 .f32 :=
  VO0_2.read (Elt F) (VO0_2.writes (Elt F) VO0_2.junk (kernelRun0_C c i arg2 harg2 arg3 harg3 arg4 harg4 arg5 harg5 hc0 hc1 x0 x1 xs0).1)

/-- Case C's pieces for the scratch, which the kernel carries between points, cover it. -/
theorem scover0_C_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) (y : S2048x128.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S2048x128.size (by sl_kernel_rfl) y

/-- What case C leaves in the scratch: its pieces read back over junk. -/
def sout0_C_0 (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) : Vec F S2048x128 .f32 :=
  VS0_0.read (Elt F) (VS0_0.writes (Elt F) VS0_0.junk (kernelRun0_C c i arg2 harg2 arg3 harg3 arg4 harg4 arg5 harg5 hc0 hc1 x0 x1 xs0).2.1)

/-! ## The found pieces, in the payloads -/

/-- Case B leaves the scratch at the update of what it held by the point's blocks. -/
theorem sout0_B_0_eq (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : ¬cond0_1 i)
    (x0 : Vec F S2048x1280 .bf16) (x1 : Vec F S1280x128 .f32) (xs0 : Vec F S2048x128 .f32) :
    sout0_B_0 c i arg2 harg2 arg3 harg3 arg4 harg4 arg5 harg5 hc0 hc1 x0 x1 xs0 = k0_pay2 x0 x1 xs0 := by
  have hz : (![0, 0] : Fin S2048x128.rank → Nat) = fun _ => 0 := by funext a; fin_cases a <;> rfl
  have hz0 : (![0, 0] : Fin S2048x1280.rank → Nat) = fun _ => 0 := by funext a; fin_cases a <;> rfl
  have hz1 : (![0, 0] : Fin S1280x128.rank → Nat) = fun _ => 0 := by funext a; fin_cases a <;> rfl
  unfold sout0_B_0
  rw [View.read_writes_eq_canon _ _ _ (scover0_B_0 c i arg2 harg2 arg3 harg3 arg4 harg4 arg5 harg5 hc0 hc1 x0 x1 xs0)]
  unfold kernelRun0_B; dsimp only
  sl_unfold_words
  rw [View.canon_unit_zero (S := S2048x128) hz]
  simp only [View.readAt_eq_ld, harg2.read_unread, harg3.read_unread, harg5.read_unread,
    View.ld_unit_zero (S := S2048x1280) hz0, View.ld_unit_zero (S := S1280x128) hz1, View.ld_unit_zero (S := S2048x128) hz,
    View.readCov_unit_zero (S := S2048x128) _ hz]

/-- Case A leaves the scratch at the update of the zero accumulator by the point's blocks: the reset, then the update
    read back over it. -/
theorem sout0_A_0_eq (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : cond0_0 i) (hc1 : ¬cond0_1 i)
    (x0 : Vec F S2048x1280 .bf16) (x1 : Vec F S1280x128 .f32) :
    sout0_A_0 c i arg2 harg2 arg3 harg3 arg4 harg4 arg5 harg5 hc0 hc1 x0 x1 = k0_pay2 x0 x1 (k0_pay1 (F := F)) := by
  have hz : (![0, 0] : Fin S2048x128.rank → Nat) = fun _ => 0 := by funext a; fin_cases a <;> rfl
  have hz0 : (![0, 0] : Fin S2048x1280.rank → Nat) = fun _ => 0 := by funext a; fin_cases a <;> rfl
  have hz1 : (![0, 0] : Fin S1280x128.rank → Nat) = fun _ => 0 := by funext a; fin_cases a <;> rfl
  unfold sout0_A_0
  rw [View.read_writes_eq_canon _ _ _ (scover0_A_0 c i arg2 harg2 arg3 harg3 arg4 harg4 arg5 harg5 hc0 hc1 x0 x1)]
  unfold kernelRun0_A; dsimp only
  sl_unfold_words
  rw [View.canon_cons_unit_zero (S := S2048x128) hz]
  simp only [View.readAt_eq_ld, harg2.read_unread, harg3.read_unread, harg5.read_unread,
    View.ld_unit_zero (S := S2048x1280) hz0, View.ld_unit_zero (S := S1280x128) hz1, View.ld_unit_zero (S := S2048x128) hz,
    View.readCov_unit_zero (S := S2048x128) _ hz]

/-- Case C leaves the scratch at the update of what it held by the point's blocks. -/
theorem sout0_C_0_eq (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) :
    sout0_C_0 c i arg2 harg2 arg3 harg3 arg4 harg4 arg5 harg5 hc0 hc1 x0 x1 xs0 = k0_pay2 x0 x1 xs0 := by
  have hz : (![0, 0] : Fin S2048x128.rank → Nat) = fun _ => 0 := by funext a; fin_cases a <;> rfl
  have hz0 : (![0, 0] : Fin S2048x1280.rank → Nat) = fun _ => 0 := by funext a; fin_cases a <;> rfl
  have hz1 : (![0, 0] : Fin S1280x128.rank → Nat) = fun _ => 0 := by funext a; fin_cases a <;> rfl
  unfold sout0_C_0
  rw [View.read_writes_eq_canon _ _ _ (scover0_C_0 c i arg2 harg2 arg3 harg3 arg4 harg4 arg5 harg5 hc0 hc1 x0 x1 xs0)]
  unfold kernelRun0_C; dsimp only
  sl_unfold_words
  rw [View.canon_unit_zero (S := S2048x128) hz]
  simp only [View.readAt_eq_ld, harg2.read_unread, harg3.read_unread, harg5.read_unread,
    View.ld_unit_zero (S := S2048x1280) hz0, View.ld_unit_zero (S := S1280x128) hz1, View.ld_unit_zero (S := S2048x128) hz,
    View.readCov_unit_zero (S := S2048x128) _ hz]

/-- Case C leaves the output's staging buffer at what it has just put in the scratch. -/
theorem out0_C_2_eq (c : Dev nD) (i : grid0.Coords) (arg2 : Memref sig .tc .vmem S2048x1280 .bf16) (harg2 : arg2.IsWhole) (arg3 : Memref sig .tc .vmem S1280x128 .f32) (harg3 : arg3.IsWhole) (arg4 : Memref sig .tc .vmem S2048x128 .f32) (harg4 : arg4.IsWhole) (arg5 : Memref sig .tc .vmem S2048x128 .f32) (harg5 : arg5.IsWhole) (hc0 : ¬cond0_0 i) (hc1 : cond0_1 i)
    (x0 : Vec F S2048x1280 .bf16) (x1 : Vec F S1280x128 .f32) (xs0 : Vec F S2048x128 .f32) :
    out0_C_2 c i arg2 harg2 arg3 harg3 arg4 harg4 arg5 harg5 hc0 hc1 x0 x1 xs0 = k0_pay2 x0 x1 xs0 := by
  have hz : (![0, 0] : Fin S2048x128.rank → Nat) = fun _ => 0 := by funext a; fin_cases a <;> rfl
  have hz0 : (![0, 0] : Fin S2048x1280.rank → Nat) = fun _ => 0 := by funext a; fin_cases a <;> rfl
  have hz1 : (![0, 0] : Fin S1280x128.rank → Nat) = fun _ => 0 := by funext a; fin_cases a <;> rfl
  unfold out0_C_2
  rw [View.read_writes_eq_canon _ _ _ (cover0_C_2 c i arg2 harg2 arg3 harg3 arg4 harg4 arg5 harg5 hc0 hc1 x0 x1 xs0)]
  unfold kernelRun0_C; dsimp only
  sl_unfold_words
  rw [View.canon_unit_zero (S := S2048x128) hz]
  simp only [View.readAt_eq_ld, harg2.read_unread, harg3.read_unread, harg5.read_unread,
    View.ld_unit_zero (S := S2048x1280) hz0, View.ld_unit_zero (S := S1280x128) hz1, View.ld_unit_zero (S := S2048x128) hz,
    View.readCov_unit_zero (S := S2048x128) _ hz]

/-! ## What the output and the scratch hold after each point -/

/-- THE ACCUMULATION. What output 2's staging buffer and the scratch hold after the body at position `n` (a pair: the
    output, then the scratch): the case the closed forms select at `n`, run at the point's memrefs and input blocks, the
    scratch entered at what this leaves at `n - 1`. -/
def outsAt0 (c : Dev nD) : (n : ℕ) → n < cfg0.N → Vec F S2048x128 .f32 × Vec F S2048x128 .f32
  | 0, hn => (out0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h0 : (n + 1) % 8 = 0 then
      if h1 : (n + 1) % 8 = 7 then
        False.elim (by omega)
      else
        (out0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      if h1 : (n + 1) % 8 = 7 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
      else
        (out0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

/-- `outsAt0` at a point of case A: that case's contents. -/
theorem outsAt0_A (c : Dev nD) (t : Fin cfg0.N) (h0 : t.val % 8 = 0) (h1 : ¬t.val % 8 = 7) :
    outsAt0 V c t.val t.isLt = (out0_A_2 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t), sout0_A_0 c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 8 = 0) (h1 : ¬t.val % 8 = 7) :
    outsAt0 V c t.val t.isLt = (out0_B_2 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 8 = 0) (h1 : t.val % 8 = 7) :
    outsAt0 V c t.val t.isLt = (out0_C_2 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2, sout0_C_0 c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the scratch holds after point `n`. -/
def acc0 (c : Dev nD) : (n : ℕ) → n < cfg0.N → Vec F S2048x128 .f32 := fun n hn => (outsAt0 V c n hn).2

/-- The region invariant before position `n`: before the first point the class's (the scratch at anything); afterwards
    the scratch at what the point before left in it, every other scoped buffer unopened, and the generator register at some
    state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2) ∗ rest0 (F := F) c) ∗ (∃ r, prngReg c r))

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2) ∗ rest0 (F := F) c) ∗ (∃ r, prngReg c r)) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2) ∗ rest0 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt0`; the invariant `PhiS`; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t` (the windows one by one), -/
def bodyPre (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
/-- The body at any point: the inputs' memrefs hold their blocks; the closed forms say which case the point is in; so that
    case's run applies; the invariant hands the body the carried scratch at what the point before left (at anything at the
    first point) and takes it back at this point's contents; every other scoped buffer, the generator register and the
    core's debts pass through unread. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1]
  rw [show (dat0 V c).owesAt () t.succ = (dat0 V c).owesAt () t.castSucc from rfl]
  rw [show (dat0 V c).Φ t.succ = PhiS V c (t.val + 1) t.isLt from rfl, PhiS_succ]
  by_cases h0 : t.val % 8 = 0
  · by_cases h1 : t.val % 8 = 7
    · exfalso; omega
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_A t ((hcond0_0 t).mpr h0) (fun h => h1 ((hcond0_1 t).mp h))) (noFlush0_2_A t ((hcond0_0 t).mpr h0) (fun h => h1 ((hcond0_1 t).mp h)))]
      rw [outsAt0_A V c t h0 h1]
      unfold sout0_A_0; (try dsimp only)
      by_cases hz : t.val = 0
      · rw [PhiS_castSucc V c t, PhiS_zero V c _ _ hz, PhiA0_eq]
        iintro ⟨⟨⟨HS0, Hr⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _)
            iexact Hr
          iexact Hg
        isplitl [Ho]; · iexact Ho
        isplitl [H0]; · iexact H0
        isplitl [H1]; · iexact H1
        iexists _; iexact H2
      · rw [PhiS_castSucc V c t, PhiS_pos V c _ _ hz]
        iintro ⟨⟨⟨HS0, Hr⟩, Hg⟩, Ho, ⟨%d0, H0⟩, ⟨%d1, H1⟩, ⟨%d2, H2⟩⟩
        iapply ((kernelRun0_A c (grid0.coords t) _ _ _ _ _ _ _ _ ((hcond0_0 t).mpr h0) (fun h => h1 ((hcond0_1 t).mp h)) (iblk0 V c 0 t) (iblk0 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover0_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2_C t (fun h => h0 ((hcond0_0 t).mp h)) ((hcond0_1 t).mpr h1)], after0_2]
      rw [outsAt0_C V c t h0 h1]
      unfold out0_C_2 sout0_C_0; (try dsimp only)
      rw [PhiS_castSucc V c t, PhiS_pos V c _ _ hz]
      iintro ⟨⟨⟨HS0, Hr⟩, Hg⟩, Ho, ⟨%d0, H0⟩, ⟨%d1, H1⟩, ⟨%d2, H2⟩⟩
      iapply ((kernelRun0_C c (grid0.coords t) _ _ _ _ _ _ _ _ (fun h => h0 ((hcond0_0 t).mp h)) ((hcond0_1 t).mpr h1) (iblk0 V c 0 t) (iblk0 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover0_C_2 c _ _ _ _ _ _ _ _ _ _ _ _ _ _)
    · rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [Dat.leavesExact_idle (dat0 V c) 2 t (idleAt0_2_B t (fun h => h0 ((hcond0_0 t).mp h)) (fun h => h1 ((hcond0_1 t).mp h))) (noFlush0_2_B t (fun h => h0 ((hcond0_0 t).mp h)) (fun h => h1 ((hcond0_1 t).mp h)))]
      rw [outsAt0_B V c t h0 h1]
      unfold sout0_B_0; (try dsimp only)
      rw [PhiS_castSucc V c t, PhiS_pos V c _ _ hz]
      iintro ⟨⟨⟨HS0, Hr⟩, Hg⟩, Ho, ⟨%d0, H0⟩, ⟨%d1, H1⟩, ⟨%d2, H2⟩⟩
      iapply ((kernelRun0_B c (grid0.coords t) _ _ _ _ _ _ _ _ (fun h => h0 ((hcond0_0 t).mp h)) (fun h => h1 ((hcond0_1 t).mp h)) (iblk0 V c 0 t) (iblk0 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover0_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation0 (c : Dev nD) : BodyObligation (dat0 (F := F) V c) (defs₀ (F := F)) Variants.none () Set.univ := fun t => by
  rw [bigSep_W0, bigSep_W0]
  exact sound_body V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the carried scratch's named contents are forgotten. -/
theorem Phi_out (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, Hr⟩, Hg⟩
  isplitl [HS0 Hr]
  · isplitl [HS0]
    · iexists _; iexact HS0
    iexact Hr
  iexact Hg

/-- The same after the last point. -/
theorem hout0 (c : Dev nD) : (dat0 V c).Φ (Fin.last cfg0.N) ⊢ Pipeline.ΦA spec0 c :=
  Phi_out V c _ (by rw [Fin.val_last]; have : cfg0.N = 40 := N_0; omega)

/-! ## What the scratch and the output hold, in the payloads -/

theorem acc0_eq (c : Dev nD) (n : ℕ) (hn : n < cfg0.N) : acc0 V c n hn = (outsAt0 V c n hn).2 := rfl

/-- At the first point of a group the scratch ends at the update of the zero accumulator by the point's blocks. -/
theorem acc0_reset (c : Dev nD) (t : Fin cfg0.N) (h : t.val % 8 = 0) :
    acc0 V c t.val t.isLt = k0_pay2 (iblk0 V c 0 t) (iblk0 V c 1 t) (k0_pay1 (F := F)) := by
  have h1 : ¬t.val % 8 = 7 := by omega
  rw [acc0_eq, outsAt0_A V c t h h1]; dsimp only
  exact sout0_A_0_eq c (grid0.coords t) (ms0_0 t) (hs0_0 t) (ms0_1 t) (hs0_1 t) (ms0_2 t) (hs0_2 t) scM0_0 (Memref.isWhole_whole _) ((hcond0_0 t).mpr h) (fun h' => h1 ((hcond0_1 t).mp h')) (iblk0 V c 0 t) (iblk0 V c 1 t)

/-- At any other point it ends at the update of what the point before left. -/
theorem acc0_step (c : Dev nD) (t : Fin cfg0.N) (h : t.val % 8 ≠ 0) :
    acc0 V c t.val t.isLt = k0_pay2 (iblk0 V c 0 t) (iblk0 V c 1 t) (acc0 V c (t.val - 1) (Nat.lt_of_le_of_lt (Nat.sub_le _ _) t.isLt)) := by
  rw [acc0_eq V c (t.val - 1), acc0_eq V c t.val]
  by_cases h1 : t.val % 8 = 7
  · rw [outsAt0_C V c t h h1]; dsimp only
    exact sout0_C_0_eq c (grid0.coords t) (ms0_0 t) (hs0_0 t) (ms0_1 t) (hs0_1 t) (ms0_2 t) (hs0_2 t) scM0_0 (Memref.isWhole_whole _) (fun h' => h ((hcond0_0 t).mp h')) ((hcond0_1 t).mpr h1) (iblk0 V c 0 t) (iblk0 V c 1 t) (outsAt0 V c (t.val - 1) (Nat.lt_of_le_of_lt (Nat.sub_le _ _) t.isLt)).2
  · rw [outsAt0_B V c t h h1]; dsimp only
    exact sout0_B_0_eq c (grid0.coords t) (ms0_0 t) (hs0_0 t) (ms0_1 t) (hs0_1 t) (ms0_2 t) (hs0_2 t) scM0_0 (Memref.isWhole_whole _) (fun h' => h ((hcond0_0 t).mp h')) (fun h' => h1 ((hcond0_1 t).mp h')) (iblk0 V c 0 t) (iblk0 V c 1 t) (outsAt0 V c (t.val - 1) (Nat.lt_of_le_of_lt (Nat.sub_le _ _) t.isLt)).2

/-- At the last point of a group the output's staging buffer is left at what the scratch ends at. -/
theorem after0_2_store (c : Dev nD) (t : Fin cfg0.N) (h : t.val % 8 = 7) : (dat0 V c).after 2 t = acc0 V c t.val t.isLt := by
  have h0 : ¬t.val % 8 = 0 := by omega
  rw [after0_2, acc0_eq, outsAt0_C V c t h0 h]; dsimp only
  exact (out0_C_2_eq c (grid0.coords t) (ms0_0 t) (hs0_0 t) (ms0_1 t) (hs0_1 t) (ms0_2 t) (hs0_2 t) scM0_0 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2).trans
    (sout0_C_0_eq c (grid0.coords t) (ms0_0 t) (hs0_0 t) (ms0_1 t) (hs0_1 t) (ms0_2 t) (hs0_2 t) scM0_0 (Memref.isWhole_whole _) (fun h' => h0 ((hcond0_0 t).mp h')) ((hcond0_1 t).mpr h) (iblk0 V c 0 t) (iblk0 V c 1 t) (outsAt0 V c (t.val - 1) (Nat.lt_of_le_of_lt (Nat.sub_le _ _) t.isLt)).2).symm

/-- The shares are full and nothing is owed, by definition. -/
example (c : Dev nD) (w : Fin cfg0.W) : (dat0 V c).q w = fullShare := rfl
example (c : Dev nD) (t : Fin (cfg0.N + 1)) : (dat0 V c).owed t = 0 := rfl

end Cert.KernelIdeal.Hand

end
-- ==== Proof.KI.Lin1.lean ====
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The linear layer's pipeline (custom_call 1): its frame half, at any float family

The region runs a grid of `cfg1.N` points. At a point the body reads five input windows whole — a block
of the aggregated features, the matching block of the layer's input, the two weight matrices and the bias —
and writes one output window whole: the payload `k1_pay1` of the five values read. The body also reads the
output buffer before it overwrites it; the value read is not used, so the buffer may hold anything.

Everything is stated at a parameter `V`: the buffer contents of the core when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- Every access of the body is through the whole-shape rectangle at offset zero of its buffer. -/
abbrev r1_0 : Rect S2048x128 := Rect.unit (s := S2048x128) ![0, 0] S2048x128.size inb_S2048x128_S2048x128_0_0
abbrev r1_2 : Rect S128x256 := Rect.unit (s := S128x256) ![0, 0] S128x256.size inb_S128x256_S128x256_0_0
abbrev r1_4 : Rect S1x256 := Rect.unit (s := S1x256) ![0, 0] S1x256.size inb_S1x256_S1x256_0_0
abbrev r1_5 : Rect S2048x256 := Rect.unit (s := S2048x256) ![0, 0] S2048x256.size inb_S2048x256_S2048x256_0_0

/-- The offsets of those rectangles are zero on both axes. -/
theorem zeros1 : (![0, 0] : Fin 2 → Nat) = fun _ => 0 := funext fun a => by fin_cases a <;> rfl

/-! ## What the body leaves in the output window's buffer -/

/-- Window 5's staging buffer after the body, from the five values read: its one store, which covers the
    buffer, as a single piece. -/
def out1_5 (x0 : Vec F S2048x128 .f32) (x1 : Vec F S2048x128 .f32) (x2 : Vec F S128x256 .f32) (x3 : Vec F S128x256 .f32)
    (x4 : Vec F S1x256 .f32) : Vec F S2048x256 .f32 :=
  View.canon [⟨r1_5, k1_pay1 (View.ld x0 r1_0) (View.ld x1 r1_0) (View.ld x2 r1_2) (View.ld x3 r1_2) (View.ld x4 r1_4)⟩]

/-- Its store tiles the buffer, so it covers it. -/
theorem cover1_5 (p0 : Vec F S2048x256 .f32) (y : S2048x256.Idx) :
    ∃ pc ∈ ([⟨r1_5, p0⟩] : List (View.Piece (Elt F) S2048x256 .f32)), y ∈ pc.1.set :=
  ⟨_, List.mem_singleton_self _, View.mem_set_unit_zero zeros1 inb_S2048x256_S2048x256_0_0 y⟩

/-! ## The pipeline's proof data -/

/-- The proof data of the pipeline on core `c`: the arrays as the region finds them (`V`); after the body at
    point `t` each input's buffer at its block and the output's at `out1_5` of the input blocks; the invariant
    keeps the scoped rest and the generator register untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

example (c : Dev nD) (t) : (dat1 V c).Φ t = Pipeline.ΦA spec1 c := rfl
example (c : Dev nD) (w) : (dat1 V c).q w = fullShare := rfl
example (c : Dev nD) (w) : (dat1 V c).owed w = 0 := rfl

/-- The output window after the body at a point: the payload of the five input blocks there. -/
theorem after1_5 (c : Dev nD) (t : Fin cfg1.N) : (dat1 V c).after 5 t = k1_pay1 (iblk1 V c 0 t) (iblk1 V c 1 t) (iblk1 V c 2 t) (iblk1 V c 3 t) (iblk1 V c 4 t) := by
  dsimp only [dat1]
  unfold out1_5
  rw [View.canon_unit_zero zeros1]
  simp only [View.ld_unit_zero (S := S2048x128) zeros1, View.ld_unit_zero (S := S128x256) zeros1,
    View.ld_unit_zero (S := S1x256) zeros1]

/-! ## What the body finds in each input window's buffer -/

/-- Input window 0's current staging buffer holds its block at every point, fetched there or not, for any proof
    data whose array is `V`'s (`hA`) and whose body leaves the block in place (`hafter`): where the window is not
    fetched its block index has not moved, so the block of the point before is this point's. The window is uncut
    and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not, for any proof
    data whose array is `V`'s (`hA`) and whose body leaves the block in place (`hafter`): where the window is not
    fetched its block index has not moved, so the block of the point before is this point's. The window is uncut
    and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not, for any proof
    data whose array is `V`'s (`hA`) and whose body leaves the block in place (`hafter`): where the window is not
    fetched its block index has not moved, so the block of the point before is this point's. The window is uncut
    and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not, for any proof
    data whose array is `V`'s (`hA`) and whose body leaves the block in place (`hafter`): where the window is not
    fetched its block index has not moved, so the block of the point before is this point's. The window is uncut
    and never idle. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not, for any proof
    data whose array is `V`'s (`hA`) and whose body leaves the block in place (`hafter`): where the window is not
    fetched its block index has not moved, so the block of the point before is this point's. The window is uncut
    and never idle. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's triple -/

set_option maxHeartbeats 1000000 in
/-- The kernel body on whole staging memrefs, the inputs' at read contents and the output's at anything, runs to
    the continuation holding the inputs' as they were and the output's at `out1_5` of the inputs': the printed
    function is its skeleton of memory operations, run one operation at a time. The load of the output buffer
    reads whatever it holds; its value goes nowhere. -/
theorem sound_kernel1 (c : Dev nD) (E : Set ℕ) (i : grid1.Coords)
    (arg1 : Memref sig .tc .vmem S2048x128 .f32) (harg1 : arg1.IsWhole) (arg2 : Memref sig .tc .vmem S2048x128 .f32) (harg2 : arg2.IsWhole)
    (arg3 : Memref sig .tc .vmem S128x256 .f32) (harg3 : arg3.IsWhole) (arg4 : Memref sig .tc .vmem S128x256 .f32) (harg4 : arg4.IsWhole)
    (arg5 : Memref sig .tc .vmem S1x256 .f32) (harg5 : arg5.IsWhole) (arg6 : Memref sig .tc .vmem S2048x256 .f32) (harg6 : arg6.IsWhole)
    (x0 : Vec F S2048x128 .f32) (x1 : Vec F S2048x128 .f32) (x2 : Vec F S128x256 .f32) (x3 : Vec F S128x256 .f32) (x4 : Vec F S1x256 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out1_5 x0 x1 x2 x3 x4)) -∗ K ⟨⟩))
      ⊢ wp frame (wpE (defs₀ (F := F)) Variants.none c none) E (cc1__linear_kernel i arg1 harg1 arg2 harg2 arg3 harg3 arg4 harg4 arg5 harg5 arg6 harg6) K := by
  simp only [cc1__linear_kernel_eq_skeleton]; unfold cc1__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The proof data's fields, window by window -/

/-- What the body leaves in each input window's buffer: its block. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]

/-- The output window's buffer after the body, as one store over the input blocks. -/
theorem after1_5_out (c : Dev nD) (t : Fin cfg1.N) : (dat1 V c).after 5 t
    = out1_5 (iblk1 V c 0 t) (iblk1 V c 1 t) (iblk1 V c 2 t) (iblk1 V c 3 t) (iblk1 V c 4 t) := by dsimp only [dat1]

/-- Each input's current staging buffer holds its block at every point, fetched there or not. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

/-- What the body is called with at point `t`: the invariant, the core's owed amounts, and each window's current
    staging buffer at what the pipeline has put there, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks (`before1_W`), so `sound_kernel1` applies; the
    invariant and the core's owed amounts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5_out]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Agg2.lean ====
/- The frame half of region 0 (custom_call 0, the aggregation kernel `cc2__agg_kernel`, pipeline `cfg2`, 40 grid
   points, k = t mod 8), generic in the float family and at a PARAMETER `V`: the TensorCore's buffer contents when the
   region is entered. The kernel carries a scratch accumulator between points: it is reset at the first point of each
   group of eight (k = 0), updated at every point by the product of the two input blocks, and stored into the output
   block at the last point of the group (k = 7); at the other points the output window is idle and not written back.
   The module states what the scratch holds after each point (`acc2`, with `acc2_reset` / `acc2_step`), what the
   output's staging buffer holds after a storing point (`after2_2_store`), the proof data `dat2`, the body obligation
   and the passage of the region invariant in and out. -/
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for ANY proof
    data whose array is `V`'s (`hA`) and whose body leaves the block in place (`hafter`): the window is uncut and
    never idle. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- The same for input window 1. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions -/

/-- The condition of the body's first conditional (the reset of the accumulator), from the grid coordinates. -/
abbrev cond2_0 (i : grid2.Coords) : Prop := (Scalar.cmpi .ne (Scalar.extui (Scalar.cmpi .eq (BitVec.ofNat 32 (i 1).val) 0#32)) 0#32) = 1#1
/-- It holds at the points ≡ 0 (mod 8) — decided over the grid. -/
theorem hcond2_0 : ∀ t : Fin cfg2.N, cond2_0 (grid2.coords t) ↔ t.val % 8 = 0 :=
  (by decide +kernel : ∀ t : Fin grid2.N, cond2_0 (grid2.coords t) ↔ t.val % 8 = 0)

/-- The condition of the body's second conditional (the store of the accumulator into the output block). -/
abbrev cond2_1 (i : grid2.Coords) : Prop := k2_cond2 i = 1#1
/-- It holds at the points ≡ 7 (mod 8) — decided over the grid. -/
theorem hcond2_1 : ∀ t : Fin cfg2.N, cond2_1 (grid2.coords t) ↔ t.val % 8 = 7 :=
  (by decide +kernel : ∀ t : Fin grid2.N, cond2_1 (grid2.coords t) ↔ t.val % 8 = 7)

/-! ## Where the windows are idle -/

/-- Windows 0 and 1 are never idle (inputs). -/
theorem liveAt2_0 : ∀ t : Fin cfg2.N, cfg2.idle 0 (grid2.coords t) = false := by decide +kernel
theorem liveAt2_1 : ∀ t : Fin cfg2.N, cfg2.idle 1 (grid2.coords t) = false := by decide +kernel
/-- At the points of case A the output window 2 is idle: the case stores nothing into it. -/
theorem idleAt2_2_A : ∀ t : Fin cfg2.N, cond2_0 (grid2.coords t) → ¬cond2_1 (grid2.coords t) → cfg2.idle 2 (grid2.coords t) = true := by decide +kernel
/-- At the points of case A the pipeline does not write output 2's block back. -/
theorem noFlush2_2_A : ∀ t : Fin cfg2.N, cond2_0 (grid2.coords t) → ¬cond2_1 (grid2.coords t) → (cfg2.win 2).flush t = false := by decide +kernel
/-- At the points of case B the output window 2 is idle. -/
theorem idleAt2_2_B : ∀ t : Fin cfg2.N, ¬cond2_0 (grid2.coords t) → ¬cond2_1 (grid2.coords t) → cfg2.idle 2 (grid2.coords t) = true := by decide +kernel
/-- At the points of case B the pipeline does not write output 2's block back. -/
theorem noFlush2_2_B : ∀ t : Fin cfg2.N, ¬cond2_0 (grid2.coords t) → ¬cond2_1 (grid2.coords t) → (cfg2.win 2).flush t = false := by decide +kernel
/-- At the points of case C the output window 2 is live: the case stores into it. -/
theorem liveAt2_2_C : ∀ t : Fin cfg2.N, ¬cond2_0 (grid2.coords t) → cond2_1 (grid2.coords t) → cfg2.idle 2 (grid2.coords t) = false := by decide +kernel

/-! ## The kernel body on any staging memrefs -/

/-- One staging buffer of output window 2, through which its contents are stated (the choice does not matter). -/
abbrev VO2_2 : View sig .tc .vmem S2048x256 .f32 := (Memref.whole cc2_stg2_0 : Memref sig .tc .vmem S2048x256 .f32).view
/-- Each window's current staging memref at point `t`, spelled as the pipeline passes it, and its wholeness. -/
abbrev ms2_0 (t : Fin cfg2.N) : Memref sig .tc .vmem S2048x1280 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1280x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S2048x256 .f32 := win2_2.stage (cfg2.slots t 2)
abbrev hs2_2 (t : Fin cfg2.N) : (ms2_2 t).IsWhole := hstage2_2 ((cfg2.slots t 2).cast nbuf2_2)
/-- The scratch operand: a whole scoped buffer of the kernel's own, passed beside the windows. -/
abbrev scM2_0 : Memref sig .tc .vmem S2048x256 .f32 := Memref.whole cc2_scratch0
/-- The scratch the kernel carries between points, as a view: what it holds is stated through it. -/
abbrev VS2_0 : View sig .tc .vmem S2048x256 .f32 := scM2_0.view

/-- Every other scoped buffer of the core (the other calls' staging buffers and scratch), unopened: carried along
    unchanged at every point. -/
abbrev rest2 (c : Dev nD) : sProp 𝕄 :=
  Pipeline.scopedRestBut (Ix := Unit) (Name := ℕ) (U := UR sig nD τ) (Lvl := ℕ) (Val := Elt F) spec2 c [cc2_scratch0]

/-- The class's invariant with the scratch operand as a memref owned at some contents: what the body obligation
    hands the run and takes back. -/
theorem PhiA2_eq (c : Dev nD) :
    (Pipeline.ΦA spec2 c : sProp 𝕄)
      = iprop(iprop(iprop((∃ d, owns (c : Thread nD τ) scM2_0 fullShare d)) ∗ rest2 (F := F) c) ∗ (∃ r, prngReg c r)) := by
  unfold Pipeline.ΦA; rw [scopedRest2_split]; simp only [scM2_0, owns_whole]; try rfl

-- (the run's proof term is large: the definition's epilogue walks it past the default budget)
set_option maxHeartbeats 1000000 in
/-- What the body's stores leave in the output's staging memref and in the scratch, as pieces (last first), IN CASE A (the reset
    taken, the output store not taken: the points ≡ 0 mod 8), WITH the proof that on whole memrefs — the inputs' at their contents,
    the output's (idle: no store) at contents `xi2` handed back untouched, the scratch at anything — the body runs to the
    continuation holding the inputs' and the output's as they were and the scratch with its pieces written. The pieces are the
    witness the run finds. -/
noncomputable def kernelRun2_A (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) :
    Σ' (L2 : List (View.Piece (Elt F) S2048x256 .f32)), { LS0 : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__agg_kernel i arg2 harg2 arg3 harg3 arg4 harg4 arg5 harg5) K } := by
  refine ⟨[], ?_, fun xi2 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE B (neither conditional taken: the points ≢ 0, 7 mod 8), the scratch entered at the contents the point
    before left (`xs0`). -/
noncomputable def kernelRun2_B (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) :
    Σ' (L2 : List (View.Piece (Elt F) S2048x256 .f32)), { LS0 : List (View.Piece (Elt F) S2048x256 .f32) //
      ∀ (xi2 : Vec F S2048x256 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc2__agg_kernel i arg2 harg2 arg3 harg3 arg4 harg4 arg5 harg5) K } := by
  refine ⟨[], ?_, fun xi2 E K => ?run⟩
  case run =>
    simp only [cc2__agg_kernel_eq_skeleton]; unfold cc2__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE C (the reset not taken, the output store taken: the points ≡ 7 mod 8), the scratch entered at the contents
    the point before left (`xs0`), the output's memref at anything and left with its pieces written. -/
noncomputable def kernelRun2_C (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) :
    Σ' (L2 : List (View.Piece (Elt F) S2048x256 .f32)), { LS0 : List (View.Piece (Elt F) S2048x256 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc2__agg_kernel i arg2 harg2 arg3 harg3 arg4 harg4 arg5 harg5) K } := by
  refine ⟨?_, ?_, fun E K => ?run⟩
  case run =>
    simp only [cc2__agg_kernel_eq_skeleton]; unfold cc2__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- Case A stores nothing into output 2 (the window is idle at its points and not written back there): no pieces — a
    placeholder (junk read back) that nothing consults. -/
def out2_A_2 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) : Vec F S2048x256 .f32 :=
  VO2_2.read (Elt F) (VO2_2.writes (Elt F) VO2_2.junk (kernelRun2_A c i arg2 harg2 arg3 harg3 arg4 harg4 arg5 harg5 hc0 hc1 x0 x1).1)

/-- Case A's pieces for the scratch, which the kernel carries between points, cover it. -/
theorem scover2_A_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) (y : S2048x256.Idx) :
    ∃ pc ∈ (kernelRun2_A c i arg2 harg2 arg3 harg3 arg4 harg4 arg5 harg5 hc0 hc1 x0 x1).2.1, y ∈ pc.1.set :=
  View.cover_of_tiledL (kernelRun2_A c i arg2 harg2 arg3 harg3 arg4 harg4 arg5 harg5 hc0 hc1 x0 x1).2.1 S2048x256.size (by sl_kernel_rfl) y

/-- What case A leaves in the scratch: its pieces read back over junk. -/
def sout2_A_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) : Vec F S2048x256 .f32 :=
  VS2_0.read (Elt F) (VS2_0.writes (Elt F) VS2_0.junk (kernelRun2_A c i arg2 harg2 arg3 harg3 arg4 harg4 arg5 harg5 hc0 hc1 x0 x1).2.1)

/-- Case B stores nothing into output 2 (the window is idle at its points and not written back there): no pieces — a
    placeholder (junk read back) that nothing consults. -/
def out2_B_2 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) : Vec F S2048x256 .f32 :=
  VO2_2.read (Elt F) (VO2_2.writes (Elt F) VO2_2.junk (kernelRun2_B c i arg2 harg2 arg3 harg3 arg4 harg4 arg5 harg5 hc0 hc1 x0 x1 xs0).1)

/-- Case B's pieces for the scratch, which the kernel carries between points, cover it. -/
theorem scover2_B_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) (y : S2048x256.Idx) :
    ∃ pc ∈ (kernelRun2_B c i arg2 harg2 arg3 harg3 arg4 harg4 arg5 harg5 hc0 hc1 x0 x1 xs0).2.1, y ∈ pc.1.set :=
  View.cover_of_tiledL (kernelRun2_B c i arg2 harg2 arg3 harg3 arg4 harg4 arg5 harg5 hc0 hc1 x0 x1 xs0).2.1 S2048x256.size (by sl_kernel_rfl) y

/-- What case B leaves in the scratch: its pieces read back over junk. -/
def sout2_B_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) : Vec F S2048x256 .f32 :=
  VS2_0.read (Elt F) (VS2_0.writes (Elt F) VS2_0.junk (kernelRun2_B c i arg2 harg2 arg3 harg3 arg4 harg4 arg5 harg5 hc0 hc1 x0 x1 xs0).2.1)

/-- Case C's pieces for output 2 tile its block (one store of the whole block), so they cover it. -/
theorem cover2_C_2 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) (y : S2048x256.Idx) :
    ∃ pc ∈ (kernelRun2_C c i arg2 harg2 arg3 harg3 arg4 harg4 arg5 harg5 hc0 hc1 x0 x1 xs0).1, y ∈ pc.1.set :=
  View.cover_of_tiledL (kernelRun2_C c i arg2 harg2 arg3 harg3 arg4 harg4 arg5 harg5 hc0 hc1 x0 x1 xs0).1 S2048x256.size (by sl_kernel_rfl) y

/-- What case C leaves in output 2's staging buffer: its pieces read back over junk. -/
def out2_C_2 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) : Vec F S2048x256 .f32 :=
  VO2_2.read (Elt F) (VO2_2.writes (Elt F) VO2_2.junk (kernelRun2_C c i arg2 harg2 arg3 harg3 arg4 harg4 arg5 harg5 hc0 hc1 x0 x1 xs0).1)

/-- Case C's pieces for the scratch, which the kernel carries between points, cover it. -/
theorem scover2_C_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) (y : S2048x256.Idx) :
    ∃ pc ∈ (kernelRun2_C c i arg2 harg2 arg3 harg3 arg4 harg4 arg5 harg5 hc0 hc1 x0 x1 xs0).2.1, y ∈ pc.1.set :=
  View.cover_of_tiledL (kernelRun2_C c i arg2 harg2 arg3 harg3 arg4 harg4 arg5 harg5 hc0 hc1 x0 x1 xs0).2.1 S2048x256.size (by sl_kernel_rfl) y

/-- What case C leaves in the scratch: its pieces read back over junk. -/
def sout2_C_0 (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) : Vec F S2048x256 .f32 :=
  VS2_0.read (Elt F) (VS2_0.writes (Elt F) VS2_0.junk (kernelRun2_C c i arg2 harg2 arg3 harg3 arg4 harg4 arg5 harg5 hc0 hc1 x0 x1 xs0).2.1)

/-! ## The found pieces, in the payloads -/

/-- Case B leaves the scratch at the update of what it held by the point's blocks. -/
theorem sout2_B_0_eq (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : ¬cond2_1 i)
    (x0 : Vec F S2048x1280 .bf16) (x1 : Vec F S1280x256 .f32) (xs0 : Vec F S2048x256 .f32) :
    sout2_B_0 c i arg2 harg2 arg3 harg3 arg4 harg4 arg5 harg5 hc0 hc1 x0 x1 xs0 = k2_pay2 x0 x1 xs0 := by
  have hz : (![0, 0] : Fin S2048x256.rank → Nat) = fun _ => 0 := by funext a; fin_cases a <;> rfl
  have hz0 : (![0, 0] : Fin S2048x1280.rank → Nat) = fun _ => 0 := by funext a; fin_cases a <;> rfl
  have hz1 : (![0, 0] : Fin S1280x256.rank → Nat) = fun _ => 0 := by funext a; fin_cases a <;> rfl
  unfold sout2_B_0
  rw [View.read_writes_eq_canon _ _ _ (scover2_B_0 c i arg2 harg2 arg3 harg3 arg4 harg4 arg5 harg5 hc0 hc1 x0 x1 xs0)]
  unfold kernelRun2_B; dsimp only
  sl_unfold_words
  rw [View.canon_unit_zero (S := S2048x256) hz]
  simp only [View.readAt_eq_ld, harg2.read_unread, harg3.read_unread, harg5.read_unread,
    View.ld_unit_zero (S := S2048x1280) hz0, View.ld_unit_zero (S := S1280x256) hz1, View.ld_unit_zero (S := S2048x256) hz,
    View.readCov_unit_zero (S := S2048x256) _ hz]

/-- Case A leaves the scratch at the update of the zero accumulator by the point's blocks: the reset, then the update
    read back over it. -/
theorem sout2_A_0_eq (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : cond2_0 i) (hc1 : ¬cond2_1 i)
    (x0 : Vec F S2048x1280 .bf16) (x1 : Vec F S1280x256 .f32) :
    sout2_A_0 c i arg2 harg2 arg3 harg3 arg4 harg4 arg5 harg5 hc0 hc1 x0 x1 = k2_pay2 x0 x1 (k2_pay1 (F := F)) := by
  have hz : (![0, 0] : Fin S2048x256.rank → Nat) = fun _ => 0 := by funext a; fin_cases a <;> rfl
  have hz0 : (![0, 0] : Fin S2048x1280.rank → Nat) = fun _ => 0 := by funext a; fin_cases a <;> rfl
  have hz1 : (![0, 0] : Fin S1280x256.rank → Nat) = fun _ => 0 := by funext a; fin_cases a <;> rfl
  unfold sout2_A_0
  rw [View.read_writes_eq_canon _ _ _ (scover2_A_0 c i arg2 harg2 arg3 harg3 arg4 harg4 arg5 harg5 hc0 hc1 x0 x1)]
  unfold kernelRun2_A; dsimp only
  sl_unfold_words
  rw [View.canon_cons_unit_zero (S := S2048x256) hz]
  simp only [View.readAt_eq_ld, harg2.read_unread, harg3.read_unread, harg5.read_unread,
    View.ld_unit_zero (S := S2048x1280) hz0, View.ld_unit_zero (S := S1280x256) hz1, View.ld_unit_zero (S := S2048x256) hz,
    View.readCov_unit_zero (S := S2048x256) _ hz]

/-- Case C leaves the scratch at the update of what it held by the point's blocks. -/
theorem sout2_C_0_eq (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) :
    sout2_C_0 c i arg2 harg2 arg3 harg3 arg4 harg4 arg5 harg5 hc0 hc1 x0 x1 xs0 = k2_pay2 x0 x1 xs0 := by
  have hz : (![0, 0] : Fin S2048x256.rank → Nat) = fun _ => 0 := by funext a; fin_cases a <;> rfl
  have hz0 : (![0, 0] : Fin S2048x1280.rank → Nat) = fun _ => 0 := by funext a; fin_cases a <;> rfl
  have hz1 : (![0, 0] : Fin S1280x256.rank → Nat) = fun _ => 0 := by funext a; fin_cases a <;> rfl
  unfold sout2_C_0
  rw [View.read_writes_eq_canon _ _ _ (scover2_C_0 c i arg2 harg2 arg3 harg3 arg4 harg4 arg5 harg5 hc0 hc1 x0 x1 xs0)]
  unfold kernelRun2_C; dsimp only
  sl_unfold_words
  rw [View.canon_unit_zero (S := S2048x256) hz]
  simp only [View.readAt_eq_ld, harg2.read_unread, harg3.read_unread, harg5.read_unread,
    View.ld_unit_zero (S := S2048x1280) hz0, View.ld_unit_zero (S := S1280x256) hz1, View.ld_unit_zero (S := S2048x256) hz,
    View.readCov_unit_zero (S := S2048x256) _ hz]

/-- Case C leaves the output's staging buffer at what it has just put in the scratch. -/
theorem out2_C_2_eq (c : Dev nD) (i : grid2.Coords) (arg2 : Memref sig .tc .vmem S2048x1280 .bf16) (harg2 : arg2.IsWhole) (arg3 : Memref sig .tc .vmem S1280x256 .f32) (harg3 : arg3.IsWhole) (arg4 : Memref sig .tc .vmem S2048x256 .f32) (harg4 : arg4.IsWhole) (arg5 : Memref sig .tc .vmem S2048x256 .f32) (harg5 : arg5.IsWhole) (hc0 : ¬cond2_0 i) (hc1 : cond2_1 i)
    (x0 : Vec F S2048x1280 .bf16) (x1 : Vec F S1280x256 .f32) (xs0 : Vec F S2048x256 .f32) :
    out2_C_2 c i arg2 harg2 arg3 harg3 arg4 harg4 arg5 harg5 hc0 hc1 x0 x1 xs0 = k2_pay2 x0 x1 xs0 := by
  have hz : (![0, 0] : Fin S2048x256.rank → Nat) = fun _ => 0 := by funext a; fin_cases a <;> rfl
  have hz0 : (![0, 0] : Fin S2048x1280.rank → Nat) = fun _ => 0 := by funext a; fin_cases a <;> rfl
  have hz1 : (![0, 0] : Fin S1280x256.rank → Nat) = fun _ => 0 := by funext a; fin_cases a <;> rfl
  unfold out2_C_2
  rw [View.read_writes_eq_canon _ _ _ (cover2_C_2 c i arg2 harg2 arg3 harg3 arg4 harg4 arg5 harg5 hc0 hc1 x0 x1 xs0)]
  unfold kernelRun2_C; dsimp only
  sl_unfold_words
  rw [View.canon_unit_zero (S := S2048x256) hz]
  simp only [View.readAt_eq_ld, harg2.read_unread, harg3.read_unread, harg5.read_unread,
    View.ld_unit_zero (S := S2048x1280) hz0, View.ld_unit_zero (S := S1280x256) hz1, View.ld_unit_zero (S := S2048x256) hz,
    View.readCov_unit_zero (S := S2048x256) _ hz]

/-! ## What the output and the scratch hold after each point -/

/-- THE ACCUMULATION. What output 2's staging buffer and the scratch hold after the body at position `n` (a pair: the
    output, then the scratch): the case the closed forms select at `n`, run at the point's memrefs and input blocks, the
    scratch entered at what this leaves at `n - 1`. -/
def outsAt2 (c : Dev nD) : (n : ℕ) → n < cfg2.N → Vec F S2048x256 .f32 × Vec F S2048x256 .f32
  | 0, hn => (out2_A_2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩), sout2_A_0 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2_0 (Memref.isWhole_whole _) ((hcond2_0 ⟨0, hn⟩).mpr (Nat.zero_mod _)) (fun h => (fun h => by (try dsimp only at h); omega) ((hcond2_1 ⟨0, hn⟩).mp h)) (iblk2 V c 0 ⟨0, hn⟩) (iblk2 V c 1 ⟨0, hn⟩))
  | n + 1, hn =>
    if h0 : (n + 1) % 8 = 0 then
      if h1 : (n + 1) % 8 = 7 then
        False.elim (by omega)
      else
        (out2_A_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩), sout2_A_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) ((hcond2_0 ⟨n + 1, hn⟩).mpr h0) (fun h => h1 ((hcond2_1 ⟨n + 1, hn⟩).mp h)) (iblk2 V c 0 ⟨n + 1, hn⟩) (iblk2 V c 1 ⟨n + 1, hn⟩))
    else
      if h1 : (n + 1) % 8 = 7 then
        (out2_C_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2, sout2_C_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) ((hcond2_1 ⟨n + 1, hn⟩).mpr h1) (iblk2 V c 0 ⟨n + 1, hn⟩) (iblk2 V c 1 ⟨n + 1, hn⟩) (outsAt2 c n (Nat.lt_of_succ_lt hn)).2)
      else
        (out2_B_2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2, sout2_B_0 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2_0 (Memref.isWhole_whole _) (fun h => h0 ((hcond2_0 ⟨n + 1, hn⟩).mp h)) (fun h => h1 ((hcond2_1 ⟨n + 1, hn⟩).mp h)) (iblk2 V c 0 ⟨n + 1, hn⟩) (iblk2 V c 1 ⟨n + 1, hn⟩) (outsAt2 c n (Nat.lt_of_succ_lt hn)).2)

/-- `outsAt2` at a point of case A: that case's contents. -/
theorem outsAt2_A (c : Dev nD) (t : Fin cfg2.N) (h0 : t.val % 8 = 0) (h1 : ¬t.val % 8 = 7) :
    outsAt2 V c t.val t.isLt = (out2_A_2 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t), sout2_A_0 c (grid2.coords t) (ms2_0 t) (hs2_0 t) (ms2_1 t) (hs2_1 t) (ms2_2 t) (hs2_2 t) scM2_0 (Memref.isWhole_whole _) ((hcond2_0 t).mpr h0) (fun h => h1 ((hcond2_1 t).mp h)) (iblk2 V c 0 t) (iblk2 V c 1 t)) := by
  obtain ⟨n, hn⟩ := t
  cases n with
  | zero => exact rfl
  | succ n => exact (dif_pos h0).trans ((dif_neg h1).trans rfl)

/-- `outsAt2` at a point of case B: that case's contents, over what the point before left. -/
theorem outsAt2_B (c : Dev nD) (t : Fin cfg2.N) (h0 : ¬t.val % 8 = 0) (h1 : ¬t.val % 8 = 7) :
    outsAt2 V c t.val t.isLt = (out2_B_2 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2, sout2_B_0 c (grid2.coords t) (ms2_0 t) (hs2_0 t) (ms2_1 t) (hs2_1 t) (ms2_2 t) (hs2_2 t) scM2_0 (Memref.isWhole_whole _) (fun h => h0 ((hcond2_0 t).mp h)) (fun h => h1 ((hcond2_1 t).mp h)) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt2` at a point of case C: that case's contents, over what the point before left. -/
theorem outsAt2_C (c : Dev nD) (t : Fin cfg2.N) (h0 : ¬t.val % 8 = 0) (h1 : t.val % 8 = 7) :
    outsAt2 V c t.val t.isLt = (out2_C_2 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2, sout2_C_0 c (grid2.coords t) (ms2_0 t) (hs2_0 t) (ms2_1 t) (hs2_1 t) (ms2_2 t) (hs2_2 t) scM2_0 (Memref.isWhole_whole _) (fun h => h0 ((hcond2_0 t).mp h)) ((hcond2_1 t).mpr h1) (iblk2 V c 0 t) (iblk2 V c 1 t) (outsAt2 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the scratch holds after point `n`. -/
def acc2 (c : Dev nD) : (n : ℕ) → n < cfg2.N → Vec F S2048x256 .f32 := fun n hn => (outsAt2 V c n hn).2

/-- The region invariant before position `n`: before the first point the class's (the scratch at anything); afterwards
    the scratch at what the point before left in it, every other scoped buffer unopened, and the generator register at some
    state. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2) ∗ rest2 (F := F) c) ∗ (∃ r, prngReg c r))

theorem PhiS2_zero (c : Dev nD) (n : ℕ) (h : n ≤ cfg2.N) (hz : n = 0) : PhiS2 V c n h = Pipeline.ΦA spec2 c := by
  subst hz; rfl

/-- After point `n` (before point `n + 1`): the carried scratch at that point's contents. -/
theorem PhiS2_succ (c : Dev nD) (n : ℕ) (hn : n < cfg2.N) :
    PhiS2 V c (n + 1) hn = iprop(iprop(owns (c : Thread nD τ) scM2_0 fullShare ((outsAt2 V c n hn).2) ∗ rest2 (F := F) c) ∗ (∃ r, prngReg c r)) := rfl

/-- Before a point that is not the first: the carried scratch at what the point before left. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2) ∗ rest2 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt2`; the invariant `PhiS2`; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start, restated at `t.val`. -/
theorem PhiS2_castSucc (c : Dev nD) (t : Fin cfg2.N) :
    (dat2 V c).Φ t.castSucc = PhiS2 V c t.val (Nat.le_of_lt t.isLt) := by
  dsimp only [dat2]; simp only [Fin.coe_castSucc]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d

/-! ## The body obligation, at a generic point -/

/-- What the body is called with at point `t` (the windows one by one), -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t)

set_option maxHeartbeats 4800000 in
/-- The body at any point: the inputs' memrefs hold their blocks; the closed forms say which case the point is in; so that
    case's run applies; the invariant hands the body the carried scratch at what the point before left (at anything at the
    first point) and takes it back at this point's contents; every other scoped buffer, the generator register and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  by_cases h0 : t.val % 8 = 0
  · by_cases h1 : t.val % 8 = 7
    · exfalso; omega
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_A t ((hcond2_0 t).mpr h0) (fun h => h1 ((hcond2_1 t).mp h))) (noFlush2_2_A t ((hcond2_0 t).mpr h0) (fun h => h1 ((hcond2_1 t).mp h)))]
      rw [outsAt2_A V c t h0 h1]
      unfold sout2_A_0; (try dsimp only)
      by_cases hz : t.val = 0
      · rw [PhiS2_castSucc V c t, PhiS2_zero V c _ _ hz, PhiA2_eq]
        iintro ⟨⟨⟨HS0, Hr⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _)
            iexact Hr
          iexact Hg
        isplitl [Ho]; · iexact Ho
        isplitl [H0]; · iexact H0
        isplitl [H1]; · iexact H1
        iexists _; iexact H2
      · rw [PhiS2_castSucc V c t, PhiS2_pos V c _ _ hz]
        iintro ⟨⟨⟨HS0, Hr⟩, Hg⟩, Ho, ⟨%d0, H0⟩, ⟨%d1, H1⟩, ⟨%d2, H2⟩⟩
        iapply ((kernelRun2_A c (grid2.coords t) _ _ _ _ _ _ _ _ ((hcond2_0 t).mpr h0) (fun h => h1 ((hcond2_1 t).mp h)) (iblk2 V c 0 t) (iblk2 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover2_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [show (dat2 V c).leavesExact 2 t = owns (c : Thread nD τ) (ms2_2 t) fullShare ((dat2 V c).after 2 t) from by
        unfold Dat.leavesExact; rw [liveAt2_2_C t (fun h => h0 ((hcond2_0 t).mp h)) ((hcond2_1 t).mpr h1)], after2_2]
      rw [outsAt2_C V c t h0 h1]
      unfold out2_C_2 sout2_C_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩⟩
      iapply ((kernelRun2_C c (grid2.coords t) _ _ _ _ _ _ _ _ (fun h => h0 ((hcond2_0 t).mp h)) ((hcond2_1 t).mpr h1) (iblk2 V c 0 t) (iblk2 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover2_C_2 c _ _ _ _ _ _ _ _ _ _ _ _ _ _)
    · rw [show (dat2 V c).leavesExact 0 t = owns (c : Thread nD τ) (ms2_0 t) fullShare ((dat2 V c).after 0 t) from by
        unfold Dat.leavesExact; rw [liveAt2_0 t], after2_0]
      rw [show (dat2 V c).leavesExact 1 t = owns (c : Thread nD τ) (ms2_1 t) fullShare ((dat2 V c).after 1 t) from by
        unfold Dat.leavesExact; rw [liveAt2_1 t], after2_1]
      rw [Dat.leavesExact_idle (dat2 V c) 2 t (idleAt2_2_B t (fun h => h0 ((hcond2_0 t).mp h)) (fun h => h1 ((hcond2_1 t).mp h))) (noFlush2_2_B t (fun h => h0 ((hcond2_0 t).mp h)) (fun h => h1 ((hcond2_1 t).mp h)))]
      rw [outsAt2_B V c t h0 h1]
      unfold sout2_B_0; (try dsimp only)
      rw [PhiS2_castSucc V c t, PhiS2_pos V c _ _ hz]
      iintro ⟨⟨⟨HS0, Hr⟩, Hg⟩, Ho, ⟨%d0, H0⟩, ⟨%d1, H1⟩, ⟨%d2, H2⟩⟩
      iapply ((kernelRun2_B c (grid2.coords t) _ _ _ _ _ _ _ _ (fun h => h0 ((hcond2_0 t).mp h)) (fun h => h1 ((hcond2_1 t).mp h)) (iblk2 V c 0 t) (iblk2 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover2_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives the class's back: the carried scratch's named contents are forgotten. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨⟨HS0, Hr⟩, Hg⟩
  isplitl [HS0 Hr]
  · isplitl [HS0]
    · iexists _; iexact HS0
    iexact Hr
  iexact Hg

/-- The same after the last point. -/
theorem hout2 (c : Dev nD) : (dat2 V c).Φ (Fin.last cfg2.N) ⊢ Pipeline.ΦA spec2 c :=
  Phi_out2 V c _ (by rw [Fin.val_last]; have : cfg2.N = 40 := N_2; omega)

/-! ## What the scratch and the output hold, in the payloads -/

theorem acc2_eq (c : Dev nD) (n : ℕ) (hn : n < cfg2.N) : acc2 V c n hn = (outsAt2 V c n hn).2 := rfl

/-- At the first point of a group the scratch ends at the update of the zero accumulator by the point's blocks. -/
theorem acc2_reset (c : Dev nD) (t : Fin cfg2.N) (h : t.val % 8 = 0) :
    acc2 V c t.val t.isLt = k2_pay2 (iblk2 V c 0 t) (iblk2 V c 1 t) (k2_pay1 (F := F)) := by
  have h1 : ¬t.val % 8 = 7 := by omega
  rw [acc2_eq, outsAt2_A V c t h h1]; dsimp only
  exact sout2_A_0_eq c (grid2.coords t) (ms2_0 t) (hs2_0 t) (ms2_1 t) (hs2_1 t) (ms2_2 t) (hs2_2 t) scM2_0 (Memref.isWhole_whole _) ((hcond2_0 t).mpr h) (fun h' => h1 ((hcond2_1 t).mp h')) (iblk2 V c 0 t) (iblk2 V c 1 t)

/-- At any other point it ends at the update of what the point before left. -/
theorem acc2_step (c : Dev nD) (t : Fin cfg2.N) (h : t.val % 8 ≠ 0) :
    acc2 V c t.val t.isLt = k2_pay2 (iblk2 V c 0 t) (iblk2 V c 1 t) (acc2 V c (t.val - 1) (Nat.lt_of_le_of_lt (Nat.sub_le _ _) t.isLt)) := by
  rw [acc2_eq V c (t.val - 1), acc2_eq V c t.val]
  by_cases h1 : t.val % 8 = 7
  · rw [outsAt2_C V c t h h1]; dsimp only
    exact sout2_C_0_eq c (grid2.coords t) (ms2_0 t) (hs2_0 t) (ms2_1 t) (hs2_1 t) (ms2_2 t) (hs2_2 t) scM2_0 (Memref.isWhole_whole _) (fun h' => h ((hcond2_0 t).mp h')) ((hcond2_1 t).mpr h1) (iblk2 V c 0 t) (iblk2 V c 1 t) (outsAt2 V c (t.val - 1) (Nat.lt_of_le_of_lt (Nat.sub_le _ _) t.isLt)).2
  · rw [outsAt2_B V c t h h1]; dsimp only
    exact sout2_B_0_eq c (grid2.coords t) (ms2_0 t) (hs2_0 t) (ms2_1 t) (hs2_1 t) (ms2_2 t) (hs2_2 t) scM2_0 (Memref.isWhole_whole _) (fun h' => h ((hcond2_0 t).mp h')) (fun h' => h1 ((hcond2_1 t).mp h')) (iblk2 V c 0 t) (iblk2 V c 1 t) (outsAt2 V c (t.val - 1) (Nat.lt_of_le_of_lt (Nat.sub_le _ _) t.isLt)).2

/-- At the last point of a group the output's staging buffer is left at what the scratch ends at. -/
theorem after2_2_store (c : Dev nD) (t : Fin cfg2.N) (h : t.val % 8 = 7) : (dat2 V c).after 2 t = acc2 V c t.val t.isLt := by
  have h0 : ¬t.val % 8 = 0 := by omega
  rw [after2_2, acc2_eq, outsAt2_C V c t h0 h]; dsimp only
  exact (out2_C_2_eq c (grid2.coords t) (ms2_0 t) (hs2_0 t) (ms2_1 t) (hs2_1 t) (ms2_2 t) (hs2_2 t) scM2_0 (Memref.isWhole_whole _) (fun h' => h0 ((hcond2_0 t).mp h')) ((hcond2_1 t).mpr h) (iblk2 V c 0 t) (iblk2 V c 1 t) (outsAt2 V c (t.val - 1) (Nat.lt_of_le_of_lt (Nat.sub_le _ _) t.isLt)).2).trans
    (sout2_C_0_eq c (grid2.coords t) (ms2_0 t) (hs2_0 t) (ms2_1 t) (hs2_1 t) (ms2_2 t) (hs2_2 t) scM2_0 (Memref.isWhole_whole _) (fun h' => h0 ((hcond2_0 t).mp h')) ((hcond2_1 t).mpr h) (iblk2 V c 0 t) (iblk2 V c 1 t) (outsAt2 V c (t.val - 1) (Nat.lt_of_le_of_lt (Nat.sub_le _ _) t.isLt)).2).symm

/-- The shares are full and nothing is owed, by definition. -/
example (c : Dev nD) (w : Fin cfg2.W) : (dat2 V c).q w = fullShare := rfl
example (c : Dev nD) (t : Fin (cfg2.N + 1)) : (dat2 V c).owed t = 0 := rfl

end Cert.KernelIdeal.Hand

end
-- ==== Proof.KI.Lin3.lean ====
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The linear layer's pipeline (custom_call 1): its frame half, at any float family

The region runs a grid of `cfg3.N` points. At a point the body reads five input windows whole — a block
of the aggregated features, the matching block of the layer's input, the two weight matrices and the bias —
and writes one output window whole: the payload `k3_pay1` of the five values read. The body also reads the
output buffer before it overwrites it; the value read is not used, so the buffer may hold anything.

Everything is stated at a parameter `V`: the buffer contents of the core when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

/-- Every access of the body is through the whole-shape rectangle at offset zero of its buffer. -/
abbrev r3_0 : Rect S2048x256 := Rect.unit (s := S2048x256) ![0, 0] S2048x256.size inb_S2048x256_S2048x256_0_0
abbrev r3_2 : Rect S256x1024 := Rect.unit (s := S256x1024) ![0, 0] S256x1024.size inb_S256x1024_S256x1024_0_0
abbrev r3_4 : Rect S1x1024 := Rect.unit (s := S1x1024) ![0, 0] S1x1024.size inb_S1x1024_S1x1024_0_0
abbrev r3_5 : Rect S2048x1024 := Rect.unit (s := S2048x1024) ![0, 0] S2048x1024.size inb_S2048x1024_S2048x1024_0_0

/-- The offsets of those rectangles are zero on both axes. -/
theorem zeros3 : (![0, 0] : Fin 2 → Nat) = fun _ => 0 := funext fun a => by fin_cases a <;> rfl

/-! ## What the body leaves in the output window's buffer -/

/-- Window 5's staging buffer after the body, from the five values read: its one store, which covers the
    buffer, as a single piece. -/
def out3_5 (x0 : Vec F S2048x256 .f32) (x1 : Vec F S2048x256 .f32) (x2 : Vec F S256x1024 .f32) (x3 : Vec F S256x1024 .f32)
    (x4 : Vec F S1x1024 .f32) : Vec F S2048x1024 .f32 :=
  View.canon [⟨r3_5, k3_pay1 (View.ld x0 r3_0) (View.ld x1 r3_0) (View.ld x2 r3_2) (View.ld x3 r3_2) (View.ld x4 r3_4)⟩]

/-- Its store tiles the buffer, so it covers it. -/
theorem cover3_5 (p0 : Vec F S2048x1024 .f32) (y : S2048x1024.Idx) :
    ∃ pc ∈ ([⟨r3_5, p0⟩] : List (View.Piece (Elt F) S2048x1024 .f32)), y ∈ pc.1.set :=
  ⟨_, List.mem_singleton_self _, View.mem_set_unit_zero zeros3 inb_S2048x1024_S2048x1024_0_0 y⟩

/-! ## The pipeline's proof data -/

/-- The proof data of the pipeline on core `c`: the arrays as the region finds them (`V`); after the body at
    point `t` each input's buffer at its block and the output's at `out3_5` of the input blocks; the invariant
    keeps the scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

example (c : Dev nD) (t) : (dat3 V c).Φ t = Pipeline.ΦA spec3 c := rfl
example (c : Dev nD) (w) : (dat3 V c).q w = fullShare := rfl
example (c : Dev nD) (w) : (dat3 V c).owed w = 0 := rfl

/-- The output window after the body at a point: the payload of the five input blocks there. -/
theorem after3_5 (c : Dev nD) (t : Fin cfg3.N) : (dat3 V c).after 5 t = k3_pay1 (iblk3 V c 0 t) (iblk3 V c 1 t) (iblk3 V c 2 t) (iblk3 V c 3 t) (iblk3 V c 4 t) := by
  dsimp only [dat3]
  unfold out3_5
  rw [View.canon_unit_zero zeros3]
  simp only [View.ld_unit_zero (S := S2048x256) zeros3, View.ld_unit_zero (S := S256x1024) zeros3,
    View.ld_unit_zero (S := S1x1024) zeros3]

/-! ## What the body finds in each input window's buffer -/

/-- Input window 0's current staging buffer holds its block at every point, fetched there or not, for any proof
    data whose array is `V`'s (`hA`) and whose body leaves the block in place (`hafter`): where the window is not
    fetched its block index has not moved, so the block of the point before is this point's. The window is uncut
    and never idle. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s (`hA`) and whose body leaves the block in place (`hafter`): where the window is not
    fetched its block index has not moved, so the block of the point before is this point's. The window is uncut
    and never idle. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2's current staging buffer holds its block at every point, fetched there or not, for any proof
    data whose array is `V`'s (`hA`) and whose body leaves the block in place (`hafter`): where the window is not
    fetched its block index has not moved, so the block of the point before is this point's. The window is uncut
    and never idle. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- Input window 3's current staging buffer holds its block at every point, fetched there or not, for any proof
    data whose array is `V`'s (`hA`) and whose body leaves the block in place (`hafter`): where the window is not
    fetched its block index has not moved, so the block of the point before is this point's. The window is uncut
    and never idle. -/
theorem before3_3_of {c : Dev nD} (dat : Dat τ (Elt F) Unit ℕ (UR sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- Input window 4's current staging buffer holds its block at every point, fetched there or not, for any proof
    data whose array is `V`'s (`hA`) and whose body leaves the block in place (`hafter`): where the window is not
    fetched its block index has not moved, so the block of the point before is this point's. The window is uncut
    and never idle. -/
theorem before3_4_of {c : Dev nD} (dat : Dat τ (Elt F) Unit ℕ (UR sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

/-! ## The body's triple -/

set_option maxHeartbeats 1000000 in
/-- The kernel body on whole staging memrefs, the inputs' at read contents and the output's at anything, runs to
    the continuation holding the inputs' as they were and the output's at `out3_5` of the inputs': the printed
    function is its skeleton of memory operations, run one operation at a time. The load of the output buffer
    reads whatever it holds; its value goes nowhere. -/
theorem sound_kernel3 (c : Dev nD) (E : Set ℕ) (i : grid3.Coords)
    (arg1 : Memref sig .tc .vmem S2048x256 .f32) (harg1 : arg1.IsWhole) (arg2 : Memref sig .tc .vmem S2048x256 .f32) (harg2 : arg2.IsWhole)
    (arg3 : Memref sig .tc .vmem S256x1024 .f32) (harg3 : arg3.IsWhole) (arg4 : Memref sig .tc .vmem S256x1024 .f32) (harg4 : arg4.IsWhole)
    (arg5 : Memref sig .tc .vmem S1x1024 .f32) (harg5 : arg5.IsWhole) (arg6 : Memref sig .tc .vmem S2048x1024 .f32) (harg6 : arg6.IsWhole)
    (x0 : Vec F S2048x256 .f32) (x1 : Vec F S2048x256 .f32) (x2 : Vec F S256x1024 .f32) (x3 : Vec F S256x1024 .f32) (x4 : Vec F S1x1024 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out3_5 x0 x1 x2 x3 x4)) -∗ K ⟨⟩))
      ⊢ wp frame (wpE (defs₀ (F := F)) Variants.none c none) E (cc3__linear_kernel i arg1 harg1 arg2 harg2 arg3 harg3 arg4 harg4 arg5 harg5 arg6 harg6) K := by
  simp only [cc3__linear_kernel_eq_skeleton]; unfold cc3__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-! ## The proof data's fields, window by window -/

/-- What the body leaves in each input window's buffer: its block. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]

/-- The output window's buffer after the body, as one store over the input blocks. -/
theorem after3_5_out (c : Dev nD) (t : Fin cfg3.N) : (dat3 V c).after 5 t
    = out3_5 (iblk3 V c 0 t) (iblk3 V c 1 t) (iblk3 V c 2 t) (iblk3 V c 3 t) (iblk3 V c 4 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-! ## The body obligation, at a generic point -/

/-- What the body is called with at point `t`: the invariant, the core's owed amounts, and each window's current
    staging buffer at what the pipeline has put there, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks (`before3_W`), so `sound_kernel3` applies; the
    invariant and the core's owed amounts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5_out]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ _ _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Agg4.lean ====
/- The frame half of region 0 (custom_call 0, the aggregation kernel `cc4__agg_kernel`, pipeline `cfg4`, 40 grid
   points, k = t mod 8), generic in the float family and at a PARAMETER `V`: the TensorCore's buffer contents when the
   region is entered. The kernel carries a scratch accumulator between points: it is reset at the first point of each
   group of eight (k = 0), updated at every point by the product of the two input blocks, and stored into the output
   block at the last point of the group (k = 7); at the other points the output window is idle and not written back.
   The module states what the scratch holds after each point (`acc4`, with `acc4_reset` / `acc4_step`), what the
   output's staging buffer holds after a storing point (`after4_2_store`), the proof data `dat4`, the body obligation
   and the passage of the region invariant in and out. -/
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic
import Idealize.ShloMosaic.Lib.Pipeline.Value

-- membership in a rectangle of production extents: the elaborator's structural look recurses once per coordinate of
-- the long axes
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not, for ANY proof
    data whose array is `V`'s (`hA`) and whose body leaves the block in place (`hafter`): the window is uncut and
    never idle. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- The same for input window 1. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions -/

/-- The condition of the body's first conditional (the reset of the accumulator), from the grid coordinates. -/
abbrev cond4_0 (i : grid4.Coords) : Prop := (Scalar.cmpi .ne (Scalar.extui (Scalar.cmpi .eq (BitVec.ofNat 32 (i 1).val) 0#32)) 0#32) = 1#1
/-- It holds at the points ≡ 0 (mod 8) — decided over the grid. -/
theorem hcond4_0 : ∀ t : Fin cfg4.N, cond4_0 (grid4.coords t) ↔ t.val % 8 = 0 :=
  (by decide +kernel : ∀ t : Fin grid4.N, cond4_0 (grid4.coords t) ↔ t.val % 8 = 0)

/-- The condition of the body's second conditional (the store of the accumulator into the output block). -/
abbrev cond4_1 (i : grid4.Coords) : Prop := k4_cond2 i = 1#1
/-- It holds at the points ≡ 7 (mod 8) — decided over the grid. -/
theorem hcond4_1 : ∀ t : Fin cfg4.N, cond4_1 (grid4.coords t) ↔ t.val % 8 = 7 :=
  (by decide +kernel : ∀ t : Fin grid4.N, cond4_1 (grid4.coords t) ↔ t.val % 8 = 7)

/-! ## Where the windows are idle -/

/-- Windows 0 and 1 are never idle (inputs). -/
theorem liveAt4_0 : ∀ t : Fin cfg4.N, cfg4.idle 0 (grid4.coords t) = false := by decide +kernel
theorem liveAt4_1 : ∀ t : Fin cfg4.N, cfg4.idle 1 (grid4.coords t) = false := by decide +kernel
/-- At the points of case A the output window 2 is idle: the case stores nothing into it. -/
theorem idleAt4_2_A : ∀ t : Fin cfg4.N, cond4_0 (grid4.coords t) → ¬cond4_1 (grid4.coords t) → cfg4.idle 2 (grid4.coords t) = true := by decide +kernel
/-- At the points of case A the pipeline does not write output 2's block back. -/
theorem noFlush4_2_A : ∀ t : Fin cfg4.N, cond4_0 (grid4.coords t) → ¬cond4_1 (grid4.coords t) → (cfg4.win 2).flush t = false := by decide +kernel
/-- At the points of case B the output window 2 is idle. -/
theorem idleAt4_2_B : ∀ t : Fin cfg4.N, ¬cond4_0 (grid4.coords t) → ¬cond4_1 (grid4.coords t) → cfg4.idle 2 (grid4.coords t) = true := by decide +kernel
/-- At the points of case B the pipeline does not write output 2's block back. -/
theorem noFlush4_2_B : ∀ t : Fin cfg4.N, ¬cond4_0 (grid4.coords t) → ¬cond4_1 (grid4.coords t) → (cfg4.win 2).flush t = false := by decide +kernel
/-- At the points of case C the output window 2 is live: the case stores into it. -/
theorem liveAt4_2_C : ∀ t : Fin cfg4.N, ¬cond4_0 (grid4.coords t) → cond4_1 (grid4.coords t) → cfg4.idle 2 (grid4.coords t) = false := by decide +kernel

/-! ## The kernel body on any staging memrefs -/

/-- One staging buffer of output window 2, through which its contents are stated (the choice does not matter). -/
abbrev VO4_2 : View sig .tc .vmem S2048x1024 .f32 := (Memref.whole cc4_stg2_0 : Memref sig .tc .vmem S2048x1024 .f32).view
/-- Each window's current staging memref at point `t`, spelled as the pipeline passes it, and its wholeness. -/
abbrev ms4_0 (t : Fin cfg4.N) : Memref sig .tc .vmem S2048x1280 .bf16 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1280x1024 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S2048x1024 .f32 := win4_2.stage (cfg4.slots t 2)
abbrev hs4_2 (t : Fin cfg4.N) : (ms4_2 t).IsWhole := hstage4_2 ((cfg4.slots t 2).cast nbuf4_2)
/-- The scratch operand: a whole scoped buffer of the kernel's own, passed beside the windows. -/
abbrev scM4_0 : Memref sig .tc .vmem S2048x1024 .f32 := Memref.whole cc4_scratch0
/-- The scratch the kernel carries between points, as a view: what it holds is stated through it. -/
abbrev VS4_0 : View sig .tc .vmem S2048x1024 .f32 := scM4_0.view

/-- Every other scoped buffer of the core (the other calls' staging buffers and scratch), unopened: carried along
    unchanged at every point. -/
abbrev rest4 (c : Dev nD) : sProp 𝕄 :=
  Pipeline.scopedRestBut (Ix := Unit) (Name := ℕ) (U := UR sig nD τ) (Lvl := ℕ) (Val := Elt F) spec4 c [cc4_scratch0]

/-- The class's invariant with the scratch operand as a memref owned at some contents: what the body obligation
    hands the run and takes back. -/
theorem PhiA4_eq (c : Dev nD) :
    (Pipeline.ΦA spec4 c : sProp 𝕄)
      = iprop(iprop(iprop((∃ d, owns (c : Thread nD τ) scM4_0 fullShare d)) ∗ rest4 (F := F) c) ∗ (∃ r, prngReg c r)) := by
  unfold Pipeline.ΦA; rw [scopedRest4_split]; simp only [scM4_0, owns_whole]; try rfl

-- (the run's proof term is large: the definition's epilogue walks it past the default budget)
set_option maxHeartbeats 1000000 in
/-- What the body's stores leave in the output's staging memref and in the scratch, as pieces (last first), IN CASE A (the reset
    taken, the output store not taken: the points ≡ 0 mod 8), WITH the proof that on whole memrefs — the inputs' at their contents,
    the output's (idle: no store) at contents `xi2` handed back untouched, the scratch at anything — the body runs to the
    continuation holding the inputs' and the output's as they were and the scratch with its pieces written. The pieces are the
    witness the run finds. -/
noncomputable def kernelRun4_A (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) :
    Σ' (L2 : List (View.Piece (Elt F) S2048x1024 .f32)), { LS0 : List (View.Piece (Elt F) S2048x1024 .f32) //
      ∀ (xi2 : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__agg_kernel i arg2 harg2 arg3 harg3 arg4 harg4 arg5 harg5) K } := by
  refine ⟨[], ?_, fun xi2 E K => ?run⟩
  case run =>
    simp only [cc4__agg_kernel_eq_skeleton]; unfold cc4__agg_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE B (neither conditional taken: the points ≢ 0, 7 mod 8), the scratch entered at the contents the point
    before left (`xs0`). -/
noncomputable def kernelRun4_B (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) :
    Σ' (L2 : List (View.Piece (Elt F) S2048x1024 .f32)), { LS0 : List (View.Piece (Elt F) S2048x1024 .f32) //
      ∀ (xi2 : Vec F S2048x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc4__agg_kernel i arg2 harg2 arg3 harg3 arg4 harg4 arg5 harg5) K } := by
  refine ⟨[], ?_, fun xi2 E K => ?run⟩
  case run =>
    simp only [cc4__agg_kernel_eq_skeleton]; unfold cc4__agg_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

-- (the run's proof term is large: the definition's epilogue walks it past the default budget)
set_option maxHeartbeats 1000000 in
/-- The same IN CASE C (the reset not taken, the output store taken: the points ≡ 7 mod 8), the scratch entered at the contents
    the point before left (`xs0`), the output's memref at anything and left with its pieces written. -/
noncomputable def kernelRun4_C (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) :
    Σ' (L2 : List (View.Piece (Elt F) S2048x1024 .f32)), { LS0 : List (View.Piece (Elt F) S2048x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc4__agg_kernel i arg2 harg2 arg3 harg3 arg4 harg4 arg5 harg5) K } := by
  refine ⟨?_, ?_, fun E K => ?run⟩
  case run =>
    simp only [cc4__agg_kernel_eq_skeleton]; unfold cc4__agg_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

/-- Case A stores nothing into output 2 (the window is idle at its points and not written back there): no pieces — a
    placeholder (junk read back) that nothing consults. -/
def out4_A_2 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) : Vec F S2048x1024 .f32 :=
  VO4_2.read (Elt F) (VO4_2.writes (Elt F) VO4_2.junk (kernelRun4_A c i arg2 harg2 arg3 harg3 arg4 harg4 arg5 harg5 hc0 hc1 x0 x1).1)

/-- Case A's pieces for the scratch, which the kernel carries between points, cover it. -/
theorem scover4_A_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) (y : S2048x1024.Idx) :
    ∃ pc ∈ (kernelRun4_A c i arg2 harg2 arg3 harg3 arg4 harg4 arg5 harg5 hc0 hc1 x0 x1).2.1, y ∈ pc.1.set :=
  View.cover_of_tiledL (kernelRun4_A c i arg2 harg2 arg3 harg3 arg4 harg4 arg5 harg5 hc0 hc1 x0 x1).2.1 S2048x1024.size (by sl_kernel_rfl) y

/-- What case A leaves in the scratch: its pieces read back over junk. -/
def sout4_A_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) : Vec F S2048x1024 .f32 :=
  VS4_0.read (Elt F) (VS4_0.writes (Elt F) VS4_0.junk (kernelRun4_A c i arg2 harg2 arg3 harg3 arg4 harg4 arg5 harg5 hc0 hc1 x0 x1).2.1)

/-- Case B stores nothing into output 2 (the window is idle at its points and not written back there): no pieces — a
    placeholder (junk read back) that nothing consults. -/
def out4_B_2 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) : Vec F S2048x1024 .f32 :=
  VO4_2.read (Elt F) (VO4_2.writes (Elt F) VO4_2.junk (kernelRun4_B c i arg2 harg2 arg3 harg3 arg4 harg4 arg5 harg5 hc0 hc1 x0 x1 xs0).1)

/-- Case B's pieces for the scratch, which the kernel carries between points, cover it. -/
theorem scover4_B_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) (y : S2048x1024.Idx) :
    ∃ pc ∈ (kernelRun4_B c i arg2 harg2 arg3 harg3 arg4 harg4 arg5 harg5 hc0 hc1 x0 x1 xs0).2.1, y ∈ pc.1.set :=
  View.cover_of_tiledL (kernelRun4_B c i arg2 harg2 arg3 harg3 arg4 harg4 arg5 harg5 hc0 hc1 x0 x1 xs0).2.1 S2048x1024.size (by sl_kernel_rfl) y

/-- What case B leaves in the scratch: its pieces read back over junk. -/
def sout4_B_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) : Vec F S2048x1024 .f32 :=
  VS4_0.read (Elt F) (VS4_0.writes (Elt F) VS4_0.junk (kernelRun4_B c i arg2 harg2 arg3 harg3 arg4 harg4 arg5 harg5 hc0 hc1 x0 x1 xs0).2.1)

/-- Case C's pieces for output 2 tile its block (one store of the whole block), so they cover it. -/
theorem cover4_C_2 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) (y : S2048x1024.Idx) :
    ∃ pc ∈ (kernelRun4_C c i arg2 harg2 arg3 harg3 arg4 harg4 arg5 harg5 hc0 hc1 x0 x1 xs0).1, y ∈ pc.1.set :=
  View.cover_of_tiledL (kernelRun4_C c i arg2 harg2 arg3 harg3 arg4 harg4 arg5 harg5 hc0 hc1 x0 x1 xs0).1 S2048x1024.size (by sl_kernel_rfl) y

/-- What case C leaves in output 2's staging buffer: its pieces read back over junk. -/
def out4_C_2 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) : Vec F S2048x1024 .f32 :=
  VO4_2.read (Elt F) (VO4_2.writes (Elt F) VO4_2.junk (kernelRun4_C c i arg2 harg2 arg3 harg3 arg4 harg4 arg5 harg5 hc0 hc1 x0 x1 xs0).1)

/-- Case C's pieces for the scratch, which the kernel carries between points, cover it. -/
theorem scover4_C_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) (y : S2048x1024.Idx) :
    ∃ pc ∈ (kernelRun4_C c i arg2 harg2 arg3 harg3 arg4 harg4 arg5 harg5 hc0 hc1 x0 x1 xs0).2.1, y ∈ pc.1.set :=
  View.cover_of_tiledL (kernelRun4_C c i arg2 harg2 arg3 harg3 arg4 harg4 arg5 harg5 hc0 hc1 x0 x1 xs0).2.1 S2048x1024.size (by sl_kernel_rfl) y

/-- What case C leaves in the scratch: its pieces read back over junk. -/
def sout4_C_0 (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) : Vec F S2048x1024 .f32 :=
  VS4_0.read (Elt F) (VS4_0.writes (Elt F) VS4_0.junk (kernelRun4_C c i arg2 harg2 arg3 harg3 arg4 harg4 arg5 harg5 hc0 hc1 x0 x1 xs0).2.1)

/-! ## The found pieces, in the payloads -/

/-- Case B leaves the scratch at the update of what it held by the point's blocks. -/
theorem sout4_B_0_eq (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : ¬cond4_1 i)
    (x0 : Vec F S2048x1280 .bf16) (x1 : Vec F S1280x1024 .f32) (xs0 : Vec F S2048x1024 .f32) :
    sout4_B_0 c i arg2 harg2 arg3 harg3 arg4 harg4 arg5 harg5 hc0 hc1 x0 x1 xs0 = k4_pay2 x0 x1 xs0 := by
  have hz : (![0, 0] : Fin S2048x1024.rank → Nat) = fun _ => 0 := by funext a; fin_cases a <;> rfl
  have hz0 : (![0, 0] : Fin S2048x1280.rank → Nat) = fun _ => 0 := by funext a; fin_cases a <;> rfl
  have hz1 : (![0, 0] : Fin S1280x1024.rank → Nat) = fun _ => 0 := by funext a; fin_cases a <;> rfl
  unfold sout4_B_0
  rw [View.read_writes_eq_canon _ _ _ (scover4_B_0 c i arg2 harg2 arg3 harg3 arg4 harg4 arg5 harg5 hc0 hc1 x0 x1 xs0)]
  unfold kernelRun4_B; dsimp only
  sl_unfold_words
  rw [View.canon_unit_zero (S := S2048x1024) hz]
  simp only [View.readAt_eq_ld, harg2.read_unread, harg3.read_unread, harg5.read_unread,
    View.ld_unit_zero (S := S2048x1280) hz0, View.ld_unit_zero (S := S1280x1024) hz1, View.ld_unit_zero (S := S2048x1024) hz,
    View.readCov_unit_zero (S := S2048x1024) _ hz]

/-- Case A leaves the scratch at the update of the zero accumulator by the point's blocks: the reset, then the update
    read back over it. -/
theorem sout4_A_0_eq (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : cond4_0 i) (hc1 : ¬cond4_1 i)
    (x0 : Vec F S2048x1280 .bf16) (x1 : Vec F S1280x1024 .f32) :
    sout4_A_0 c i arg2 harg2 arg3 harg3 arg4 harg4 arg5 harg5 hc0 hc1 x0 x1 = k4_pay2 x0 x1 (k4_pay1 (F := F)) := by
  have hz : (![0, 0] : Fin S2048x1024.rank → Nat) = fun _ => 0 := by funext a; fin_cases a <;> rfl
  have hz0 : (![0, 0] : Fin S2048x1280.rank → Nat) = fun _ => 0 := by funext a; fin_cases a <;> rfl
  have hz1 : (![0, 0] : Fin S1280x1024.rank → Nat) = fun _ => 0 := by funext a; fin_cases a <;> rfl
  unfold sout4_A_0
  rw [View.read_writes_eq_canon _ _ _ (scover4_A_0 c i arg2 harg2 arg3 harg3 arg4 harg4 arg5 harg5 hc0 hc1 x0 x1)]
  unfold kernelRun4_A; dsimp only
  sl_unfold_words
  rw [View.canon_cons_unit_zero (S := S2048x1024) hz]
  simp only [View.readAt_eq_ld, harg2.read_unread, harg3.read_unread, harg5.read_unread,
    View.ld_unit_zero (S := S2048x1280) hz0, View.ld_unit_zero (S := S1280x1024) hz1, View.ld_unit_zero (S := S2048x1024) hz,
    View.readCov_unit_zero (S := S2048x1024) _ hz]

/-- Case C leaves the scratch at the update of what it held by the point's blocks. -/
theorem sout4_C_0_eq (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) :
    sout4_C_0 c i arg2 harg2 arg3 harg3 arg4 harg4 arg5 harg5 hc0 hc1 x0 x1 xs0 = k4_pay2 x0 x1 xs0 := by
  have hz : (![0, 0] : Fin S2048x1024.rank → Nat) = fun _ => 0 := by funext a; fin_cases a <;> rfl
  have hz0 : (![0, 0] : Fin S2048x1280.rank → Nat) = fun _ => 0 := by funext a; fin_cases a <;> rfl
  have hz1 : (![0, 0] : Fin S1280x1024.rank → Nat) = fun _ => 0 := by funext a; fin_cases a <;> rfl
  unfold sout4_C_0
  rw [View.read_writes_eq_canon _ _ _ (scover4_C_0 c i arg2 harg2 arg3 harg3 arg4 harg4 arg5 harg5 hc0 hc1 x0 x1 xs0)]
  unfold kernelRun4_C; dsimp only
  sl_unfold_words
  rw [View.canon_unit_zero (S := S2048x1024) hz]
  simp only [View.readAt_eq_ld, harg2.read_unread, harg3.read_unread, harg5.read_unread,
    View.ld_unit_zero (S := S2048x1280) hz0, View.ld_unit_zero (S := S1280x1024) hz1, View.ld_unit_zero (S := S2048x1024) hz,
    View.readCov_unit_zero (S := S2048x1024) _ hz]

/-- Case C leaves the output's staging buffer at what it has just put in the scratch. -/
theorem out4_C_2_eq (c : Dev nD) (i : grid4.Coords) (arg2 : Memref sig .tc .vmem S2048x1280 .bf16) (harg2 : arg2.IsWhole) (arg3 : Memref sig .tc .vmem S1280x1024 .f32) (harg3 : arg3.IsWhole) (arg4 : Memref sig .tc .vmem S2048x1024 .f32) (harg4 : arg4.IsWhole) (arg5 : Memref sig .tc .vmem S2048x1024 .f32) (harg5 : arg5.IsWhole) (hc0 : ¬cond4_0 i) (hc1 : cond4_1 i)
    (x0 : Vec F S2048x1280 .bf16) (x1 : Vec F S1280x1024 .f32) (xs0 : Vec F S2048x1024 .f32) :
    out4_C_2 c i arg2 harg2 arg3 harg3 arg4 harg4 arg5 harg5 hc0 hc1 x0 x1 xs0 = k4_pay2 x0 x1 xs0 := by
  have hz : (![0, 0] : Fin S2048x1024.rank → Nat) = fun _ => 0 := by funext a; fin_cases a <;> rfl
  have hz0 : (![0, 0] : Fin S2048x1280.rank → Nat) = fun _ => 0 := by funext a; fin_cases a <;> rfl
  have hz1 : (![0, 0] : Fin S1280x1024.rank → Nat) = fun _ => 0 := by funext a; fin_cases a <;> rfl
  unfold out4_C_2
  rw [View.read_writes_eq_canon _ _ _ (cover4_C_2 c i arg2 harg2 arg3 harg3 arg4 harg4 arg5 harg5 hc0 hc1 x0 x1 xs0)]
  unfold kernelRun4_C; dsimp only
  sl_unfold_words
  rw [View.canon_unit_zero (S := S2048x1024) hz]
  simp only [View.readAt_eq_ld, harg2.read_unread, harg3.read_unread, harg5.read_unread,
    View.ld_unit_zero (S := S2048x1280) hz0, View.ld_unit_zero (S := S1280x1024) hz1, View.ld_unit_zero (S := S2048x1024) hz,
    View.readCov_unit_zero (S := S2048x1024) _ hz]

/-! ## What the output and the scratch hold after each point -/

/-- THE ACCUMULATION. What output 2's staging buffer and the scratch hold after the body at position `n` (a pair: the
    output, then the scratch): the case the closed forms select at `n`, run at the point's memrefs and input blocks, the
    scratch entered at what this leaves at `n - 1`. -/
def outsAt4 (c : Dev nD) : (n : ℕ) → n < cfg4.N → Vec F S2048x1024 .f32 × Vec F S2048x1024 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) scM4_0 (Memref.isWhole_whole _) ((hcond4_0 ⟨0, hn⟩).mpr (Nat.zero_mod _)) (fun h => (fun h => by (try dsimp only at h); omega) ((hcond4_1 ⟨0, hn⟩).mp h)) (iblk4 V c 0 ⟨0, hn⟩) (iblk4 V c 1 ⟨0, hn⟩))
  | n + 1, hn =>
    if h0 : (n + 1) % 8 = 0 then
      if h1 : (n + 1) % 8 = 7 then
        False.elim (by omega)
      else
        (out4_A_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩), sout4_A_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) ((hcond4_0 ⟨n + 1, hn⟩).mpr h0) (fun h => h1 ((hcond4_1 ⟨n + 1, hn⟩).mp h)) (iblk4 V c 0 ⟨n + 1, hn⟩) (iblk4 V c 1 ⟨n + 1, hn⟩))
    else
      if h1 : (n + 1) % 8 = 7 then
        (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) ((hcond4_1 ⟨n + 1, hn⟩).mpr h1) (iblk4 V c 0 ⟨n + 1, hn⟩) (iblk4 V c 1 ⟨n + 1, hn⟩) (outsAt4 c n (Nat.lt_of_succ_lt hn)).2)
      else
        (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) scM4_0 (Memref.isWhole_whole _) (fun h => h0 ((hcond4_0 ⟨n + 1, hn⟩).mp h)) (fun h => h1 ((hcond4_1 ⟨n + 1, hn⟩).mp h)) (iblk4 V c 0 ⟨n + 1, hn⟩) (iblk4 V c 1 ⟨n + 1, hn⟩) (outsAt4 c n (Nat.lt_of_succ_lt hn)).2)

/-- `outsAt4` at a point of case A: that case's contents. -/
theorem outsAt4_A (c : Dev nD) (t : Fin cfg4.N) (h0 : t.val % 8 = 0) (h1 : ¬t.val % 8 = 7) :
    outsAt4 V c t.val t.isLt = (out4_A_2 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) scM4_0 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact (dif_pos h0).trans ((dif_neg h1).trans rfl)

/-- `outsAt4` at a point of case B: that case's contents, over what the point before left. -/
theorem outsAt4_B (c : Dev nD) (t : Fin cfg4.N) (h0 : ¬t.val % 8 = 0) (h1 : ¬t.val % 8 = 7) :
    outsAt4 V c t.val t.isLt = (out4_B_2 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2, sout4_B_0 c (grid4.coords t) (ms4_0 t) (hs4_0 t) (ms4_1 t) (hs4_1 t) (ms4_2 t) (hs4_2 t) scM4_0 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C: that case's contents, over what the point before left. -/
theorem outsAt4_C (c : Dev nD) (t : Fin cfg4.N) (h0 : ¬t.val % 8 = 0) (h1 : t.val % 8 = 7) :
    outsAt4 V c t.val t.isLt = (out4_C_2 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2, sout4_C_0 c (grid4.coords t) (ms4_0 t) (hs4_0 t) (ms4_1 t) (hs4_1 t) (ms4_2 t) (hs4_2 t) scM4_0 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- What the scratch holds after point `n`. -/
def acc4 (c : Dev nD) : (n : ℕ) → n < cfg4.N → Vec F S2048x1024 .f32 := fun n hn => (outsAt4 V c n hn).2

/-- The region invariant before position `n`: before the first point the class's (the scratch at anything); afterwards
    the scratch at what the point before left in it, every other scoped buffer unopened, and the generator register at some
    state. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2) ∗ rest4 (F := F) c) ∗ (∃ r, prngReg c r))

theorem PhiS4_zero (c : Dev nD) (n : ℕ) (h : n ≤ cfg4.N) (hz : n = 0) : PhiS4 V c n h = Pipeline.ΦA spec4 c := by
  subst hz; rfl

/-- After point `n` (before point `n + 1`): the carried scratch at that point's contents. -/
theorem PhiS4_succ (c : Dev nD) (n : ℕ) (hn : n < cfg4.N) :
    PhiS4 V c (n + 1) hn = iprop(iprop(owns (c : Thread nD τ) scM4_0 fullShare ((outsAt4 V c n hn).2) ∗ rest4 (F := F) c) ∗ (∃ r, prngReg c r)) := rfl

/-- Before a point that is not the first: the carried scratch at what the point before left. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2) ∗ rest4 (F := F) c) ∗ (∃ r, prngReg c r)) := by
  cases n with
  | zero => exact absurd rfl hz
  | succ n => rfl

/-! ## The pipeline's proof data -/

/-- The proof data of the pipeline on core `c`: the arrays as the region finds them (`V`); after the body at point `t`
    each input's buffer at its block and the output's at `outsAt4`; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]

/-- Each input's current staging buffer holds its block at every point, fetched there or not. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-! ## The body obligation, at a generic point -/

/-- What the body is called with at point `t` (the windows one by one), -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t)

set_option maxHeartbeats 4800000 in
/-- The body at any point: the inputs' memrefs hold their blocks; the closed forms say which case the point is in; so that
    case's run applies; the invariant hands the body the carried scratch at what the point before left (at anything at the
    first point) and takes it back at this point's contents; every other scoped buffer, the generator register and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  by_cases h0 : t.val % 8 = 0
  · by_cases h1 : t.val % 8 = 7
    · exfalso; omega
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
      rw [outsAt4_A V c t h0 h1]
      unfold sout4_A_0; (try dsimp only)
      by_cases hz : t.val = 0
      · rw [PhiS4_castSucc V c t, PhiS4_zero V c _ _ hz, PhiA4_eq]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
      · rw [PhiS4_castSucc V c t, PhiS4_pos V c _ _ hz]
        iintro ⟨⟨⟨HS0, Hr⟩, Hg⟩, Ho, ⟨%d0, H0⟩, ⟨%d1, H1⟩, ⟨%d2, H2⟩⟩
        iapply ((kernelRun4_A c (grid4.coords t) _ _ _ _ _ _ _ _ ((hcond4_0 t).mpr h0) (fun h => h1 ((hcond4_1 t).mp h)) (iblk4 V c 0 t) (iblk4 V c 1 t)).2.2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hr Hg]
        · isplitl [HS0 Hr]
          · isplitl [HS0]
            · unfold owns; iexists _; isplitr
              swap; · iexact HS0
              ipureintro; exact View.read_writes_of_cover _ _ _ _ _ (scover4_A_0 c _ _ _ _ _ _ _ _ _ _ _ _ _)
            iexact Hr
          iexact Hg
        isplitl [Ho]; · iexact Ho
        isplitl [H0]; · iexact H0
        isplitl [H1]; · iexact H1
        iexists _; iexact H2
  · have hz : t.val ≠ 0 := fun hz => h0 (by rw [hz])
    by_cases h1 : t.val % 8 = 7
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [outsAt4_C V c t h0 h1]
      unfold out4_C_2 sout4_C_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_C c (grid4.coords t) _ _ _ _ _ _ _ _ (fun h => h0 ((hcond4_0 t).mp h)) ((hcond4_1 t).mpr h1) (iblk4 V c 0 t) (iblk4 V c 1 t) _).2.2 Set.univ _)
      isplitl [H0]; · iexact H0
      isplitl [H1]; · iexact H1
      isplitl [H2]; · iexists _; iexact H2
      isplitl [HS0]; · iexact HS0
      iintro ⟨H0, H1, ⟨%e2, H2⟩, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_C_0 c _ _ _ _ _ _ _ _ _ _ _ _ _ _)
          iexact Hr
        iexact Hg
      isplitl [Ho]; · iexact Ho
      isplitl [H0]; · iexact H0
      isplitl [H1]; · iexact H1
      unfold owns; iexists _; isplitr
      swap; · iexact H2
      ipureintro; exact View.read_writes_of_cover _ _ _ _ _ (cover4_C_2 c _ _ _ _ _ _ _ _ _ _ _ _ _ _)
    · rw [show (dat4 V c).leavesExact 0 t = owns (c : Thread nD τ) (ms4_0 t) fullShare ((dat4 V c).after 0 t) from by
        unfold Dat.leavesExact; rw [liveAt4_0 t], after4_0]
      rw [show (dat4 V c).leavesExact 1 t = owns (c : Thread nD τ) (ms4_1 t) fullShare ((dat4 V c).after 1 t) from by
        unfold Dat.leavesExact; rw [liveAt4_1 t], after4_1]
      rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [outsAt4_B V c t h0 h1]
      unfold sout4_B_0; (try dsimp only)
      rw [PhiS4_castSucc V c t, PhiS4_pos V c _ _ hz]
      iintro ⟨⟨⟨HS0, Hr⟩, Hg⟩, Ho, ⟨%d0, H0⟩, ⟨%d1, H1⟩, ⟨%d2, H2⟩⟩
      iapply ((kernelRun4_B c (grid4.coords t) _ _ _ _ _ _ _ _ (fun h => h0 ((hcond4_0 t).mp h)) (fun h => h1 ((hcond4_1 t).mp h)) (iblk4 V c 0 t) (iblk4 V c 1 t) _).2.2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hr Hg]
      · isplitl [HS0 Hr]
        · isplitl [HS0]
          · unfold owns; iexists _; isplitr
            swap; · iexact HS0
            ipureintro; exact View.read_writes_of_cover _ _ _ _ _ (scover4_B_0 c _ _ _ _ _ _ _ _ _ _ _ _ _ _)
          iexact Hr
        iexact Hg
      isplitl [Ho]; · iexact Ho
      isplitl [H0]; · iexact H0
      isplitl [H1]; · iexact H1
      iexists _; iexact H2

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the carried scratch's named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, Hr⟩, Hg⟩
  isplitl [HS0 Hr]
  · isplitl [HS0]
    · iexists _; iexact HS0
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 40 := N_4; omega)

/-! ## What the scratch and the output hold, in the payloads -/

theorem acc4_eq (c : Dev nD) (n : ℕ) (hn : n < cfg4.N) : acc4 V c n hn = (outsAt4 V c n hn).2 := rfl

/-- At the first point of a group the scratch ends at the update of the zero accumulator by the point's blocks. -/
theorem acc4_reset (c : Dev nD) (t : Fin cfg4.N) (h : t.val % 8 = 0) :
    acc4 V c t.val t.isLt = k4_pay2 (iblk4 V c 0 t) (iblk4 V c 1 t) (k4_pay1 (F := F)) := by
  have h1 : ¬t.val % 8 = 7 := by omega
  rw [acc4_eq, outsAt4_A V c t h h1]; dsimp only
  exact sout4_A_0_eq c (grid4.coords t) (ms4_0 t) (hs4_0 t) (ms4_1 t) (hs4_1 t) (ms4_2 t) (hs4_2 t) scM4_0 (Memref.isWhole_whole _) ((hcond4_0 t).mpr h) (fun h' => h1 ((hcond4_1 t).mp h')) (iblk4 V c 0 t) (iblk4 V c 1 t)

/-- At any other point it ends at the update of what the point before left. -/
theorem acc4_step (c : Dev nD) (t : Fin cfg4.N) (h : t.val % 8 ≠ 0) :
    acc4 V c t.val t.isLt = k4_pay2 (iblk4 V c 0 t) (iblk4 V c 1 t) (acc4 V c (t.val - 1) (Nat.lt_of_le_of_lt (Nat.sub_le _ _) t.isLt)) := by
  rw [acc4_eq V c (t.val - 1), acc4_eq V c t.val]
  by_cases h1 : t.val % 8 = 7
  · rw [outsAt4_C V c t h h1]; dsimp only
    exact sout4_C_0_eq c (grid4.coords t) (ms4_0 t) (hs4_0 t) (ms4_1 t) (hs4_1 t) (ms4_2 t) (hs4_2 t) scM4_0 (Memref.isWhole_whole _) (fun h' => h ((hcond4_0 t).mp h')) ((hcond4_1 t).mpr h1) (iblk4 V c 0 t) (iblk4 V c 1 t) (outsAt4 V c (t.val - 1) (Nat.lt_of_le_of_lt (Nat.sub_le _ _) t.isLt)).2
  · rw [outsAt4_B V c t h h1]; dsimp only
    exact sout4_B_0_eq c (grid4.coords t) (ms4_0 t) (hs4_0 t) (ms4_1 t) (hs4_1 t) (ms4_2 t) (hs4_2 t) scM4_0 (Memref.isWhole_whole _) (fun h' => h ((hcond4_0 t).mp h')) (fun h' => h1 ((hcond4_1 t).mp h')) (iblk4 V c 0 t) (iblk4 V c 1 t) (outsAt4 V c (t.val - 1) (Nat.lt_of_le_of_lt (Nat.sub_le _ _) t.isLt)).2

/-- At the last point of a group the output's staging buffer is left at what the scratch ends at. -/
theorem after4_2_store (c : Dev nD) (t : Fin cfg4.N) (h : t.val % 8 = 7) : (dat4 V c).after 2 t = acc4 V c t.val t.isLt := by
  have h0 : ¬t.val % 8 = 0 := by omega
  rw [after4_2, acc4_eq, outsAt4_C V c t h0 h]; dsimp only
  exact (out4_C_2_eq c (grid4.coords t) (ms4_0 t) (hs4_0 t) (ms4_1 t) (hs4_1 t) (ms4_2 t) (hs4_2 t) scM4_0 (Memref.isWhole_whole _) (fun h' => h0 ((hcond4_0 t).mp h')) ((hcond4_1 t).mpr h) (iblk4 V c 0 t) (iblk4 V c 1 t) (outsAt4 V c (t.val - 1) (Nat.lt_of_le_of_lt (Nat.sub_le _ _) t.isLt)).2).trans
    (sout4_C_0_eq c (grid4.coords t) (ms4_0 t) (hs4_0 t) (ms4_1 t) (hs4_1 t) (ms4_2 t) (hs4_2 t) scM4_0 (Memref.isWhole_whole _) (fun h' => h0 ((hcond4_0 t).mp h')) ((hcond4_1 t).mpr h) (iblk4 V c 0 t) (iblk4 V c 1 t) (outsAt4 V c (t.val - 1) (Nat.lt_of_le_of_lt (Nat.sub_le _ _) t.isLt)).2).symm

/-- The shares are full and nothing is owed, by definition. -/
example (c : Dev nD) (w : Fin cfg4.W) : (dat4 V c).q w = fullShare := rfl
example (c : Dev nD) (t : Fin (cfg4.N + 1)) : (dat4 V c).owed t = 0 := rfl

end Cert.KernelIdeal.Hand

end
-- ==== Proof.KI.Lin5.lean ====
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

/-! # The linear layer's pipeline (custom_call 1): its frame half, at any float family

The region runs a grid of `cfg5.N` points. At a point the body reads five input windows whole — a block
of the aggregated features, the matching block of the layer's input, the two weight matrices and the bias —
and writes one output window whole: the payload `k5_pay1` of the five values read. The body also reads the
output buffer before it overwrites it; the value read is not used, so the buffer may hold anything.

Everything is stated at a parameter `V`: the buffer contents of the core when the region is entered. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the region is entered
variable (V : (c : Dev nD) → (b : Ref sig .tc) → Buf (Elt F) ((c : Thread nD τ).loc b))

/-! ## The windows' blocks -/

/-- Window `w`'s block at point `t`, read off its array as the region finds it (`V`). -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses -/

/-- Every access of the body is through the whole-shape rectangle at offset zero of its buffer. -/
abbrev r5_0 : Rect S2048x1024 := Rect.unit (s := S2048x1024) ![0, 0] S2048x1024.size inb_S2048x1024_S2048x1024_0_0
abbrev r5_2 : Rect S1024x64 := Rect.unit (s := S1024x64) ![0, 0] S1024x64.size inb_S1024x64_S1024x64_0_0
abbrev r5_4 : Rect S1x64 := Rect.unit (s := S1x64) ![0, 0] S1x64.size inb_S1x64_S1x64_0_0
abbrev r5_5 : Rect S2048x64 := Rect.unit (s := S2048x64) ![0, 0] S2048x64.size inb_S2048x64_S2048x64_0_0

/-- The offsets of those rectangles are zero on both axes. -/
theorem zeros5 : (![0, 0] : Fin 2 → Nat) = fun _ => 0 := funext fun a => by fin_cases a <;> rfl

/-! ## What the body leaves in the output window's buffer -/

/-- Window 5's staging buffer after the body, from the five values read: its one store, which covers the
    buffer, as a single piece. -/
def out5_5 (x0 : Vec F S2048x1024 .f32) (x1 : Vec F S2048x1024 .f32) (x2 : Vec F S1024x64 .f32) (x3 : Vec F S1024x64 .f32)
    (x4 : Vec F S1x64 .f32) : Vec F S2048x64 .f32 :=
  View.canon [⟨r5_5, k5_pay1 (View.ld x0 r5_0) (View.ld x1 r5_0) (View.ld x2 r5_2) (View.ld x3 r5_2) (View.ld x4 r5_4)⟩]

/-- Its store tiles the buffer, so it covers it. -/
theorem cover5_5 (p0 : Vec F S2048x64 .f32) (y : S2048x64.Idx) :
    ∃ pc ∈ ([⟨r5_5, p0⟩] : List (View.Piece (Elt F) S2048x64 .f32)), y ∈ pc.1.set :=
  ⟨_, List.mem_singleton_self _, View.mem_set_unit_zero zeros5 inb_S2048x64_S2048x64_0_0 y⟩

/-! ## The pipeline's proof data -/

/-- The proof data of the pipeline on core `c`: the arrays as the region finds them (`V`); after the body at
    point `t` each input's buffer at its block and the output's at `out5_5` of the input blocks; the invariant
    keeps the scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

example (c : Dev nD) (t) : (dat5 V c).Φ t = Pipeline.ΦA spec5 c := rfl
example (c : Dev nD) (w) : (dat5 V c).q w = fullShare := rfl
example (c : Dev nD) (w) : (dat5 V c).owed w = 0 := rfl

/-- The output window after the body at a point: the payload of the five input blocks there. -/
theorem after5_5 (c : Dev nD) (t : Fin cfg5.N) : (dat5 V c).after 5 t = k5_pay1 (iblk5 V c 0 t) (iblk5 V c 1 t) (iblk5 V c 2 t) (iblk5 V c 3 t) (iblk5 V c 4 t) := by
  dsimp only [dat5]
  unfold out5_5
  rw [View.canon_unit_zero zeros5]
  simp only [View.ld_unit_zero (S := S2048x1024) zeros5, View.ld_unit_zero (S := S1024x64) zeros5,
    View.ld_unit_zero (S := S1x64) zeros5]

/-! ## What the body finds in each input window's buffer -/

/-- Input window 0's current staging buffer holds its block at every point, fetched there or not, for any proof
    data whose array is `V`'s (`hA`) and whose body leaves the block in place (`hafter`): where the window is not
    fetched its block index has not moved, so the block of the point before is this point's. The window is uncut
    and never idle. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s (`hA`) and whose body leaves the block in place (`hafter`): where the window is not
    fetched its block index has not moved, so the block of the point before is this point's. The window is uncut
    and never idle. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s (`hA`) and whose body leaves the block in place (`hafter`): where the window is not
    fetched its block index has not moved, so the block of the point before is this point's. The window is uncut
    and never idle. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s (`hA`) and whose body leaves the block in place (`hafter`): where the window is not
    fetched its block index has not moved, so the block of the point before is this point's. The window is uncut
    and never idle. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- Input window 4's current staging buffer holds its block at every point, fetched there or not, for any proof
    data whose array is `V`'s (`hA`) and whose body leaves the block in place (`hafter`): where the window is not
    fetched its block index has not moved, so the block of the point before is this point's. The window is uncut
    and never idle. -/
theorem before5_4_of {c : Dev nD} (dat : Dat τ (Elt F) Unit ℕ (UR sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

/-! ## The body's triple -/

set_option maxHeartbeats 1000000 in
/-- The kernel body on whole staging memrefs, the inputs' at read contents and the output's at anything, runs to
    the continuation holding the inputs' as they were and the output's at `out5_5` of the inputs': the printed
    function is its skeleton of memory operations, run one operation at a time. The load of the output buffer
    reads whatever it holds; its value goes nowhere. -/
theorem sound_kernel5 (c : Dev nD) (E : Set ℕ) (i : grid5.Coords)
    (arg1 : Memref sig .tc .vmem S2048x1024 .f32) (harg1 : arg1.IsWhole) (arg2 : Memref sig .tc .vmem S2048x1024 .f32) (harg2 : arg2.IsWhole)
    (arg3 : Memref sig .tc .vmem S1024x64 .f32) (harg3 : arg3.IsWhole) (arg4 : Memref sig .tc .vmem S1024x64 .f32) (harg4 : arg4.IsWhole)
    (arg5 : Memref sig .tc .vmem S1x64 .f32) (harg5 : arg5.IsWhole) (arg6 : Memref sig .tc .vmem S2048x64 .f32) (harg6 : arg6.IsWhole)
    (x0 : Vec F S2048x1024 .f32) (x1 : Vec F S2048x1024 .f32) (x2 : Vec F S1024x64 .f32) (x3 : Vec F S1024x64 .f32) (x4 : Vec F S1x64 .f32)
    (K : PUnit → sProp 𝕄) :
    iprop(owns (c : Thread nD τ) arg1 fullShare x0 ∗ owns (c : Thread nD τ) arg2 fullShare x1
        ∗ owns (c : Thread nD τ) arg3 fullShare x2 ∗ owns (c : Thread nD τ) arg4 fullShare x3
        ∗ owns (c : Thread nD τ) arg5 fullShare x4 ∗ (∃ d, owns (c : Thread nD τ) arg6 fullShare d)
        ∗ (iprop(owns (c : Thread nD τ) arg1 fullShare x0 ∗ owns (c : Thread nD τ) arg2 fullShare x1
            ∗ owns (c : Thread nD τ) arg3 fullShare x2 ∗ owns (c : Thread nD τ) arg4 fullShare x3
            ∗ owns (c : Thread nD τ) arg5 fullShare x4
            ∗ owns (c : Thread nD τ) arg6 fullShare (out5_5 x0 x1 x2 x3 x4)) -∗ K ⟨⟩))
      ⊢ wp frame (wpE (defs₀ (F := F)) Variants.none c none) E (cc5__linear_kernel i arg1 harg1 arg2 harg2 arg3 harg3 arg4 harg4 arg5 harg5 arg6 harg6) K := by
  simp only [cc5__linear_kernel_eq_skeleton]; unfold cc5__linear_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-! ## The proof data's fields, window by window -/

/-- What the body leaves in each input window's buffer: its block. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]

/-- The output window's buffer after the body, as one store over the input blocks. -/
theorem after5_5_out (c : Dev nD) (t : Fin cfg5.N) : (dat5 V c).after 5 t
    = out5_5 (iblk5 V c 0 t) (iblk5 V c 1 t) (iblk5 V c 2 t) (iblk5 V c 3 t) (iblk5 V c 4 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-! ## The body obligation, at a generic point -/

/-- What the body is called with at point `t`: the invariant, the core's owed amounts, and each window's current
    staging buffer at what the pipeline has put there, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks (`before5_W`), so `sound_kernel5` applies; the
    invariant and the core's owed amounts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5_out]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ _ _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Stages.lean ====
/- The contents of the kernel program's unscoped buffers between the items of @main, with nothing left unknown:
   each region's output array is what the pipeline library computes from that region's proof data
   (`Dat.arrAt … N`: the write-backs folded over the entry contents), every other buffer what the item before
   left. These are the values at which the conditional frame's unknowns `outs` are taken. -/
import proofs.«427327_j68599217652368_1_alg».proof.Proof.Gen.KernelIdeal.Regions
import proofs.«427327_j68599217652368_1_alg».proof.Proof.KI.Agg0
import proofs.«427327_j68599217652368_1_alg».proof.Proof.KI.Lin1
import proofs.«427327_j68599217652368_1_alg».proof.Proof.KI.Agg2
import proofs.«427327_j68599217652368_1_alg».proof.Proof.KI.Lin3
import proofs.«427327_j68599217652368_1_alg».proof.Proof.KI.Agg4
import proofs.«427327_j68599217652368_1_alg».proof.Proof.KI.Lin5
import Idealize.ShloMosaic.Lib.Pipeline.FrameSuffix

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.SL Idealize.SL.RA Idealize.SL.BI
open scoped Idealize.SL.BI
open Idealize.SL.BI.BIBase Idealize.SL.BI.Laws Idealize.SL.ProofMode
open Idealize.ShloMosaic.Rounds

variable {F : FTy → Type} [FloatOps F]
variable (m : (ℓ : Loc nD τ sig) → Buf (Elt F) ℓ)

/-- A valuation read at the TensorCore's references: the form the regions' proof data take their entry contents in. -/
abbrev atTc (X : Dev nD → Valuation τ sig (Elt F)) : (c : Dev nD) → (b : Ref sig .tc) → Buf (Elt F) ((c : Thread nD τ).loc b) :=
  fun c b => X c b

/-- Before region 0: the launch contents after the first host stretch. -/
abbrev X1 (c : Dev nD) : Valuation τ sig (Elt F) := V1 m c
/-- Region 0's arrays at what its write-backs leave, every other buffer as entered. -/
def Y2 (c : Dev nD) : Valuation τ sig (Elt F) :=
  Pipeline.withArrays spec0 c (X1 m c) fun w => (dat0 (atTc (X1 m)) c).arrAt w cfg0.N
/-- After region 0: only its output array `main_v35` has changed. -/
abbrev X2 (c : Dev nD) : Valuation τ sig (Elt F) := Function.update (X1 m c) main_v35 (Y2 m c main_v35)
abbrev X3 (c : Dev nD) : Valuation τ sig (Elt F) := StableHlo.after hostOps1 (X2 m c)
def Y4 (c : Dev nD) : Valuation τ sig (Elt F) :=
  Pipeline.withArrays spec1 c (X3 m c) fun w => (dat1 (atTc (X3 m)) c).arrAt w cfg1.N
abbrev X4 (c : Dev nD) : Valuation τ sig (Elt F) := Function.update (X3 m c) main_v37 (Y4 m c main_v37)
def Y5 (c : Dev nD) : Valuation τ sig (Elt F) :=
  Pipeline.withArrays spec2 c (X4 m c) fun w => (dat2 (atTc (X4 m)) c).arrAt w cfg2.N
abbrev X5 (c : Dev nD) : Valuation τ sig (Elt F) := Function.update (X4 m c) main_v38 (Y5 m c main_v38)
abbrev X6 (c : Dev nD) : Valuation τ sig (Elt F) := StableHlo.after hostOps3 (X5 m c)
def Y7 (c : Dev nD) : Valuation τ sig (Elt F) :=
  Pipeline.withArrays spec3 c (X6 m c) fun w => (dat3 (atTc (X6 m)) c).arrAt w cfg3.N
abbrev X7 (c : Dev nD) : Valuation τ sig (Elt F) := Function.update (X6 m c) main_v40 (Y7 m c main_v40)
def Y8 (c : Dev nD) : Valuation τ sig (Elt F) :=
  Pipeline.withArrays spec4 c (X7 m c) fun w => (dat4 (atTc (X7 m)) c).arrAt w cfg4.N
abbrev X8 (c : Dev nD) : Valuation τ sig (Elt F) := Function.update (X7 m c) main_v41 (Y8 m c main_v41)
abbrev X9 (c : Dev nD) : Valuation τ sig (Elt F) := StableHlo.after hostOps5 (X8 m c)
def Y10 (c : Dev nD) : Valuation τ sig (Elt F) :=
  Pipeline.withArrays spec5 c (X9 m c) fun w => (dat5 (atTc (X9 m)) c).arrAt w cfg5.N

/-- What the regions leave, item by item: the unknowns of the conditional frame, named. -/
def outs : Outs (F := F) := fun J r c =>
  match J with
  | 2 => Y2 m c r
  | 4 => Y4 m c r
  | 5 => Y5 m c r
  | 7 => Y7 m c r
  | 8 => Y8 m c r
  | 10 => Y10 m c r
  | _ => X1 m c r

/-- The generated valuations at these contents are the stages above. -/
theorem V2_eq (c : Dev nD) : V2 m (outs m) c = X2 m c := rfl
theorem V3_eq (c : Dev nD) : V3 m (outs m) c = X3 m c := rfl
theorem V4_eq (c : Dev nD) : V4 m (outs m) c = X4 m c := rfl
theorem V5_eq (c : Dev nD) : V5 m (outs m) c = X5 m c := rfl
theorem V6_eq (c : Dev nD) : V6 m (outs m) c = X6 m c := rfl
theorem V7_eq (c : Dev nD) : V7 m (outs m) c = X7 m c := rfl
theorem V8_eq (c : Dev nD) : V8 m (outs m) c = X8 m c := rfl
theorem V9_eq (c : Dev nD) : V9 m (outs m) c = X9 m c := rfl

/-- Each region's output array after it, by name. -/
theorem outs2 (c : Dev nD) : outs m 2 main_v35 c = (dat0 (atTc (X1 m)) c).arrAt 2 cfg0.N := by
  show Y2 m c main_v35 = _; unfold Y2; exact Pipeline.withArrays_arr spec0 launch0.win.arr_inj c _ _ 2
theorem outs4 (c : Dev nD) : outs m 4 main_v37 c = (dat1 (atTc (X3 m)) c).arrAt 5 cfg1.N := by
  show Y4 m c main_v37 = _; unfold Y4; exact Pipeline.withArrays_arr spec1 launch1.win.arr_inj c _ _ 5
theorem outs5 (c : Dev nD) : outs m 5 main_v38 c = (dat2 (atTc (X4 m)) c).arrAt 2 cfg2.N := by
  show Y5 m c main_v38 = _; unfold Y5; exact Pipeline.withArrays_arr spec2 launch2.win.arr_inj c _ _ 2
theorem outs7 (c : Dev nD) : outs m 7 main_v40 c = (dat3 (atTc (X6 m)) c).arrAt 5 cfg3.N := by
  show Y7 m c main_v40 = _; unfold Y7; exact Pipeline.withArrays_arr spec3 launch3.win.arr_inj c _ _ 5
theorem outs8 (c : Dev nD) : outs m 8 main_v41 c = (dat4 (atTc (X7 m)) c).arrAt 2 cfg4.N := by
  show Y8 m c main_v41 = _; unfold Y8; exact Pipeline.withArrays_arr spec4 launch4.win.arr_inj c _ _ 2
theorem outs10 (c : Dev nD) : outs m 10 main_v43 c = (dat5 (atTc (X9 m)) c).arrAt 5 cfg5.N := by
  show Y10 m c main_v43 = _; unfold Y10; exact Pipeline.withArrays_arr spec5 launch5.win.arr_inj c _ _ 5

/-! ## The proof data family and what rides beside the buffers -/

local notation "𝕄" => MT nD τ sig Unit (Elt F) ℕ (UR sig nD τ) ℕ

/-- Every pipeline's proof data, each at its region's entry contents: a literal match on the pipeline. -/
def pdats : (p : Fin 6) → (c : Dev nD) → Dat τ (Elt F) Unit ℕ (UR sig nD τ) ℕ (cfgs p) c
  | ⟨0, _⟩ => fun c => dat0 (atTc (X1 m)) c
  | ⟨1, _⟩ => fun c => dat1 (atTc (X3 m)) c
  | ⟨2, _⟩ => fun c => dat2 (atTc (X4 m)) c
  | ⟨3, _⟩ => fun c => dat3 (atTc (X6 m)) c
  | ⟨4, _⟩ => fun c => dat4 (atTc (X7 m)) c
  | ⟨5, _⟩ => fun c => dat5 (atTc (X9 m)) c

/-- No core owes another anything: no level is assigned. -/
abbrev L0 : GSem nD τ sig → Finset Unit := fun _ => ∅
abbrev lv0 : GSem nD τ sig → Unit → ℕ := fun _ _ => 0
/-- What rides beside the buffers through every item: the core's generator register at some state and its
    `owes`, at nothing. -/
abbrev Rst (c : Dev nD) : sProp 𝕄 := iprop((∃ r, prngReg c r) ∗ ∃ W, owes (c : Thread nD τ) (0 : CellTallies nD τ sig Unit) W)
/-- The rest states of the conditional frame: the same at every boundary. -/
abbrev Est : Fin 7 → Dev nD → sProp 𝕄 := fun _ c => Rst (F := F) c

end Cert.KernelIdeal.Hand

end
-- ==== Proof.KI.RegsAgg.lean ====
/- The segment records of the three aggregation regions (regions 0, 2 and 4 of @main) over the thread state "every
   unscoped buffer of the core whole at the stage's valuation, the generator register at some state, nothing owed",
   generic in the float family. A region is entered at the valuation before it and left at that valuation updated at
   its output array alone, which then holds what the pipeline's write-backs leave. Each record splits the region's
   three arrays out of the unscoped buffers at the entry, hands the generator register and the scoped rest to the
   region's invariant at the first point and takes them back at the last, and puts the arrays back at the exit: the two
   input arrays as entered, the output array at its folded write-backs, every other buffer untouched. -/
import proofs.«427327_j68599217652368_1_alg».proof.Proof.KI.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- decided memberships over the program's references recurse past the default depth
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! # Region 0: entered at X1, left at X2 -/

/-- At region 0's exit each of its arrays holds what the pipeline leaves: the two input arrays are not the output's
    buffer, so the exit contents there are the entry contents, which an input array keeps through every point; the
    output array holds its folded write-backs. -/
theorem hF0 (c : Dev nD) (w : Fin cfg0.W) :
    (dat0 (atTc (X1 m)) c).arrAt w cfg0.N = atTc (X2 m) c (Pipeline.arrRef spec0 w) := by
  match w with
  | ⟨0, _⟩ =>
    show _ = Function.update (X1 m c) main_v35 (Y2 m c main_v35) (Proc.devRef .tc main_v31)
    rw [Function.update_of_ne (StableHlo.devRef_ne_of_ne (by decide))]
    exact ((dat0 (atTc (X1 m)) c).arrAt_in 0 rfl _).trans (A_eq0 (atTc (X1 m)) c 0)
  | ⟨1, _⟩ =>
    show _ = Function.update (X1 m c) main_v35 (Y2 m c main_v35) (Proc.devRef .tc main_v34)
    rw [Function.update_of_ne (StableHlo.devRef_ne_of_ne (by decide))]
    exact ((dat0 (atTc (X1 m)) c).arrAt_in 1 rfl _).trans (A_eq0 (atTc (X1 m)) c 1)
  | ⟨2, _⟩ =>
    show _ = Function.update (X1 m c) main_v35 (Y2 m c main_v35) (Proc.devRef .tc main_v35)
    rw [Function.update_self]
    unfold Y2
    exact (Pipeline.withArrays_arr spec0 launch0.win.arr_inj c (X1 m c)
      (fun w => (dat0 (atTc (X1 m)) c).arrAt w cfg0.N) 2).symm

/-- Every buffer that is no array of region 0 holds at its exit what it held at its entry: only the output array's
    buffer differs between the two valuations. -/
theorem hrest0 (c : Dev nD) :
    ∀ b, b ∉ Finset.univ.image (Pipeline.arrRef spec0) → atTc (X2 m) c b = atTc (X1 m) c b :=
  fun b hb => Function.update_of_ne
    (StableHlo.devRef_ne_of_ne fun e => hb (Finset.mem_image.mpr ⟨2, Finset.mem_univ _, e.symm⟩)) _ _

-- a library lemma stated over the pinned configuration unifies with the printed one only when unification may unfold
-- plain definitions in a metavariable's type
set_option backward.isDefEq.respectTransparency.types false in
/-- REGION 0 over the thread state: entered from every unscoped buffer at X1, left at X2. Its arrays split
    out of the unscoped buffers and put back at the exit contents; the generator register and the scoped rest into the
    region's invariant at the first point and out of it at the last; nothing owed; no semaphore of the kernel's own. -/
def reg0 : Pipeline.RegionSeg (pcfgs (F := F)) adm (pdats m) () defs₀ Variants.none L0 lv0 0 where
  win := launch0.win.to₀
  block_pos := launch0.block_pos
  stage_whole := launch0.stage_whole
  K := PEmpty
  osem k := k.elim
  ho := Pipeline.OwnSemFacts.none _
  hbody c := (body_obligation0 (atTc (X1 m)) c).loose
  hwaits := Pipeline.hwaits_of_owed_zero _ _ _ _ L0 lv0 0 fun _ _ => rfl
  pre c := iprop(StableHlo.held (c : Thread nD τ) (Pipeline.ucRefs τ sig) (X1 m c) ∗ Rst c)
  post c := iprop(StableHlo.held (c : Thread nD τ) (Pipeline.ucRefs τ sig) (X2 m c) ∗ Rst c)
  X c := iprop(∃ r, prngReg c r)
  Y c := iprop(∃ r, prngReg c r)
  Z c := Pipeline.unscopedRest (Ix := Unit) (Name := ℕ) (U := UR sig nD τ) (Lvl := ℕ) spec0 c (atTc (X1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (X1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec0 c : sProp 𝕄) from by
      unfold Pipeline.ΦA
      iintro ⟨Hp, -, Hr⟩
      isplitl [Hr]; · iexact Hr
      iexact Hp).trans (hin0 (atTc (X1 m)) c)
  hout c := by
    rw [Pipeline.ownSems0_none]
    exact (hout0 (atTc (X1 m)) c).trans (show (Pipeline.ΦA spec0 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (X1 m) c) (atTc (X2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record's thread states are the stage valuations' by name. -/
theorem reg0_pre (c : Dev nD) :
    (reg0 m).pre c = iprop(StableHlo.held (c : Thread nD τ) (Pipeline.ucRefs τ sig) (X1 m c) ∗ Rst c) := rfl
theorem reg0_post (c : Dev nD) :
    (reg0 m).post c = iprop(StableHlo.held (c : Thread nD τ) (Pipeline.ucRefs τ sig) (X2 m c) ∗ Rst c) := rfl

/-! # Region 2: entered at X4, left at X5 -/

/-- At region 2's exit each of its arrays holds what the pipeline leaves: the two input arrays are not the output's
    buffer, so the exit contents there are the entry contents, which an input array keeps through every point; the
    output array holds its folded write-backs. -/
theorem hF2 (c : Dev nD) (w : Fin cfg2.W) :
    (dat2 (atTc (X4 m)) c).arrAt w cfg2.N = atTc (X5 m) c (Pipeline.arrRef spec2 w) := by
  match w with
  | ⟨0, _⟩ =>
    show _ = Function.update (X4 m c) main_v38 (Y5 m c main_v38) (Proc.devRef .tc main_v31)
    rw [Function.update_of_ne (StableHlo.devRef_ne_of_ne (by decide))]
    exact ((dat2 (atTc (X4 m)) c).arrAt_in 0 rfl _).trans (A_eq2 (atTc (X4 m)) c 0)
  | ⟨1, _⟩ =>
    show _ = Function.update (X4 m c) main_v38 (Y5 m c main_v38) (Proc.devRef .tc main_v37)
    rw [Function.update_of_ne (StableHlo.devRef_ne_of_ne (by decide))]
    exact ((dat2 (atTc (X4 m)) c).arrAt_in 1 rfl _).trans (A_eq2 (atTc (X4 m)) c 1)
  | ⟨2, _⟩ =>
    show _ = Function.update (X4 m c) main_v38 (Y5 m c main_v38) (Proc.devRef .tc main_v38)
    rw [Function.update_self]
    unfold Y5
    exact (Pipeline.withArrays_arr spec2 launch2.win.arr_inj c (X4 m c)
      (fun w => (dat2 (atTc (X4 m)) c).arrAt w cfg2.N) 2).symm

/-- Every buffer that is no array of region 2 holds at its exit what it held at its entry: only the output array's
    buffer differs between the two valuations. -/
theorem hrest2 (c : Dev nD) :
    ∀ b, b ∉ Finset.univ.image (Pipeline.arrRef spec2) → atTc (X5 m) c b = atTc (X4 m) c b :=
  fun b hb => Function.update_of_ne
    (StableHlo.devRef_ne_of_ne fun e => hb (Finset.mem_image.mpr ⟨2, Finset.mem_univ _, e.symm⟩)) _ _

-- a library lemma stated over the pinned configuration unifies with the printed one only when unification may unfold
-- plain definitions in a metavariable's type
set_option backward.isDefEq.respectTransparency.types false in
/-- REGION 2 over the thread state: entered from every unscoped buffer at X4, left at X5. Its arrays split
    out of the unscoped buffers and put back at the exit contents; the generator register and the scoped rest into the
    region's invariant at the first point and out of it at the last; nothing owed; no semaphore of the kernel's own. -/
def reg2 : Pipeline.RegionSeg (pcfgs (F := F)) adm (pdats m) () defs₀ Variants.none L0 lv0 2 where
  win := launch2.win.to₀
  block_pos := launch2.block_pos
  stage_whole := launch2.stage_whole
  K := PEmpty
  osem k := k.elim
  ho := Pipeline.OwnSemFacts.none _
  hbody c := (body_obligation2 (atTc (X4 m)) c).loose
  hwaits := Pipeline.hwaits_of_owed_zero _ _ _ _ L0 lv0 2 fun _ _ => rfl
  pre c := iprop(StableHlo.held (c : Thread nD τ) (Pipeline.ucRefs τ sig) (X4 m c) ∗ Rst c)
  post c := iprop(StableHlo.held (c : Thread nD τ) (Pipeline.ucRefs τ sig) (X5 m c) ∗ Rst c)
  X c := iprop(∃ r, prngReg c r)
  Y c := iprop(∃ r, prngReg c r)
  Z c := Pipeline.unscopedRest (Ix := Unit) (Name := ℕ) (U := UR sig nD τ) (Lvl := ℕ) spec2 c (atTc (X4 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (X4 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec2 c : sProp 𝕄) from by
      unfold Pipeline.ΦA
      iintro ⟨Hp, -, Hr⟩
      isplitl [Hr]; · iexact Hr
      iexact Hp).trans (hin2 (atTc (X4 m)) c)
  hout c := by
    rw [Pipeline.ownSems0_none]
    exact (hout2 (atTc (X4 m)) c).trans (show (Pipeline.ΦA spec2 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (X4 m) c) (atTc (X5 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record's thread states are the stage valuations' by name. -/
theorem reg2_pre (c : Dev nD) :
    (reg2 m).pre c = iprop(StableHlo.held (c : Thread nD τ) (Pipeline.ucRefs τ sig) (X4 m c) ∗ Rst c) := rfl
theorem reg2_post (c : Dev nD) :
    (reg2 m).post c = iprop(StableHlo.held (c : Thread nD τ) (Pipeline.ucRefs τ sig) (X5 m c) ∗ Rst c) := rfl

/-! # Region 4: entered at X7, left at X8 -/

/-- At region 4's exit each of its arrays holds what the pipeline leaves: the two input arrays are not the output's
    buffer, so the exit contents there are the entry contents, which an input array keeps through every point; the
    output array holds its folded write-backs. -/
theorem hF4 (c : Dev nD) (w : Fin cfg4.W) :
    (dat4 (atTc (X7 m)) c).arrAt w cfg4.N = atTc (X8 m) c (Pipeline.arrRef spec4 w) := by
  match w with
  | ⟨0, _⟩ =>
    show _ = Function.update (X7 m c) main_v41 (Y8 m c main_v41) (Proc.devRef .tc main_v31)
    rw [Function.update_of_ne (StableHlo.devRef_ne_of_ne (by decide))]
    exact ((dat4 (atTc (X7 m)) c).arrAt_in 0 rfl _).trans (A_eq4 (atTc (X7 m)) c 0)
  | ⟨1, _⟩ =>
    show _ = Function.update (X7 m c) main_v41 (Y8 m c main_v41) (Proc.devRef .tc main_v40)
    rw [Function.update_of_ne (StableHlo.devRef_ne_of_ne (by decide))]
    exact ((dat4 (atTc (X7 m)) c).arrAt_in 1 rfl _).trans (A_eq4 (atTc (X7 m)) c 1)
  | ⟨2, _⟩ =>
    show _ = Function.update (X7 m c) main_v41 (Y8 m c main_v41) (Proc.devRef .tc main_v41)
    rw [Function.update_self]
    unfold Y8
    exact (Pipeline.withArrays_arr spec4 launch4.win.arr_inj c (X7 m c)
      (fun w => (dat4 (atTc (X7 m)) c).arrAt w cfg4.N) 2).symm

/-- Every buffer that is no array of region 4 holds at its exit what it held at its entry: only the output array's
    buffer differs between the two valuations. -/
theorem hrest4 (c : Dev nD) :
    ∀ b, b ∉ Finset.univ.image (Pipeline.arrRef spec4) → atTc (X8 m) c b = atTc (X7 m) c b :=
  fun b hb => Function.update_of_ne
    (StableHlo.devRef_ne_of_ne fun e => hb (Finset.mem_image.mpr ⟨2, Finset.mem_univ _, e.symm⟩)) _ _

-- a library lemma stated over the pinned configuration unifies with the printed one only when unification may unfold
-- plain definitions in a metavariable's type
set_option backward.isDefEq.respectTransparency.types false in
/-- REGION 4 over the thread state: entered from every unscoped buffer at X7, left at X8. Its arrays split
    out of the unscoped buffers and put back at the exit contents; the generator register and the scoped rest into the
    region's invariant at the first point and out of it at the last; nothing owed; no semaphore of the kernel's own. -/
def reg4 : Pipeline.RegionSeg (pcfgs (F := F)) adm (pdats m) () defs₀ Variants.none L0 lv0 4 where
  win := launch4.win.to₀
  block_pos := launch4.block_pos
  stage_whole := launch4.stage_whole
  K := PEmpty
  osem k := k.elim
  ho := Pipeline.OwnSemFacts.none _
  hbody c := (body_obligation4 (atTc (X7 m)) c).loose
  hwaits := Pipeline.hwaits_of_owed_zero _ _ _ _ L0 lv0 4 fun _ _ => rfl
  pre c := iprop(StableHlo.held (c : Thread nD τ) (Pipeline.ucRefs τ sig) (X7 m c) ∗ Rst c)
  post c := iprop(StableHlo.held (c : Thread nD τ) (Pipeline.ucRefs τ sig) (X8 m c) ∗ Rst c)
  X c := iprop(∃ r, prngReg c r)
  Y c := iprop(∃ r, prngReg c r)
  Z c := Pipeline.unscopedRest (Ix := Unit) (Name := ℕ) (U := UR sig nD τ) (Lvl := ℕ) spec4 c (atTc (X7 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (X7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    exact (show _ ⊢ (Pipeline.ΦA spec4 c : sProp 𝕄) from by
      unfold Pipeline.ΦA
      iintro ⟨Hp, -, Hr⟩
      isplitl [Hr]; · iexact Hr
      iexact Hp).trans (hin4 (atTc (X7 m)) c)
  hout c := by
    rw [Pipeline.ownSems0_none]
    exact (hout4 (atTc (X7 m)) c).trans (show (Pipeline.ΦA spec4 c : sProp 𝕄) ⊢ _ from by
      unfold Pipeline.ΦA
      iintro ⟨Hr, Hp⟩
      isplitl [Hp]; · iexact Hp
      isplitr; · iempintro
      iexact Hr)
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (X7 m) c) (atTc (X8 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The record's thread states are the stage valuations' by name. -/
theorem reg4_pre (c : Dev nD) :
    (reg4 m).pre c = iprop(StableHlo.held (c : Thread nD τ) (Pipeline.ucRefs τ sig) (X7 m c) ∗ Rst c) := rfl
theorem reg4_post (c : Dev nD) :
    (reg4 m).post c = iprop(StableHlo.held (c : Thread nD τ) (Pipeline.ucRefs τ sig) (X8 m c) ∗ Rst c) := rfl

end Cert.KernelIdeal.Hand

end
-- ==== Proof.KI.RegsLin.lean ====
import proofs.«427327_j68599217652368_1_alg».proof.Proof.KI.Stages
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # The linear regions of @main as segments of its run

Each of the three linear regions (custom_calls 1, 3, 5) is entered with every unscoped buffer of the core at the
contents the items before it leave and is left with the same buffers, its output array alone changed: to what the
pipeline's write-backs make of it. Beside the buffers ride the core's generator register and its owed amounts,
at nothing, untouched. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- After region 5: only its output array `main_v43` has changed, to what its write-backs leave in it. -/
abbrev X10 (c : Dev nD) : Valuation τ sig (Elt F) := Function.update (X9 m c) main_v43 (Y10 m c main_v43)
/-- The last region's exit contents are the conditional frame's valuation after it, at the named contents. -/
theorem V10_eq (c : Dev nD) : V10 m (outs m) c = X10 m c := rfl

/-! # Region 1: entered at `X3`, left at `X4` -/

/-- At the region's exit each of its arrays holds what the pipeline leaves in it: an input's array is never written
    back to, so it holds its entry contents, and its buffer is not the output's, which alone the exit contents
    change; the output's array holds its write-backs folded over the entry contents, which is how the exit
    contents are defined there. -/
theorem hF1 (c : Dev nD) : ∀ w : Fin cfg1.W, (dat1 (atTc (X3 m)) c).arrAt w cfg1.N = atTc (X4 m) c (Pipeline.arrRef spec1 w)
  | ⟨0, _⟩ => ((dat1 (atTc (X3 m)) c).arrAt_in 0 rfl _).trans ((A_eq1 (atTc (X3 m)) c 0).trans
      (Function.update_of_ne (StableHlo.devRef_ne_of_ne (by decide)) _ _).symm)
  | ⟨1, _⟩ => ((dat1 (atTc (X3 m)) c).arrAt_in 1 rfl _).trans ((A_eq1 (atTc (X3 m)) c 1).trans
      (Function.update_of_ne (StableHlo.devRef_ne_of_ne (by decide)) _ _).symm)
  | ⟨2, _⟩ => ((dat1 (atTc (X3 m)) c).arrAt_in 2 rfl _).trans ((A_eq1 (atTc (X3 m)) c 2).trans
      (Function.update_of_ne (StableHlo.devRef_ne_of_ne (by decide)) _ _).symm)
  | ⟨3, _⟩ => ((dat1 (atTc (X3 m)) c).arrAt_in 3 rfl _).trans ((A_eq1 (atTc (X3 m)) c 3).trans
      (Function.update_of_ne (StableHlo.devRef_ne_of_ne (by decide)) _ _).symm)
  | ⟨4, _⟩ => ((dat1 (atTc (X3 m)) c).arrAt_in 4 rfl _).trans ((A_eq1 (atTc (X3 m)) c 4).trans
      (Function.update_of_ne (StableHlo.devRef_ne_of_ne (by decide)) _ _).symm)
  | ⟨5, _⟩ => by
      show _ = Function.update (X3 m c) main_v37 (Y4 m c main_v37) main_v37
      rw [Function.update_self]; exact (outs4 m c).symm

/-- Every buffer that is no array of the region holds at the exit what it held at entry: it is not the output's. -/
theorem hrest1 (c : Dev nD) : ∀ b, b ∉ Finset.univ.image (Pipeline.arrRef spec1) → atTc (X4 m) c b = atTc (X3 m) c b :=
  fun b hb => Function.update_of_ne (StableHlo.devRef_ne_of_ne fun e =>
    hb (Finset.mem_image.mpr ⟨5, Finset.mem_univ _, e.symm⟩)) _ _

set_option backward.isDefEq.respectTransparency.types false in
/-- The region over the thread state: entered from every unscoped buffer at `X3`, left at `X4`. Its arrays
    are split out of the unscoped buffers at entry and put back at the exit contents; the generator register goes
    into the pipeline's invariant and comes out; nothing is owed; the kernel has no semaphore of its own. -/
def reg1 : Pipeline.RegionSeg (pcfgs (F := F)) adm (pdats m) () defs₀ Variants.none L0 lv0 1 where
  win := launch1.win.to₀
  block_pos := launch1.block_pos
  stage_whole := launch1.stage_whole
  K := PEmpty
  osem k := k.elim
  ho := Pipeline.OwnSemFacts.none _
  hbody c := (body_obligation1 (atTc (X3 m)) c).loose
  hwaits := Pipeline.hwaits_of_owed_zero _ _ _ _ L0 lv0 1 fun _ _ => rfl
  pre c := iprop(StableHlo.held (c : Thread nD τ) (Pipeline.ucRefs τ sig) (X3 m c) ∗ Rst c)
  post c := iprop(StableHlo.held (c : Thread nD τ) (Pipeline.ucRefs τ sig) (X4 m c) ∗ Rst c)
  X c := iprop(∃ r, prngReg c r)
  Y c := iprop(∃ r, prngReg c r)
  Z c := Pipeline.unscopedRest (Ix := Unit) (Name := ℕ) (U := UR sig nD τ) (Lvl := ℕ) spec1 c (atTc (X3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (X3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (X3 m) c) (atTc (X4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's thread states are the boundary's buffers beside the rest, as stated. -/
example (c : Dev nD) : (reg1 m).pre c = iprop(StableHlo.held (c : Thread nD τ) (Pipeline.ucRefs τ sig) (X3 m c) ∗ Rst c) := rfl
example (c : Dev nD) : (reg1 m).post c = iprop(StableHlo.held (c : Thread nD τ) (Pipeline.ucRefs τ sig) (X4 m c) ∗ Rst c) := rfl

/-! # Region 3: entered at `X6`, left at `X7` -/

/-- At the region's exit each of its arrays holds what the pipeline leaves in it: an input's array is never written
    back to, so it holds its entry contents, and its buffer is not the output's, which alone the exit contents
    change; the output's array holds its write-backs folded over the entry contents, which is how the exit
    contents are defined there. -/
theorem hF3 (c : Dev nD) : ∀ w : Fin cfg3.W, (dat3 (atTc (X6 m)) c).arrAt w cfg3.N = atTc (X7 m) c (Pipeline.arrRef spec3 w)
  | ⟨0, _⟩ => ((dat3 (atTc (X6 m)) c).arrAt_in 0 rfl _).trans ((A_eq3 (atTc (X6 m)) c 0).trans
      (Function.update_of_ne (StableHlo.devRef_ne_of_ne (by decide)) _ _).symm)
  | ⟨1, _⟩ => ((dat3 (atTc (X6 m)) c).arrAt_in 1 rfl _).trans ((A_eq3 (atTc (X6 m)) c 1).trans
      (Function.update_of_ne (StableHlo.devRef_ne_of_ne (by decide)) _ _).symm)
  | ⟨2, _⟩ => ((dat3 (atTc (X6 m)) c).arrAt_in 2 rfl _).trans ((A_eq3 (atTc (X6 m)) c 2).trans
      (Function.update_of_ne (StableHlo.devRef_ne_of_ne (by decide)) _ _).symm)
  | ⟨3, _⟩ => ((dat3 (atTc (X6 m)) c).arrAt_in 3 rfl _).trans ((A_eq3 (atTc (X6 m)) c 3).trans
      (Function.update_of_ne (StableHlo.devRef_ne_of_ne (by decide)) _ _).symm)
  | ⟨4, _⟩ => ((dat3 (atTc (X6 m)) c).arrAt_in 4 rfl _).trans ((A_eq3 (atTc (X6 m)) c 4).trans
      (Function.update_of_ne (StableHlo.devRef_ne_of_ne (by decide)) _ _).symm)
  | ⟨5, _⟩ => by
      show _ = Function.update (X6 m c) main_v40 (Y7 m c main_v40) main_v40
      rw [Function.update_self]; exact (outs7 m c).symm

/-- Every buffer that is no array of the region holds at the exit what it held at entry: it is not the output's. -/
theorem hrest3 (c : Dev nD) : ∀ b, b ∉ Finset.univ.image (Pipeline.arrRef spec3) → atTc (X7 m) c b = atTc (X6 m) c b :=
  fun b hb => Function.update_of_ne (StableHlo.devRef_ne_of_ne fun e =>
    hb (Finset.mem_image.mpr ⟨5, Finset.mem_univ _, e.symm⟩)) _ _

set_option backward.isDefEq.respectTransparency.types false in
/-- The region over the thread state: entered from every unscoped buffer at `X6`, left at `X7`. Its arrays
    are split out of the unscoped buffers at entry and put back at the exit contents; the generator register goes
    into the pipeline's invariant and comes out; nothing is owed; the kernel has no semaphore of its own. -/
def reg3 : Pipeline.RegionSeg (pcfgs (F := F)) adm (pdats m) () defs₀ Variants.none L0 lv0 3 where
  win := launch3.win.to₀
  block_pos := launch3.block_pos
  stage_whole := launch3.stage_whole
  K := PEmpty
  osem k := k.elim
  ho := Pipeline.OwnSemFacts.none _
  hbody c := (body_obligation3 (atTc (X6 m)) c).loose
  hwaits := Pipeline.hwaits_of_owed_zero _ _ _ _ L0 lv0 3 fun _ _ => rfl
  pre c := iprop(StableHlo.held (c : Thread nD τ) (Pipeline.ucRefs τ sig) (X6 m c) ∗ Rst c)
  post c := iprop(StableHlo.held (c : Thread nD τ) (Pipeline.ucRefs τ sig) (X7 m c) ∗ Rst c)
  X c := iprop(∃ r, prngReg c r)
  Y c := iprop(∃ r, prngReg c r)
  Z c := Pipeline.unscopedRest (Ix := Unit) (Name := ℕ) (U := UR sig nD τ) (Lvl := ℕ) spec3 c (atTc (X6 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (X6 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (X6 m) c) (atTc (X7 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's thread states are the boundary's buffers beside the rest, as stated. -/
example (c : Dev nD) : (reg3 m).pre c = iprop(StableHlo.held (c : Thread nD τ) (Pipeline.ucRefs τ sig) (X6 m c) ∗ Rst c) := rfl
example (c : Dev nD) : (reg3 m).post c = iprop(StableHlo.held (c : Thread nD τ) (Pipeline.ucRefs τ sig) (X7 m c) ∗ Rst c) := rfl

/-! # Region 5: entered at `X9`, left at `X10` -/

/-- At the region's exit each of its arrays holds what the pipeline leaves in it: an input's array is never written
    back to, so it holds its entry contents, and its buffer is not the output's, which alone the exit contents
    change; the output's array holds its write-backs folded over the entry contents, which is how the exit
    contents are defined there. -/
theorem hF5 (c : Dev nD) : ∀ w : Fin cfg5.W, (dat5 (atTc (X9 m)) c).arrAt w cfg5.N = atTc (X10 m) c (Pipeline.arrRef spec5 w)
  | ⟨0, _⟩ => ((dat5 (atTc (X9 m)) c).arrAt_in 0 rfl _).trans ((A_eq5 (atTc (X9 m)) c 0).trans
      (Function.update_of_ne (StableHlo.devRef_ne_of_ne (by decide)) _ _).symm)
  | ⟨1, _⟩ => ((dat5 (atTc (X9 m)) c).arrAt_in 1 rfl _).trans ((A_eq5 (atTc (X9 m)) c 1).trans
      (Function.update_of_ne (StableHlo.devRef_ne_of_ne (by decide)) _ _).symm)
  | ⟨2, _⟩ => ((dat5 (atTc (X9 m)) c).arrAt_in 2 rfl _).trans ((A_eq5 (atTc (X9 m)) c 2).trans
      (Function.update_of_ne (StableHlo.devRef_ne_of_ne (by decide)) _ _).symm)
  | ⟨3, _⟩ => ((dat5 (atTc (X9 m)) c).arrAt_in 3 rfl _).trans ((A_eq5 (atTc (X9 m)) c 3).trans
      (Function.update_of_ne (StableHlo.devRef_ne_of_ne (by decide)) _ _).symm)
  | ⟨4, _⟩ => ((dat5 (atTc (X9 m)) c).arrAt_in 4 rfl _).trans ((A_eq5 (atTc (X9 m)) c 4).trans
      (Function.update_of_ne (StableHlo.devRef_ne_of_ne (by decide)) _ _).symm)
  | ⟨5, _⟩ => by
      show _ = Function.update (X9 m c) main_v43 (Y10 m c main_v43) main_v43
      rw [Function.update_self]; exact (outs10 m c).symm

/-- Every buffer that is no array of the region holds at the exit what it held at entry: it is not the output's. -/
theorem hrest5 (c : Dev nD) : ∀ b, b ∉ Finset.univ.image (Pipeline.arrRef spec5) → atTc (X10 m) c b = atTc (X9 m) c b :=
  fun b hb => Function.update_of_ne (StableHlo.devRef_ne_of_ne fun e =>
    hb (Finset.mem_image.mpr ⟨5, Finset.mem_univ _, e.symm⟩)) _ _

set_option backward.isDefEq.respectTransparency.types false in
/-- The region over the thread state: entered from every unscoped buffer at `X9`, left at `X10`. Its arrays
    are split out of the unscoped buffers at entry and put back at the exit contents; the generator register goes
    into the pipeline's invariant and comes out; nothing is owed; the kernel has no semaphore of its own. -/
def reg5 : Pipeline.RegionSeg (pcfgs (F := F)) adm (pdats m) () defs₀ Variants.none L0 lv0 5 where
  win := launch5.win.to₀
  block_pos := launch5.block_pos
  stage_whole := launch5.stage_whole
  K := PEmpty
  osem k := k.elim
  ho := Pipeline.OwnSemFacts.none _
  hbody c := (body_obligation5 (atTc (X9 m)) c).loose
  hwaits := Pipeline.hwaits_of_owed_zero _ _ _ _ L0 lv0 5 fun _ _ => rfl
  pre c := iprop(StableHlo.held (c : Thread nD τ) (Pipeline.ucRefs τ sig) (X9 m c) ∗ Rst c)
  post c := iprop(StableHlo.held (c : Thread nD τ) (Pipeline.ucRefs τ sig) (X10 m c) ∗ Rst c)
  X c := iprop(∃ r, prngReg c r)
  Y c := iprop(∃ r, prngReg c r)
  Z c := Pipeline.unscopedRest (Ix := Unit) (Name := ℕ) (U := UR sig nD τ) (Lvl := ℕ) spec5 c (atTc (X9 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (X9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (X9 m) c) (atTc (X10 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The region's thread states are the boundary's buffers beside the rest, as stated. -/
example (c : Dev nD) : (reg5 m).pre c = iprop(StableHlo.held (c : Thread nD τ) (Pipeline.ucRefs τ sig) (X9 m c) ∗ Rst c) := rfl
example (c : Dev nD) : (reg5 m).post c = iprop(StableHlo.held (c : Thread nD τ) (Pipeline.ucRefs τ sig) (X10 m c) ∗ Rst c) := rfl

end Cert.KernelIdeal.Hand

end
-- ==== Proof.KI.RunFrame.lean ====
/- The kernel program's run: the generated conditional frame at the six regions' segment records and at the
   stage contents of `Stages`. `frame` is the program's frame claim at any float family. -/
import proofs.«427327_j68599217652368_1_alg».proof.Proof.KI.RegsAgg
import proofs.«427327_j68599217652368_1_alg».proof.Proof.KI.RegsLin
import Idealize.ShloMosaic.Lib.Pipeline.Kit

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element is the pipeline library's at every staging cell; no ghost resource is left over. -/
theorem launch_own : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- On one core: the generator register at its launch state and the launch's `owes` at nothing are the rest state. -/
theorem launch_rest_core (c : Dev nD) :
    (iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ (iprop((∃ r, prngReg c r) ∗ ∃ W, owes (c : Thread nD τ) (0 : CellTallies nD τ sig Unit) W) : sProp 𝕄) := by
  iintro ⟨-, HO, -, Hp, -⟩
  isplitl [Hp]; · iexists _; iexact Hp
  iexists ∅; iexact HO

/-- What the launch deals every core makes the first rest state: the generator register at its launch state, nothing owed. -/
theorem launch_rest : iprop((bigSep Finset.univ fun c : Dev nD => iprop(unscopedSems0 c ∗ owes (c : Thread nD τ) ((0 : Dev nD → CellTallies nD τ sig Unit) c) ∅
      ∗ Pipeline.launchCred (0 : Dev nD → CellTallies nD τ sig Unit) c ∗ prngReg c (ρ c) ∗ (BI.emp : sProp 𝕄))) ∗ levAts L0 lv0)
    ⊢ (|={Set.univ}=> bigSep Finset.univ (Est (F := F) 0) : sProp 𝕄) := by
  have hmono : (bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (BI.emp : sProp 𝕄)) : sProp 𝕄)
      ⊢ bigSep Finset.univ (Est (F := F) 0) :=
    bigSep_mono fun c _ => launch_rest_core ρ c
  iintro ⟨H, -⟩
  imodintro
  iapply hmono
  iexact H

/-- THE FRAME of the kernel program at any float family: every weakly fair execution terminates, nothing faults, and the
    eleven argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_cond m emb₁ () Variants.none L0 lv0 (fun _ _ => rfl) ρ (outs m) (pdats m) 0 (fun _ => iprop(emp))
    (initOf (Pipeline.cells cfgs cellOf_inj) (Pipeline.launchToks cfgs cellOf_inj)) launch_own
    (Est (F := F)) (launch_rest ρ) (fun c => by iintro ⟨-, H⟩; iexact H)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)

end Cert.KernelIdeal.Hand

end
-- ==== Proof.KI.RunValue.lean ====
/- The kernel program's run with the result named: as the frame, and the result buffer `main_v45` ends at the last
   valuation's contents — the conditional run (the generated conditional frame's text with that conjunct added) at the six
   regions' segment records and the stage contents of `Stages`. -/
import proofs.«427327_j68599217652368_1_alg».proof.Proof.KI.RunFrame
import proofs.«427327_j68599217652368_1_alg».proof.Proof.KI.RegionsValue

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE RUN WITH THE RESULT NAMED: as `frame`, and the result buffer ends at the last valuation's contents. -/
theorem run_value : θ_run defs (onTc (τ := τ) (main (F := F))) ⟨m, fun _ => 0, ρ⟩ (fun r => ∀ c : Dev nD,
      r.2.mem ((c.tc : Thread nD τ).loc main_v45) = V12 m (outs m) c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Cert.KernelIdeal.GenP.run_cond m emb₁ () Variants.none L0 lv0 (fun _ _ => rfl) ρ (outs m) (pdats m) 0 (fun _ => iprop(emp))
    (initOf (Pipeline.cells cfgs cellOf_inj) (Pipeline.launchToks cfgs cellOf_inj)) launch_own
    (Est (F := F)) (launch_rest ρ) (fun c => by iintro ⟨-, H⟩; iexact H)
    (reg0 m) (fun c => .rfl) (fun c => .rfl)
    (reg1 m) (fun c => .rfl) (fun c => .rfl)
    (reg2 m) (fun c => .rfl) (fun c => .rfl)
    (reg3 m) (fun c => .rfl) (fun c => .rfl)
    (reg4 m) (fun c => .rfl) (fun c => .rfl)
    (reg5 m) (fun c => .rfl) (fun c => .rfl)

end Cert.KernelIdeal.Hand

end
-- ==== Proof.LibScatterAdd.lean ====
/-
  THE ACCUMULATING SCATTER AND A ROW GATHER READ AT AN INDEX, over generic sizes.

  The host's float scatter with an add body, at the ideal instance, is each operand element plus the sum of the update
  elements whose result index is that element (the start index read signed and not clamped, plus the window
  coordinate; an update landing outside the operand is dropped). For three families of dimension numbers this file
  reads that value at an index as a plain sum over the edges e : Fin E with an indicator on the edge's start index:
  segment counts (a flat operand, one start component per edge, scalar updates), segment sums of rows (a matrix
  operand, one start component per edge naming the row, whole rows as updates) and pair counts (a matrix operand,
  two start components per edge naming row and column, scalar updates). No in-range hypothesis is needed: an
  update whose start leaves the operand contributes to no element on either side. Last, a gather of whole rows of a
  matrix at one start component per result row, read at an index: the operand's row at the start index read signed
  and clamped into [0, N − 1].
-/
import Idealize.ShloMosaic.PureOps.Ideal
import Idealize.ShloMosaic.PureOps.Ideal.Laws
import Idealize.ShloMosaic.Lib.ValueIdx
import Idealize.ShloMosaic.Lib.ValueIdxRank1
import Mathlib.Algebra.BigOperators.Group.Finset.Basic
import Mathlib.Algebra.BigOperators.Group.Finset.Piecewise
import Mathlib.Algebra.BigOperators.Fin

noncomputable section

open scoped BigOperators

namespace Idealize.ShloMosaic.ScatterAddIdx

open Idealize.ShloMosaic Idealize.ShloMosaic.ValueIdx

/-! ## Any scatter: when an update lands at an index -/

/-- A sum over a rank-1 index set is the sum over its coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- An update index lands at operand index i exactly when, on every operand axis, its start (read signed, not
    clamped) plus its window coordinate is i's coordinate: being inside the operand is then automatic, and an
    update that leaves the operand lands at no i. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hr
      have h1 := congrArg Fin.val (congrFun (Option.some.inj h) a)
      simp only at h1
      have h2 := hr a
      omega
    · exact absurd h (by simp)
  · intro h
    have hr : ∀ a, 0 ≤ d.start j idx a + (d.window j a : Int) ∧ d.start j idx a + (d.window j a : Int) < s.size a := by
      intro a
      have h1 := h a
      have h2 := (i a).isLt
      omega
    rw [dif_pos hr]
    congr 1
    funext a
    refine Fin.ext ?_
    show (d.start j idx a + (d.window j a : Int)).toNat = (i a).val
    have h1 := h a
    omega

/-! ## Segment counts: a flat operand, one start component per edge, scalar updates -/

/-- The dimension numbers of a scatter into a flat operand [N] from E edges, each with one start component
    (indices [E, 1]) and a scalar update (updates [E]): no window axes, operand axis 0 inserted and named by the
    start component. -/
abbrev segDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

/-- The start of edge e's window on the operand's one axis is the edge's start component, read signed. -/
theorem seg_start {N E w : Nat} (wf : ScatterDims.WF ⟨1, ![N]⟩ ⟨2, ![E, 1]⟩ ⟨1, ![E]⟩ [] [0] [0] 1)
    (idx : IVec ⟨2, ![E, 1]⟩ w) (e : Fin E) (a : Fin 1) :
    (segDims N E wf).start (ix1 e) idx a = (idx (ix2 e ⟨0, Nat.one_pos⟩)).toInt := by
  obtain rfl : a = 0 := Subsingleton.elim _ _
  unfold ScatterDims.start
  rw [dif_pos (show (0 : Fin 1) ∈ (segDims N E wf).scatterDimsToOperandDims from List.mem_singleton.mpr rfl)]
  have hsi : (segDims N E wf).siIdx (ix1 e) ⟨List.idxOf (0 : Fin 1) (segDims N E wf).scatterDimsToOperandDims,
      List.idxOf_lt_length_iff.2 (List.mem_singleton.mpr rfl)⟩ = ix2 e ⟨0, Nat.one_pos⟩ := by
    funext b; refine Fin.ext ?_
    match b with
    | ⟨0, _⟩ => rfl
    | ⟨1, _⟩ => rfl
  rw [hsi]

/-- There is no window axis: the window coordinate on the operand's one axis is 0. -/
theorem seg_window {N E : Nat} (wf : ScatterDims.WF ⟨1, ![N]⟩ ⟨2, ![E, 1]⟩ ⟨1, ![E]⟩ [] [0] [0] 1)
    (j : (⟨1, ![E]⟩ : Shape).Idx) (a : Fin 1) : (segDims N E wf).window j a = 0 := by
  obtain rfl : a = 0 := Subsingleton.elim _ _
  unfold ScatterDims.window
  rw [dif_neg (by simp [Shape.kept])]

/-- THE SEGMENT-COUNT SCATTER READ AT i: the operand's element plus the sum of the updates of the edges whose start
    index, read signed, is i. -/
theorem hostScatterAdd_seg_apply {N E w : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (i : (⟨1, ![N]⟩ : Shape).Idx) :
    Ideal.hostScatterAdd (segDims N E wf) x idx upd i
      = x i + ∑ e : Fin E, if (idx (ix2 e ⟨0, Nat.one_pos⟩)).toInt = ((i 0).val : Int) then upd (ix1 e) else 0 := by
  unfold Ideal.hostScatterAdd
  congr 1
  rw [Finset.sum_filter, sum_idx1]
  refine Finset.sum_congr rfl fun e _ => ?_
  refine if_congr ?_ rfl rfl
  rw [resultIdx?_eq_some_iff]
  constructor
  · intro h
    have h0 := h 0
    rw [seg_start, seg_window] at h0
    simpa using h0
  · intro h a
    obtain rfl : a = 0 := Subsingleton.elim _ _
    rw [seg_start, seg_window]
    simpa using h

/-! ## Segment sums of rows: a matrix operand, one start component per edge naming the row, rows as updates -/

/-- The dimension numbers of a scatter into a matrix [N, D] from E edges, each with one start component (indices
    [E, 1]) naming a row and a whole row as its update (updates [E, D]): update axis 1 the window axis, operand axis 0
    inserted and named by the start component. -/
abbrev segRowsDims (N D E : Nat) (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- The start of the window of update (e, f): on the row axis edge e's start component, read signed; on the column
    axis 0. -/
theorem segRows_start {N D E w : Nat} (wf : ScatterDims.WF ⟨2, ![N, D]⟩ ⟨2, ![E, 1]⟩ ⟨2, ![E, D]⟩ [1] [0] [0] 1)
    (idx : IVec ⟨2, ![E, 1]⟩ w) (e : Fin E) (f : Fin D) :
    (segRowsDims N D E wf).start (ix2 e f) idx 0 = (idx (ix2 e ⟨0, Nat.one_pos⟩)).toInt
      ∧ (segRowsDims N D E wf).start (ix2 e f) idx 1 = 0 := by
  constructor
  · unfold ScatterDims.start
    rw [dif_pos (show (0 : Fin 2) ∈ (segRowsDims N D E wf).scatterDimsToOperandDims from List.mem_singleton.mpr rfl)]
    have hsi : (segRowsDims N D E wf).siIdx (ix2 e f) ⟨List.idxOf (0 : Fin 2) (segRowsDims N D E wf).scatterDimsToOperandDims,
        List.idxOf_lt_length_iff.2 (List.mem_singleton.mpr rfl)⟩ = ix2 e ⟨0, Nat.one_pos⟩ := by
      funext b; refine Fin.ext ?_
      match b with
      | ⟨0, _⟩ => rfl
      | ⟨1, _⟩ => rfl
    rw [hsi]
  · unfold ScatterDims.start
    rw [dif_neg (show (1 : Fin 2) ∉ ([0] : List (Fin 2)) by decide)]

/-- The window coordinate of update (e, f): 0 on the row axis, f on the column axis. -/
theorem segRows_window {N D E : Nat} (wf : ScatterDims.WF ⟨2, ![N, D]⟩ ⟨2, ![E, 1]⟩ ⟨2, ![E, D]⟩ [1] [0] [0] 1)
    (e : Fin E) (f : Fin D) :
    (segRowsDims N D E wf).window (ix2 e f) 0 = 0 ∧ (segRowsDims N D E wf).window (ix2 e f) 1 = f.val := by
  constructor
  · unfold ScatterDims.window
    rw [dif_neg (by simp [Shape.kept])]
  · unfold ScatterDims.window
    rw [dif_pos (by simp [Shape.kept])]
    rfl

/-- Update (e, f) lands at (r, c) exactly when edge e's start component, read signed, is r and f is c. -/
theorem segRows_resultIdx_iff {N D E w : Nat} (wf : ScatterDims.WF ⟨2, ![N, D]⟩ ⟨2, ![E, 1]⟩ ⟨2, ![E, D]⟩ [1] [0] [0] 1)
    (idx : IVec ⟨2, ![E, 1]⟩ w) (e : Fin E) (f : Fin D) (i : (⟨2, ![N, D]⟩ : Shape).Idx) :
    (segRowsDims N D E wf).resultIdx? (ix2 e f) idx = some i
      ↔ f = ⟨(i 1).val, idx2_lt1 i⟩ ∧ (idx (ix2 e ⟨0, Nat.one_pos⟩)).toInt = ((i 0).val : Int) := by
  rw [resultIdx?_eq_some_iff]
  obtain ⟨hs0, hs1⟩ := segRows_start wf idx e f
  obtain ⟨hw0, hw1⟩ := segRows_window wf e f
  constructor
  · intro h
    have h0 := h 0
    have h1 := h 1
    rw [hs0, hw0] at h0
    rw [hs1, hw1] at h1
    refine ⟨Fin.ext ?_, ?_⟩
    · show f.val = (i 1).val
      omega
    · simpa using h0
  · rintro ⟨hf, hS⟩ a
    have hf' : f.val = (i 1).val := congrArg Fin.val hf
    match a with
    | ⟨0, _⟩ =>
      show (segRowsDims N D E wf).start (ix2 e f) idx 0 + ((segRowsDims N D E wf).window (ix2 e f) 0 : Int) = ((i 0).val : Int)
      rw [hs0, hw0]
      simpa using hS
    | ⟨1, _⟩ =>
      show (segRowsDims N D E wf).start (ix2 e f) idx 1 + ((segRowsDims N D E wf).window (ix2 e f) 1 : Int) = ((i 1).val : Int)
      rw [hs1, hw1]
      omega

/-- THE ROW SCATTER READ AT (r, c): the operand's element plus the sum, over the edges whose start index read signed
    is r, of the edge's update at column c. -/
theorem hostScatterAdd_segRows_apply {N D E w : Nat}
    (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w)
    (upd : (⟨2, ![E, D]⟩ : Shape).Idx → EReal) (i : (⟨2, ![N, D]⟩ : Shape).Idx) :
    Ideal.hostScatterAdd (segRowsDims N D E wf) x idx upd i
      = x i + ∑ e : Fin E, if (idx (ix2 e ⟨0, Nat.one_pos⟩)).toInt = ((i 0).val : Int)
          then upd (ix2 e ⟨(i 1).val, idx2_lt1 i⟩) else 0 := by
  unfold Ideal.hostScatterAdd
  congr 1
  rw [Finset.sum_filter, sum_idx2]
  refine Finset.sum_congr rfl fun e _ => ?_
  trans ∑ f : Fin D, if f = ⟨(i 1).val, idx2_lt1 i⟩ then
      (if (idx (ix2 e ⟨0, Nat.one_pos⟩)).toInt = ((i 0).val : Int) then upd (ix2 e f) else 0) else 0
  · refine Finset.sum_congr rfl fun f _ => ?_
    rw [← ite_and]
    exact if_congr (segRows_resultIdx_iff wf idx e f i) rfl rfl
  · rw [Finset.sum_ite_eq']
    simp

/-! ## Pair counts: a matrix operand, two start components per edge naming row and column, scalar updates -/

/-- The dimension numbers of a scatter into a matrix [M, M'] from E edges, each with two start components (indices
    [E, 2]) naming a row and a column and a scalar update (updates [E]): no window axes, both operand axes inserted,
    start component c naming operand axis c. -/
abbrev pairsDims (M M' E : Nat) (wf : ScatterDims.WF ⟨2, ![M, M']⟩ ⟨2, ![E, 2]⟩ ⟨1, ![E]⟩ [] [0, 1] [0, 1] 1) :
    ScatterDims ⟨2, ![M, M']⟩ ⟨2, ![E, 2]⟩ ⟨1, ![E]⟩ where
  updateWindowDims := []
  insertedWindowDims := [0, 1]
  scatterDimsToOperandDims := [0, 1]
  indexVectorDim := 1
  wf := wf

/-- The start of edge e's window: on the row axis the edge's first start component, on the column axis its second,
    each read signed. -/
theorem pairs_start {M M' E w : Nat} (wf : ScatterDims.WF ⟨2, ![M, M']⟩ ⟨2, ![E, 2]⟩ ⟨1, ![E]⟩ [] [0, 1] [0, 1] 1)
    (idx : IVec ⟨2, ![E, 2]⟩ w) (e : Fin E) :
    (pairsDims M M' E wf).start (ix1 e) idx 0 = (idx (ix2 e ⟨0, by omega⟩)).toInt
      ∧ (pairsDims M M' E wf).start (ix1 e) idx 1 = (idx (ix2 e ⟨1, by omega⟩)).toInt := by
  constructor
  · unfold ScatterDims.start
    have hm : (0 : Fin 2) ∈ (pairsDims M M' E wf).scatterDimsToOperandDims :=
      show (0 : Fin 2) ∈ ([0, 1] : List (Fin 2)) by decide
    rw [dif_pos hm]
    have hsi : (pairsDims M M' E wf).siIdx (ix1 e) ⟨List.idxOf (0 : Fin 2) (pairsDims M M' E wf).scatterDimsToOperandDims,
        List.idxOf_lt_length_iff.2 hm⟩ = ix2 e ⟨0, by omega⟩ := by
      funext b; refine Fin.ext ?_
      match b with
      | ⟨0, _⟩ => rfl
      | ⟨1, _⟩ => rfl
    rw [hsi]
  · unfold ScatterDims.start
    have hm : (1 : Fin 2) ∈ (pairsDims M M' E wf).scatterDimsToOperandDims :=
      show (1 : Fin 2) ∈ ([0, 1] : List (Fin 2)) by decide
    rw [dif_pos hm]
    have hsi : (pairsDims M M' E wf).siIdx (ix1 e) ⟨List.idxOf (1 : Fin 2) (pairsDims M M' E wf).scatterDimsToOperandDims,
        List.idxOf_lt_length_iff.2 hm⟩ = ix2 e ⟨1, by omega⟩ := by
      funext b; refine Fin.ext ?_
      match b with
      | ⟨0, _⟩ => rfl
      | ⟨1, _⟩ => rfl
    rw [hsi]

/-- There is no window axis: the window coordinate is 0 on both operand axes. -/
theorem pairs_window {M M' E : Nat} (wf : ScatterDims.WF ⟨2, ![M, M']⟩ ⟨2, ![E, 2]⟩ ⟨1, ![E]⟩ [] [0, 1] [0, 1] 1)
    (j : (⟨1, ![E]⟩ : Shape).Idx) (a : Fin 2) : (pairsDims M M' E wf).window j a = 0 := by
  unfold ScatterDims.window
  rw [dif_neg]
  show a ∉ (⟨2, ![M, M']⟩ : Shape).kept [0, 1]
  match a with
  | ⟨0, _⟩ => simp [Shape.kept]
  | ⟨1, _⟩ => simp [Shape.kept]

/-- THE PAIR-COUNT SCATTER READ AT (r, c): the operand's element plus the sum of the updates of the edges whose two
    start components, read signed, are r and c. -/
theorem hostScatterAdd_pairs_apply {M M' E w : Nat}
    (wf : ScatterDims.WF ⟨2, ![M, M']⟩ ⟨2, ![E, 2]⟩ ⟨1, ![E]⟩ [] [0, 1] [0, 1] 1)
    (x : (⟨2, ![M, M']⟩ : Shape).Idx → EReal) (idx : IVec ⟨2, ![E, 2]⟩ w) (upd : (⟨1, ![E]⟩ : Shape).Idx → EReal)
    (i : (⟨2, ![M, M']⟩ : Shape).Idx) :
    Ideal.hostScatterAdd (pairsDims M M' E wf) x idx upd i
      = x i + ∑ e : Fin E, if (idx (ix2 e ⟨0, by omega⟩)).toInt = ((i 0).val : Int)
            ∧ (idx (ix2 e ⟨1, by omega⟩)).toInt = ((i 1).val : Int) then upd (ix1 e) else 0 := by
  unfold Ideal.hostScatterAdd
  congr 1
  rw [Finset.sum_filter, sum_idx1]
  refine Finset.sum_congr rfl fun e _ => ?_
  refine if_congr ?_ rfl rfl
  rw [resultIdx?_eq_some_iff]
  obtain ⟨hs0, hs1⟩ := pairs_start wf idx e
  constructor
  · intro h
    have h0 := h 0
    have h1 := h 1
    rw [hs0, pairs_window] at h0
    rw [hs1, pairs_window] at h1
    exact ⟨by simpa using h0, by simpa using h1⟩
  · rintro ⟨h0, h1⟩ a
    match a with
    | ⟨0, _⟩ =>
      show (pairsDims M M' E wf).start (ix1 e) idx 0 + ((pairsDims M M' E wf).window (ix1 e) 0 : Int) = ((i 0).val : Int)
      rw [hs0, pairs_window]
      simpa using h0
    | ⟨1, _⟩ =>
      show (pairsDims M M' E wf).start (ix1 e) idx 1 + ((pairsDims M M' E wf).window (ix1 e) 1 : Int) = ((i 1).val : Int)
      rw [hs1, pairs_window]
      simpa using h1

/-! ## A gather of rows -/

section Rows
variable {α : Type}

/-- The dimension numbers of a gather of whole rows of a matrix [N, D] at E start indices of one component each
    (start indices [E, 1], result [E, D]): result axis 1 the offset axis, operand axis 0 collapsed and named by the
    start component, slices of one row. -/
abbrev rowsDims (N D E : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- THE ROW GATHER READ AT (e, c): the operand at column c of the row named by edge e's start index, read signed and
    clamped into [0, N − 1]. -/
theorem gather_rows_apply {N D E w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (j : (⟨2, ![E, D]⟩ : Shape).Idx) :
    Host.gather (rowsDims N D E wf) x idx j
      = x (ix2 ⟨min (idx (ix2 ⟨(j 0).val, idx2_lt0 j⟩ ⟨0, Nat.one_pos⟩)).toInt.toNat (N - 1), by omega⟩
            ⟨(j 1).val, idx2_lt1 j⟩) := by
  unfold Host.gather
  congr 1
  funext a
  refine Fin.ext ?_
  match a with
  | ⟨0, _⟩ =>
    show (rowsDims N D E wf).start j idx 0 + (rowsDims N D E wf).batchCoord j 0 + (rowsDims N D E wf).offCoord j 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    have hm : (0 : Fin 2) ∈ (rowsDims N D E wf).startIndexMap := List.mem_singleton.mpr rfl
    rw [dif_pos hm]
    have hsi : (rowsDims N D E wf).siIdx j ⟨List.idxOf (0 : Fin 2) (rowsDims N D E wf).startIndexMap,
        List.idxOf_lt_length_iff.2 hm⟩ = ix2 ⟨(j 0).val, idx2_lt0 j⟩ ⟨0, Nat.one_pos⟩ := by
      funext b; refine Fin.ext ?_
      match b with
      | ⟨0, _⟩ => rfl
      | ⟨1, _⟩ => rfl
    rw [hsi]
    rfl
  | ⟨1, _⟩ =>
    show (rowsDims N D E wf).start j idx 1 + (rowsDims N D E wf).batchCoord j 1 + (rowsDims N D E wf).offCoord j 1 = (j 1).val
    rw [GatherDims.batchCoord_eq_zero _ _ _ List.not_mem_nil]
    have hs : (rowsDims N D E wf).start j idx 1 = 0 := by
      unfold GatherDims.start
      rw [dif_neg (show (1 : Fin 2) ∉ ([0] : List (Fin 2)) by decide)]
    rw [hs]
    unfold GatherDims.offCoord
    rw [dif_pos (by simp [Shape.kept])]
    simp only [Nat.add_zero, Nat.zero_add]
    rfl

end Rows

end Idealize.ShloMosaic.ScatterAddIdx

end
-- ==== Proof.Ref.RefValue.lean ====
/- What the reference computes, stage by stage, read at an index, at the ideal instance.

   Three layers of mean aggregation followed by two matrix products and a bias, and a log-softmax tail.
   For every layer with input H (rows indexed by node, columns by feature):
     mean(i, c)  = (0 + Σ_e [dst e = i] · H(src e, c)) / max (0 + Σ_e [dst e = i] · 1) 1
     layer(i, c) = max (((Σ_k mean(i, k) · Wl(k, c)) + (Σ_k H(i, k) · Wr(k, c))) + b(c)) 0      (no outer max on the last layer)
   under the hypothesis that every entry of the edge array lies in [0, 10000): then the wrap of negative sources is the
   identity, and the row gather's clamp is too. -/
import proofs.«427327_j68599217652368_1_alg».proof.Proof.Ref.Read
import proofs.«427327_j68599217652368_1_alg».proof.Proof.LibScatterAdd
import Idealize.ShloMosaic.Lib.IdealHost

noncomputable section

open scoped BigOperators

namespace Cert.ReferenceIdeal.HandValue

open Cert.ReferenceIdeal Cert.ReferenceIdeal.Gen Cert.ReferenceIdeal.ReadP Idealize.ShloMosaic Idealize.ShloMosaic.ValueIdx
  Idealize.ShloMosaic.ScatterAddIdx

/-! ## The two segment operations over 160000 edges into 10000 rows, read at an index -/

/-- A signed comparison "b < 0" that fails selects the unwrapped word. -/
theorem wrap_id (b y : BitVec 32) (h : 0 ≤ b.toInt) : Scalar.select (IntOp.cmpi .slt b 0#32) y b = b := by
  have h0 : b.slt 0#32 = false := by
    rw [BitVec.slt_eq_decide]
    exact decide_eq_false (by rw [show (0#32).toInt = 0 from rfl]; omega)
  show Scalar.select (BitVec.ofBool (b.slt 0#32)) y b = b
  rw [h0]
  exact select_zero y b

/-- The in-degree count: zeros plus, over the edges whose destination is the row, one each. -/
theorem seg_count_apply (wf : ScatterDims.WF ⟨1, ![10000]⟩ ⟨2, ![160000, 1]⟩ ⟨1, ![160000]⟩ [] [0] [0] 1)
    (z : (⟨1, ![10000]⟩ : Shape).Idx → EReal) (hz : ∀ j, z j = 0)
    (idxD : IVec ⟨2, ![160000, 1]⟩ 32) (d : Fin 160000 → Int)
    (hd : ∀ e : Fin 160000, (idxD (ix2 e ⟨0, Nat.one_pos⟩)).toInt = d e)
    (one : (⟨1, ![160000]⟩ : Shape).Idx → EReal) (h1 : ∀ e, one e = 1)
    (j : (⟨1, ![10000]⟩ : Shape).Idx) :
    Ideal.hostScatterAdd (segDims 10000 160000 wf) z idxD one j
      = 0 + ∑ e : Fin 160000, if d e = ((j 0).val : Int) then (1 : EReal) else 0 := by
  rw [hostScatterAdd_seg_apply, hz]
  refine congrArg (0 + ·) (Finset.sum_congr rfl fun e _ => ?_)
  rw [hd e, h1]

/-- The segment sum of gathered rows: zeros plus, over the edges whose destination is the row, the source row's entry
    (the source in range, so the gather's clamp is the identity). -/
theorem seg_rows_apply {D : Nat}
    (wfs : ScatterDims.WF ⟨2, ![10000, D]⟩ ⟨2, ![160000, 1]⟩ ⟨2, ![160000, D]⟩ [1] [0] [0] 1)
    (wfg : GatherDims.WF ⟨2, ![10000, D]⟩ ⟨2, ![160000, 1]⟩ ⟨2, ![160000, D]⟩ [1] [0] [] [0] [] 1 ![1, D])
    (H : (⟨2, ![10000, D]⟩ : Shape).Idx → EReal)
    (z : (⟨2, ![10000, D]⟩ : Shape).Idx → EReal) (hz : ∀ j, z j = 0)
    (idxS idxD : IVec ⟨2, ![160000, 1]⟩ 32) (s d : Fin 160000 → Int)
    (hs : ∀ e : Fin 160000, (idxS (ix2 e ⟨0, Nat.one_pos⟩)).toInt = s e)
    (hd : ∀ e : Fin 160000, (idxD (ix2 e ⟨0, Nat.one_pos⟩)).toInt = d e)
    (hsr : ∀ e, (s e).toNat < 10000)
    (i : (⟨2, ![10000, D]⟩ : Shape).Idx) :
    Ideal.hostScatterAdd (segRowsDims 10000 D 160000 wfs) z idxD (Host.gather (rowsDims 10000 D 160000 wfg) H idxS) i
      = 0 + ∑ e : Fin 160000, if d e = ((i 0).val : Int)
          then H (ix2 ⟨(s e).toNat, hsr e⟩ ⟨(i 1).val, idx2_lt1 i⟩) else 0 := by
  rw [hostScatterAdd_segRows_apply, hz]
  refine congrArg (0 + ·) (Finset.sum_congr rfl fun e _ => ?_)
  rw [hd e, gather_rows_apply (by decide)]
  refine congrArg (fun t => if d e = ((i 0).val : Int) then t else 0) (congrArg H ?_)
  have hse := hs e
  have hre := hsr e
  funext a
  match a with
  | ⟨0, _⟩ =>
    refine Fin.ext ?_
    show min (idxS (ix2 e ⟨0, Nat.one_pos⟩)).toInt.toNat (10000 - 1) = (s e).toNat
    rw [hse]; omega
  | ⟨1, _⟩ => rfl

/-! ## The edge array's two rows -/

/-- The source of edge e, read signed. -/
abbrev srcR (x1 : IVec S2x160000 32) (e : Fin 160000) : Int := (x1 (ix2 ⟨0, by omega⟩ e)).toInt
/-- The destination of edge e, read signed. -/
abbrev dstR (x1 : IVec S2x160000 32) (e : Fin 160000) : Int := (x1 (ix2 ⟨1, by omega⟩ e)).toInt

/-- A source in range, as a natural, is a row number. -/
theorem srcR_toNat_lt (x1 : IVec S2x160000 32) (hr : ∀ i : S2x160000.Idx, 0 ≤ (x1 i).toInt ∧ (x1 i).toInt < 10000)
    (e : Fin 160000) : (srcR x1 e).toNat < 10000 := by
  have h := hr (ix2 ⟨0, by omega⟩ e)
  show (x1 (ix2 ⟨0, by omega⟩ e)).toInt.toNat < 10000
  omega

section
variable (x0 : S10000x128.Idx → EReal) (x1 : IVec S2x160000 32)
  (x2 x3 : (⟨S128x256, .f32⟩ : BufTy).Contents (Elt Ideal)) (x4 : (⟨S256, .f32⟩ : BufTy).Contents (Elt Ideal))
  (x5 x6 : (⟨S256x1024, .f32⟩ : BufTy).Contents (Elt Ideal)) (x7 : (⟨S1024, .f32⟩ : BufTy).Contents (Elt Ideal))
  (x8 x9 : (⟨S1024x64, .f32⟩ : BufTy).Contents (Elt Ideal)) (x10 : (⟨S64, .f32⟩ : BufTy).Contents (Elt Ideal))

/-! ## Layer 1: rows of width 128 in, 256 out -/

/-- The wrapped source of edge e is the edge array's row 0 at e: the source is not negative. -/
theorem src1_read (hr : ∀ i : S2x160000.Idx, 0 ≤ (x1 i).toInt ∧ (x1 i).toInt < 10000) (e : Fin 160000) :
    val_main_v9 (F := Ideal) x1 (ix2 e ⟨0, Nat.one_pos⟩) = x1 (ix2 ⟨0, by omega⟩ e) := by
  rw [val_main_v9_apply, val_main_v8_apply, val_main_v5_apply, val_main_v4_apply, val_main_c_apply, val_main_v1_apply, val_main_v0_apply]
  have hi : idx_main_v0 (idx_main_v1 (idx_main_v9 (ix2 e ⟨0, Nat.one_pos⟩))) = ix2 ⟨0, by omega⟩ e :=
    funext fun a => Fin.ext (by
      match a with
      | ⟨0, _⟩ => rfl
      | ⟨1, _⟩ => exact Nat.mod_eq_of_lt e.isLt)
  rw [hi]
  exact wrap_id _ _ (hr _).1

/-- The destination of edge e, as the scatter reads it, is the edge array's row 1 at e. -/
theorem dst1a_read (e : Fin 160000) :
    val_main_v12 (F := Ideal) x1 (ix2 e ⟨0, Nat.one_pos⟩) = x1 (ix2 ⟨1, by omega⟩ e) := by
  rw [val_main_v12_apply, val_main_v3_apply, val_main_v2_apply]
  exact congrArg x1 (funext fun a => Fin.ext (by
    match a with
    | ⟨0, _⟩ => rfl
    | ⟨1, _⟩ => exact Nat.mod_eq_of_lt e.isLt))

/-- The destination of edge e, as the scatter reads it, is the edge array's row 1 at e. -/
theorem dst1b_read (e : Fin 160000) :
    val_main_v16 (F := Ideal) x1 (ix2 e ⟨0, Nat.one_pos⟩) = x1 (ix2 ⟨1, by omega⟩ e) := by
  rw [val_main_v16_apply, val_main_v3_apply, val_main_v2_apply]
  exact congrArg x1 (funext fun a => Fin.ext (by
    match a with
    | ⟨0, _⟩ => rfl
    | ⟨1, _⟩ => exact Nat.mod_eq_of_lt e.isLt))

/-- The in-degree of a row. -/
theorem cnt1_apply (j : S10000.Idx) :
    val_main_v17 (F := Ideal) x1 j = 0 + ∑ e : Fin 160000, if dstR x1 e = ((j 0).val : Int) then (1 : EReal) else 0 := by
  unfold val_main_v17
  show Ideal.hostScatterAdd (segDims 10000 160000 scatter_S10000_S160000x1_S160000_n_0_0_1_wf)
    (val_main_v15 (F := Ideal)) (val_main_v16 (F := Ideal) x1) (val_main_v14 (F := Ideal)) j = _
  exact seg_count_apply _ _ (fun j => by rw [val_main_v15_apply, val_main_cst_2_apply]; exact Ideal.ofBits_zero_f32)
    _ (dstR x1) (fun e => congrArg BitVec.toInt (dst1b_read x1 e))
    _ (fun e => by rw [val_main_v14_apply, val_main_cst_1_apply]; exact Ideal.ofBits_one_f32) j

/-- The sum over a row's in-edges of the source rows. -/
theorem sum1_apply (hr : ∀ i : S2x160000.Idx, 0 ≤ (x1 i).toInt ∧ (x1 i).toInt < 10000) (i : S10000x128.Idx) :
    val_main_v13 (F := Ideal) x0 x1 i
      = 0 + ∑ e : Fin 160000, if dstR x1 e = ((i 0).val : Int)
          then (x0) (ix2 ⟨(srcR x1 e).toNat, srcR_toNat_lt x1 hr e⟩ ⟨(i 1).val, idx2_lt1 i⟩) else 0 := by
  unfold val_main_v13 val_main_v10
  show Ideal.hostScatterAdd (segRowsDims 10000 128 160000 scatter_S10000x128_S160000x1_S160000x128_1_0_0_1_wf)
    (val_main_v11 (F := Ideal)) (val_main_v12 (F := Ideal) x1)
    (Host.gather (rowsDims 10000 128 160000 gather_S10000x128_S160000x1_S160000x128_1_0_n_n_0_1_1128_wf) (x0) (val_main_v9 (F := Ideal) x1)) i = _
  exact seg_rows_apply _ _ (x0) _ (fun j => by rw [val_main_v11_apply, val_main_cst_apply]; exact Ideal.ofBits_zero_f32)
    _ _ (srcR x1) (dstR x1) (fun e => congrArg BitVec.toInt (src1_read x1 hr e))
    (fun e => congrArg BitVec.toInt (dst1a_read x1 e)) (srcR_toNat_lt x1 hr) i

/-- The mean over a row's in-edges of the source rows (the divisor the in-degree, at least one). -/
theorem mean1_apply (hr : ∀ i : S2x160000.Idx, 0 ≤ (x1 i).toInt ∧ (x1 i).toInt < 10000) (i : S10000x128.Idx) :
    val_main_v22 (F := Ideal) x0 x1 i
      = Ideal.div (0 + ∑ e : Fin 160000, if dstR x1 e = ((i 0).val : Int)
            then (x0) (ix2 ⟨(srcR x1 e).toNat, srcR_toNat_lt x1 hr e⟩ ⟨(i 1).val, idx2_lt1 i⟩) else 0)
          (max (0 + ∑ e : Fin 160000, if dstR x1 e = ((i 0).val : Int) then (1 : EReal) else 0) 1) := by
  rw [val_main_v22_apply, val_main_v21_apply, val_main_v20_apply, val_main_v19_apply, val_main_v18_apply, val_main_cst_3_apply,
    sum1_apply x0 x1 hr, cnt1_apply x1]
  rw [Ideal.hostDivf_def, Ideal.maximumf_def, Ideal.ofBits_def, Ideal.ofBits_one_f32]

/-- The layer's output: the mean row times the left weights plus the row times the right weights plus the bias, cut below at 0. -/
theorem layer1_apply (i : S10000x256.Idx) :
    val_main_v29 (F := Ideal) x0 x1 x2 x3 x4 i
      = max (((∑ k : Fin 128, val_main_v22 (F := Ideal) x0 x1 (ix2 ⟨(i 0).val, idx2_lt0 i⟩ k) * x2 (ix2 k ⟨(i 1).val, idx2_lt1 i⟩))
              + (∑ k : Fin 128, (x0) (ix2 ⟨(i 0).val, idx2_lt0 i⟩ k) * x3 (ix2 k ⟨(i 1).val, idx2_lt1 i⟩)))
            + x4 (ix1 ⟨(i 1).val, idx2_lt1 i⟩)) 0 := by
  have el : ∀ k : Fin 128, lidx_main_v23 i k = ix2 ⟨(i 0).val, idx2_lt0 i⟩ k := fun k => funext fun a => by
    match a with
    | ⟨0, _⟩ => rfl
    | ⟨1, _⟩ => rfl
  have er : ∀ k : Fin 128, ridx_main_v23 i k = ix2 k ⟨(i 1).val, idx2_lt1 i⟩ := fun k => funext fun a => by
    match a with
    | ⟨0, _⟩ => rfl
    | ⟨1, _⟩ => rfl
  have el' : ∀ k : Fin 128, lidx_main_v24 i k = ix2 ⟨(i 0).val, idx2_lt0 i⟩ k := fun k => funext fun a => by
    match a with
    | ⟨0, _⟩ => rfl
    | ⟨1, _⟩ => rfl
  have er' : ∀ k : Fin 128, ridx_main_v24 i k = ix2 k ⟨(i 1).val, idx2_lt1 i⟩ := fun k => funext fun a => by
    match a with
    | ⟨0, _⟩ => rfl
    | ⟨1, _⟩ => rfl
  have eb : idx_main_v26 (idx_main_v27 i) = ix1 ⟨(i 1).val, idx2_lt1 i⟩ := funext fun a => by
    match a with
    | ⟨0, _⟩ => rfl
  rw [val_main_v29_apply, val_main_call0_v0_apply, val_main_call0_cst_apply, val_main_v28_apply, val_main_v27_apply, val_main_v26_apply, val_main_v25_apply,
    val_main_v23_apply, val_main_v24_apply, eb]
  simp only [Ideal.maximumf_def, Ideal.ofBits_def, Ideal.ofBits_zero_f32, Ideal.addf_def, el, er, el', er']

/-! ## Layer 2: rows of width 256 in, 1024 out -/

/-- The wrapped source of edge e is the edge array's row 0 at e: the source is not negative. -/
theorem src2_read (hr : ∀ i : S2x160000.Idx, 0 ≤ (x1 i).toInt ∧ (x1 i).toInt < 10000) (e : Fin 160000) :
    val_main_v39 (F := Ideal) x1 (ix2 e ⟨0, Nat.one_pos⟩) = x1 (ix2 ⟨0, by omega⟩ e) := by
  rw [val_main_v39_apply, val_main_v38_apply, val_main_v35_apply, val_main_v34_apply, val_main_c_4_apply, val_main_v31_apply, val_main_v30_apply]
  have hi : idx_main_v30 (idx_main_v31 (idx_main_v39 (ix2 e ⟨0, Nat.one_pos⟩))) = ix2 ⟨0, by omega⟩ e :=
    funext fun a => Fin.ext (by
      match a with
      | ⟨0, _⟩ => rfl
      | ⟨1, _⟩ => exact Nat.mod_eq_of_lt e.isLt)
  rw [hi]
  exact wrap_id _ _ (hr _).1

/-- The destination of edge e, as the scatter reads it, is the edge array's row 1 at e. -/
theorem dst2a_read (e : Fin 160000) :
    val_main_v42 (F := Ideal) x1 (ix2 e ⟨0, Nat.one_pos⟩) = x1 (ix2 ⟨1, by omega⟩ e) := by
  rw [val_main_v42_apply, val_main_v33_apply, val_main_v32_apply]
  exact congrArg x1 (funext fun a => Fin.ext (by
    match a with
    | ⟨0, _⟩ => rfl
    | ⟨1, _⟩ => exact Nat.mod_eq_of_lt e.isLt))

/-- The destination of edge e, as the scatter reads it, is the edge array's row 1 at e. -/
theorem dst2b_read (e : Fin 160000) :
    val_main_v46 (F := Ideal) x1 (ix2 e ⟨0, Nat.one_pos⟩) = x1 (ix2 ⟨1, by omega⟩ e) := by
  rw [val_main_v46_apply, val_main_v33_apply, val_main_v32_apply]
  exact congrArg x1 (funext fun a => Fin.ext (by
    match a with
    | ⟨0, _⟩ => rfl
    | ⟨1, _⟩ => exact Nat.mod_eq_of_lt e.isLt))

/-- The in-degree of a row. -/
theorem cnt2_apply (j : S10000.Idx) :
    val_main_v47 (F := Ideal) x1 j = 0 + ∑ e : Fin 160000, if dstR x1 e = ((j 0).val : Int) then (1 : EReal) else 0 := by
  unfold val_main_v47
  show Ideal.hostScatterAdd (segDims 10000 160000 scatter_S10000_S160000x1_S160000_n_0_0_1_wf)
    (val_main_v45 (F := Ideal)) (val_main_v46 (F := Ideal) x1) (val_main_v44 (F := Ideal)) j = _
  exact seg_count_apply _ _ (fun j => by rw [val_main_v45_apply, val_main_cst_8_apply]; exact Ideal.ofBits_zero_f32)
    _ (dstR x1) (fun e => congrArg BitVec.toInt (dst2b_read x1 e))
    _ (fun e => by rw [val_main_v44_apply, val_main_cst_7_apply]; exact Ideal.ofBits_one_f32) j

/-- The sum over a row's in-edges of the source rows. -/
theorem sum2_apply (hr : ∀ i : S2x160000.Idx, 0 ≤ (x1 i).toInt ∧ (x1 i).toInt < 10000) (i : S10000x256.Idx) :
    val_main_v43 (F := Ideal) x0 x1 x2 x3 x4 i
      = 0 + ∑ e : Fin 160000, if dstR x1 e = ((i 0).val : Int)
          then (val_main_v29 (F := Ideal) x0 x1 x2 x3 x4) (ix2 ⟨(srcR x1 e).toNat, srcR_toNat_lt x1 hr e⟩ ⟨(i 1).val, idx2_lt1 i⟩) else 0 := by
  unfold val_main_v43 val_main_v40
  show Ideal.hostScatterAdd (segRowsDims 10000 256 160000 scatter_S10000x256_S160000x1_S160000x256_1_0_0_1_wf)
    (val_main_v41 (F := Ideal)) (val_main_v42 (F := Ideal) x1)
    (Host.gather (rowsDims 10000 256 160000 gather_S10000x256_S160000x1_S160000x256_1_0_n_n_0_1_1256_wf) (val_main_v29 (F := Ideal) x0 x1 x2 x3 x4) (val_main_v39 (F := Ideal) x1)) i = _
  exact seg_rows_apply _ _ (val_main_v29 (F := Ideal) x0 x1 x2 x3 x4) _ (fun j => by rw [val_main_v41_apply, val_main_cst_6_apply]; exact Ideal.ofBits_zero_f32)
    _ _ (srcR x1) (dstR x1) (fun e => congrArg BitVec.toInt (src2_read x1 hr e))
    (fun e => congrArg BitVec.toInt (dst2a_read x1 e)) (srcR_toNat_lt x1 hr) i

/-- The mean over a row's in-edges of the source rows (the divisor the in-degree, at least one). -/
theorem mean2_apply (hr : ∀ i : S2x160000.Idx, 0 ≤ (x1 i).toInt ∧ (x1 i).toInt < 10000) (i : S10000x256.Idx) :
    val_main_v52 (F := Ideal) x0 x1 x2 x3 x4 i
      = Ideal.div (0 + ∑ e : Fin 160000, if dstR x1 e = ((i 0).val : Int)
            then (val_main_v29 (F := Ideal) x0 x1 x2 x3 x4) (ix2 ⟨(srcR x1 e).toNat, srcR_toNat_lt x1 hr e⟩ ⟨(i 1).val, idx2_lt1 i⟩) else 0)
          (max (0 + ∑ e : Fin 160000, if dstR x1 e = ((i 0).val : Int) then (1 : EReal) else 0) 1) := by
  rw [val_main_v52_apply, val_main_v51_apply, val_main_v50_apply, val_main_v49_apply, val_main_v48_apply, val_main_cst_9_apply,
    sum2_apply x0 x1 x2 x3 x4 hr, cnt2_apply x1]
  rw [Ideal.hostDivf_def, Ideal.maximumf_def, Ideal.ofBits_def, Ideal.ofBits_one_f32]

/-- The layer's output: the mean row times the left weights plus the row times the right weights plus the bias, cut below at 0. -/
theorem layer2_apply (i : S10000x1024.Idx) :
    val_main_v59 (F := Ideal) x0 x1 x2 x3 x4 x5 x6 x7 i
      = max (((∑ k : Fin 256, val_main_v52 (F := Ideal) x0 x1 x2 x3 x4 (ix2 ⟨(i 0).val, idx2_lt0 i⟩ k) * x5 (ix2 k ⟨(i 1).val, idx2_lt1 i⟩))
              + (∑ k : Fin 256, (val_main_v29 (F := Ideal) x0 x1 x2 x3 x4) (ix2 ⟨(i 0).val, idx2_lt0 i⟩ k) * x6 (ix2 k ⟨(i 1).val, idx2_lt1 i⟩)))
            + x7 (ix1 ⟨(i 1).val, idx2_lt1 i⟩)) 0 := by
  have el : ∀ k : Fin 256, lidx_main_v53 i k = ix2 ⟨(i 0).val, idx2_lt0 i⟩ k := fun k => funext fun a => by
    match a with
    | ⟨0, _⟩ => rfl
    | ⟨1, _⟩ => rfl
  have er : ∀ k : Fin 256, ridx_main_v53 i k = ix2 k ⟨(i 1).val, idx2_lt1 i⟩ := fun k => funext fun a => by
    match a with
    | ⟨0, _⟩ => rfl
    | ⟨1, _⟩ => rfl
  have el' : ∀ k : Fin 256, lidx_main_v54 i k = ix2 ⟨(i 0).val, idx2_lt0 i⟩ k := fun k => funext fun a => by
    match a with
    | ⟨0, _⟩ => rfl
    | ⟨1, _⟩ => rfl
  have er' : ∀ k : Fin 256, ridx_main_v54 i k = ix2 k ⟨(i 1).val, idx2_lt1 i⟩ := fun k => funext fun a => by
    match a with
    | ⟨0, _⟩ => rfl
    | ⟨1, _⟩ => rfl
  have eb : idx_main_v56 (idx_main_v57 i) = ix1 ⟨(i 1).val, idx2_lt1 i⟩ := funext fun a => by
    match a with
    | ⟨0, _⟩ => rfl
  rw [val_main_v59_apply, val_main_call1_v0_apply, val_main_call1_cst_apply, val_main_v58_apply, val_main_v57_apply, val_main_v56_apply, val_main_v55_apply,
    val_main_v53_apply, val_main_v54_apply, eb]
  simp only [Ideal.maximumf_def, Ideal.ofBits_def, Ideal.ofBits_zero_f32, Ideal.addf_def, el, er, el', er']

/-! ## Layer 3: rows of width 1024 in, 64 out -/

/-- The wrapped source of edge e is the edge array's row 0 at e: the source is not negative. -/
theorem src3_read (hr : ∀ i : S2x160000.Idx, 0 ≤ (x1 i).toInt ∧ (x1 i).toInt < 10000) (e : Fin 160000) :
    val_main_v69 (F := Ideal) x1 (ix2 e ⟨0, Nat.one_pos⟩) = x1 (ix2 ⟨0, by omega⟩ e) := by
  rw [val_main_v69_apply, val_main_v68_apply, val_main_v65_apply, val_main_v64_apply, val_main_c_10_apply, val_main_v61_apply, val_main_v60_apply]
  have hi : idx_main_v60 (idx_main_v61 (idx_main_v69 (ix2 e ⟨0, Nat.one_pos⟩))) = ix2 ⟨0, by omega⟩ e :=
    funext fun a => Fin.ext (by
      match a with
      | ⟨0, _⟩ => rfl
      | ⟨1, _⟩ => exact Nat.mod_eq_of_lt e.isLt)
  rw [hi]
  exact wrap_id _ _ (hr _).1

/-- The destination of edge e, as the scatter reads it, is the edge array's row 1 at e. -/
theorem dst3a_read (e : Fin 160000) :
    val_main_v72 (F := Ideal) x1 (ix2 e ⟨0, Nat.one_pos⟩) = x1 (ix2 ⟨1, by omega⟩ e) := by
  rw [val_main_v72_apply, val_main_v63_apply, val_main_v62_apply]
  exact congrArg x1 (funext fun a => Fin.ext (by
    match a with
    | ⟨0, _⟩ => rfl
    | ⟨1, _⟩ => exact Nat.mod_eq_of_lt e.isLt))

/-- The destination of edge e, as the scatter reads it, is the edge array's row 1 at e. -/
theorem dst3b_read (e : Fin 160000) :
    val_main_v76 (F := Ideal) x1 (ix2 e ⟨0, Nat.one_pos⟩) = x1 (ix2 ⟨1, by omega⟩ e) := by
  rw [val_main_v76_apply, val_main_v63_apply, val_main_v62_apply]
  exact congrArg x1 (funext fun a => Fin.ext (by
    match a with
    | ⟨0, _⟩ => rfl
    | ⟨1, _⟩ => exact Nat.mod_eq_of_lt e.isLt))

/-- The in-degree of a row. -/
theorem cnt3_apply (j : S10000.Idx) :
    val_main_v77 (F := Ideal) x1 j = 0 + ∑ e : Fin 160000, if dstR x1 e = ((j 0).val : Int) then (1 : EReal) else 0 := by
  unfold val_main_v77
  show Ideal.hostScatterAdd (segDims 10000 160000 scatter_S10000_S160000x1_S160000_n_0_0_1_wf)
    (val_main_v75 (F := Ideal)) (val_main_v76 (F := Ideal) x1) (val_main_v74 (F := Ideal)) j = _
  exact seg_count_apply _ _ (fun j => by rw [val_main_v75_apply, val_main_cst_14_apply]; exact Ideal.ofBits_zero_f32)
    _ (dstR x1) (fun e => congrArg BitVec.toInt (dst3b_read x1 e))
    _ (fun e => by rw [val_main_v74_apply, val_main_cst_13_apply]; exact Ideal.ofBits_one_f32) j

/-- The sum over a row's in-edges of the source rows. -/
theorem sum3_apply (hr : ∀ i : S2x160000.Idx, 0 ≤ (x1 i).toInt ∧ (x1 i).toInt < 10000) (i : S10000x1024.Idx) :
    val_main_v73 (F := Ideal) x0 x1 x2 x3 x4 x5 x6 x7 i
      = 0 + ∑ e : Fin 160000, if dstR x1 e = ((i 0).val : Int)
          then (val_main_v59 (F := Ideal) x0 x1 x2 x3 x4 x5 x6 x7) (ix2 ⟨(srcR x1 e).toNat, srcR_toNat_lt x1 hr e⟩ ⟨(i 1).val, idx2_lt1 i⟩) else 0 := by
  unfold val_main_v73 val_main_v70
  show Ideal.hostScatterAdd (segRowsDims 10000 1024 160000 scatter_S10000x1024_S160000x1_S160000x1024_1_0_0_1_wf)
    (val_main_v71 (F := Ideal)) (val_main_v72 (F := Ideal) x1)
    (Host.gather (rowsDims 10000 1024 160000 gather_S10000x1024_S160000x1_S160000x1024_1_0_n_n_0_1_11024_wf) (val_main_v59 (F := Ideal) x0 x1 x2 x3 x4 x5 x6 x7) (val_main_v69 (F := Ideal) x1)) i = _
  exact seg_rows_apply _ _ (val_main_v59 (F := Ideal) x0 x1 x2 x3 x4 x5 x6 x7) _ (fun j => by rw [val_main_v71_apply, val_main_cst_12_apply]; exact Ideal.ofBits_zero_f32)
    _ _ (srcR x1) (dstR x1) (fun e => congrArg BitVec.toInt (src3_read x1 hr e))
    (fun e => congrArg BitVec.toInt (dst3a_read x1 e)) (srcR_toNat_lt x1 hr) i

/-- The mean over a row's in-edges of the source rows (the divisor the in-degree, at least one). -/
theorem mean3_apply (hr : ∀ i : S2x160000.Idx, 0 ≤ (x1 i).toInt ∧ (x1 i).toInt < 10000) (i : S10000x1024.Idx) :
    val_main_v82 (F := Ideal) x0 x1 x2 x3 x4 x5 x6 x7 i
      = Ideal.div (0 + ∑ e : Fin 160000, if dstR x1 e = ((i 0).val : Int)
            then (val_main_v59 (F := Ideal) x0 x1 x2 x3 x4 x5 x6 x7) (ix2 ⟨(srcR x1 e).toNat, srcR_toNat_lt x1 hr e⟩ ⟨(i 1).val, idx2_lt1 i⟩) else 0)
          (max (0 + ∑ e : Fin 160000, if dstR x1 e = ((i 0).val : Int) then (1 : EReal) else 0) 1) := by
  rw [val_main_v82_apply, val_main_v81_apply, val_main_v80_apply, val_main_v79_apply, val_main_v78_apply, val_main_cst_15_apply,
    sum3_apply x0 x1 x2 x3 x4 x5 x6 x7 hr, cnt3_apply x1]
  rw [Ideal.hostDivf_def, Ideal.maximumf_def, Ideal.ofBits_def, Ideal.ofBits_one_f32]

/-- The layer's output: the mean row times the left weights plus the row times the right weights plus the bias. -/
theorem layer3_apply (i : S10000x64.Idx) :
    val_main_v88 (F := Ideal) x0 x1 x2 x3 x4 x5 x6 x7 x8 x9 x10 i
      = ((∑ k : Fin 1024, val_main_v82 (F := Ideal) x0 x1 x2 x3 x4 x5 x6 x7 (ix2 ⟨(i 0).val, idx2_lt0 i⟩ k) * x8 (ix2 k ⟨(i 1).val, idx2_lt1 i⟩))
              + (∑ k : Fin 1024, (val_main_v59 (F := Ideal) x0 x1 x2 x3 x4 x5 x6 x7) (ix2 ⟨(i 0).val, idx2_lt0 i⟩ k) * x9 (ix2 k ⟨(i 1).val, idx2_lt1 i⟩)))
            + x10 (ix1 ⟨(i 1).val, idx2_lt1 i⟩) := by
  have el : ∀ k : Fin 1024, lidx_main_v83 i k = ix2 ⟨(i 0).val, idx2_lt0 i⟩ k := fun k => funext fun a => by
    match a with
    | ⟨0, _⟩ => rfl
    | ⟨1, _⟩ => rfl
  have er : ∀ k : Fin 1024, ridx_main_v83 i k = ix2 k ⟨(i 1).val, idx2_lt1 i⟩ := fun k => funext fun a => by
    match a with
    | ⟨0, _⟩ => rfl
    | ⟨1, _⟩ => rfl
  have el' : ∀ k : Fin 1024, lidx_main_v84 i k = ix2 ⟨(i 0).val, idx2_lt0 i⟩ k := fun k => funext fun a => by
    match a with
    | ⟨0, _⟩ => rfl
    | ⟨1, _⟩ => rfl
  have er' : ∀ k : Fin 1024, ridx_main_v84 i k = ix2 k ⟨(i 1).val, idx2_lt1 i⟩ := fun k => funext fun a => by
    match a with
    | ⟨0, _⟩ => rfl
    | ⟨1, _⟩ => rfl
  have eb : idx_main_v86 (idx_main_v87 i) = ix1 ⟨(i 1).val, idx2_lt1 i⟩ := funext fun a => by
    match a with
    | ⟨0, _⟩ => rfl
  rw [val_main_v88_apply, val_main_v87_apply, val_main_v86_apply, val_main_v85_apply,
    val_main_v83_apply, val_main_v84_apply, eb]
  simp only [Ideal.addf_def, el, er, el', er']

/-! ## The tail: a row-wise log-softmax, as one function of the last layer's output -/

/-- The log-softmax of the rows of y: y minus its row maximum, minus the logarithm of the row sum of the exponentials of
    that difference. -/
def tailR (y : (⟨S10000x64, .f32⟩ : BufTy).Contents (Elt Ideal)) : (⟨S10000x64, .f32⟩ : BufTy).Contents (Elt Ideal) :=
  subf
    (subf y
      (broadcastInDim S10000x64 ![0, 1] bcast_S10000x1_S10000x64_0_1
        (broadcastInDim S10000x1 ![0] bcast_S10000_S10000x1_0
          (maximumf (broadcastInDim S10000 ![] bcast_S_S10000 (constant (F := Ideal) S_ .f32 0xFF800000#32))
            (Host.reduce (FloatOps.maximumf (F := Ideal) (φ := .f32)) y (constant (F := Ideal) S_ .f32 0xFF800000#32) reducesTo_S10000x64_S10000_d1 h_S_)))))
    (broadcastInDim S10000x64 ![0, 1] bcast_S10000x1_S10000x64_0_1
      (Host.log (F := Ideal)
        (broadcastInDim S10000x1 ![0] bcast_S10000_S10000x1_0
          (Host.reduceAdd (F := Ideal)
            (Host.exp (F := Ideal)
              (subf y
                (broadcastInDim S10000x64 ![0, 1] bcast_S10000x1_S10000x64_0_1
                  (broadcastInDim S10000x1 ![0] bcast_S10000_S10000x1_0
                    (maximumf (broadcastInDim S10000 ![] bcast_S_S10000 (constant (F := Ideal) S_ .f32 0xFF800000#32))
                      (Host.reduce (FloatOps.maximumf (F := Ideal) (φ := .f32)) y (constant (F := Ideal) S_ .f32 0xFF800000#32) reducesTo_S10000x64_S10000_d1 h_S_))))))
            (constant (F := Ideal) S_ .f32 0x00000000#32) reducesTo_S10000x64_S10000_d1 h_S_))))

/-- The reference's result is the tail of its last layer's output. -/
theorem result_eq :
    val_main_v89 (F := Ideal) x0 x1 x2 x3 x4 x5 x6 x7 x8 x9 x10
      = tailR (val_main_v88 (F := Ideal) x0 x1 x2 x3 x4 x5 x6 x7 x8 x9 x10) := by
  unfold val_main_v89 val_main_call2_v10 val_main_call2_v9 val_main_call2_v8 val_main_call2_v7 val_main_call2_v6 val_main_call2_v5
    val_main_call2_v4 val_main_call2_v3 val_main_call2_v2 val_main_call2_v1 val_main_call2_v0 val_main_call2_cst val_main_call2_cst_0
    val_main_call2_cst_1 tailR
  rfl

end

end Cert.ReferenceIdeal.HandValue

end
-- ==== Proof.KI.Transport.lean ====
/- The kernel program's buffers between its items, at the ideal values.
   @main is twelve items: a host stretch that builds the normalised adjacency and pads the features, then six
   regions (aggregate, linear, aggregate, linear, aggregate, linear) with a one-operation host stretch before each
   linear region (its bias reshaped to one row), then a slice to the first 10000 rows and a row-wise log-softmax.
   Between two items a core's unscoped buffers are the valuations `V0` … `V12`; a region changes only its own output
   buffer, a host stretch only the buffers its operations write. This module reads off those valuations
   (A) what each region is entered with: the previous regions' outputs, the adjacency and the padded features of the
       first host stretch, and the weight arguments as launched;
   (B) the three reshaped biases at an index: a [1, n] reshape of an n-vector holds at (0, q) the vector's entry q;
   (C) the last buffer: the log-softmax chain `ktail` applied to the first 10000 rows of the last region's output. -/
import proofs.«427327_j68599217652368_1_alg».proof.Proof.Gen.KernelIdeal.Regions
import Idealize.ShloMosaic.Lib.StableHlo.Run
import Idealize.ShloMosaic.Lib.Pipeline.Value
import Idealize.ShloMosaic.Lib.ValueIdx
import Idealize.ShloMosaic.Lib.ValueLayout

-- the non-memberships decided below range over lists of up to 47 of the program's 131 references
set_option maxRecDepth 1036

noncomputable section

namespace Cert.KernelIdeal.HandValue

open Cert.KernelIdeal Cert.KernelIdeal.Gen Idealize.ShloMosaic Idealize.ShloMosaic.TcCoe Idealize.ShloMosaic.ValueIdx
open Idealize.ShloMosaic.StableHlo

variable (m : (ℓ : Loc nD τ sig) → Buf (Elt Ideal) ℓ) (outs : Outs (F := Ideal)) (c : Dev nD)

/-! ## (A) What each region is entered with -/

/-- Region 1 (the first linear layer) reads the first aggregation's output as region 0 left it … -/
theorem in3_v35 : V3 m outs c main_v35 = outs 2 main_v35 c :=
  (V3_of m outs c main_v35 (by decide)).trans (Function.update_self _ _ _)
/-- … the padded features of the first host stretch … -/
theorem in3_v34 : V3 m outs c main_v34 = V1 m c main_v34 :=
  (V3_of m outs c main_v34 (by decide)).trans (V2_of m outs c main_v34 (by decide))
/-- … and its two weight matrices as launched. -/
theorem in3_arg2 : V3 m outs c main_arg2 = m ((c : Thread nD τ).loc main_arg2) :=
  (V3_of m outs c main_arg2 (by decide)).trans <| (V2_of m outs c main_arg2 (by decide)).trans <| (V1_of m c main_arg2 (by decide)).trans rfl
theorem in3_arg3 : V3 m outs c main_arg3 = m ((c : Thread nD τ).loc main_arg3) :=
  (V3_of m outs c main_arg3 (by decide)).trans <| (V2_of m outs c main_arg3 (by decide)).trans <| (V1_of m c main_arg3 (by decide)).trans rfl

/-- Region 2 (the second aggregation) reads the adjacency of the first host stretch … -/
theorem in4_v31 : V4 m outs c main_v31 = V1 m c main_v31 :=
  (V4_of m outs c main_v31 (by decide)).trans <| (V3_of m outs c main_v31 (by decide)).trans (V2_of m outs c main_v31 (by decide))
/-- … and the first linear layer's output as region 1 left it. -/
theorem in4_v37 : V4 m outs c main_v37 = outs 4 main_v37 c :=
  Function.update_self _ _ _

/-- Region 3 (the second linear layer) reads the second aggregation's output … -/
theorem in6_v38 : V6 m outs c main_v38 = outs 5 main_v38 c :=
  (V6_of m outs c main_v38 (by decide)).trans (Function.update_self _ _ _)
/-- … the first linear layer's output … -/
theorem in6_v37 : V6 m outs c main_v37 = outs 4 main_v37 c :=
  (V6_of m outs c main_v37 (by decide)).trans <| (V5_of m outs c main_v37 (by decide)).trans (Function.update_self _ _ _)
/-- … and its two weight matrices as launched. -/
theorem in6_arg5 : V6 m outs c main_arg5 = m ((c : Thread nD τ).loc main_arg5) :=
  (V6_of m outs c main_arg5 (by decide)).trans <| (V5_of m outs c main_arg5 (by decide)).trans <| (V4_of m outs c main_arg5 (by decide)).trans <|
    (V3_of m outs c main_arg5 (by decide)).trans <| (V2_of m outs c main_arg5 (by decide)).trans <| (V1_of m c main_arg5 (by decide)).trans rfl
theorem in6_arg6 : V6 m outs c main_arg6 = m ((c : Thread nD τ).loc main_arg6) :=
  (V6_of m outs c main_arg6 (by decide)).trans <| (V5_of m outs c main_arg6 (by decide)).trans <| (V4_of m outs c main_arg6 (by decide)).trans <|
    (V3_of m outs c main_arg6 (by decide)).trans <| (V2_of m outs c main_arg6 (by decide)).trans <| (V1_of m c main_arg6 (by decide)).trans rfl

/-- Region 4 (the third aggregation) reads the adjacency of the first host stretch … -/
theorem in7_v31 : V7 m outs c main_v31 = V1 m c main_v31 :=
  (V7_of m outs c main_v31 (by decide)).trans <| (V6_of m outs c main_v31 (by decide)).trans <| (V5_of m outs c main_v31 (by decide)).trans <|
    (V4_of m outs c main_v31 (by decide)).trans <| (V3_of m outs c main_v31 (by decide)).trans (V2_of m outs c main_v31 (by decide))
/-- … and the second linear layer's output as region 3 left it. -/
theorem in7_v40 : V7 m outs c main_v40 = outs 7 main_v40 c :=
  Function.update_self _ _ _

/-- Region 5 (the third linear layer) reads the third aggregation's output … -/
theorem in9_v41 : V9 m outs c main_v41 = outs 8 main_v41 c :=
  (V9_of m outs c main_v41 (by decide)).trans (Function.update_self _ _ _)
/-- … the second linear layer's output … -/
theorem in9_v40 : V9 m outs c main_v40 = outs 7 main_v40 c :=
  (V9_of m outs c main_v40 (by decide)).trans <| (V8_of m outs c main_v40 (by decide)).trans (Function.update_self _ _ _)
/-- … and its two weight matrices as launched. -/
theorem in9_arg8 : V9 m outs c main_arg8 = m ((c : Thread nD τ).loc main_arg8) :=
  (V9_of m outs c main_arg8 (by decide)).trans <| (V8_of m outs c main_arg8 (by decide)).trans <| (V7_of m outs c main_arg8 (by decide)).trans <|
    (V6_of m outs c main_arg8 (by decide)).trans <| (V5_of m outs c main_arg8 (by decide)).trans <| (V4_of m outs c main_arg8 (by decide)).trans <|
    (V3_of m outs c main_arg8 (by decide)).trans <| (V2_of m outs c main_arg8 (by decide)).trans <| (V1_of m c main_arg8 (by decide)).trans rfl
theorem in9_arg9 : V9 m outs c main_arg9 = m ((c : Thread nD τ).loc main_arg9) :=
  (V9_of m outs c main_arg9 (by decide)).trans <| (V8_of m outs c main_arg9 (by decide)).trans <| (V7_of m outs c main_arg9 (by decide)).trans <|
    (V6_of m outs c main_arg9 (by decide)).trans <| (V5_of m outs c main_arg9 (by decide)).trans <| (V4_of m outs c main_arg9 (by decide)).trans <|
    (V3_of m outs c main_arg9 (by decide)).trans <| (V2_of m outs c main_arg9 (by decide)).trans <| (V1_of m c main_arg9 (by decide)).trans rfl

/-! ## (B) The reshaped biases at an index -/

/-- A vector reshaped to one row holds at (0, q) the vector's entry q: both sit at row-major position q. -/
theorem row_reshape_apply {n : Nat} (x : (⟨1, ![n]⟩ : Shape).Idx → EReal) (h : (⟨1, ![n]⟩ : Shape).ShapeCasts ⟨2, ![1, n]⟩) (q : Fin n) :
    shapeCast (⟨2, ![1, n]⟩ : Shape) x h (ix2 ⟨0, Nat.one_pos⟩ q) = x (ix1 q) := by
  refine shapeCast_apply x h _ (ix1 q) ?_
  rewrite [Shape.rowMajor_val_two, Shape.rowMajor_val_one]
  show q.val = 0 * n + q.val
  omega

/-- The first linear layer's bias, reshaped to one row: entry (0, q) of the row is entry q of the argument. -/
theorem bias3 (q : Fin 256) :
    (V3 m outs c main_v36 : S1x256.Idx → EReal) (ix2 ⟨0, Nat.one_pos⟩ q) = (m ((c : Thread nD τ).loc main_arg4) : S256.Idx → EReal) (ix1 q) := by
  have e : (V3 m outs c main_v36 : S1x256.Idx → EReal)
      = shapeCast S1x256 (V2 m outs c main_arg4 : S256.Idx → EReal) shapeCasts_S256_S1x256 := by
    show StableHlo.after hostOps1 (V2 m outs c) (Proc.devRef .tc main_v36) = _
    after_results
    rfl
  have a : (V2 m outs c main_arg4 : S256.Idx → EReal) = (m ((c : Thread nD τ).loc main_arg4) : S256.Idx → EReal) :=
    (V2_of m outs c main_arg4 (by decide)).trans <| (V1_of m c main_arg4 (by decide)).trans rfl
  refine (congrFun e _).trans ?_
  refine (row_reshape_apply _ shapeCasts_S256_S1x256 q).trans ?_
  exact congrFun a (ix1 q)
/-- The second linear layer's bias, reshaped to one row. -/
theorem bias6 (q : Fin 1024) :
    (V6 m outs c main_v39 : S1x1024.Idx → EReal) (ix2 ⟨0, Nat.one_pos⟩ q) = (m ((c : Thread nD τ).loc main_arg7) : S1024.Idx → EReal) (ix1 q) := by
  have e : (V6 m outs c main_v39 : S1x1024.Idx → EReal)
      = shapeCast S1x1024 (V5 m outs c main_arg7 : S1024.Idx → EReal) shapeCasts_S1024_S1x1024 := by
    show StableHlo.after hostOps3 (V5 m outs c) (Proc.devRef .tc main_v39) = _
    after_results
    rfl
  have a : (V5 m outs c main_arg7 : S1024.Idx → EReal) = (m ((c : Thread nD τ).loc main_arg7) : S1024.Idx → EReal) :=
    (V5_of m outs c main_arg7 (by decide)).trans <| (V4_of m outs c main_arg7 (by decide)).trans <| (V3_of m outs c main_arg7 (by decide)).trans <| (V2_of m outs c main_arg7 (by decide)).trans <| (V1_of m c main_arg7 (by decide)).trans rfl
  refine (congrFun e _).trans ?_
  refine (row_reshape_apply _ shapeCasts_S1024_S1x1024 q).trans ?_
  exact congrFun a (ix1 q)
/-- The third linear layer's bias, reshaped to one row. -/
theorem bias9 (q : Fin 64) :
    (V9 m outs c main_v42 : S1x64.Idx → EReal) (ix2 ⟨0, Nat.one_pos⟩ q) = (m ((c : Thread nD τ).loc main_arg10) : S64.Idx → EReal) (ix1 q) := by
  have e : (V9 m outs c main_v42 : S1x64.Idx → EReal)
      = shapeCast S1x64 (V8 m outs c main_arg10 : S64.Idx → EReal) shapeCasts_S64_S1x64 := by
    show StableHlo.after hostOps5 (V8 m outs c) (Proc.devRef .tc main_v42) = _
    after_results
    rfl
  have a : (V8 m outs c main_arg10 : S64.Idx → EReal) = (m ((c : Thread nD τ).loc main_arg10) : S64.Idx → EReal) :=
    (V8_of m outs c main_arg10 (by decide)).trans <| (V7_of m outs c main_arg10 (by decide)).trans <| (V6_of m outs c main_arg10 (by decide)).trans <| (V5_of m outs c main_arg10 (by decide)).trans <| (V4_of m outs c main_arg10 (by decide)).trans <| (V3_of m outs c main_arg10 (by decide)).trans <| (V2_of m outs c main_arg10 (by decide)).trans <| (V1_of m c main_arg10 (by decide)).trans rfl
  refine (congrFun e _).trans ?_
  refine (row_reshape_apply _ shapeCasts_S64_S1x64 q).trans ?_
  exact congrFun a (ix1 q)

/-! ## (C) The tail -/

/-- The row-wise log-softmax as the program's last host stretch computes it, operation by operation: the row maximum
    (a fold of the maximum from −∞, then the maximum with −∞ once more), the entries less their row's maximum, the
    exponentials' row sum from 0, its logarithm, and the difference. -/
def ktail (y : S10000x64.Idx → EReal) : S10000x64.Idx → EReal :=
  let v0 : FVec Ideal S10000 .f32 :=
    Host.reduce FloatOps.maximumf (y : FVec Ideal S10000x64 .f32) (constant (F := Ideal) S_ .f32 0xFF800000#32) reducesTo_S10000x64_S10000_d1 h_S_
  let v1 : FVec Ideal S10000 .f32 := broadcastInDim S10000 ![] bcast_S_S10000 (constant (F := Ideal) S_ .f32 0xFF800000#32)
  let v2 : FVec Ideal S10000 .f32 := maximumf v1 v0
  let v3 : FVec Ideal S10000x1 .f32 := broadcastInDim S10000x1 ![0] bcast_S10000_S10000x1_0 v2
  let v4 : FVec Ideal S10000x64 .f32 := broadcastInDim S10000x64 ![0, 1] bcast_S10000x1_S10000x64_0_1 v3
  let v5 : FVec Ideal S10000x64 .f32 := subf (y : FVec Ideal S10000x64 .f32) v4
  let v6 : FVec Ideal S10000x64 .f32 := Host.exp (F := Ideal) v5
  let v7 : FVec Ideal S10000 .f32 := Host.reduceAdd (F := Ideal) v6 (constant (F := Ideal) S_ .f32 0x00000000#32) reducesTo_S10000x64_S10000_d1 h_S_
  let v8 : FVec Ideal S10000x1 .f32 := broadcastInDim S10000x1 ![0] bcast_S10000_S10000x1_0 v7
  let v9 : FVec Ideal S10000x1 .f32 := Host.log (F := Ideal) v8
  let v10 : FVec Ideal S10000x64 .f32 := broadcastInDim S10000x64 ![0, 1] bcast_S10000x1_S10000x64_0_1 v9
  subf v5 v10

/-- The program's result: the log-softmax chain on the first 10000 rows of the last region's output. -/
theorem result_tail :
    (V12 m outs c main_v45 : S10000x64.Idx → EReal)
      = ktail (fun i => (outs 10 main_v43 c : S10240x64.Idx → EReal)
          (ix2 ⟨(i 0).val, by have := idx2_lt0 i; omega⟩ ⟨(i 1).val, idx2_lt1 i⟩)) := by
  -- the last two host stretches composed: the chain on the slice of what the last region left
  have e : (V12 m outs c main_v45 : S10000x64.Idx → EReal)
      = ktail (extractStridedSlice S10000x64 ![0, 0] (V10 m outs c main_v43 : S10240x64.Idx → EReal) slices_S10240x64_S10000x64_0_0) := by
    show StableHlo.after hostOps6_1 (StableHlo.after hostOps6 (V10 m outs c)) (Proc.devRef .tc main_v45) = _
    after_results
    simp only [TRef.ofBuf, TRef.toBuf, cast_eq]
    rfl
  refine e.trans (congrArg ktail ?_)
  funext i
  -- the slice from offset (0, 0) reads the same coordinates of the larger array
  refine (extractStridedSlice_apply ![0, 0] _ slices_S10240x64_S10000x64_0_0 i
    (ix2 ⟨(i 0).val, by have := idx2_lt0 i; omega⟩ ⟨(i 1).val, idx2_lt1 i⟩) (fun a => match a with
      | ⟨0, _⟩ => by show (i 0).val = 0 + (i 0).val; omega
      | ⟨1, _⟩ => by show (i 1).val = 0 + (i 1).val; omega)).trans ?_
  exact congrFun (Function.update_self _ _ _ : V10 m outs c main_v43 = outs 10 main_v43 c) _

end Cert.KernelIdeal.HandValue

end
-- ==== Proof.KI.AsE.lean ====
/- A buffer's contents at the ideal instance, typed as a function into the extended reals: the identity, spelt so
   that arithmetic on its values finds the extended reals' instances. -/
import Idealize.ShloMosaic.PureOps.Ideal

namespace Cert.KernelIdeal.HandValue

open Idealize.ShloMosaic

/-- `x` itself, with its type stated: a function from the indices of `S` to the extended reals. -/
abbrev asE (S : Shape) (x : S.Idx → EReal) : S.Idx → EReal := x

end Cert.KernelIdeal.HandValue
-- ==== Proof.LibPadRows.lean ====
/-
  A SET-SCATTER THAT PLACES A BLOCK OF ROWS AT THE TOP OF A MATRIX, read at an index.

  The host's scatter whose body returns the update is the left fold, over the update indices in row-major order, of
  "replace the operand element at the update's result index by the update's element". When the result indices of
  distinct update indices are distinct, every operand element meets at most one update, so the fold's value at an
  index is that update's element when one lands there and the operand's element otherwise. This file proves that
  for any dimension numbers, and reads it for the dimension numbers of "write an R × D block into an N × D matrix at
  one start row": both update axes are window axes, the one start component names the row. At start row 0 the
  result is the block on the first R rows and the operand below.
-/
import Idealize.ShloMosaic.PureOps
import Idealize.ShloMosaic.Lib.ValueIdx
import Mathlib.Data.List.Range
import Mathlib.Data.List.Nodup

noncomputable section

namespace Idealize.ShloMosaic.PadRows

open Idealize.ShloMosaic Idealize.ShloMosaic.ValueIdx

variable {α : Type}

/-! ## The fold of a set-scatter, read at an index -/

section Fold
variable {ι κ : Type} [DecidableEq κ]

/-- One step of a set-scatter's fold: update `n` with result index `g n` and element `v n` replaces the element at
    `g n` when there is one, and changes nothing when its result index is outside. -/
def setStep (g : ι → Option κ) (v : ι → α) (r : κ → α) (n : ι) : κ → α :=
  match g n with
  | some i => fun i' => if i' = i then v n else r i'
  | none => r

/-- A step whose update lands at `i` leaves the update's element there. -/
theorem setStep_hit (g : ι → Option κ) (v : ι → α) (r : κ → α) (n : ι) (i : κ) (h : g n = some i) :
    setStep g v r n i = v n := by
  unfold setStep; rw [h]; exact if_pos rfl

/-- A step whose update does not land at `i` leaves the element at `i` as it was. -/
theorem setStep_miss (g : ι → Option κ) (v : ι → α) (r : κ → α) (n : ι) (i : κ) (h : g n ≠ some i) :
    setStep g v r n i = r i := by
  unfold setStep
  cases hg : g n with
  | none => rfl
  | some k =>
    have hk : i ≠ k := fun e => h (by rw [hg, e])
    exact if_neg hk

/-- An element no update of the list lands at keeps the operand's value through the whole fold. -/
theorem foldl_setStep_miss (g : ι → Option κ) (v : ι → α) (i : κ) (l : List ι) (r : κ → α)
    (h : ∀ n ∈ l, g n ≠ some i) : l.foldl (setStep g v) r i = r i := by
  induction l generalizing r with
  | nil => rfl
  | cons m l ih =>
    rw [List.foldl_cons, ih _ (fun n hn => h n (List.mem_cons_of_mem _ hn)),
      setStep_miss g v r m i (h m List.mem_cons_self)]

/-- An element exactly one update `n` of the list lands at holds that update's element after the fold. -/
theorem foldl_setStep_hit (g : ι → Option κ) (v : ι → α) (i : κ) (n : ι) (hn : g n = some i) (l : List ι)
    (r : κ → α) (hmem : n ∈ l) (huniq : ∀ m ∈ l, g m = some i → m = n) :
    l.foldl (setStep g v) r i = v n := by
  induction l generalizing r with
  | nil => exact absurd hmem List.not_mem_nil
  | cons m l ih =>
    rw [List.foldl_cons]
    by_cases hl : n ∈ l
    · exact ih _ hl (fun m' hm' => huniq m' (List.mem_cons_of_mem _ hm'))
    · have hm : m = n := by
        rcases List.mem_cons.1 hmem with e | e
        · exact e.symm
        · exact absurd e hl
      rw [foldl_setStep_miss g v i l _ (fun m' hm' e => hl (huniq m' (List.mem_cons_of_mem _ hm') e ▸ hm')),
        hm, setStep_hit g v r n i hn]

end Fold

/-- The host's scatter whose body returns the update is the fold of `setStep` over the update positions in row-major
    order. -/
theorem scatter_set_eq_foldl {s si u : Shape} {w : Nat} (d : ScatterDims s si u) (x : s.Idx → α) (idx : IVec si w)
    (upd : u.Idx → α) :
    Host.scatter d (fun _ b => b) x idx upd =
      (List.finRange u.numel).foldl
        (setStep (fun n => d.resultIdx? (u.rowMajor.symm n) idx) (fun n => upd (u.rowMajor.symm n))) x := by
  unfold Host.scatter
  congr 1
  funext r n
  unfold setStep
  beta_reduce
  cases d.resultIdx? (u.rowMajor.symm n) idx with
  | none => rfl
  | some k =>
    funext i'
    by_cases e : i' = k
    · exact (if_pos e).trans (if_pos e).symm
    · exact (if_neg e).trans (if_neg e).symm

/-- A set-scatter read at an index `i` that update index `j` lands at, and no other update index does: the update's
    element at `j`. -/
theorem scatter_set_hit {s si u : Shape} {w : Nat} (d : ScatterDims s si u) (x : s.Idx → α) (idx : IVec si w)
    (upd : u.Idx → α) (i : s.Idx) (j : u.Idx) (hj : d.resultIdx? j idx = some i)
    (huniq : ∀ j', d.resultIdx? j' idx = some i → j' = j) :
    Host.scatter d (fun _ b => b) x idx upd i = upd j := by
  rw [scatter_set_eq_foldl,
    foldl_setStep_hit _ _ i (u.rowMajor j) (by simpa using hj) _ x (List.mem_finRange _)
      (fun m _ hm => by
        have := huniq _ hm
        rw [← this, Equiv.apply_symm_apply])]
  simp

/-- A set-scatter read at an index no update index lands at: the operand's element. -/
theorem scatter_set_miss {s si u : Shape} {w : Nat} (d : ScatterDims s si u) (x : s.Idx → α) (idx : IVec si w)
    (upd : u.Idx → α) (i : s.Idx) (hmiss : ∀ j, d.resultIdx? j idx ≠ some i) :
    Host.scatter d (fun _ b => b) x idx upd i = x i := by
  rw [scatter_set_eq_foldl]
  exact foldl_setStep_miss _ _ i _ x (fun n _ => hmiss _)

/-- The dimension numbers of writing an `R × D` block of rows into an `N × D` matrix at one start row: both axes of
    the updates are window axes, no operand axis is inserted, the single start component is the row. Their
    conditions `wf` are decided on a program's literal shapes. -/
abbrev padDims (N D R : Nat) (wf : ScatterDims.WF ⟨2, ![N, D]⟩ ⟨1, ![1]⟩ ⟨2, ![R, D]⟩ [0, 1] [] [0] 0) :
    ScatterDims ⟨2, ![N, D]⟩ ⟨1, ![1]⟩ ⟨2, ![R, D]⟩ where
  updateWindowDims := [0, 1]
  insertedWindowDims := []
  scatterDimsToOperandDims := [0]
  indexVectorDim := 0
  wf := wf

/-! ## The block write's result index -/

section Pad
variable {N D R w : Nat} (wf : ScatterDims.WF ⟨2, ![N, D]⟩ ⟨1, ![1]⟩ ⟨2, ![R, D]⟩ [0, 1] [] [0] 0)

/-- On the row axis the window starts at the one index word, read signed. -/
theorem pad_start_row (j : (⟨2, ![R, D]⟩ : Shape).Idx) (idx : IVec ⟨1, ![1]⟩ w) :
    (padDims N D R wf).start j idx 0 = (idx (ix1 ⟨0, Nat.one_pos⟩)).toInt := by
  unfold ScatterDims.start
  rw [dif_pos (show (0 : Fin 2) ∈ (padDims N D R wf).scatterDimsToOperandDims from List.mem_singleton.mpr rfl)]
  have hsi : (padDims N D R wf).siIdx j ⟨List.idxOf (0 : Fin 2) (padDims N D R wf).scatterDimsToOperandDims,
      List.idxOf_lt_length_iff.2 (List.mem_singleton.mpr rfl)⟩ = ix1 ⟨0, Nat.one_pos⟩ := by
    funext b; refine Fin.ext ?_
    match b with
    | ⟨0, _⟩ => rfl
  rw [hsi]

/-- On the column axis, which the start index does not name, the window starts at 0. -/
theorem pad_start_col (j : (⟨2, ![R, D]⟩ : Shape).Idx) (idx : IVec ⟨1, ![1]⟩ w) :
    (padDims N D R wf).start j idx 1 = 0 := by
  unfold ScatterDims.start
  rw [dif_neg (show ¬ (1 : Fin 2) ∈ (padDims N D R wf).scatterDimsToOperandDims from
    fun h => absurd (List.mem_singleton.1 h) (show ¬ (1 : Fin 2) = 0 by decide))]

/-- The window coordinate on the row axis is the update index's row. -/
theorem pad_window_row (j : (⟨2, ![R, D]⟩ : Shape).Idx) : (padDims N D R wf).window j 0 = (j 0).val := rfl

/-- The window coordinate on the column axis is the update index's column. -/
theorem pad_window_col (j : (⟨2, ![R, D]⟩ : Shape).Idx) : (padDims N D R wf).window j 1 = (j 1).val := rfl

/-- At start row 0 the update index `(r, c)` lands at the operand index `(r, c)`. -/
theorem pad_resultIdx (hR : R ≤ N) (idx : IVec ⟨1, ![1]⟩ w) (h0 : (idx (ix1 ⟨0, Nat.one_pos⟩)).toInt = 0)
    (j : (⟨2, ![R, D]⟩ : Shape).Idx) :
    (padDims N D R wf).resultIdx? j idx =
      some (ix2 ⟨(j 0).val, Nat.lt_of_lt_of_le (idx2_lt0 j) hR⟩ ⟨(j 1).val, idx2_lt1 j⟩) := by
  have hrow : (padDims N D R wf).start j idx 0 + (padDims N D R wf).window j 0 = ((j 0).val : Int) := by
    rw [pad_start_row, h0, pad_window_row, Int.zero_add]
  have hcol : (padDims N D R wf).start j idx 1 + (padDims N D R wf).window j 1 = ((j 1).val : Int) := by
    rw [pad_start_col, pad_window_col, Int.zero_add]
  have hj0 := idx2_lt0 j
  have hj1 := idx2_lt1 j
  unfold ScatterDims.resultIdx?
  rw [dif_pos (by
    intro a
    match a with
    | ⟨0, _⟩ =>
      show 0 ≤ (padDims N D R wf).start j idx 0 + (padDims N D R wf).window j 0 ∧
        (padDims N D R wf).start j idx 0 + (padDims N D R wf).window j 0 < (N : Int)
      rw [hrow]; omega
    | ⟨1, _⟩ =>
      show 0 ≤ (padDims N D R wf).start j idx 1 + (padDims N D R wf).window j 1 ∧
        (padDims N D R wf).start j idx 1 + (padDims N D R wf).window j 1 < (D : Int)
      rw [hcol]; omega)]
  congr 1
  funext a
  refine Fin.ext ?_
  match a with
  | ⟨0, _⟩ =>
    show ((padDims N D R wf).start j idx 0 + (padDims N D R wf).window j 0).toNat = (j 0).val
    rw [hrow]; exact Int.toNat_natCast _
  | ⟨1, _⟩ =>
    show ((padDims N D R wf).start j idx 1 + (padDims N D R wf).window j 1).toNat = (j 1).val
    rw [hcol]; exact Int.toNat_natCast _

/-- THE BLOCK WRITE AT START ROW 0, READ AT `i`: the block's element on the first `R` rows, the operand's below. -/
theorem scatter_pad_apply (hR : R ≤ N)
    (x : (⟨2, ![N, D]⟩ : Shape).Idx → α) (idx : IVec ⟨1, ![1]⟩ w)
    (h0 : (idx (ix1 ⟨0, Nat.one_pos⟩)).toInt = 0)
    (upd : (⟨2, ![R, D]⟩ : Shape).Idx → α) (i : (⟨2, ![N, D]⟩ : Shape).Idx) :
    Host.scatter (padDims N D R wf) (fun _ b => b) x idx upd i =
      if h : (i 0).val < R then upd (ix2 ⟨(i 0).val, h⟩ ⟨(i 1).val, idx2_lt1 i⟩) else x i := by
  by_cases h : (i 0).val < R
  · rw [dif_pos h]
    refine scatter_set_hit _ x idx upd i _ ?_ ?_
    · rw [pad_resultIdx wf hR idx h0]
      congr 1
      funext a
      match a with
      | ⟨0, _⟩ => rfl
      | ⟨1, _⟩ => rfl
    · intro j' hj'
      rw [pad_resultIdx wf hR idx h0] at hj'
      have e := Option.some.inj hj'
      funext a
      refine Fin.ext ?_
      match a with
      | ⟨0, _⟩ => exact congrArg (fun k => (k 0).val) e
      | ⟨1, _⟩ => exact congrArg (fun k => (k 1).val) e
  · rw [dif_neg h]
    refine scatter_set_miss _ x idx upd i ?_
    intro j hj
    rw [pad_resultIdx wf hR idx h0] at hj
    have e := Option.some.inj hj
    have : (j 0).val = (i 0).val := congrArg (fun k => (k 0).val) e
    exact h (this ▸ idx2_lt0 j)

end Pad

end Idealize.ShloMosaic.PadRows

end
-- ==== Proof.KI.HostStage.lean ====
/- What the kernel program's first host stretch leaves in its two large buffers, read at an index, at the ideal
   instance. The stretch builds, from the edge list (two rows of 160000 words: sources, then destinations) and the
   feature matrix x (10000 rows of 128), the row-normalised adjacency matrix (10240 by 10240) and x padded with zero rows
   to 10240 rows.
   * The in-degree count of node r is 0 plus the number of edges whose destination is r (a scatter-add of ones).
   * The edge-count entry (r, s) is 0 plus the number of edges with destination r and source s (a scatter-add of ones
     at the pairs (destination, source); a negative word would first be wrapped by 10240, which the range hypothesis
     excludes).
   * The adjacency entry (r, s) is the edge count times 1 / max(in-degree r, 1); the cast to the narrower float type is
     the identity at the ideal instance.
   * The padded x at (r, k) is x (r, k) for r < 10000 and 0 otherwise (a scatter of the whole of x at row offset 0 into
     zeros). -/
import proofs.«427327_j68599217652368_1_alg».proof.Proof.Gen.KernelIdeal.Regions
import proofs.«427327_j68599217652368_1_alg».proof.Proof.LibScatterAdd
import proofs.«427327_j68599217652368_1_alg».proof.Proof.LibPadRows
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws
import Idealize.ShloMosaic.Lib.IdealHost
import Idealize.ShloMosaic.Lib.Affine

noncomputable section

namespace Cert.KernelIdeal.HandValue

open Cert.KernelIdeal Cert.KernelIdeal.Gen Idealize.ShloMosaic Idealize.ShloMosaic.TcCoe Idealize.ShloMosaic.ValueIdx
  Idealize.ShloMosaic.StableHlo
open scoped BigOperators

variable (m : (ℓ : Loc nD τ sig) → Buf (Elt Ideal) ℓ) (c : Dev nD)

/-- The feature matrix x as core `c` holds it at launch. -/
abbrev xin : S10000x128.Idx → EReal := m ((c : Thread nD τ).loc main_arg0)
/-- The edge list as core `c` holds it at launch: row 0 the sources, row 1 the destinations. -/
abbrev ein : IVec S2x160000 32 := m ((c : Thread nD τ).loc main_arg1)
/-- The source of edge `e`. -/
abbrev srcOf (e : Fin 160000) : Int := (ein m c (ix2 ⟨0, by omega⟩ e)).toInt
/-- The destination of edge `e`. -/
abbrev dstOf (e : Fin 160000) : Int := (ein m c (ix2 ⟨1, by omega⟩ e)).toInt

/-! ## The stretch's intermediate arrays as functions of the edge list -/

/-- The sources: row 0 of the edge list as a vector of 160000 words. -/
def srcW (E : IVec S2x160000 32) : IVec S160000 32 :=
  shapeCast S160000 (extractStridedSlice S1x160000 ![0, 0] E slices_S2x160000_S1x160000_0_0) shapeCasts_S1x160000_S160000
/-- The destinations: row 1 of the edge list as a vector of 160000 words. -/
def dstW (E : IVec S2x160000 32) : IVec S160000 32 :=
  shapeCast S160000 (extractStridedSlice S1x160000 ![1, 0] E slices_S2x160000_S1x160000_1_0) shapeCasts_S1x160000_S160000
/-- A vector of node words with each negative word moved up by 10240. -/
def wrapW (v : IVec S160000 32) : IVec S160000 32 :=
  select (cmpi .slt v (broadcastInDim S160000 ![] bcast_S_S160000 (constantI S_ 32 0#32)))
    (addi v (broadcastInDim S160000 ![] bcast_S_S160000 (constantI S_ 32 10240#32))) v
/-- One per edge. -/
def onesE : FVec Ideal S160000 .f32 :=
  broadcastInDim S160000 ![] bcast_S_S160000 (constant (F := Ideal) S_ .f32 0x3F800000#32)
/-- The in-degree counts: ones scattered and added at the raw destinations, over zeros. -/
def cntV (E : IVec S2x160000 32) : FVec Ideal S10240 .f32 :=
  Host.scatterAdd scatter_S10240_S160000x1_S160000_n_0_0_1
    (broadcastInDim S10240 ![] bcast_S_S10240 (constant (F := Ideal) S_ .f32 0x00000000#32))
    (broadcastInDim S160000x1 ![0] bcast_S160000_S160000x1_0 (dstW E)) onesE
/-- The (destination, source) pairs, each wrapped, one row per edge. -/
def pairW (E : IVec S2x160000 32) : IVec S160000x2 32 :=
  concatenate S160000x2 1
    [⟨S160000x1, broadcastInDim S160000x1 ![0] bcast_S160000_S160000x1_0 (wrapW (dstW E))⟩,
     ⟨S160000x1, broadcastInDim S160000x1 ![0] bcast_S160000_S160000x1_0 (wrapW (srcW E))⟩]
    concatenates_S160000x1_S160000x1_S160000x2_d1
/-- The edge-count matrix: ones scattered and added at the pairs, over zeros. -/
def edgeM (E : IVec S2x160000 32) : FVec Ideal S10240x10240 .f32 :=
  Host.scatterAdd scatter_S10240x10240_S160000x2_S160000_n_01_01_1
    (broadcastInDim S10240x10240 ![] bcast_S_S10240x10240 (constant (F := Ideal) S_ .f32 0x00000000#32))
    (pairW E) onesE
/-- One over the larger of the in-degree count and one, per node. -/
def invV (E : IVec S2x160000 32) : FVec Ideal S10240 .f32 :=
  Host.divf (broadcastInDim S10240 ![] bcast_S_S10240 (constant (F := Ideal) S_ .f32 0x3F800000#32))
    (maximumf (cntV E) (broadcastInDim S10240 ![] bcast_S_S10240 (constant (F := Ideal) S_ .f32 0x3F800000#32)))
/-- The row-normalised adjacency matrix: the edge counts times the row's inverse count, cast to the narrower type. -/
def ahatM (E : IVec S2x160000 32) : FVec Ideal S10240x10240 .bf16 :=
  truncf .bf16 (mulf (edgeM E)
    (broadcastInDim S10240x10240 ![0, 1] bcast_S10240x1_S10240x10240_0_1
      (broadcastInDim S10240x1 ![0] bcast_S10240_S10240x1_0 (invV E)))) bitsLt_bf16_f32
/-- The feature matrix padded with zero rows: the whole of it scattered at row offset 0 into zeros. -/
def hpadM (X : FVec Ideal S10000x128 .f32) : FVec Ideal S10240x128 .f32 :=
  Host.scatter scatter_S10240x128_S1_S10000x128_01_n_0_0 (fun _ b => b)
    (broadcastInDim S10240x128 ![] bcast_S_S10240x128 (constant (F := Ideal) S_ .f32 0x00000000#32))
    (broadcastInDim S1 ![] bcast_S_S1 (constantI S_ 32 0#32)) X

/-! ## The two buffers after the stretch are these terms at the launch contents -/

theorem v34_term : (V1 m c main_v34 : S10240x128.Idx → EReal) = hpadM (xin m c) := by
  dsimp only [Gen.V1, Gen.V0, Gen.hostOps0]
  after_results_simp
  rfl

theorem v31_term : (V1 m c main_v31 : S10240x10240.Idx → EReal) = ahatM (ein m c) := by
  dsimp only [Gen.V1, Gen.V0, Gen.hostOps0]
  after_results_simp
  rfl

/-! ## The intermediate arrays read at an index -/

/-- The constant zero array of 10240 entries. -/
theorem zeros10240_apply (j : S10240.Idx) :
    broadcastInDim S10240 ![] bcast_S_S10240 (constant (F := Ideal) S_ .f32 0x00000000#32) j = 0 := by
  rw [broadcastInDim_apply _ bcast_S_S10240 _ j ix0 (fun a => a.elim0)]
  exact Ideal.ofBits_zero_f32

/-- The constant one array of 10240 entries. -/
theorem ones10240_apply (j : S10240.Idx) :
    broadcastInDim S10240 ![] bcast_S_S10240 (constant (F := Ideal) S_ .f32 0x3F800000#32) j = 1 := by
  rw [broadcastInDim_apply _ bcast_S_S10240 _ j ix0 (fun a => a.elim0)]
  exact Ideal.ofBits_one_f32

/-- The constant zero matrix. -/
theorem zerosM_apply (j : S10240x10240.Idx) :
    broadcastInDim S10240x10240 ![] bcast_S_S10240x10240 (constant (F := Ideal) S_ .f32 0x00000000#32) j = 0 := by
  rw [broadcastInDim_apply _ bcast_S_S10240x10240 _ j ix0 (fun a => a.elim0)]
  exact Ideal.ofBits_zero_f32

theorem onesE_apply (j : S160000.Idx) : onesE j = 1 := by
  unfold onesE
  rw [broadcastInDim_apply _ bcast_S_S160000 _ j ix0 (fun a => a.elim0)]
  exact Ideal.ofBits_one_f32

theorem srcW_apply (E : IVec S2x160000 32) (e : Fin 160000) : srcW E (ix1 e) = E (ix2 ⟨0, by omega⟩ e) := by
  unfold srcW
  refine (shapeCast_apply _ shapeCasts_S1x160000_S160000 (ix1 e) (ix2 ⟨0, Nat.one_pos⟩ e) ?_).trans ?_
  · rewrite [Shape.rowMajor_val_two, Shape.rowMajor_val_one]
    show 0 * 160000 + e.val = e.val
    omega
  · exact extractStridedSlice_apply ![0, 0] E slices_S2x160000_S1x160000_0_0 _ _ (fun a => match a with
      | ⟨0, _⟩ => by show 0 = 0 + 0; rfl
      | ⟨1, _⟩ => by show e.val = 0 + e.val; omega)

theorem dstW_apply (E : IVec S2x160000 32) (e : Fin 160000) : dstW E (ix1 e) = E (ix2 ⟨1, by omega⟩ e) := by
  unfold dstW
  refine (shapeCast_apply _ shapeCasts_S1x160000_S160000 (ix1 e) (ix2 ⟨0, Nat.one_pos⟩ e) ?_).trans ?_
  · rewrite [Shape.rowMajor_val_two, Shape.rowMajor_val_one]
    show 0 * 160000 + e.val = e.val
    omega
  · exact extractStridedSlice_apply ![1, 0] E slices_S2x160000_S1x160000_1_0 _ _ (fun a => match a with
      | ⟨0, _⟩ => by show 1 = 1 + 0; rfl
      | ⟨1, _⟩ => by show e.val = 0 + e.val; omega)

/-- A word that is not negative is left where it is. -/
theorem wrapW_apply (v : IVec S160000 32) (j : S160000.Idx) (h : 0 ≤ (v j).toInt) : wrapW v j = v j := by
  unfold wrapW
  rw [select_apply]
  have hc : cmpi .slt v (broadcastInDim S160000 ![] bcast_S_S160000 (constantI S_ 32 0#32)) j = 0#1 := by
    show IntOp.cmpi .slt (v j) (broadcastInDim S160000 ![] bcast_S_S160000 (constantI S_ 32 0#32) j) = 0#1
    rw [broadcastInDim_apply _ bcast_S_S160000 _ j ix0 (fun a => a.elim0)]
    show IntOp.cmpi .slt (v j) 0#32 = 0#1
    refine eq_zero_of_ne_one (fun h1 => ?_)
    have h2 := IntOp.cmpi_slt.mp h1
    have h3 : (0#32 : BitVec 32).toInt = 0 := by decide
    omega
  rw [hc, select_zero]

/-- A vector laid out as a one-column matrix, read at row `e`. -/
theorem col_apply {α : Type} (v : S160000.Idx → α) (e : Fin 160000) :
    broadcastInDim S160000x1 ![0] bcast_S160000_S160000x1_0 v (ix2 e ⟨0, Nat.one_pos⟩) = v (ix1 e) :=
  broadcastInDim_apply _ bcast_S160000_S160000x1_0 v _ (ix1 e) (fun a => match a with
    | ⟨0, _⟩ => by show e.val = if (160000 : Nat) = 1 then 0 else e.val; rw [if_neg (by decide)])

theorem cntV_apply (E : IVec S2x160000 32) (j : S10240.Idx) :
    cntV E j = 0 + ∑ e : Fin 160000, if (E (ix2 ⟨1, by omega⟩ e)).toInt = ((j 0).val : Int) then (1 : EReal) else 0 := by
  unfold cntV
  show Ideal.hostScatterAdd (ScatterAddIdx.segDims 10240 160000 scatter_S10240_S160000x1_S160000_n_0_0_1_wf) _ _ _ j = _
  rw [ScatterAddIdx.hostScatterAdd_seg_apply, zeros10240_apply]
  refine congrArg _ (Finset.sum_congr rfl fun e _ => ?_)
  rw [col_apply, dstW_apply, onesE_apply]

theorem pairW_apply0 (E : IVec S2x160000 32) (e : Fin 160000) :
    pairW E (ix2 e ⟨0, by omega⟩) = wrapW (dstW E) (ix1 e) := by
  unfold pairW
  refine (concatenate_pair_apply_left (t := S160000x2) (s₁ := S160000x1) (s₂ := S160000x1) 1 _ _ concatenates_S160000x1_S160000x1_S160000x2_d1
    (ix2 e ⟨0, by omega⟩) rfl (ix2 e ⟨0, Nat.one_pos⟩) (fun b => match b with
      | ⟨0, _⟩ => rfl
      | ⟨1, _⟩ => rfl)).trans (col_apply _ e)

theorem pairW_apply1 (E : IVec S2x160000 32) (e : Fin 160000) :
    pairW E (ix2 e ⟨1, by omega⟩) = wrapW (srcW E) (ix1 e) := by
  unfold pairW
  refine (concatenate_pair_apply_right (t := S160000x2) (s₁ := S160000x1) (s₂ := S160000x1) 1 _ _ concatenates_S160000x1_S160000x1_S160000x2_d1
    (ix2 e ⟨1, by omega⟩) rfl rfl (ix2 e ⟨0, Nat.one_pos⟩) (fun b => match b with
      | ⟨0, _⟩ => fun _ => rfl
      | ⟨1, _⟩ => fun hb => absurd rfl hb) rfl).trans (col_apply _ e)

theorem edgeM_apply (E : IVec S2x160000 32) (hr : ∀ i : S2x160000.Idx, 0 ≤ (E i).toInt) (j : S10240x10240.Idx) :
    edgeM E j = 0 + ∑ e : Fin 160000,
      if (E (ix2 ⟨1, by omega⟩ e)).toInt = ((j 0).val : Int) ∧ (E (ix2 ⟨0, by omega⟩ e)).toInt = ((j 1).val : Int)
        then (1 : EReal) else 0 := by
  unfold edgeM
  show Ideal.hostScatterAdd (ScatterAddIdx.pairsDims 10240 10240 160000 scatter_S10240x10240_S160000x2_S160000_n_01_01_1_wf) _ _ _ j = _
  rw [ScatterAddIdx.hostScatterAdd_pairs_apply, zerosM_apply]
  refine congrArg _ (Finset.sum_congr rfl fun e _ => ?_)
  rw [pairW_apply0, pairW_apply1, wrapW_apply _ _ (by rw [dstW_apply]; exact hr _),
    wrapW_apply _ _ (by rw [srcW_apply]; exact hr _), dstW_apply, srcW_apply, onesE_apply]

theorem invV_apply (E : IVec S2x160000 32) (j : S10240.Idx) : invV E j = Ideal.div 1 (max (cntV E j) 1) := by
  unfold invV
  show FloatOps.hostDivf (broadcastInDim S10240 ![] bcast_S_S10240 (constant (F := Ideal) S_ .f32 0x3F800000#32) j)
    (maximumf (cntV E) (broadcastInDim S10240 ![] bcast_S_S10240 (constant (F := Ideal) S_ .f32 0x3F800000#32)) j) = _
  rw [Ideal.hostDivf_def, maximumf_apply, ones10240_apply]

theorem ahatM_apply (E : IVec S2x160000 32) (j : S10240x10240.Idx) :
    ahatM E j = edgeM E j * invV E (ix1 ⟨(j 0).val, idx2_lt0 j⟩) := by
  unfold ahatM
  rw [truncf_apply, mulf_apply]
  refine congrArg _ ?_
  rw [broadcastInDim_apply _ bcast_S10240x1_S10240x10240_0_1 _ j (ix2 ⟨(j 0).val, idx2_lt0 j⟩ ⟨0, Nat.one_pos⟩) (fun a => match a with
    | ⟨0, _⟩ => by show (j 0).val = if (10240 : Nat) = 1 then 0 else (j 0).val; rw [if_neg (by decide)]
    | ⟨1, _⟩ => by show 0 = if (1 : Nat) = 1 then 0 else (j 1).val; rw [if_pos rfl])]
  exact broadcastInDim_apply _ bcast_S10240_S10240x1_0 _ _ (ix1 ⟨(j 0).val, idx2_lt0 j⟩) (fun a => match a with
    | ⟨0, _⟩ => by show (j 0).val = if (10240 : Nat) = 1 then 0 else (j 0).val; rw [if_neg (by decide)])

/-- The adjacency term at the edge list `E` whose words are not negative, read at `j`. -/
theorem ahatM_read (E : IVec S2x160000 32) (hr : ∀ i : S2x160000.Idx, 0 ≤ (E i).toInt) (j : S10240x10240.Idx) :
    ahatM E j
      = (0 + ∑ e : Fin 160000,
          if (E (ix2 ⟨1, by omega⟩ e)).toInt = ((j 0).val : Int) ∧ (E (ix2 ⟨0, by omega⟩ e)).toInt = ((j 1).val : Int)
            then (1 : EReal) else 0)
        * Ideal.div 1 (max (0 + ∑ e : Fin 160000,
            if (E (ix2 ⟨1, by omega⟩ e)).toInt = ((j 0).val : Int) then (1 : EReal) else 0) 1) := by
  rw [ahatM_apply, invV_apply, cntV_apply, edgeM_apply E hr]

/-- The constant zero matrix of 10240 rows of 128. -/
theorem zerosP_apply (j : S10240x128.Idx) :
    broadcastInDim S10240x128 ![] bcast_S_S10240x128 (constant (F := Ideal) S_ .f32 0x00000000#32) j = 0 := by
  rw [broadcastInDim_apply _ bcast_S_S10240x128 _ j ix0 (fun a => a.elim0)]
  exact Ideal.ofBits_zero_f32

/-- The padded matrix read at (r, k): row r of the feature matrix for r < 10000, zero below. -/
theorem hpadM_apply (X : FVec Ideal S10000x128 .f32) (j : S10240x128.Idx) :
    hpadM X j = if h : (j 0).val < 10000 then X (ix2 ⟨(j 0).val, h⟩ ⟨(j 1).val, idx2_lt1 j⟩) else 0 := by
  unfold hpadM
  have h0 : ((broadcastInDim S1 ![] bcast_S_S1 (constantI S_ 32 0#32) : IVec S1 32) (ix1 ⟨0, Nat.one_pos⟩)).toInt = 0 := by
    rw [broadcastInDim_apply _ bcast_S_S1 _ _ ix0 (fun a => a.elim0)]
    show (0#32 : BitVec 32).toInt = 0
    decide
  show Host.scatter (PadRows.padDims 10240 128 10000 scatter_S10240x128_S1_S10000x128_01_n_0_0_wf) (fun _ b => b) _ _ X j = _
  rw [PadRows.scatter_pad_apply scatter_S10240x128_S1_S10000x128_01_n_0_0_wf (by decide) _ _ h0 X j, zerosP_apply]

/-! ## The exported reads -/

/-- The adjacency buffer after the stretch, read at (r, s): the number of edges s → r (plus the zero the count starts
    from) times one over the larger of r's in-degree count and one. -/
theorem ahat_apply (hr : ∀ i : S2x160000.Idx, 0 ≤ (ein m c i).toInt ∧ (ein m c i).toInt < 10000) (i : S10240x10240.Idx) :
    (V1 m c main_v31 : S10240x10240.Idx → EReal) i
      = (0 + ∑ e : Fin 160000, if dstOf m c e = ((i 0).val : Int) ∧ srcOf m c e = ((i 1).val : Int) then (1 : EReal) else 0)
        * Ideal.div 1 (max (0 + ∑ e : Fin 160000, if dstOf m c e = ((i 0).val : Int) then (1 : EReal) else 0) 1) := by
  rw [v31_term]
  exact ahatM_read (ein m c) (fun i => (hr i).1) i

/-- The padded feature buffer after the stretch, read at (r, k). -/
theorem hpad_apply (i : S10240x128.Idx) :
    (V1 m c main_v34 : S10240x128.Idx → EReal) i
      = if h : (i 0).val < 10000 then xin m c (ix2 ⟨(i 0).val, h⟩ ⟨(i 1).val, idx2_lt1 i⟩) else 0 := by
  rw [v34_term]
  exact hpadM_apply (xin m c) i

end Cert.KernelIdeal.HandValue

end
-- ==== Proof.KI.AggValue0.lean ====
/- The value of region 0 (custom_call 0, the aggregation kernel, pipeline `cfg0`, grid 5 × 8, point t = 8·ib + kb) at
   the ideal values, where a float is an extended real, a change of float format is the identity and a matmul into the
   zero accumulator is the plain sum of products. The region multiplies the array behind window 0 ([10240, 10240],
   block [2048, 1280] at block index (ib, kb)) by the array behind window 1 ([10240, 128], block [1280, 128] at
   (kb, 0)) into the array behind window 2 ([10240, 128], block [2048, 128] at (ib, 0), written back at kb = 7 only).
   The body keeps an accumulator: reset to the zero block at kb = 0 and increased at every point by the product of the
   two blocks there, so that after point 8·ib + kb it holds ((0 + P₀) + P₁) + … + P_kb, P_k the 1280-deep block
   product; at kb = 7 that is the whole row block of the product, one sum over the 10240 columns re-associated into
   eight runs of 1280 (addition of extended reals is associative and commutative: no finiteness is asked).
   The theorem is stated over ABSTRACT proof data: any `dat` and any point-indexed accumulator `acc` that resets,
   steps and is stored as the hypotheses say. -/
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.TcCoe Idealize.ShloMosaic.ValueIdx
open Idealize.ShloMosaic.Pipeline
open scoped BigOperators

/-- Window 0's block at point `t`, read off an array `a`. -/
abbrev ablk0 (a : S10240x10240.Idx → EReal) (t : Fin cfg0.N) : Vec Ideal S2048x1280 .bf16 :=
  ((cfg0.win 0).blk t).view.read (Elt Ideal) a
/-- Window 1's block at point `t`, read off an array `h`. -/
abbrev hblk0 (h : S10240x128.Idx → EReal) (t : Fin cfg0.N) : Vec Ideal S1280x128 .f32 :=
  ((cfg0.win 1).blk t).view.read (Elt Ideal) h

/-! ## The payloads at an index -/

/-- The matmul's left operand index at output index `i` and contraction index `q`: its row is the output's row … -/
theorem lhs_k0_0 (i : S2048x128.Idx) (q : dot_S2048x1280_S1280x128_S2048x128_1_0_0_1_n_n.contr.Idx) :
    (dot_S2048x1280_S1280x128_S2048x128_1_0_0_1_n_n.lhsIdx i q 0).val = (i 0).val := by
  unfold DotDims.lhsIdx
  rw [dif_neg (show ¬(0 : Fin S2048x1280.rank) ∈ dot_S2048x1280_S1280x128_S2048x128_1_0_0_1_n_n.lhsBatch by decide), dif_pos (show (0 : Fin S2048x1280.rank) ∈ dot_S2048x1280_S1280x128_S2048x128_1_0_0_1_n_n.lhsNonContracting by decide)]
  rfl
/-- … and its column the contraction coordinate. -/
theorem lhs_k0_1 (i : S2048x128.Idx) (q : dot_S2048x1280_S1280x128_S2048x128_1_0_0_1_n_n.contr.Idx) :
    (dot_S2048x1280_S1280x128_S2048x128_1_0_0_1_n_n.lhsIdx i q 1).val = (q ⟨0, by decide⟩).val :=
  dot_S2048x1280_S1280x128_S2048x128_1_0_0_1_n_n.lhsIdx_val_of_single rfl i q
/-- The right operand's row is the contraction coordinate … -/
theorem rhs_k0_0 (i : S2048x128.Idx) (q : dot_S2048x1280_S1280x128_S2048x128_1_0_0_1_n_n.contr.Idx) :
    (dot_S2048x1280_S1280x128_S2048x128_1_0_0_1_n_n.rhsIdx i q 0).val = (q ⟨0, by decide⟩).val :=
  dot_S2048x1280_S1280x128_S2048x128_1_0_0_1_n_n.rhsIdx_val_of_single rfl i q
/-- … and its column the output's column. -/
theorem rhs_k0_1 (i : S2048x128.Idx) (q : dot_S2048x1280_S1280x128_S2048x128_1_0_0_1_n_n.contr.Idx) :
    (dot_S2048x1280_S1280x128_S2048x128_1_0_0_1_n_n.rhsIdx i q 1).val = (i 1).val := by
  unfold DotDims.rhsIdx
  rw [dif_neg (show ¬(1 : Fin S1280x128.rank) ∈ dot_S2048x1280_S1280x128_S2048x128_1_0_0_1_n_n.rhsBatch by decide), dif_pos (show (1 : Fin S1280x128.rank) ∈ dot_S2048x1280_S1280x128_S2048x128_1_0_0_1_n_n.rhsNonContracting by decide)]
  rfl

/-- The block product into the zero accumulator, at an index: the sum over the 1280 contraction coordinates. -/
theorem matmul_k0_apply (x0 : FVec Ideal S2048x1280 .bf16) (x1 : FVec Ideal S1280x128 .bf16) (p : Fin 2048) (q : Fin 128) :
    matmul dot_S2048x1280_S1280x128_S2048x128_1_0_0_1_n_n none x0 x1 (constant (F := Ideal) S2048x128 .f32 0x00000000#32) (ix2 p q)
      = ∑ k : Fin 1280, x0 (ix2 p k) * x1 (ix2 k q) := by
  simp only [matmul]
  rw [Ideal.matmul_constant_zero_apply, ← Equiv.sum_comp (contrEquiv1 dot_S2048x1280_S1280x128_S2048x128_1_0_0_1_n_n 1280 rfl rfl).symm]
  refine Finset.sum_congr rfl fun k _ => ?_
  have hk := contrEquiv1_symm_val dot_S2048x1280_S1280x128_S2048x128_1_0_0_1_n_n 1280 rfl rfl k
  have el : dot_S2048x1280_S1280x128_S2048x128_1_0_0_1_n_n.lhsIdx (ix2 p q) ((contrEquiv1 dot_S2048x1280_S1280x128_S2048x128_1_0_0_1_n_n 1280 rfl rfl).symm k) = ix2 p k := funext fun a => Fin.ext (by
    match a with
    | ⟨0, _⟩ => exact lhs_k0_0 _ _
    | ⟨1, _⟩ => exact (lhs_k0_1 _ _).trans hk)
  have er : dot_S2048x1280_S1280x128_S2048x128_1_0_0_1_n_n.rhsIdx (ix2 p q) ((contrEquiv1 dot_S2048x1280_S1280x128_S2048x128_1_0_0_1_n_n 1280 rfl rfl).symm k) = ix2 k q := funext fun a => Fin.ext (by
    match a with
    | ⟨0, _⟩ => exact (rhs_k0_0 _ _).trans hk
    | ⟨1, _⟩ => exact rhs_k0_1 _ _)
  rw [el, er]

/-- The reset payload is the zero block. -/
theorem k0_pay1_apply (p : Fin 2048) (q : Fin 128) : k0_pay1 (F := Ideal) (ix2 p q) = 0 := by
  unfold k0_pay1
  rw [shapeCast_self]
  exact Ideal.ofBits_zero_f32

/-- The accumulating payload at an index: what the accumulator held there plus the 1280-deep block product. -/
theorem k0_pay2_apply (x0 : Vec Ideal S2048x1280 .bf16) (x1 : Vec Ideal S1280x128 .f32) (x2 : Vec Ideal S2048x128 .f32) (p : Fin 2048) (q : Fin 128) :
    k0_pay2 x0 x1 x2 (ix2 p q) = x2 (ix2 p q) + ∑ k : Fin 1280, x0 (ix2 p k) * x1 (ix2 k q) := by
  unfold k0_pay2
  rw [shapeCast_self, shapeCast_self, shapeCast_self, addf_apply, matmul_k0_apply]
  rfl

/-! ## The windows' blocks at an index -/

/-- The grid has 40 points: a point's number is below 40. -/
theorem lt_N_0 (t : Fin cfg0.N) : t.val < 40 := lt_of_lt_of_eq t.isLt N_0

/-- The printed index maps, decided once over the grid's 40 points: at point `t = 8·ib + kb` window 0 is at block
    (ib, kb), window 1 at (kb, 0) and window 2 at (ib, 0). -/
theorem idx_facts0 : ∀ t : Fin cfg0.N, win0_0.index t (0 : Fin 2) = t.val / 8 ∧ win0_0.index t (1 : Fin 2) = t.val % 8
    ∧ win0_1.index t (0 : Fin 2) = t.val % 8 ∧ win0_1.index t (1 : Fin 2) = 0
    ∧ win0_2.index t (0 : Fin 2) = t.val / 8 ∧ win0_2.index t (1 : Fin 2) = 0 :=
  (by decide +kernel : ∀ t : Fin grid0.N, _)

/-- Window 0's block at point `t` reads the array at row 2048·(t / 8) + p and column 1280·(t % 8) + k: a block's
    coordinate is the block index times the block's size plus the coordinate inside the block. -/
theorem ablk0_apply (a : S10240x10240.Idx → EReal) (t : Fin cfg0.N) (p : Fin 2048) (k : Fin 1280) (r c : Fin 10240)
    (hr : r.val = 2048 * (t.val / 8) + p.val) (hc : c.val = 1280 * (t.val % 8) + k.val) :
    ablk0 a t (ix2 p k) = a (ix2 r c) := by
  obtain ⟨e0, e1, -, -, -, -⟩ := idx_facts0 t
  show a (((cfg0.win 0).blk t).view.emb (ix2 p k)) = a (ix2 r c)
  refine congrArg a (funext fun d => Fin.ext ?_)
  match d with
  | ⟨0, _⟩ => show win0_0.index t (0 : Fin 2) * 2048 + 1 * p.val = r.val; omega
  | ⟨1, _⟩ => show win0_0.index t (1 : Fin 2) * 1280 + 1 * k.val = c.val; omega

/-- Window 1's block at point `t` reads the array at row 1280·(t % 8) + k and the block's own column. -/
theorem hblk0_apply (h : S10240x128.Idx → EReal) (t : Fin cfg0.N) (k : Fin 1280) (q : Fin 128) (r : Fin 10240)
    (hr : r.val = 1280 * (t.val % 8) + k.val) :
    hblk0 h t (ix2 k q) = h (ix2 r q) := by
  obtain ⟨-, -, e2, e3, -, -⟩ := idx_facts0 t
  show h (((cfg0.win 1).blk t).view.emb (ix2 k q)) = h (ix2 r q)
  refine congrArg h (funext fun d => Fin.ext ?_)
  match d with
  | ⟨0, _⟩ => show win0_1.index t (0 : Fin 2) * 1280 + 1 * k.val = r.val; omega
  | ⟨1, _⟩ => show win0_1.index t (1 : Fin 2) * 128 + 1 * q.val = q.val; omega

/-! ## The whole contraction, in eight runs of 1280 -/

/-- A sum over the 10240 contraction coordinates is the sum over the eight blocks of the sums inside each. -/
theorem sum_split0 {M : Type*} [AddCommMonoid M] (f : Fin 10240 → M) :
    ∑ k : Fin 10240, f k = ∑ s : Fin 8, ∑ k : Fin 1280, f ⟨1280 * s.val + k.val, by omega⟩ := by
  rw [← Equiv.sum_comp (finProdFinEquiv : Fin 8 × Fin 1280 ≃ Fin 10240) f, Fintype.sum_prod_type]
  refine Finset.sum_congr rfl fun s _ => Finset.sum_congr rfl fun k _ => congrArg f (Fin.ext ?_)
  show k.val + 1280 * s.val = 1280 * s.val + k.val
  omega

/-! ## The accumulator after each point -/

/-- The product of run `s` of row `r` of `a` with run `s` of column `q` of `h`: 1280 terms. -/
def bprod0 (a : S10240x10240.Idx → EReal) (h : S10240x128.Idx → EReal) (r : Fin 10240) (q : Fin 128) (s : Fin 8) : EReal :=
  ∑ k : Fin 1280, a (ix2 r ⟨1280 * s.val + k.val, by omega⟩) * h (ix2 ⟨1280 * s.val + k.val, by omega⟩ q)

/-- The accumulator depends on the point's number alone, not on the proof that it is a point. -/
theorem acc_congr0 (acc : (n : ℕ) → n < cfg0.N → Vec Ideal S2048x128 .f32) {n m : ℕ} (e : n = m) (hn : n < cfg0.N)
    (hm : m < cfg0.N) : acc n hn = acc m hm := by
  subst e; rfl

/-- The product of the two blocks at point `t`, at (p, q), is run `t % 8` of the product of row 2048·(t / 8) + p of `a`
    with column `q` of `h`. -/
theorem blocks_prod0 (a : S10240x10240.Idx → EReal) (h : S10240x128.Idx → EReal) (t : Fin cfg0.N) (p : Fin 2048) (q : Fin 128)
    (r : Fin 10240) (s : Fin 8) (hr : r.val = 2048 * (t.val / 8) + p.val) (hs : s.val = t.val % 8) :
    ∑ k : Fin 1280, ablk0 a t (ix2 p k) * hblk0 h t (ix2 k q) = bprod0 a h r q s := by
  unfold bprod0
  refine Finset.sum_congr rfl fun k _ => ?_
  rw [ablk0_apply a t p k r ⟨1280 * s.val + k.val, by omega⟩ hr (by show 1280 * s.val + k.val = _; rw [hs]),
    hblk0_apply h t k q ⟨1280 * s.val + k.val, by omega⟩ (by show 1280 * s.val + k.val = _; rw [hs])]

/-- THE INVARIANT: after point 8·ib + kb the accumulator holds, at (p, q), the first kb + 1 runs of the product of row
    2048·ib + p of `a` with column `q` of `h` — by induction on kb: the reset point adds run 0 to the zero block, every
    later point adds its run to what the point before left. -/
theorem acc0_apply (a : S10240x10240.Idx → EReal) (h : S10240x128.Idx → EReal) (acc : (n : ℕ) → n < cfg0.N → Vec Ideal S2048x128 .f32)
    (hreset : ∀ t : Fin cfg0.N, t.val % 8 = 0 → acc t.val t.isLt = k0_pay2 (ablk0 a t) (hblk0 h t) (k0_pay1 (F := Ideal)))
    (hstep : ∀ t : Fin cfg0.N, t.val % 8 ≠ 0 → acc t.val t.isLt = k0_pay2 (ablk0 a t) (hblk0 h t) (acc (t.val - 1) (Nat.lt_of_le_of_lt (Nat.sub_le _ _) t.isLt)))
    (ib : ℕ) (hib : ib < 5) (p : Fin 2048) (q : Fin 128) :
    ∀ (kb : ℕ) (hkb : kb < 8) (hlt : 8 * ib + kb < cfg0.N),
      acc (8 * ib + kb) hlt (ix2 p q) = ∑ s : Fin (kb + 1), bprod0 a h ⟨2048 * ib + p.val, by omega⟩ q ⟨s.val, by omega⟩
  | 0, hkb, hlt => by
    rw [Fin.sum_univ_castSucc, Fin.sum_univ_zero]
    have e : acc (8 * ib + 0) hlt = _ := hreset ⟨8 * ib + 0, hlt⟩ (by show (8 * ib + 0) % 8 = 0; omega)
    rw [e, k0_pay2_apply, k0_pay1_apply]
    refine congrArg (0 + ·) ?_
    exact blocks_prod0 a h ⟨8 * ib + 0, hlt⟩ p q _ _ (by show 2048 * ib + p.val = 2048 * ((8 * ib + 0) / 8) + p.val; omega)
      (by show 0 = (8 * ib + 0) % 8; omega)
  | kb + 1, hkb, hlt => by
    rw [Fin.sum_univ_castSucc]
    have e : acc (8 * ib + (kb + 1)) hlt = _ := hstep ⟨8 * ib + (kb + 1), hlt⟩ (by show (8 * ib + (kb + 1)) % 8 ≠ 0; omega)
    rw [e, k0_pay2_apply]
    refine congrArg₂ (· + ·) ?_ ?_
    · exact (congrFun (acc_congr0 acc (show 8 * ib + (kb + 1) - 1 = 8 * ib + kb by omega) _ (by omega)) _).trans
        (acc0_apply a h acc hreset hstep ib hib p q kb (by omega) (by omega))
    · exact blocks_prod0 a h ⟨8 * ib + (kb + 1), hlt⟩ p q _ _
        (by show 2048 * ib + p.val = 2048 * ((8 * ib + (kb + 1)) / 8) + p.val; omega)
        (by show kb + 1 = (8 * ib + (kb + 1)) % 8; omega)

/-! ## From the blocks to the array -/

/-- What the output array ends holding: the product of the two input arrays, index by index. -/
abbrev G0 (a : S10240x10240.Idx → EReal) (h : S10240x128.Idx → EReal) : S10240x128.Idx → EReal :=
  fun i => ∑ k : Fin 10240, a (ix2 ⟨(i 0).val, idx2_lt0 i⟩ k) * h (ix2 k ⟨(i 1).val, idx2_lt1 i⟩)

/-- WHAT A STORING POINT WRITES BACK (t % 8 = 7) is block `t` of the product: the accumulator there holds all eight
    runs, and eight runs of 1280 are the whole contraction. -/
theorem flushed0_2_eq {c : Dev nD} (dat : Dat τ (Elt Ideal) Unit ℕ (UR sig nD τ) ℕ cfg0 c)
    (a : S10240x10240.Idx → EReal) (h : S10240x128.Idx → EReal) (acc : (n : ℕ) → n < cfg0.N → Vec Ideal S2048x128 .f32)
    (hreset : ∀ t : Fin cfg0.N, t.val % 8 = 0 → acc t.val t.isLt = k0_pay2 (ablk0 a t) (hblk0 h t) (k0_pay1 (F := Ideal)))
    (hstep : ∀ t : Fin cfg0.N, t.val % 8 ≠ 0 → acc t.val t.isLt = k0_pay2 (ablk0 a t) (hblk0 h t) (acc (t.val - 1) (Nat.lt_of_le_of_lt (Nat.sub_le _ _) t.isLt)))
    (hstore : ∀ t : Fin cfg0.N, t.val % 8 = 7 → dat.after 2 t = acc t.val t.isLt)
    (t : Fin cfg0.N) (ht : t.val % 8 = 7) :
    dat.flushed 2 t = ((cfg0.win 2).blk t).view.read (Elt Ideal) (G0 a h) := by
  show (cfg0.win 2).cut (grid0.coords t) (dat.after 2 t) = _
  rw [hstore t ht]
  funext j
  obtain ⟨p, q, rfl⟩ : ∃ (p : Fin 2048) (q : Fin 128), j = ix2 p q := ⟨j 0, j 1, eq_ix2 j⟩
  show acc t.val t.isLt (ix2 p q) = G0 a h (((cfg0.win 2).blk t).view.emb (ix2 p q))
  obtain ⟨-, -, -, -, e4, e5⟩ := idx_facts0 t
  have hN := lt_N_0 t
  have hemb : ((cfg0.win 2).blk t).view.emb (ix2 p q) = ix2 ⟨2048 * (t.val / 8) + p.val, by omega⟩ q := by
    funext d; apply Fin.ext
    match d with
    | ⟨0, _⟩ => show win0_2.index t (0 : Fin 2) * 2048 + 1 * p.val = 2048 * (t.val / 8) + p.val; omega
    | ⟨1, _⟩ => show win0_2.index t (1 : Fin 2) * 128 + 1 * q.val = q.val; omega
  rw [hemb, acc_congr0 acc (show t.val = 8 * (t.val / 8) + 7 by omega) t.isLt (by have := t.isLt; omega),
    acc0_apply a h acc hreset hstep (t.val / 8) (by omega) p q 7 (by omega)]
  show _ = ∑ k : Fin 10240, a (ix2 ⟨2048 * (t.val / 8) + p.val, by omega⟩ k) * h (ix2 k q)
  rw [sum_split0]
  exact Finset.sum_congr rfl fun s _ => rfl

/-- An index of the array is in point `t`'s block iff each coordinate is in the block's range on its axis. -/
theorem mem_blk0_2 (t : Fin cfg0.N) (i : S10240x128.Idx) :
    i ∈ ((cfg0.win 2).blk t).view.set ↔ ∀ d : Fin 2, win0_2.index t d * S2048x128.size d ≤ (i d).val ∧ (i d).val < win0_2.index t d * S2048x128.size d + S2048x128.size d := by
  show i ∈ ((View.whole (Pipeline.arrRef spec0 2)).slice (win0_2.rect t)).set ↔ _
  rw [View.set_slice_whole, Rect.mem_set_unit]
  exact Iff.rfl

/-- EVERY INDEX IS COVERED by a storing point: row `r` by point 8·(r / 2048) + 7. -/
theorem cover0_2 (i : S10240x128.Idx) : ∃ t : Fin cfg0.N, (cfg0.win 2).flush t = true ∧ i ∈ ((cfg0.win 2).blk t).view.set := by
  have hi0 : (i 0).val < 10240 := idx2_lt0 i
  have hi1 : (i 1).val < 128 := idx2_lt1 i
  have hN : cfg0.N = 40 := N_0
  obtain ⟨t, htv⟩ : ∃ t : Fin cfg0.N, t.val = 8 * ((i 0).val / 2048) + 7 := ⟨⟨8 * ((i 0).val / 2048) + 7, by omega⟩, rfl⟩
  refine ⟨t, (flush0_2 t).mpr (by omega), ?_⟩
  rw [mem_blk0_2]
  obtain ⟨-, -, -, -, e4, e5⟩ := idx_facts0 t
  intro d
  match d with
  | ⟨0, _⟩ => show win0_2.index t (0 : Fin 2) * 2048 ≤ (i 0).val ∧ (i 0).val < win0_2.index t (0 : Fin 2) * 2048 + 2048; omega
  | ⟨1, _⟩ => show win0_2.index t (1 : Fin 2) * 128 ≤ (i 1).val ∧ (i 1).val < win0_2.index t (1 : Fin 2) * 128 + 128; omega

/-- THE VALUE OF REGION 0: the output array after the run is the product of the two input arrays. -/
theorem agg0_value {c : Dev nD} (dat : Dat τ (Elt Ideal) Unit ℕ (UR sig nD τ) ℕ cfg0 c)
    (a : S10240x10240.Idx → EReal) (h : S10240x128.Idx → EReal) (acc : (n : ℕ) → n < cfg0.N → Vec Ideal S2048x128 .f32)
    (hreset : ∀ t : Fin cfg0.N, t.val % 8 = 0 → acc t.val t.isLt = k0_pay2 (ablk0 a t) (hblk0 h t) (k0_pay1 (F := Ideal)))
    (hstep : ∀ t : Fin cfg0.N, t.val % 8 ≠ 0 → acc t.val t.isLt = k0_pay2 (ablk0 a t) (hblk0 h t) (acc (t.val - 1) (Nat.lt_of_le_of_lt (Nat.sub_le _ _) t.isLt)))
    (hstore : ∀ t : Fin cfg0.N, t.val % 8 = 7 → dat.after 2 t = acc t.val t.isLt) :
    dat.arrAt 2 cfg0.N = fun i : S10240x128.Idx => ∑ k : Fin 10240, a (ix2 ⟨(i 0).val, idx2_lt0 i⟩ k) * h (ix2 k ⟨(i 1).val, idx2_lt1 i⟩) :=
  dat.arrAt_eq_of_cover 2 (G0 a h)
    (fun t hf => flushed0_2_eq dat a h acc hreset hstep hstore t ((flush0_2 t).mp hf)) cover0_2

end Cert.KernelIdeal.HandValue

end
-- ==== Proof.KI.LinValue1.lean ====
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

/-! # The first linear layer (custom_call 1): the value of its output array, at the ideal values

At the ideal values a float is an extended real, rounding to a narrower type is the identity, and a matrix product
into a zero accumulator is the plain sum of products. The region walks the grid's points, one block of 2048 rows
each. At point `t` the body reads rows `2048 t … 2048 t + 2047` of the aggregated features and of the layer's input,
the two weight matrices and the bias row whole, and leaves in the output block

  `max ((mean_block · wl + h_block · wr) + bias_row) 0`.

Every point writes its block back, and the blocks tile the output array, so the array ends holding, at row `r` and
column `q`, `max ((Σ_k mean r k * wl k q + Σ_k h r k * wr k q) + b 0 q) 0` — whatever it held before.

The theorem is stated over any proof data of the pipeline whose recorded contents of the output window after each
point are the body's payload of the five input blocks read off five given arrays. Three steps: the payload at an
entry of its block (`pay1_apply`), the blocks as rows of the arrays (`blk1_0_apply` …), and the tiling
(`flushed1_eq`, `cover1`, `lin1_value`). -/

noncomputable section

namespace Cert.KernelIdeal.HandValue

open Cert.KernelIdeal Cert.KernelIdeal.Gen Idealize.ShloMosaic Idealize.ShloMosaic.TcCoe
open Idealize.ShloMosaic.ValueIdx Idealize.ShloMosaic.Pipeline

/-! ## The input windows' blocks -/

/-- Window `w`'s block at point `t`, read off a given array. -/
abbrev blk1_0 (x : S10240x128.Idx → EReal) (t : Fin cfg1.N) : Vec Ideal S2048x128 .f32 := ((cfg1.win 0).blk t).view.read (Elt Ideal) x
abbrev blk1_1 (x : S10240x128.Idx → EReal) (t : Fin cfg1.N) : Vec Ideal S2048x128 .f32 := ((cfg1.win 1).blk t).view.read (Elt Ideal) x
abbrev blk1_2 (x : S128x256.Idx → EReal) (t : Fin cfg1.N) : Vec Ideal S128x256 .f32 := ((cfg1.win 2).blk t).view.read (Elt Ideal) x
abbrev blk1_3 (x : S128x256.Idx → EReal) (t : Fin cfg1.N) : Vec Ideal S128x256 .f32 := ((cfg1.win 3).blk t).view.read (Elt Ideal) x
abbrev blk1_4 (x : S1x256.Idx → EReal) (t : Fin cfg1.N) : Vec Ideal S1x256 .f32 := ((cfg1.win 4).blk t).view.read (Elt Ideal) x

/-! ## The payload at an index -/

/-! The four coordinate facts of the product's dimension numbers: the left operand is read at (output row,
    contraction index), the right operand at (contraction index, output column). -/

theorem lhs1_0 (i : S2048x256.Idx) (q : dot_S2048x128_S128x256_S2048x256_1_0_0_1_n_n.contr.Idx) :
    (dot_S2048x128_S128x256_S2048x256_1_0_0_1_n_n.lhsIdx i q 0).val = (i 0).val := by
  unfold DotDims.lhsIdx
  rw [dif_neg (show ¬(0 : Fin S2048x128.rank) ∈ dot_S2048x128_S128x256_S2048x256_1_0_0_1_n_n.lhsBatch by decide), dif_pos (show (0 : Fin S2048x128.rank) ∈ dot_S2048x128_S128x256_S2048x256_1_0_0_1_n_n.lhsNonContracting by decide)]
  rfl
theorem lhs1_1 (i : S2048x256.Idx) (q : dot_S2048x128_S128x256_S2048x256_1_0_0_1_n_n.contr.Idx) :
    (dot_S2048x128_S128x256_S2048x256_1_0_0_1_n_n.lhsIdx i q 1).val = (q ⟨0, by decide⟩).val :=
  dot_S2048x128_S128x256_S2048x256_1_0_0_1_n_n.lhsIdx_val_of_single rfl i q
theorem rhs1_0 (i : S2048x256.Idx) (q : dot_S2048x128_S128x256_S2048x256_1_0_0_1_n_n.contr.Idx) :
    (dot_S2048x128_S128x256_S2048x256_1_0_0_1_n_n.rhsIdx i q 0).val = (q ⟨0, by decide⟩).val :=
  dot_S2048x128_S128x256_S2048x256_1_0_0_1_n_n.rhsIdx_val_of_single rfl i q
theorem rhs1_1 (i : S2048x256.Idx) (q : dot_S2048x128_S128x256_S2048x256_1_0_0_1_n_n.contr.Idx) :
    (dot_S2048x128_S128x256_S2048x256_1_0_0_1_n_n.rhsIdx i q 1).val = (i 1).val := by
  unfold DotDims.rhsIdx
  rw [dif_neg (show ¬(1 : Fin S128x256.rank) ∈ dot_S2048x128_S128x256_S2048x256_1_0_0_1_n_n.rhsBatch by decide), dif_pos (show (1 : Fin S128x256.rank) ∈ dot_S2048x128_S128x256_S2048x256_1_0_0_1_n_n.rhsNonContracting by decide)]
  rfl

/-- A product of a row block by a weight matrix into a zero accumulator, at an entry: the row times the column. -/
theorem matmul1_apply (x : FVec Ideal S2048x128 .bf16) (y : FVec Ideal S128x256 .bf16) (p : Fin 2048) (q : Fin 256) :
    matmul dot_S2048x128_S128x256_S2048x256_1_0_0_1_n_n none x y (constant (F := Ideal) S2048x256 .f32 0x00000000#32) (ix2 p q)
      = ∑ k : Fin 128, x (ix2 p k) * y (ix2 k q) := by
  show FloatOps.matmul dot_S2048x128_S128x256_S2048x256_1_0_0_1_n_n none x y (constant S2048x256 .f32 0x00000000#32) (ix2 p q) = _
  rw [Ideal.matmul_constant_zero_apply, ← Equiv.sum_comp (contrEquiv1 dot_S2048x128_S128x256_S2048x256_1_0_0_1_n_n 128 rfl rfl).symm]
  refine Finset.sum_congr rfl fun k _ => ?_
  have hk := contrEquiv1_symm_val dot_S2048x128_S128x256_S2048x256_1_0_0_1_n_n 128 rfl rfl k
  have el : dot_S2048x128_S128x256_S2048x256_1_0_0_1_n_n.lhsIdx (ix2 p q) ((contrEquiv1 dot_S2048x128_S128x256_S2048x256_1_0_0_1_n_n 128 rfl rfl).symm k) = ix2 p k := funext fun a => Fin.ext (by
    match a with
    | ⟨0, _⟩ => exact lhs1_0 _ _
    | ⟨1, _⟩ => exact (lhs1_1 _ _).trans hk)
  have er : dot_S2048x128_S128x256_S2048x256_1_0_0_1_n_n.rhsIdx (ix2 p q) ((contrEquiv1 dot_S2048x128_S128x256_S2048x256_1_0_0_1_n_n 128 rfl rfl).symm k) = ix2 k q := funext fun a => Fin.ext (by
    match a with
    | ⟨0, _⟩ => exact (rhs1_0 _ _).trans hk
    | ⟨1, _⟩ => exact rhs1_1 _ _)
  rw [el, er]

/-- The body's result at an entry of its block: the two row-by-column products added, the bias of the column added, cut below at zero. -/
theorem pay1_apply (x0 x1 : Vec Ideal S2048x128 .f32) (x2 x3 : Vec Ideal S128x256 .f32) (x4 : Vec Ideal S1x256 .f32) (p : Fin 2048) (q : Fin 256) :
    k1_pay1 x0 x1 x2 x3 x4 (ix2 p q)
      = max (((∑ k : Fin 128, x0 (ix2 p k) * x2 (ix2 k q)) + (∑ k : Fin 128, x1 (ix2 p k) * x3 (ix2 k q))) + x4 (ix2 (0 : Fin 1) q)) 0 := by
  unfold k1_pay1
  simp only [shapeCast_self]
  rw [maximumf_apply, addf_apply, addf_apply, broadcast_apply, matmul1_apply, matmul1_apply, broadcastTo_1b_ab_apply]
  exact congrArg (max _) Ideal.ofBits_zero_f32

/-! ## The blocks read off the arrays -/

/-- The printed index maps over the grid: the row-block windows sit at the point's own block, the whole windows at block zero. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Row `x` of the point's block of the first operand is row `2048 t + x` of the array. -/
theorem blk1_0_apply (X : S10240x128.Idx → EReal) (t : Fin cfg1.N) (x : S2048x128.Idx) (k : S10240x128.Idx)
    (hk0 : (k 0).val = 2048 * t.val + (x 0).val) (hk1 : (k 1).val = (x 1).val) : blk1_0 X t x = X k := by
  obtain ⟨e0, e1, -⟩ := idx_facts1 t
  show X (((cfg1.win 0).blk t).view.emb x) = X k
  congr 1
  funext a
  apply Fin.ext
  match a with
  | ⟨0, _⟩ => show win1_0.index t (0 : Fin 2) * 2048 + 1 * (x 0).val = (k 0).val; omega
  | ⟨1, _⟩ => show win1_0.index t (1 : Fin 2) * 128 + 1 * (x 1).val = (k 1).val; omega

theorem blk1_1_apply (X : S10240x128.Idx → EReal) (t : Fin cfg1.N) (x : S2048x128.Idx) (k : S10240x128.Idx)
    (hk0 : (k 0).val = 2048 * t.val + (x 0).val) (hk1 : (k 1).val = (x 1).val) : blk1_1 X t x = X k := by
  obtain ⟨-, -, e0, e1, -⟩ := idx_facts1 t
  show X (((cfg1.win 1).blk t).view.emb x) = X k
  congr 1
  funext a
  apply Fin.ext
  match a with
  | ⟨0, _⟩ => show win1_1.index t (0 : Fin 2) * 2048 + 1 * (x 0).val = (k 0).val; omega
  | ⟨1, _⟩ => show win1_1.index t (1 : Fin 2) * 128 + 1 * (x 1).val = (k 1).val; omega

/-- The whole windows read the array itself. -/
theorem blk1_2_apply (X : S128x256.Idx → EReal) (t : Fin cfg1.N) (x : S128x256.Idx) : blk1_2 X t x = X x := by
  obtain ⟨-, -, -, -, e0, e1, -⟩ := idx_facts1 t
  show X (((cfg1.win 2).blk t).view.emb x) = X x
  congr 1
  funext a
  apply Fin.ext
  match a with
  | ⟨0, _⟩ => show win1_2.index t (0 : Fin 2) * 128 + 1 * (x 0).val = (x 0).val; omega
  | ⟨1, _⟩ => show win1_2.index t (1 : Fin 2) * 256 + 1 * (x 1).val = (x 1).val; omega

theorem blk1_3_apply (X : S128x256.Idx → EReal) (t : Fin cfg1.N) (x : S128x256.Idx) : blk1_3 X t x = X x := by
  obtain ⟨-, -, -, -, -, -, e0, e1, -⟩ := idx_facts1 t
  show X (((cfg1.win 3).blk t).view.emb x) = X x
  congr 1
  funext a
  apply Fin.ext
  match a with
  | ⟨0, _⟩ => show win1_3.index t (0 : Fin 2) * 128 + 1 * (x 0).val = (x 0).val; omega
  | ⟨1, _⟩ => show win1_3.index t (1 : Fin 2) * 256 + 1 * (x 1).val = (x 1).val; omega

theorem blk1_4_apply (X : S1x256.Idx → EReal) (t : Fin cfg1.N) (x : S1x256.Idx) : blk1_4 X t x = X x := by
  obtain ⟨-, -, -, -, -, -, -, -, e0, e1, -⟩ := idx_facts1 t
  show X (((cfg1.win 4).blk t).view.emb x) = X x
  congr 1
  funext a
  apply Fin.ext
  match a with
  | ⟨0, _⟩ => show win1_4.index t (0 : Fin 2) * 1 + 1 * (x 0).val = (x 0).val; omega
  | ⟨1, _⟩ => show win1_4.index t (1 : Fin 2) * 256 + 1 * (x 1).val = (x 1).val; omega

/-! ## From the blocks to the array -/

/-- The layer's output, entry by entry: row `i₀` of the aggregated features times column `i₁` of the first weight
    matrix, plus row `i₀` of the layer's input times column `i₁` of the second, plus the bias of column `i₁`, cut below at zero. -/
abbrev out1 (mean h : S10240x128.Idx → EReal) (wl wr : S128x256.Idx → EReal) (b : S1x256.Idx → EReal) : S10240x256.Idx → EReal := fun i =>
  max (((∑ k : Fin 128, mean (ix2 ⟨(i 0).val, idx2_lt0 i⟩ k) * wl (ix2 k ⟨(i 1).val, idx2_lt1 i⟩))
        + (∑ k : Fin 128, h (ix2 ⟨(i 0).val, idx2_lt0 i⟩ k) * wr (ix2 k ⟨(i 1).val, idx2_lt1 i⟩)))
       + b (ix2 ⟨0, Nat.one_pos⟩ ⟨(i 1).val, idx2_lt1 i⟩)) 0

/-- The body's result at entry `j` of the point's block is the layer's output at row `2048 t + j₀`, column `j₁`. -/
theorem pay1_at (mean h : S10240x128.Idx → EReal) (wl wr : S128x256.Idx → EReal) (b : S1x256.Idx → EReal)
    (t : Fin cfg1.N) (j : S2048x256.Idx) (i : S10240x256.Idx)
    (hi0 : (i 0).val = 2048 * t.val + (j 0).val) (hi1 : (i 1).val = (j 1).val) :
    k1_pay1 (blk1_0 mean t) (blk1_1 h t) (blk1_2 wl t) (blk1_3 wr t) (blk1_4 b t) j = out1 mean h wl wr b i := by
  obtain ⟨p, q, rfl⟩ : ∃ (p : Fin 2048) (q : Fin 256), j = ix2 p q := ⟨j 0, j 1, eq_ix2 j⟩
  rw [pay1_apply]
  have hq : q = ⟨(i 1).val, idx2_lt1 i⟩ := Fin.ext hi1.symm
  subst hq
  refine congrArg (fun z => max z 0) ?_
  refine congrArg₂ (· + ·) (congrArg₂ (· + ·) (Finset.sum_congr rfl fun k _ => ?_) (Finset.sum_congr rfl fun k _ => ?_)) ?_
  · rw [blk1_0_apply mean t (ix2 p k) (ix2 ⟨(i 0).val, idx2_lt0 i⟩ k) hi0 rfl, blk1_2_apply]
  · rw [blk1_1_apply h t (ix2 p k) (ix2 ⟨(i 0).val, idx2_lt0 i⟩ k) hi0 rfl, blk1_3_apply]
  · exact blk1_4_apply b t _

/-- An index of the output array is in point `t`'s block iff each coordinate is in the block's range on its axis. -/
theorem mem_blk1 (t : Fin cfg1.N) (i : S10240x256.Idx) :
    i ∈ ((cfg1.win 5).blk t).view.set ↔ ∀ a : Fin 2, win1_5.index t a * S2048x256.size a ≤ (i a).val ∧ (i a).val < win1_5.index t a * S2048x256.size a + S2048x256.size a := by
  show i ∈ ((View.whole (Pipeline.arrRef spec1 5)).slice (win1_5.rect t)).set ↔ _
  rw [View.set_slice_whole, Rect.mem_set_unit]
  exact Iff.rfl

/-- Every row of the output array lies in the block of the point `row / 2048`, and every point writes its block back. -/
theorem cover1 (i : S10240x256.Idx) : ∃ t : Fin cfg1.N, (cfg1.win 5).flush t = true ∧ i ∈ ((cfg1.win 5).blk t).view.set := by
  have hi0 : (i 0).val < 10240 := (i 0).isLt
  have hi1 : (i 1).val < 256 := (i 1).isLt
  have hN : cfg1.N = 5 := N_1
  obtain ⟨t, ht⟩ : ∃ t : Fin cfg1.N, t.val = (i 0).val / 2048 := ⟨⟨(i 0).val / 2048, by rw [hN]; omega⟩, rfl⟩
  obtain ⟨-, -, -, -, -, -, -, -, -, -, e0, e1⟩ := idx_facts1 t
  refine ⟨t, flush1_5 t, ?_⟩
  rw [mem_blk1]
  intro a
  match a with
  | ⟨0, _⟩ => show win1_5.index t (0 : Fin 2) * 2048 ≤ (i 0).val ∧ (i 0).val < win1_5.index t (0 : Fin 2) * 2048 + 2048; omega
  | ⟨1, _⟩ => show win1_5.index t (1 : Fin 2) * 256 ≤ (i 1).val ∧ (i 1).val < win1_5.index t (1 : Fin 2) * 256 + 256; omega

section
variable {c : Dev nD} (dat : Dat τ (Elt Ideal) Unit ℕ (UR sig nD τ) ℕ cfg1 c)
    (mean h : S10240x128.Idx → EReal) (wl wr : S128x256.Idx → EReal) (b : S1x256.Idx → EReal)
    (hafter : ∀ t : Fin cfg1.N, dat.after 5 t = k1_pay1 (blk1_0 mean t) (blk1_1 h t) (blk1_2 wl t) (blk1_3 wr t) (blk1_4 b t))
include hafter

/-- What point `t` writes back is block `t` of the layer's output. -/
theorem flushed1_eq (t : Fin cfg1.N) :
    dat.flushed 5 t = ((cfg1.win 5).blk t).view.read (Elt Ideal) (out1 mean h wl wr b) := by
  show (cfg1.win 5).cut (grid1.coords t) (dat.after 5 t) = _
  rw [hafter]
  obtain ⟨-, -, -, -, -, -, -, -, -, -, e0, e1⟩ := idx_facts1 t
  funext j
  refine pay1_at mean h wl wr b t _ _ ?_ ?_
  · show win1_5.index t (0 : Fin 2) * 2048 + 1 * (j 0).val = 2048 * t.val + (j 0).val; omega
  · show win1_5.index t (1 : Fin 2) * 256 + 1 * (j 1).val = (j 1).val; omega

/-- THE LAYER'S OUTPUT ARRAY after the region: every entry is the layer's output there. -/
theorem lin1_value :
    dat.arrAt 5 cfg1.N = fun i : S10240x256.Idx =>
      max (((∑ k : Fin 128, mean (ix2 ⟨(i 0).val, idx2_lt0 i⟩ k) * wl (ix2 k ⟨(i 1).val, idx2_lt1 i⟩))
            + (∑ k : Fin 128, h (ix2 ⟨(i 0).val, idx2_lt0 i⟩ k) * wr (ix2 k ⟨(i 1).val, idx2_lt1 i⟩)))
           + b (ix2 ⟨0, Nat.one_pos⟩ ⟨(i 1).val, idx2_lt1 i⟩)) 0 :=
  dat.arrAt_eq_of_cover 5 (out1 mean h wl wr b) (fun t _ => flushed1_eq dat mean h wl wr b hafter t) cover1

end

end Cert.KernelIdeal.HandValue

end
-- ==== Proof.KI.Layer1.lean ====
/- Layer 1 of the kernel program as plain formulas, at the ideal values (a float is an extended real).
   Region 0 leaves in its output array the product of the normalised adjacency with the padded features, entry by
   entry one sum over the 10240 columns; region 1 leaves in its output array, entry by entry,
     max ((Σ_k mean r k * wl k q + Σ_k h r k * wr k q) + bias q) 0
   with `mean` region 0's output, `h` the padded features, `wl`, `wr` the two weight arguments and `bias` the bias
   argument. Each is the region's value theorem, instantiated at the region's proof data at the contents it is entered
   with, and the arrays it reads traced back to where they were written. -/
import proofs.«427327_j68599217652368_1_alg».proof.Proof.KI.Stages
import proofs.«427327_j68599217652368_1_alg».proof.Proof.KI.AggValue0
import proofs.«427327_j68599217652368_1_alg».proof.Proof.KI.LinValue1
import proofs.«427327_j68599217652368_1_alg».proof.Proof.KI.Transport
import proofs.«427327_j68599217652368_1_alg».proof.Proof.KI.AsE

-- a region's block read off a named buffer is the block read off the window's array: the check walks the window table
set_option maxRecDepth 16384

noncomputable section

namespace Cert.KernelIdeal.HandValue

open Cert.KernelIdeal Cert.KernelIdeal.Gen Cert.KernelIdeal.Hand Idealize.ShloMosaic Idealize.ShloMosaic.TcCoe
open Idealize.ShloMosaic.ValueIdx Idealize.ShloMosaic.Pipeline
open scoped BigOperators

variable (m : (ℓ : Loc nD τ sig) → Buf (Elt Ideal) ℓ) (c : Dev nD)

/-! ## Region 0: the aggregation -/

/-- Region 0's output array, whole: the product of the adjacency with the padded features, both as the first host
    stretch left them. -/
theorem m1_eq :
    asE S10240x128 (outs m 2 main_v35 c) = fun i : S10240x128.Idx =>
      ∑ k : Fin 10240, asE S10240x10240 (V1 m c main_v31) (ix2 ⟨(i 0).val, idx2_lt0 i⟩ k)
        * asE S10240x128 (V1 m c main_v34) (ix2 k ⟨(i 1).val, idx2_lt1 i⟩) :=
  (outs2 m c).trans
    (agg0_value (dat0 (atTc (X1 m)) c) (V1 m c main_v31) (V1 m c main_v34) (acc0 (atTc (X1 m)) c)
      (fun t h => acc0_reset (atTc (X1 m)) c t h)
      (fun t h => acc0_step (atTc (X1 m)) c t h)
      (fun t h => after0_2_store (atTc (X1 m)) c t h))

/-- Region 0's output array at an index: row `i₀` of the adjacency times column `i₁` of the padded features. -/
theorem m1_apply (i : S10240x128.Idx) :
    (outs m 2 main_v35 c : S10240x128.Idx → EReal) i
      = ∑ k : Fin 10240, asE S10240x10240 (V1 m c main_v31) (ix2 ⟨(i 0).val, idx2_lt0 i⟩ k)
          * asE S10240x128 (V1 m c main_v34) (ix2 k ⟨(i 1).val, idx2_lt1 i⟩) :=
  congrFun (m1_eq m c) i

/-- The same at a row and a column. -/
theorem m1_at (r : Fin 10240) (f : Fin 128) :
    asE S10240x128 (outs m 2 main_v35 c) (ix2 r f)
      = ∑ k : Fin 10240, asE S10240x10240 (V1 m c main_v31) (ix2 r k) * asE S10240x128 (V1 m c main_v34) (ix2 k f) :=
  m1_apply m c (ix2 r f)

/-! ## Region 1: the first linear layer -/

/-- Region 1's output array, whole, over the arrays the region is entered with. -/
theorem h1_eq_entered :
    asE S10240x256 (outs m 4 main_v37 c) = fun i : S10240x256.Idx =>
      max (((∑ k : Fin 128, asE S10240x128 (X3 m c main_v35) (ix2 ⟨(i 0).val, idx2_lt0 i⟩ k)
                * asE S128x256 (X3 m c main_arg2) (ix2 k ⟨(i 1).val, idx2_lt1 i⟩))
            + (∑ k : Fin 128, asE S10240x128 (X3 m c main_v34) (ix2 ⟨(i 0).val, idx2_lt0 i⟩ k)
                * asE S128x256 (X3 m c main_arg3) (ix2 k ⟨(i 1).val, idx2_lt1 i⟩)))
           + asE S1x256 (X3 m c main_v36) (ix2 ⟨0, Nat.one_pos⟩ ⟨(i 1).val, idx2_lt1 i⟩)) 0 :=
  (outs4 m c).trans
    (lin1_value (dat1 (atTc (X3 m)) c) (X3 m c main_v35) (X3 m c main_v34) (X3 m c main_arg2) (X3 m c main_arg3)
      (X3 m c main_v36) (fun t => after1_5 (atTc (X3 m)) c t))

/-- Region 1's output array at an index, over the program's own arrays: region 0's output and the padded features
    against the two weight arguments, plus the bias argument's entry, cut below at zero. -/
theorem h1_apply (i : S10240x256.Idx) :
    (outs m 4 main_v37 c : S10240x256.Idx → EReal) i
      = max (((∑ k : Fin 128, asE S10240x128 (outs m 2 main_v35 c) (ix2 ⟨(i 0).val, idx2_lt0 i⟩ k)
                * asE S128x256 (m ((c : Thread nD τ).loc main_arg2)) (ix2 k ⟨(i 1).val, idx2_lt1 i⟩))
            + (∑ k : Fin 128, asE S10240x128 (V1 m c main_v34) (ix2 ⟨(i 0).val, idx2_lt0 i⟩ k)
                * asE S128x256 (m ((c : Thread nD τ).loc main_arg3)) (ix2 k ⟨(i 1).val, idx2_lt1 i⟩)))
           + asE S256 (m ((c : Thread nD τ).loc main_arg4)) (ix1 ⟨(i 1).val, idx2_lt1 i⟩)) 0 := by
  -- what region 1 is entered with, traced back
  have e35 : asE S10240x128 (X3 m c main_v35) = asE S10240x128 (outs m 2 main_v35 c) := in3_v35 m (outs m) c
  have e34 : asE S10240x128 (X3 m c main_v34) = asE S10240x128 (V1 m c main_v34) := in3_v34 m (outs m) c
  have e2 : asE S128x256 (X3 m c main_arg2) = asE S128x256 (m ((c : Thread nD τ).loc main_arg2)) := in3_arg2 m (outs m) c
  have e3 : asE S128x256 (X3 m c main_arg3) = asE S128x256 (m ((c : Thread nD τ).loc main_arg3)) := in3_arg3 m (outs m) c
  have eb : asE S1x256 (X3 m c main_v36) (ix2 ⟨0, Nat.one_pos⟩ ⟨(i 1).val, idx2_lt1 i⟩)
      = asE S256 (m ((c : Thread nD τ).loc main_arg4)) (ix1 ⟨(i 1).val, idx2_lt1 i⟩) :=
    bias3 m (outs m) c ⟨(i 1).val, idx2_lt1 i⟩
  refine (congrFun (h1_eq_entered m c) i).trans ?_
  refine congrArg (fun x : EReal => max x 0) ?_
  refine congrArg₂ (· + ·) (congrArg₂ (· + ·) ?_ ?_) eb
  · exact Finset.sum_congr rfl fun k _ => congrArg₂ (· * ·) (congrFun e35 _) (congrFun e2 _)
  · exact Finset.sum_congr rfl fun k _ => congrArg₂ (· * ·) (congrFun e34 _) (congrFun e3 _)

/-- The same at a row and a column. -/
theorem h1_at (r : Fin 10240) (g : Fin 256) :
    asE S10240x256 (outs m 4 main_v37 c) (ix2 r g)
      = max (((∑ k : Fin 128, asE S10240x128 (outs m 2 main_v35 c) (ix2 r k) * asE S128x256 (m ((c : Thread nD τ).loc main_arg2)) (ix2 k g))
            + (∑ k : Fin 128, asE S10240x128 (V1 m c main_v34) (ix2 r k) * asE S128x256 (m ((c : Thread nD τ).loc main_arg3)) (ix2 k g)))
           + asE S256 (m ((c : Thread nD τ).loc main_arg4)) (ix1 g)) 0 :=
  h1_apply m c (ix2 r g)

end Cert.KernelIdeal.HandValue

end
-- ==== Proof.KI.AggValue2.lean ====
/- The value of region 0 (custom_call 0, the aggregation kernel, pipeline `cfg2`, grid 5 × 8, point t = 8·ib + kb) at
   the ideal values, where a float is an extended real, a change of float format is the identity and a matmul into the
   zero accumulator is the plain sum of products. The region multiplies the array behind window 0 ([10240, 10240],
   block [2048, 1280] at block index (ib, kb)) by the array behind window 1 ([10240, 256], block [1280, 256] at
   (kb, 0)) into the array behind window 2 ([10240, 256], block [2048, 256] at (ib, 0), written back at kb = 7 only).
   The body keeps an accumulator: reset to the zero block at kb = 0 and increased at every point by the product of the
   two blocks there, so that after point 8·ib + kb it holds ((0 + P₀) + P₁) + … + P_kb, P_k the 1280-deep block
   product; at kb = 7 that is the whole row block of the product, one sum over the 10240 columns re-associated into
   eight runs of 1280 (addition of extended reals is associative and commutative: no finiteness is asked).
   The theorem is stated over ABSTRACT proof data: any `dat` and any point-indexed accumulator `acc` that resets,
   steps and is stored as the hypotheses say. -/
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.TcCoe Idealize.ShloMosaic.ValueIdx
open Idealize.ShloMosaic.Pipeline
open scoped BigOperators

/-- Window 0's block at point `t`, read off an array `a`. -/
abbrev ablk2 (a : S10240x10240.Idx → EReal) (t : Fin cfg2.N) : Vec Ideal S2048x1280 .bf16 :=
  ((cfg2.win 0).blk t).view.read (Elt Ideal) a
/-- Window 1's block at point `t`, read off an array `h`. -/
abbrev hblk2 (h : S10240x256.Idx → EReal) (t : Fin cfg2.N) : Vec Ideal S1280x256 .f32 :=
  ((cfg2.win 1).blk t).view.read (Elt Ideal) h

/-! ## The payloads at an index -/

/-- The matmul's left operand index at output index `i` and contraction index `q`: its row is the output's row … -/
theorem lhs_k2_0 (i : S2048x256.Idx) (q : dot_S2048x1280_S1280x256_S2048x256_1_0_0_1_n_n.contr.Idx) :
    (dot_S2048x1280_S1280x256_S2048x256_1_0_0_1_n_n.lhsIdx i q 0).val = (i 0).val := by
  unfold DotDims.lhsIdx
  rw [dif_neg (show ¬(0 : Fin S2048x1280.rank) ∈ dot_S2048x1280_S1280x256_S2048x256_1_0_0_1_n_n.lhsBatch by decide), dif_pos (show (0 : Fin S2048x1280.rank) ∈ dot_S2048x1280_S1280x256_S2048x256_1_0_0_1_n_n.lhsNonContracting by decide)]
  rfl
/-- … and its column the contraction coordinate. -/
theorem lhs_k2_1 (i : S2048x256.Idx) (q : dot_S2048x1280_S1280x256_S2048x256_1_0_0_1_n_n.contr.Idx) :
    (dot_S2048x1280_S1280x256_S2048x256_1_0_0_1_n_n.lhsIdx i q 1).val = (q ⟨0, by decide⟩).val :=
  dot_S2048x1280_S1280x256_S2048x256_1_0_0_1_n_n.lhsIdx_val_of_single rfl i q
/-- The right operand's row is the contraction coordinate … -/
theorem rhs_k2_0 (i : S2048x256.Idx) (q : dot_S2048x1280_S1280x256_S2048x256_1_0_0_1_n_n.contr.Idx) :
    (dot_S2048x1280_S1280x256_S2048x256_1_0_0_1_n_n.rhsIdx i q 0).val = (q ⟨0, by decide⟩).val :=
  dot_S2048x1280_S1280x256_S2048x256_1_0_0_1_n_n.rhsIdx_val_of_single rfl i q
/-- … and its column the output's column. -/
theorem rhs_k2_1 (i : S2048x256.Idx) (q : dot_S2048x1280_S1280x256_S2048x256_1_0_0_1_n_n.contr.Idx) :
    (dot_S2048x1280_S1280x256_S2048x256_1_0_0_1_n_n.rhsIdx i q 1).val = (i 1).val := by
  unfold DotDims.rhsIdx
  rw [dif_neg (show ¬(1 : Fin S1280x256.rank) ∈ dot_S2048x1280_S1280x256_S2048x256_1_0_0_1_n_n.rhsBatch by decide), dif_pos (show (1 : Fin S1280x256.rank) ∈ dot_S2048x1280_S1280x256_S2048x256_1_0_0_1_n_n.rhsNonContracting by decide)]
  rfl

/-- The block product into the zero accumulator, at an index: the sum over the 1280 contraction coordinates. -/
theorem matmul_k2_apply (x0 : FVec Ideal S2048x1280 .bf16) (x1 : FVec Ideal S1280x256 .bf16) (p : Fin 2048) (q : Fin 256) :
    matmul dot_S2048x1280_S1280x256_S2048x256_1_0_0_1_n_n none x0 x1 (constant (F := Ideal) S2048x256 .f32 0x00000000#32) (ix2 p q)
      = ∑ k : Fin 1280, x0 (ix2 p k) * x1 (ix2 k q) := by
  simp only [matmul]
  rw [Ideal.matmul_constant_zero_apply, ← Equiv.sum_comp (contrEquiv1 dot_S2048x1280_S1280x256_S2048x256_1_0_0_1_n_n 1280 rfl rfl).symm]
  refine Finset.sum_congr rfl fun k _ => ?_
  have hk := contrEquiv1_symm_val dot_S2048x1280_S1280x256_S2048x256_1_0_0_1_n_n 1280 rfl rfl k
  have el : dot_S2048x1280_S1280x256_S2048x256_1_0_0_1_n_n.lhsIdx (ix2 p q) ((contrEquiv1 dot_S2048x1280_S1280x256_S2048x256_1_0_0_1_n_n 1280 rfl rfl).symm k) = ix2 p k := funext fun a => Fin.ext (by
    match a with
    | ⟨0, _⟩ => exact lhs_k2_0 _ _
    | ⟨1, _⟩ => exact (lhs_k2_1 _ _).trans hk)
  have er : dot_S2048x1280_S1280x256_S2048x256_1_0_0_1_n_n.rhsIdx (ix2 p q) ((contrEquiv1 dot_S2048x1280_S1280x256_S2048x256_1_0_0_1_n_n 1280 rfl rfl).symm k) = ix2 k q := funext fun a => Fin.ext (by
    match a with
    | ⟨0, _⟩ => exact (rhs_k2_0 _ _).trans hk
    | ⟨1, _⟩ => exact rhs_k2_1 _ _)
  rw [el, er]

/-- The reset payload is the zero block. -/
theorem k2_pay1_apply (p : Fin 2048) (q : Fin 256) : k2_pay1 (F := Ideal) (ix2 p q) = 0 := by
  unfold k2_pay1
  rw [shapeCast_self]
  exact Ideal.ofBits_zero_f32

/-- The accumulating payload at an index: what the accumulator held there plus the 1280-deep block product. -/
theorem k2_pay2_apply (x0 : Vec Ideal S2048x1280 .bf16) (x1 : Vec Ideal S1280x256 .f32) (x2 : Vec Ideal S2048x256 .f32) (p : Fin 2048) (q : Fin 256) :
    k2_pay2 x0 x1 x2 (ix2 p q) = x2 (ix2 p q) + ∑ k : Fin 1280, x0 (ix2 p k) * x1 (ix2 k q) := by
  unfold k2_pay2
  rw [shapeCast_self, shapeCast_self, shapeCast_self, addf_apply, matmul_k2_apply]
  rfl

/-! ## The windows' blocks at an index -/

/-- The grid has 40 points: a point's number is below 40. -/
theorem lt_N_2 (t : Fin cfg2.N) : t.val < 40 := lt_of_lt_of_eq t.isLt N_2

/-- The printed index maps, decided once over the grid's 40 points: at point `t = 8·ib + kb` window 0 is at block
    (ib, kb), window 1 at (kb, 0) and window 2 at (ib, 0). -/
theorem idx_facts2 : ∀ t : Fin cfg2.N, win2_0.index t (0 : Fin 2) = t.val / 8 ∧ win2_0.index t (1 : Fin 2) = t.val % 8
    ∧ win2_1.index t (0 : Fin 2) = t.val % 8 ∧ win2_1.index t (1 : Fin 2) = 0
    ∧ win2_2.index t (0 : Fin 2) = t.val / 8 ∧ win2_2.index t (1 : Fin 2) = 0 :=
  (by decide +kernel : ∀ t : Fin grid2.N, _)

/-- Window 0's block at point `t` reads the array at row 2048·(t / 8) + p and column 1280·(t % 8) + k: a block's
    coordinate is the block index times the block's size plus the coordinate inside the block. -/
theorem ablk2_apply (a : S10240x10240.Idx → EReal) (t : Fin cfg2.N) (p : Fin 2048) (k : Fin 1280) (r c : Fin 10240)
    (hr : r.val = 2048 * (t.val / 8) + p.val) (hc : c.val = 1280 * (t.val % 8) + k.val) :
    ablk2 a t (ix2 p k) = a (ix2 r c) := by
  obtain ⟨e0, e1, -, -, -, -⟩ := idx_facts2 t
  show a (((cfg2.win 0).blk t).view.emb (ix2 p k)) = a (ix2 r c)
  refine congrArg a (funext fun d => Fin.ext ?_)
  match d with
  | ⟨0, _⟩ => show win2_0.index t (0 : Fin 2) * 2048 + 1 * p.val = r.val; omega
  | ⟨1, _⟩ => show win2_0.index t (1 : Fin 2) * 1280 + 1 * k.val = c.val; omega

/-- Window 1's block at point `t` reads the array at row 1280·(t % 8) + k and the block's own column. -/
theorem hblk2_apply (h : S10240x256.Idx → EReal) (t : Fin cfg2.N) (k : Fin 1280) (q : Fin 256) (r : Fin 10240)
    (hr : r.val = 1280 * (t.val % 8) + k.val) :
    hblk2 h t (ix2 k q) = h (ix2 r q) := by
  obtain ⟨-, -, e2, e3, -, -⟩ := idx_facts2 t
  show h (((cfg2.win 1).blk t).view.emb (ix2 k q)) = h (ix2 r q)
  refine congrArg h (funext fun d => Fin.ext ?_)
  match d with
  | ⟨0, _⟩ => show win2_1.index t (0 : Fin 2) * 1280 + 1 * k.val = r.val; omega
  | ⟨1, _⟩ => show win2_1.index t (1 : Fin 2) * 256 + 1 * q.val = q.val; omega

/-! ## The whole contraction, in eight runs of 1280 -/

/-- A sum over the 10240 contraction coordinates is the sum over the eight blocks of the sums inside each. -/
theorem sum_split2 {M : Type*} [AddCommMonoid M] (f : Fin 10240 → M) :
    ∑ k : Fin 10240, f k = ∑ s : Fin 8, ∑ k : Fin 1280, f ⟨1280 * s.val + k.val, by omega⟩ := by
  rw [← Equiv.sum_comp (finProdFinEquiv : Fin 8 × Fin 1280 ≃ Fin 10240) f, Fintype.sum_prod_type]
  refine Finset.sum_congr rfl fun s _ => Finset.sum_congr rfl fun k _ => congrArg f (Fin.ext ?_)
  show k.val + 1280 * s.val = 1280 * s.val + k.val
  omega

/-! ## The accumulator after each point -/

/-- The product of run `s` of row `r` of `a` with run `s` of column `q` of `h`: 1280 terms. -/
def bprod2 (a : S10240x10240.Idx → EReal) (h : S10240x256.Idx → EReal) (r : Fin 10240) (q : Fin 256) (s : Fin 8) : EReal :=
  ∑ k : Fin 1280, a (ix2 r ⟨1280 * s.val + k.val, by omega⟩) * h (ix2 ⟨1280 * s.val + k.val, by omega⟩ q)

/-- The accumulator depends on the point's number alone, not on the proof that it is a point. -/
theorem acc_congr2 (acc : (n : ℕ) → n < cfg2.N → Vec Ideal S2048x256 .f32) {n m : ℕ} (e : n = m) (hn : n < cfg2.N)
    (hm : m < cfg2.N) : acc n hn = acc m hm := by
  subst e; rfl

/-- The product of the two blocks at point `t`, at (p, q), is run `t % 8` of the product of row 2048·(t / 8) + p of `a`
    with column `q` of `h`. -/
theorem blocks_prod2 (a : S10240x10240.Idx → EReal) (h : S10240x256.Idx → EReal) (t : Fin cfg2.N) (p : Fin 2048) (q : Fin 256)
    (r : Fin 10240) (s : Fin 8) (hr : r.val = 2048 * (t.val / 8) + p.val) (hs : s.val = t.val % 8) :
    ∑ k : Fin 1280, ablk2 a t (ix2 p k) * hblk2 h t (ix2 k q) = bprod2 a h r q s := by
  unfold bprod2
  refine Finset.sum_congr rfl fun k _ => ?_
  rw [ablk2_apply a t p k r ⟨1280 * s.val + k.val, by omega⟩ hr (by show 1280 * s.val + k.val = _; rw [hs]),
    hblk2_apply h t k q ⟨1280 * s.val + k.val, by omega⟩ (by show 1280 * s.val + k.val = _; rw [hs])]

/-- THE INVARIANT: after point 8·ib + kb the accumulator holds, at (p, q), the first kb + 1 runs of the product of row
    2048·ib + p of `a` with column `q` of `h` — by induction on kb: the reset point adds run 0 to the zero block, every
    later point adds its run to what the point before left. -/
theorem acc2_apply (a : S10240x10240.Idx → EReal) (h : S10240x256.Idx → EReal) (acc : (n : ℕ) → n < cfg2.N → Vec Ideal S2048x256 .f32)
    (hreset : ∀ t : Fin cfg2.N, t.val % 8 = 0 → acc t.val t.isLt = k2_pay2 (ablk2 a t) (hblk2 h t) (k2_pay1 (F := Ideal)))
    (hstep : ∀ t : Fin cfg2.N, t.val % 8 ≠ 0 → acc t.val t.isLt = k2_pay2 (ablk2 a t) (hblk2 h t) (acc (t.val - 1) (Nat.lt_of_le_of_lt (Nat.sub_le _ _) t.isLt)))
    (ib : ℕ) (hib : ib < 5) (p : Fin 2048) (q : Fin 256) :
    ∀ (kb : ℕ) (hkb : kb < 8) (hlt : 8 * ib + kb < cfg2.N),
      acc (8 * ib + kb) hlt (ix2 p q) = ∑ s : Fin (kb + 1), bprod2 a h ⟨2048 * ib + p.val, by omega⟩ q ⟨s.val, by omega⟩
  | 0, hkb, hlt => by
    rw [Fin.sum_univ_castSucc, Fin.sum_univ_zero]
    have e : acc (8 * ib + 0) hlt = _ := hreset ⟨8 * ib + 0, hlt⟩ (by show (8 * ib + 0) % 8 = 0; omega)
    rw [e, k2_pay2_apply, k2_pay1_apply]
    refine congrArg (0 + ·) ?_
    exact blocks_prod2 a h ⟨8 * ib + 0, hlt⟩ p q _ _ (by show 2048 * ib + p.val = 2048 * ((8 * ib + 0) / 8) + p.val; omega)
      (by show 0 = (8 * ib + 0) % 8; omega)
  | kb + 1, hkb, hlt => by
    rw [Fin.sum_univ_castSucc]
    have e : acc (8 * ib + (kb + 1)) hlt = _ := hstep ⟨8 * ib + (kb + 1), hlt⟩ (by show (8 * ib + (kb + 1)) % 8 ≠ 0; omega)
    rw [e, k2_pay2_apply]
    refine congrArg₂ (· + ·) ?_ ?_
    · exact (congrFun (acc_congr2 acc (show 8 * ib + (kb + 1) - 1 = 8 * ib + kb by omega) _ (by omega)) _).trans
        (acc2_apply a h acc hreset hstep ib hib p q kb (by omega) (by omega))
    · exact blocks_prod2 a h ⟨8 * ib + (kb + 1), hlt⟩ p q _ _
        (by show 2048 * ib + p.val = 2048 * ((8 * ib + (kb + 1)) / 8) + p.val; omega)
        (by show kb + 1 = (8 * ib + (kb + 1)) % 8; omega)

/-! ## From the blocks to the array -/

/-- What the output array ends holding: the product of the two input arrays, index by index. -/
abbrev G2 (a : S10240x10240.Idx → EReal) (h : S10240x256.Idx → EReal) : S10240x256.Idx → EReal :=
  fun i => ∑ k : Fin 10240, a (ix2 ⟨(i 0).val, idx2_lt0 i⟩ k) * h (ix2 k ⟨(i 1).val, idx2_lt1 i⟩)

/-- WHAT A STORING POINT WRITES BACK (t % 8 = 7) is block `t` of the product: the accumulator there holds all eight
    runs, and eight runs of 1280 are the whole contraction. -/
theorem flushed2_2_eq {c : Dev nD} (dat : Dat τ (Elt Ideal) Unit ℕ (UR sig nD τ) ℕ cfg2 c)
    (a : S10240x10240.Idx → EReal) (h : S10240x256.Idx → EReal) (acc : (n : ℕ) → n < cfg2.N → Vec Ideal S2048x256 .f32)
    (hreset : ∀ t : Fin cfg2.N, t.val % 8 = 0 → acc t.val t.isLt = k2_pay2 (ablk2 a t) (hblk2 h t) (k2_pay1 (F := Ideal)))
    (hstep : ∀ t : Fin cfg2.N, t.val % 8 ≠ 0 → acc t.val t.isLt = k2_pay2 (ablk2 a t) (hblk2 h t) (acc (t.val - 1) (Nat.lt_of_le_of_lt (Nat.sub_le _ _) t.isLt)))
    (hstore : ∀ t : Fin cfg2.N, t.val % 8 = 7 → dat.after 2 t = acc t.val t.isLt)
    (t : Fin cfg2.N) (ht : t.val % 8 = 7) :
    dat.flushed 2 t = ((cfg2.win 2).blk t).view.read (Elt Ideal) (G2 a h) := by
  show (cfg2.win 2).cut (grid2.coords t) (dat.after 2 t) = _
  rw [hstore t ht]
  funext j
  obtain ⟨p, q, rfl⟩ : ∃ (p : Fin 2048) (q : Fin 256), j = ix2 p q := ⟨j 0, j 1, eq_ix2 j⟩
  show acc t.val t.isLt (ix2 p q) = G2 a h (((cfg2.win 2).blk t).view.emb (ix2 p q))
  obtain ⟨-, -, -, -, e4, e5⟩ := idx_facts2 t
  have hN := lt_N_2 t
  have hemb : ((cfg2.win 2).blk t).view.emb (ix2 p q) = ix2 ⟨2048 * (t.val / 8) + p.val, by omega⟩ q := by
    funext d; apply Fin.ext
    match d with
    | ⟨0, _⟩ => show win2_2.index t (0 : Fin 2) * 2048 + 1 * p.val = 2048 * (t.val / 8) + p.val; omega
    | ⟨1, _⟩ => show win2_2.index t (1 : Fin 2) * 256 + 1 * q.val = q.val; omega
  rw [hemb, acc_congr2 acc (show t.val = 8 * (t.val / 8) + 7 by omega) t.isLt (by have := t.isLt; omega),
    acc2_apply a h acc hreset hstep (t.val / 8) (by omega) p q 7 (by omega)]
  show _ = ∑ k : Fin 10240, a (ix2 ⟨2048 * (t.val / 8) + p.val, by omega⟩ k) * h (ix2 k q)
  rw [sum_split2]
  exact Finset.sum_congr rfl fun s _ => rfl

/-- An index of the array is in point `t`'s block iff each coordinate is in the block's range on its axis. -/
theorem mem_blk2_2 (t : Fin cfg2.N) (i : S10240x256.Idx) :
    i ∈ ((cfg2.win 2).blk t).view.set ↔ ∀ d : Fin 2, win2_2.index t d * S2048x256.size d ≤ (i d).val ∧ (i d).val < win2_2.index t d * S2048x256.size d + S2048x256.size d := by
  show i ∈ ((View.whole (Pipeline.arrRef spec2 2)).slice (win2_2.rect t)).set ↔ _
  rw [View.set_slice_whole, Rect.mem_set_unit]
  exact Iff.rfl

/-- EVERY INDEX IS COVERED by a storing point: row `r` by point 8·(r / 2048) + 7. -/
theorem cover2_2 (i : S10240x256.Idx) : ∃ t : Fin cfg2.N, (cfg2.win 2).flush t = true ∧ i ∈ ((cfg2.win 2).blk t).view.set := by
  have hi0 : (i 0).val < 10240 := idx2_lt0 i
  have hi1 : (i 1).val < 256 := idx2_lt1 i
  have hN : cfg2.N = 40 := N_2
  obtain ⟨t, htv⟩ : ∃ t : Fin cfg2.N, t.val = 8 * ((i 0).val / 2048) + 7 := ⟨⟨8 * ((i 0).val / 2048) + 7, by omega⟩, rfl⟩
  refine ⟨t, (flush2_2 t).mpr (by omega), ?_⟩
  rw [mem_blk2_2]
  obtain ⟨-, -, -, -, e4, e5⟩ := idx_facts2 t
  intro d
  match d with
  | ⟨0, _⟩ => show win2_2.index t (0 : Fin 2) * 2048 ≤ (i 0).val ∧ (i 0).val < win2_2.index t (0 : Fin 2) * 2048 + 2048; omega
  | ⟨1, _⟩ => show win2_2.index t (1 : Fin 2) * 256 ≤ (i 1).val ∧ (i 1).val < win2_2.index t (1 : Fin 2) * 256 + 256; omega

/-- THE VALUE OF REGION 0: the output array after the run is the product of the two input arrays. -/
theorem agg2_value {c : Dev nD} (dat : Dat τ (Elt Ideal) Unit ℕ (UR sig nD τ) ℕ cfg2 c)
    (a : S10240x10240.Idx → EReal) (h : S10240x256.Idx → EReal) (acc : (n : ℕ) → n < cfg2.N → Vec Ideal S2048x256 .f32)
    (hreset : ∀ t : Fin cfg2.N, t.val % 8 = 0 → acc t.val t.isLt = k2_pay2 (ablk2 a t) (hblk2 h t) (k2_pay1 (F := Ideal)))
    (hstep : ∀ t : Fin cfg2.N, t.val % 8 ≠ 0 → acc t.val t.isLt = k2_pay2 (ablk2 a t) (hblk2 h t) (acc (t.val - 1) (Nat.lt_of_le_of_lt (Nat.sub_le _ _) t.isLt)))
    (hstore : ∀ t : Fin cfg2.N, t.val % 8 = 7 → dat.after 2 t = acc t.val t.isLt) :
    dat.arrAt 2 cfg2.N = fun i : S10240x256.Idx => ∑ k : Fin 10240, a (ix2 ⟨(i 0).val, idx2_lt0 i⟩ k) * h (ix2 k ⟨(i 1).val, idx2_lt1 i⟩) :=
  dat.arrAt_eq_of_cover 2 (G2 a h)
    (fun t hf => flushed2_2_eq dat a h acc hreset hstep hstore t ((flush2_2 t).mp hf)) cover2_2

end Cert.KernelIdeal.HandValue

end
-- ==== Proof.KI.LinValue3.lean ====
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

/-! # The first linear layer (custom_call 1): the value of its output array, at the ideal values

At the ideal values a float is an extended real, rounding to a narrower type is the identity, and a matrix product
into a zero accumulator is the plain sum of products. The region walks the grid's points, one block of 2048 rows
each. At point `t` the body reads rows `2048 t … 2048 t + 2047` of the aggregated features and of the layer's input,
the two weight matrices and the bias row whole, and leaves in the output block

  `max ((mean_block · wl + h_block · wr) + bias_row) 0`.

Every point writes its block back, and the blocks tile the output array, so the array ends holding, at row `r` and
column `q`, `max ((Σ_k mean r k * wl k q + Σ_k h r k * wr k q) + b 0 q) 0` — whatever it held before.

The theorem is stated over any proof data of the pipeline whose recorded contents of the output window after each
point are the body's payload of the five input blocks read off five given arrays. Three steps: the payload at an
entry of its block (`pay3_apply`), the blocks as rows of the arrays (`blk3_0_apply` …), and the tiling
(`flushed3_eq`, `cover3`, `lin3_value`). -/

noncomputable section

namespace Cert.KernelIdeal.HandValue

open Cert.KernelIdeal Cert.KernelIdeal.Gen Idealize.ShloMosaic Idealize.ShloMosaic.TcCoe
open Idealize.ShloMosaic.ValueIdx Idealize.ShloMosaic.Pipeline

/-! ## The input windows' blocks -/

/-- Window `w`'s block at point `t`, read off a given array. -/
abbrev blk3_0 (x : S10240x256.Idx → EReal) (t : Fin cfg3.N) : Vec Ideal S2048x256 .f32 := ((cfg3.win 0).blk t).view.read (Elt Ideal) x
abbrev blk3_1 (x : S10240x256.Idx → EReal) (t : Fin cfg3.N) : Vec Ideal S2048x256 .f32 := ((cfg3.win 1).blk t).view.read (Elt Ideal) x
abbrev blk3_2 (x : S256x1024.Idx → EReal) (t : Fin cfg3.N) : Vec Ideal S256x1024 .f32 := ((cfg3.win 2).blk t).view.read (Elt Ideal) x
abbrev blk3_3 (x : S256x1024.Idx → EReal) (t : Fin cfg3.N) : Vec Ideal S256x1024 .f32 := ((cfg3.win 3).blk t).view.read (Elt Ideal) x
abbrev blk3_4 (x : S1x1024.Idx → EReal) (t : Fin cfg3.N) : Vec Ideal S1x1024 .f32 := ((cfg3.win 4).blk t).view.read (Elt Ideal) x

/-! ## The payload at an index -/

/-! The four coordinate facts of the product's dimension numbers: the left operand is read at (output row,
    contraction index), the right operand at (contraction index, output column). -/

theorem lhs3_0 (i : S2048x1024.Idx) (q : dot_S2048x256_S256x1024_S2048x1024_1_0_0_1_n_n.contr.Idx) :
    (dot_S2048x256_S256x1024_S2048x1024_1_0_0_1_n_n.lhsIdx i q 0).val = (i 0).val := by
  unfold DotDims.lhsIdx
  rw [dif_neg (show ¬(0 : Fin S2048x256.rank) ∈ dot_S2048x256_S256x1024_S2048x1024_1_0_0_1_n_n.lhsBatch by decide), dif_pos (show (0 : Fin S2048x256.rank) ∈ dot_S2048x256_S256x1024_S2048x1024_1_0_0_1_n_n.lhsNonContracting by decide)]
  rfl
theorem lhs3_1 (i : S2048x1024.Idx) (q : dot_S2048x256_S256x1024_S2048x1024_1_0_0_1_n_n.contr.Idx) :
    (dot_S2048x256_S256x1024_S2048x1024_1_0_0_1_n_n.lhsIdx i q 1).val = (q ⟨0, by decide⟩).val :=
  dot_S2048x256_S256x1024_S2048x1024_1_0_0_1_n_n.lhsIdx_val_of_single rfl i q
theorem rhs3_0 (i : S2048x1024.Idx) (q : dot_S2048x256_S256x1024_S2048x1024_1_0_0_1_n_n.contr.Idx) :
    (dot_S2048x256_S256x1024_S2048x1024_1_0_0_1_n_n.rhsIdx i q 0).val = (q ⟨0, by decide⟩).val :=
  dot_S2048x256_S256x1024_S2048x1024_1_0_0_1_n_n.rhsIdx_val_of_single rfl i q
theorem rhs3_1 (i : S2048x1024.Idx) (q : dot_S2048x256_S256x1024_S2048x1024_1_0_0_1_n_n.contr.Idx) :
    (dot_S2048x256_S256x1024_S2048x1024_1_0_0_1_n_n.rhsIdx i q 1).val = (i 1).val := by
  unfold DotDims.rhsIdx
  rw [dif_neg (show ¬(1 : Fin S256x1024.rank) ∈ dot_S2048x256_S256x1024_S2048x1024_1_0_0_1_n_n.rhsBatch by decide), dif_pos (show (1 : Fin S256x1024.rank) ∈ dot_S2048x256_S256x1024_S2048x1024_1_0_0_1_n_n.rhsNonContracting by decide)]
  rfl

/-- A product of a row block by a weight matrix into a zero accumulator, at an entry: the row times the column. -/
theorem matmul3_apply (x : FVec Ideal S2048x256 .bf16) (y : FVec Ideal S256x1024 .bf16) (p : Fin 2048) (q : Fin 1024) :
    matmul dot_S2048x256_S256x1024_S2048x1024_1_0_0_1_n_n none x y (constant (F := Ideal) S2048x1024 .f32 0x00000000#32) (ix2 p q)
      = ∑ k : Fin 256, x (ix2 p k) * y (ix2 k q) := by
  show FloatOps.matmul dot_S2048x256_S256x1024_S2048x1024_1_0_0_1_n_n none x y (constant S2048x1024 .f32 0x00000000#32) (ix2 p q) = _
  rw [Ideal.matmul_constant_zero_apply, ← Equiv.sum_comp (contrEquiv1 dot_S2048x256_S256x1024_S2048x1024_1_0_0_1_n_n 256 rfl rfl).symm]
  refine Finset.sum_congr rfl fun k _ => ?_
  have hk := contrEquiv1_symm_val dot_S2048x256_S256x1024_S2048x1024_1_0_0_1_n_n 256 rfl rfl k
  have el : dot_S2048x256_S256x1024_S2048x1024_1_0_0_1_n_n.lhsIdx (ix2 p q) ((contrEquiv1 dot_S2048x256_S256x1024_S2048x1024_1_0_0_1_n_n 256 rfl rfl).symm k) = ix2 p k := funext fun a => Fin.ext (by
    match a with
    | ⟨0, _⟩ => exact lhs3_0 _ _
    | ⟨1, _⟩ => exact (lhs3_1 _ _).trans hk)
  have er : dot_S2048x256_S256x1024_S2048x1024_1_0_0_1_n_n.rhsIdx (ix2 p q) ((contrEquiv1 dot_S2048x256_S256x1024_S2048x1024_1_0_0_1_n_n 256 rfl rfl).symm k) = ix2 k q := funext fun a => Fin.ext (by
    match a with
    | ⟨0, _⟩ => exact (rhs3_0 _ _).trans hk
    | ⟨1, _⟩ => exact rhs3_1 _ _)
  rw [el, er]

/-- The body's result at an entry of its block: the two row-by-column products added, the bias of the column added, cut below at zero. -/
theorem pay3_apply (x0 x1 : Vec Ideal S2048x256 .f32) (x2 x3 : Vec Ideal S256x1024 .f32) (x4 : Vec Ideal S1x1024 .f32) (p : Fin 2048) (q : Fin 1024) :
    k3_pay1 x0 x1 x2 x3 x4 (ix2 p q)
      = max (((∑ k : Fin 256, x0 (ix2 p k) * x2 (ix2 k q)) + (∑ k : Fin 256, x1 (ix2 p k) * x3 (ix2 k q))) + x4 (ix2 (0 : Fin 1) q)) 0 := by
  unfold k3_pay1
  simp only [shapeCast_self]
  rw [maximumf_apply, addf_apply, addf_apply, broadcast_apply, matmul3_apply, matmul3_apply, broadcastTo_1b_ab_apply]
  exact congrArg (max _) Ideal.ofBits_zero_f32

/-! ## The blocks read off the arrays -/

/-- The printed index maps over the grid: the row-block windows sit at the point's own block, the whole windows at block zero. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `x` of the point's block of the first operand is row `2048 t + x` of the array. -/
theorem blk3_0_apply (X : S10240x256.Idx → EReal) (t : Fin cfg3.N) (x : S2048x256.Idx) (k : S10240x256.Idx)
    (hk0 : (k 0).val = 2048 * t.val + (x 0).val) (hk1 : (k 1).val = (x 1).val) : blk3_0 X t x = X k := by
  obtain ⟨e0, e1, -⟩ := idx_facts3 t
  show X (((cfg3.win 0).blk t).view.emb x) = X k
  congr 1
  funext a
  apply Fin.ext
  match a with
  | ⟨0, _⟩ => show win3_0.index t (0 : Fin 2) * 2048 + 1 * (x 0).val = (k 0).val; omega
  | ⟨1, _⟩ => show win3_0.index t (1 : Fin 2) * 256 + 1 * (x 1).val = (k 1).val; omega

theorem blk3_1_apply (X : S10240x256.Idx → EReal) (t : Fin cfg3.N) (x : S2048x256.Idx) (k : S10240x256.Idx)
    (hk0 : (k 0).val = 2048 * t.val + (x 0).val) (hk1 : (k 1).val = (x 1).val) : blk3_1 X t x = X k := by
  obtain ⟨-, -, e0, e1, -⟩ := idx_facts3 t
  show X (((cfg3.win 1).blk t).view.emb x) = X k
  congr 1
  funext a
  apply Fin.ext
  match a with
  | ⟨0, _⟩ => show win3_1.index t (0 : Fin 2) * 2048 + 1 * (x 0).val = (k 0).val; omega
  | ⟨1, _⟩ => show win3_1.index t (1 : Fin 2) * 256 + 1 * (x 1).val = (k 1).val; omega

/-- The whole windows read the array itself. -/
theorem blk3_2_apply (X : S256x1024.Idx → EReal) (t : Fin cfg3.N) (x : S256x1024.Idx) : blk3_2 X t x = X x := by
  obtain ⟨-, -, -, -, e0, e1, -⟩ := idx_facts3 t
  show X (((cfg3.win 2).blk t).view.emb x) = X x
  congr 1
  funext a
  apply Fin.ext
  match a with
  | ⟨0, _⟩ => show win3_2.index t (0 : Fin 2) * 256 + 1 * (x 0).val = (x 0).val; omega
  | ⟨1, _⟩ => show win3_2.index t (1 : Fin 2) * 1024 + 1 * (x 1).val = (x 1).val; omega

theorem blk3_3_apply (X : S256x1024.Idx → EReal) (t : Fin cfg3.N) (x : S256x1024.Idx) : blk3_3 X t x = X x := by
  obtain ⟨-, -, -, -, -, -, e0, e1, -⟩ := idx_facts3 t
  show X (((cfg3.win 3).blk t).view.emb x) = X x
  congr 1
  funext a
  apply Fin.ext
  match a with
  | ⟨0, _⟩ => show win3_3.index t (0 : Fin 2) * 256 + 1 * (x 0).val = (x 0).val; omega
  | ⟨1, _⟩ => show win3_3.index t (1 : Fin 2) * 1024 + 1 * (x 1).val = (x 1).val; omega

theorem blk3_4_apply (X : S1x1024.Idx → EReal) (t : Fin cfg3.N) (x : S1x1024.Idx) : blk3_4 X t x = X x := by
  obtain ⟨-, -, -, -, -, -, -, -, e0, e1, -⟩ := idx_facts3 t
  show X (((cfg3.win 4).blk t).view.emb x) = X x
  congr 1
  funext a
  apply Fin.ext
  match a with
  | ⟨0, _⟩ => show win3_4.index t (0 : Fin 2) * 1 + 1 * (x 0).val = (x 0).val; omega
  | ⟨1, _⟩ => show win3_4.index t (1 : Fin 2) * 1024 + 1 * (x 1).val = (x 1).val; omega

/-! ## From the blocks to the array -/

/-- The layer's output, entry by entry: row `i₀` of the aggregated features times column `i₁` of the first weight
    matrix, plus row `i₀` of the layer's input times column `i₁` of the second, plus the bias of column `i₁`, cut below at zero. -/
abbrev out3 (mean h : S10240x256.Idx → EReal) (wl wr : S256x1024.Idx → EReal) (b : S1x1024.Idx → EReal) : S10240x1024.Idx → EReal := fun i =>
  max (((∑ k : Fin 256, mean (ix2 ⟨(i 0).val, idx2_lt0 i⟩ k) * wl (ix2 k ⟨(i 1).val, idx2_lt1 i⟩))
        + (∑ k : Fin 256, h (ix2 ⟨(i 0).val, idx2_lt0 i⟩ k) * wr (ix2 k ⟨(i 1).val, idx2_lt1 i⟩)))
       + b (ix2 ⟨0, Nat.one_pos⟩ ⟨(i 1).val, idx2_lt1 i⟩)) 0

/-- The body's result at entry `j` of the point's block is the layer's output at row `2048 t + j₀`, column `j₁`. -/
theorem pay3_at (mean h : S10240x256.Idx → EReal) (wl wr : S256x1024.Idx → EReal) (b : S1x1024.Idx → EReal)
    (t : Fin cfg3.N) (j : S2048x1024.Idx) (i : S10240x1024.Idx)
    (hi0 : (i 0).val = 2048 * t.val + (j 0).val) (hi1 : (i 1).val = (j 1).val) :
    k3_pay1 (blk3_0 mean t) (blk3_1 h t) (blk3_2 wl t) (blk3_3 wr t) (blk3_4 b t) j = out3 mean h wl wr b i := by
  obtain ⟨p, q, rfl⟩ : ∃ (p : Fin 2048) (q : Fin 1024), j = ix2 p q := ⟨j 0, j 1, eq_ix2 j⟩
  rw [pay3_apply]
  have hq : q = ⟨(i 1).val, idx2_lt1 i⟩ := Fin.ext hi1.symm
  subst hq
  refine congrArg (fun z => max z 0) ?_
  refine congrArg₂ (· + ·) (congrArg₂ (· + ·) (Finset.sum_congr rfl fun k _ => ?_) (Finset.sum_congr rfl fun k _ => ?_)) ?_
  · rw [blk3_0_apply mean t (ix2 p k) (ix2 ⟨(i 0).val, idx2_lt0 i⟩ k) hi0 rfl, blk3_2_apply]
  · rw [blk3_1_apply h t (ix2 p k) (ix2 ⟨(i 0).val, idx2_lt0 i⟩ k) hi0 rfl, blk3_3_apply]
  · exact blk3_4_apply b t _

/-- An index of the output array is in point `t`'s block iff each coordinate is in the block's range on its axis. -/
theorem mem_blk3 (t : Fin cfg3.N) (i : S10240x1024.Idx) :
    i ∈ ((cfg3.win 5).blk t).view.set ↔ ∀ a : Fin 2, win3_5.index t a * S2048x1024.size a ≤ (i a).val ∧ (i a).val < win3_5.index t a * S2048x1024.size a + S2048x1024.size a := by
  show i ∈ ((View.whole (Pipeline.arrRef spec3 5)).slice (win3_5.rect t)).set ↔ _
  rw [View.set_slice_whole, Rect.mem_set_unit]
  exact Iff.rfl

/-- Every row of the output array lies in the block of the point `row / 2048`, and every point writes its block back. -/
theorem cover3 (i : S10240x1024.Idx) : ∃ t : Fin cfg3.N, (cfg3.win 5).flush t = true ∧ i ∈ ((cfg3.win 5).blk t).view.set := by
  have hi0 : (i 0).val < 10240 := (i 0).isLt
  have hi1 : (i 1).val < 1024 := (i 1).isLt
  have hN : cfg3.N = 5 := N_3
  obtain ⟨t, ht⟩ : ∃ t : Fin cfg3.N, t.val = (i 0).val / 2048 := ⟨⟨(i 0).val / 2048, by rw [hN]; omega⟩, rfl⟩
  obtain ⟨-, -, -, -, -, -, -, -, -, -, e0, e1⟩ := idx_facts3 t
  refine ⟨t, flush3_5 t, ?_⟩
  rw [mem_blk3]
  intro a
  match a with
  | ⟨0, _⟩ => show win3_5.index t (0 : Fin 2) * 2048 ≤ (i 0).val ∧ (i 0).val < win3_5.index t (0 : Fin 2) * 2048 + 2048; omega
  | ⟨1, _⟩ => show win3_5.index t (1 : Fin 2) * 1024 ≤ (i 1).val ∧ (i 1).val < win3_5.index t (1 : Fin 2) * 1024 + 1024; omega

section
variable {c : Dev nD} (dat : Dat τ (Elt Ideal) Unit ℕ (UR sig nD τ) ℕ cfg3 c)
    (mean h : S10240x256.Idx → EReal) (wl wr : S256x1024.Idx → EReal) (b : S1x1024.Idx → EReal)
    (hafter : ∀ t : Fin cfg3.N, dat.after 5 t = k3_pay1 (blk3_0 mean t) (blk3_1 h t) (blk3_2 wl t) (blk3_3 wr t) (blk3_4 b t))
include hafter

/-- What point `t` writes back is block `t` of the layer's output. -/
theorem flushed3_eq (t : Fin cfg3.N) :
    dat.flushed 5 t = ((cfg3.win 5).blk t).view.read (Elt Ideal) (out3 mean h wl wr b) := by
  show (cfg3.win 5).cut (grid3.coords t) (dat.after 5 t) = _
  rw [hafter]
  obtain ⟨-, -, -, -, -, -, -, -, -, -, e0, e1⟩ := idx_facts3 t
  funext j
  refine pay3_at mean h wl wr b t _ _ ?_ ?_
  · show win3_5.index t (0 : Fin 2) * 2048 + 1 * (j 0).val = 2048 * t.val + (j 0).val; omega
  · show win3_5.index t (1 : Fin 2) * 1024 + 1 * (j 1).val = (j 1).val; omega

/-- THE LAYER'S OUTPUT ARRAY after the region: every entry is the layer's output there. -/
theorem lin3_value :
    dat.arrAt 5 cfg3.N = fun i : S10240x1024.Idx =>
      max (((∑ k : Fin 256, mean (ix2 ⟨(i 0).val, idx2_lt0 i⟩ k) * wl (ix2 k ⟨(i 1).val, idx2_lt1 i⟩))
            + (∑ k : Fin 256, h (ix2 ⟨(i 0).val, idx2_lt0 i⟩ k) * wr (ix2 k ⟨(i 1).val, idx2_lt1 i⟩)))
           + b (ix2 ⟨0, Nat.one_pos⟩ ⟨(i 1).val, idx2_lt1 i⟩)) 0 :=
  dat.arrAt_eq_of_cover 5 (out3 mean h wl wr b) (fun t _ => flushed3_eq dat mean h wl wr b hafter t) cover3

end

end Cert.KernelIdeal.HandValue

end
-- ==== Proof.KI.Layer2.lean ====
/-
  LAYER 2 OF THE KERNEL PROGRAM AS PLAIN FORMULAS, at the ideal values (a float is an extended real).
  The second aggregation's output array is the product of the normalised adjacency of the first host stretch with
  the first layer's output: entry (r, q) is the sum over the 10240 columns k of A(r, k) · H₁(k, q).
  The second linear layer's output array is, entry by entry, the larger of 0 and
  (sum over k < 256 of M₂(r, k) · Wl(k, q)) + (sum over k < 256 of H₁(r, k) · Wr(k, q)) + b(q),
  with M₂ the second aggregation's output, H₁ the first layer's output, and Wl, Wr, b the layer's two weight
  matrices and its bias as launched.
  Each formula is the region's value theorem at the contents the region is entered with, those contents named by
  what the items before left: a region changes only its own output buffer, and the bias row (0, q) of the one-row
  reshape is the bias vector's entry q.
-/
import proofs.«427327_j68599217652368_1_alg».proof.Proof.KI.Stages
import proofs.«427327_j68599217652368_1_alg».proof.Proof.KI.AggValue2
import proofs.«427327_j68599217652368_1_alg».proof.Proof.KI.LinValue3
import proofs.«427327_j68599217652368_1_alg».proof.Proof.KI.Transport
import proofs.«427327_j68599217652368_1_alg».proof.Proof.KI.AsE

noncomputable section

namespace Cert.KernelIdeal.HandValue

open Cert.KernelIdeal Cert.KernelIdeal.Gen Cert.KernelIdeal.Hand Idealize.ShloMosaic Idealize.ShloMosaic.TcCoe
open Idealize.ShloMosaic.ValueIdx Idealize.ShloMosaic.Pipeline
open scoped BigOperators

variable (m : (ℓ : Loc nD τ sig) → Buf (Elt Ideal) ℓ) (c : Dev nD)

/-! ## What regions 2 and 3 are entered with, at the stage valuations -/

/-- Region 2 finds the adjacency of the first host stretch … -/
private theorem x4_v31 : (X4 m c main_v31 : S10240x10240.Idx → EReal) = V1 m c main_v31 :=
  (congrFun (V4_eq m c) main_v31).symm.trans (in4_v31 m (outs m) c)
/-- … and the first layer's output. -/
private theorem x4_v37 : (X4 m c main_v37 : S10240x256.Idx → EReal) = outs m 4 main_v37 c :=
  (congrFun (V4_eq m c) main_v37).symm.trans (in4_v37 m (outs m) c)

/-- Region 3 finds the second aggregation's output, the first layer's output, its two weight matrices as launched … -/
private theorem x6_v38 : (X6 m c main_v38 : S10240x256.Idx → EReal) = outs m 5 main_v38 c :=
  (congrFun (V6_eq m c) main_v38).symm.trans (in6_v38 m (outs m) c)
private theorem x6_v37 : (X6 m c main_v37 : S10240x256.Idx → EReal) = outs m 4 main_v37 c :=
  (congrFun (V6_eq m c) main_v37).symm.trans (in6_v37 m (outs m) c)
private theorem x6_arg5 : (X6 m c main_arg5 : S256x1024.Idx → EReal) = m ((c : Thread nD τ).loc main_arg5) :=
  (congrFun (V6_eq m c) main_arg5).symm.trans (in6_arg5 m (outs m) c)
private theorem x6_arg6 : (X6 m c main_arg6 : S256x1024.Idx → EReal) = m ((c : Thread nD τ).loc main_arg6) :=
  (congrFun (V6_eq m c) main_arg6).symm.trans (in6_arg6 m (outs m) c)
/-- … and the bias as one row, whose entry (0, q) is the bias vector's entry q. -/
private theorem x6_bias (q : Fin 1024) :
    (X6 m c main_v39 : S1x1024.Idx → EReal) (ix2 ⟨0, Nat.one_pos⟩ q) = (m ((c : Thread nD τ).loc main_arg7) : S1024.Idx → EReal) (ix1 q) :=
  have e : (X6 m c main_v39 : S1x1024.Idx → EReal) = V6 m (outs m) c main_v39 := (congrFun (V6_eq m c) main_v39).symm
  (congrFun e _).trans (bias6 m (outs m) c q)

/-! ## The two arrays of layer 2 -/

/-- The second aggregation's output at an entry: adjacency row times first-layer column. -/
theorem m2_apply (i : S10240x256.Idx) : asE S10240x256 (outs m 5 main_v38 c) i
    = ∑ k : Fin 10240, asE S10240x10240 (V1 m c main_v31) (ix2 ⟨(i 0).val, idx2_lt0 i⟩ k)
        * asE S10240x256 (outs m 4 main_v37 c) (ix2 k ⟨(i 1).val, idx2_lt1 i⟩) := by
  -- the region's value at the contents it is entered with
  have hv := agg2_value (dat2 (atTc (X4 m)) c) (X4 m c main_v31) (X4 m c main_v37) (acc2 (atTc (X4 m)) c)
    (acc2_reset (atTc (X4 m)) c) (acc2_step (atTc (X4 m)) c) (after2_2_store (atTc (X4 m)) c)
  have e := congrFun ((outs5 m c).trans hv) i
  -- those contents by name
  rw [x4_v31 m c, x4_v37 m c] at e
  exact e
/-- The same at row `r`, column `f`. -/
theorem m2_at (r : Fin 10240) (f : Fin 256) : asE S10240x256 (outs m 5 main_v38 c) (ix2 r f)
    = ∑ k : Fin 10240, asE S10240x10240 (V1 m c main_v31) (ix2 r k) * asE S10240x256 (outs m 4 main_v37 c) (ix2 k f) := m2_apply m c (ix2 r f)

/-- The second linear layer's output at an entry. -/
theorem h2_apply (i : S10240x1024.Idx) : asE S10240x1024 (outs m 7 main_v40 c) i
    = max (((∑ k : Fin 256, asE S10240x256 (outs m 5 main_v38 c) (ix2 ⟨(i 0).val, idx2_lt0 i⟩ k)
                * asE S256x1024 (m ((c : Thread nD τ).loc main_arg5)) (ix2 k ⟨(i 1).val, idx2_lt1 i⟩))
          + (∑ k : Fin 256, asE S10240x256 (outs m 4 main_v37 c) (ix2 ⟨(i 0).val, idx2_lt0 i⟩ k)
                * asE S256x1024 (m ((c : Thread nD τ).loc main_arg6)) (ix2 k ⟨(i 1).val, idx2_lt1 i⟩)))
         + asE S1024 (m ((c : Thread nD τ).loc main_arg7)) (ix1 ⟨(i 1).val, idx2_lt1 i⟩)) 0 := by
  have hv := lin3_value (dat3 (atTc (X6 m)) c) (X6 m c main_v38) (X6 m c main_v37) (X6 m c main_arg5) (X6 m c main_arg6)
    (X6 m c main_v39) (after3_5 (atTc (X6 m)) c)
  have e := congrFun ((outs7 m c).trans hv) i
  rw [x6_v38 m c, x6_v37 m c, x6_arg5 m c, x6_arg6 m c, x6_bias m c ⟨(i 1).val, idx2_lt1 i⟩] at e
  exact e
/-- The same at row `r`, column `g`. -/
theorem h2_at (r : Fin 10240) (g : Fin 1024) : asE S10240x1024 (outs m 7 main_v40 c) (ix2 r g)
    = max (((∑ k : Fin 256, asE S10240x256 (outs m 5 main_v38 c) (ix2 r k) * asE S256x1024 (m ((c : Thread nD τ).loc main_arg5)) (ix2 k g))
          + (∑ k : Fin 256, asE S10240x256 (outs m 4 main_v37 c) (ix2 r k) * asE S256x1024 (m ((c : Thread nD τ).loc main_arg6)) (ix2 k g)))
         + asE S1024 (m ((c : Thread nD τ).loc main_arg7)) (ix1 g)) 0 := h2_apply m c (ix2 r g)

end Cert.KernelIdeal.HandValue

end
-- ==== Proof.KI.AggValue4.lean ====
/- The value of region 0 (custom_call 0, the aggregation kernel, pipeline `cfg4`, grid 5 × 8, point t = 8·ib + kb) at
   the ideal values, where a float is an extended real, a change of float format is the identity and a matmul into the
   zero accumulator is the plain sum of products. The region multiplies the array behind window 0 ([10240, 10240],
   block [2048, 1280] at block index (ib, kb)) by the array behind window 1 ([10240, 1024], block [1280, 1024] at
   (kb, 0)) into the array behind window 2 ([10240, 1024], block [2048, 1024] at (ib, 0), written back at kb = 7 only).
   The body keeps an accumulator: reset to the zero block at kb = 0 and increased at every point by the product of the
   two blocks there, so that after point 8·ib + kb it holds ((0 + P₀) + P₁) + … + P_kb, P_k the 1280-deep block
   product; at kb = 7 that is the whole row block of the product, one sum over the 10240 columns re-associated into
   eight runs of 1280 (addition of extended reals is associative and commutative: no finiteness is asked).
   The theorem is stated over ABSTRACT proof data: any `dat` and any point-indexed accumulator `acc` that resets,
   steps and is stored as the hypotheses say. -/
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.TcCoe Idealize.ShloMosaic.ValueIdx
open Idealize.ShloMosaic.Pipeline
open scoped BigOperators

/-- Window 0's block at point `t`, read off an array `a`. -/
abbrev ablk4 (a : S10240x10240.Idx → EReal) (t : Fin cfg4.N) : Vec Ideal S2048x1280 .bf16 :=
  ((cfg4.win 0).blk t).view.read (Elt Ideal) a
/-- Window 1's block at point `t`, read off an array `h`. -/
abbrev hblk4 (h : S10240x1024.Idx → EReal) (t : Fin cfg4.N) : Vec Ideal S1280x1024 .f32 :=
  ((cfg4.win 1).blk t).view.read (Elt Ideal) h

/-! ## The payloads at an index -/

/-- The matmul's left operand index at output index `i` and contraction index `q`: its row is the output's row … -/
theorem lhs_k4_0 (i : S2048x1024.Idx) (q : dot_S2048x1280_S1280x1024_S2048x1024_1_0_0_1_n_n.contr.Idx) :
    (dot_S2048x1280_S1280x1024_S2048x1024_1_0_0_1_n_n.lhsIdx i q 0).val = (i 0).val := by
  unfold DotDims.lhsIdx
  rw [dif_neg (show ¬(0 : Fin S2048x1280.rank) ∈ dot_S2048x1280_S1280x1024_S2048x1024_1_0_0_1_n_n.lhsBatch by decide), dif_pos (show (0 : Fin S2048x1280.rank) ∈ dot_S2048x1280_S1280x1024_S2048x1024_1_0_0_1_n_n.lhsNonContracting by decide)]
  rfl
/-- … and its column the contraction coordinate. -/
theorem lhs_k4_1 (i : S2048x1024.Idx) (q : dot_S2048x1280_S1280x1024_S2048x1024_1_0_0_1_n_n.contr.Idx) :
    (dot_S2048x1280_S1280x1024_S2048x1024_1_0_0_1_n_n.lhsIdx i q 1).val = (q ⟨0, by decide⟩).val :=
  dot_S2048x1280_S1280x1024_S2048x1024_1_0_0_1_n_n.lhsIdx_val_of_single rfl i q
/-- The right operand's row is the contraction coordinate … -/
theorem rhs_k4_0 (i : S2048x1024.Idx) (q : dot_S2048x1280_S1280x1024_S2048x1024_1_0_0_1_n_n.contr.Idx) :
    (dot_S2048x1280_S1280x1024_S2048x1024_1_0_0_1_n_n.rhsIdx i q 0).val = (q ⟨0, by decide⟩).val :=
  dot_S2048x1280_S1280x1024_S2048x1024_1_0_0_1_n_n.rhsIdx_val_of_single rfl i q
/-- … and its column the output's column. -/
theorem rhs_k4_1 (i : S2048x1024.Idx) (q : dot_S2048x1280_S1280x1024_S2048x1024_1_0_0_1_n_n.contr.Idx) :
    (dot_S2048x1280_S1280x1024_S2048x1024_1_0_0_1_n_n.rhsIdx i q 1).val = (i 1).val := by
  unfold DotDims.rhsIdx
  rw [dif_neg (show ¬(1 : Fin S1280x1024.rank) ∈ dot_S2048x1280_S1280x1024_S2048x1024_1_0_0_1_n_n.rhsBatch by decide), dif_pos (show (1 : Fin S1280x1024.rank) ∈ dot_S2048x1280_S1280x1024_S2048x1024_1_0_0_1_n_n.rhsNonContracting by decide)]
  rfl

/-- The block product into the zero accumulator, at an index: the sum over the 1280 contraction coordinates. -/
theorem matmul_k4_apply (x0 : FVec Ideal S2048x1280 .bf16) (x1 : FVec Ideal S1280x1024 .bf16) (p : Fin 2048) (q : Fin 1024) :
    matmul dot_S2048x1280_S1280x1024_S2048x1024_1_0_0_1_n_n none x0 x1 (constant (F := Ideal) S2048x1024 .f32 0x00000000#32) (ix2 p q)
      = ∑ k : Fin 1280, x0 (ix2 p k) * x1 (ix2 k q) := by
  simp only [matmul]
  rw [Ideal.matmul_constant_zero_apply, ← Equiv.sum_comp (contrEquiv1 dot_S2048x1280_S1280x1024_S2048x1024_1_0_0_1_n_n 1280 rfl rfl).symm]
  refine Finset.sum_congr rfl fun k _ => ?_
  have hk := contrEquiv1_symm_val dot_S2048x1280_S1280x1024_S2048x1024_1_0_0_1_n_n 1280 rfl rfl k
  have el : dot_S2048x1280_S1280x1024_S2048x1024_1_0_0_1_n_n.lhsIdx (ix2 p q) ((contrEquiv1 dot_S2048x1280_S1280x1024_S2048x1024_1_0_0_1_n_n 1280 rfl rfl).symm k) = ix2 p k := funext fun a => Fin.ext (by
    match a with
    | ⟨0, _⟩ => exact lhs_k4_0 _ _
    | ⟨1, _⟩ => exact (lhs_k4_1 _ _).trans hk)
  have er : dot_S2048x1280_S1280x1024_S2048x1024_1_0_0_1_n_n.rhsIdx (ix2 p q) ((contrEquiv1 dot_S2048x1280_S1280x1024_S2048x1024_1_0_0_1_n_n 1280 rfl rfl).symm k) = ix2 k q := funext fun a => Fin.ext (by
    match a with
    | ⟨0, _⟩ => exact (rhs_k4_0 _ _).trans hk
    | ⟨1, _⟩ => exact rhs_k4_1 _ _)
  rw [el, er]

/-- The reset payload is the zero block. -/
theorem k4_pay1_apply (p : Fin 2048) (q : Fin 1024) : k4_pay1 (F := Ideal) (ix2 p q) = 0 := by
  unfold k4_pay1
  rw [shapeCast_self]
  exact Ideal.ofBits_zero_f32

/-- The accumulating payload at an index: what the accumulator held there plus the 1280-deep block product. -/
theorem k4_pay2_apply (x0 : Vec Ideal S2048x1280 .bf16) (x1 : Vec Ideal S1280x1024 .f32) (x2 : Vec Ideal S2048x1024 .f32) (p : Fin 2048) (q : Fin 1024) :
    k4_pay2 x0 x1 x2 (ix2 p q) = x2 (ix2 p q) + ∑ k : Fin 1280, x0 (ix2 p k) * x1 (ix2 k q) := by
  unfold k4_pay2
  rw [shapeCast_self, shapeCast_self, shapeCast_self, addf_apply, matmul_k4_apply]
  rfl

/-! ## The windows' blocks at an index -/

/-- The grid has 40 points: a point's number is below 40. -/
theorem lt_N_4 (t : Fin cfg4.N) : t.val < 40 := lt_of_lt_of_eq t.isLt N_4

/-- The printed index maps, decided once over the grid's 40 points: at point `t = 8·ib + kb` window 0 is at block
    (ib, kb), window 1 at (kb, 0) and window 2 at (ib, 0). -/
theorem idx_facts4 : ∀ t : Fin cfg4.N, win4_0.index t (0 : Fin 2) = t.val / 8 ∧ win4_0.index t (1 : Fin 2) = t.val % 8
    ∧ win4_1.index t (0 : Fin 2) = t.val % 8 ∧ win4_1.index t (1 : Fin 2) = 0
    ∧ win4_2.index t (0 : Fin 2) = t.val / 8 ∧ win4_2.index t (1 : Fin 2) = 0 :=
  (by decide +kernel : ∀ t : Fin grid4.N, _)

/-- Window 0's block at point `t` reads the array at row 2048·(t / 8) + p and column 1280·(t % 8) + k: a block's
    coordinate is the block index times the block's size plus the coordinate inside the block. -/
theorem ablk4_apply (a : S10240x10240.Idx → EReal) (t : Fin cfg4.N) (p : Fin 2048) (k : Fin 1280) (r c : Fin 10240)
    (hr : r.val = 2048 * (t.val / 8) + p.val) (hc : c.val = 1280 * (t.val % 8) + k.val) :
    ablk4 a t (ix2 p k) = a (ix2 r c) := by
  obtain ⟨e0, e1, -, -, -, -⟩ := idx_facts4 t
  show a (((cfg4.win 0).blk t).view.emb (ix2 p k)) = a (ix2 r c)
  refine congrArg a (funext fun d => Fin.ext ?_)
  match d with
  | ⟨0, _⟩ => show win4_0.index t (0 : Fin 2) * 2048 + 1 * p.val = r.val; omega
  | ⟨1, _⟩ => show win4_0.index t (1 : Fin 2) * 1280 + 1 * k.val = c.val; omega

/-- Window 1's block at point `t` reads the array at row 1280·(t % 8) + k and the block's own column. -/
theorem hblk4_apply (h : S10240x1024.Idx → EReal) (t : Fin cfg4.N) (k : Fin 1280) (q : Fin 1024) (r : Fin 10240)
    (hr : r.val = 1280 * (t.val % 8) + k.val) :
    hblk4 h t (ix2 k q) = h (ix2 r q) := by
  obtain ⟨-, -, e2, e3, -, -⟩ := idx_facts4 t
  show h (((cfg4.win 1).blk t).view.emb (ix2 k q)) = h (ix2 r q)
  refine congrArg h (funext fun d => Fin.ext ?_)
  match d with
  | ⟨0, _⟩ => show win4_1.index t (0 : Fin 2) * 1280 + 1 * k.val = r.val; omega
  | ⟨1, _⟩ => show win4_1.index t (1 : Fin 2) * 1024 + 1 * q.val = q.val; omega

/-! ## The whole contraction, in eight runs of 1280 -/

/-- A sum over the 10240 contraction coordinates is the sum over the eight blocks of the sums inside each. -/
theorem sum_split4 {M : Type*} [AddCommMonoid M] (f : Fin 10240 → M) :
    ∑ k : Fin 10240, f k = ∑ s : Fin 8, ∑ k : Fin 1280, f ⟨1280 * s.val + k.val, by omega⟩ := by
  rw [← Equiv.sum_comp (finProdFinEquiv : Fin 8 × Fin 1280 ≃ Fin 10240) f, Fintype.sum_prod_type]
  refine Finset.sum_congr rfl fun s _ => Finset.sum_congr rfl fun k _ => congrArg f (Fin.ext ?_)
  show k.val + 1280 * s.val = 1280 * s.val + k.val
  omega

/-! ## The accumulator after each point -/

/-- The product of run `s` of row `r` of `a` with run `s` of column `q` of `h`: 1280 terms. -/
def bprod4 (a : S10240x10240.Idx → EReal) (h : S10240x1024.Idx → EReal) (r : Fin 10240) (q : Fin 1024) (s : Fin 8) : EReal :=
  ∑ k : Fin 1280, a (ix2 r ⟨1280 * s.val + k.val, by omega⟩) * h (ix2 ⟨1280 * s.val + k.val, by omega⟩ q)

/-- The accumulator depends on the point's number alone, not on the proof that it is a point. -/
theorem acc_congr4 (acc : (n : ℕ) → n < cfg4.N → Vec Ideal S2048x1024 .f32) {n m : ℕ} (e : n = m) (hn : n < cfg4.N)
    (hm : m < cfg4.N) : acc n hn = acc m hm := by
  subst e; rfl

/-- The product of the two blocks at point `t`, at (p, q), is run `t % 8` of the product of row 2048·(t / 8) + p of `a`
    with column `q` of `h`. -/
theorem blocks_prod4 (a : S10240x10240.Idx → EReal) (h : S10240x1024.Idx → EReal) (t : Fin cfg4.N) (p : Fin 2048) (q : Fin 1024)
    (r : Fin 10240) (s : Fin 8) (hr : r.val = 2048 * (t.val / 8) + p.val) (hs : s.val = t.val % 8) :
    ∑ k : Fin 1280, ablk4 a t (ix2 p k) * hblk4 h t (ix2 k q) = bprod4 a h r q s := by
  unfold bprod4
  refine Finset.sum_congr rfl fun k _ => ?_
  rw [ablk4_apply a t p k r ⟨1280 * s.val + k.val, by omega⟩ hr (by show 1280 * s.val + k.val = _; rw [hs]),
    hblk4_apply h t k q ⟨1280 * s.val + k.val, by omega⟩ (by show 1280 * s.val + k.val = _; rw [hs])]

/-- THE INVARIANT: after point 8·ib + kb the accumulator holds, at (p, q), the first kb + 1 runs of the product of row
    2048·ib + p of `a` with column `q` of `h` — by induction on kb: the reset point adds run 0 to the zero block, every
    later point adds its run to what the point before left. -/
theorem acc4_apply (a : S10240x10240.Idx → EReal) (h : S10240x1024.Idx → EReal) (acc : (n : ℕ) → n < cfg4.N → Vec Ideal S2048x1024 .f32)
    (hreset : ∀ t : Fin cfg4.N, t.val % 8 = 0 → acc t.val t.isLt = k4_pay2 (ablk4 a t) (hblk4 h t) (k4_pay1 (F := Ideal)))
    (hstep : ∀ t : Fin cfg4.N, t.val % 8 ≠ 0 → acc t.val t.isLt = k4_pay2 (ablk4 a t) (hblk4 h t) (acc (t.val - 1) (Nat.lt_of_le_of_lt (Nat.sub_le _ _) t.isLt)))
    (ib : ℕ) (hib : ib < 5) (p : Fin 2048) (q : Fin 1024) :
    ∀ (kb : ℕ) (hkb : kb < 8) (hlt : 8 * ib + kb < cfg4.N),
      acc (8 * ib + kb) hlt (ix2 p q) = ∑ s : Fin (kb + 1), bprod4 a h ⟨2048 * ib + p.val, by omega⟩ q ⟨s.val, by omega⟩
  | 0, hkb, hlt => by
    rw [Fin.sum_univ_castSucc, Fin.sum_univ_zero]
    have e : acc (8 * ib + 0) hlt = _ := hreset ⟨8 * ib + 0, hlt⟩ (by show (8 * ib + 0) % 8 = 0; omega)
    rw [e, k4_pay2_apply, k4_pay1_apply]
    refine congrArg (0 + ·) ?_
    exact blocks_prod4 a h ⟨8 * ib + 0, hlt⟩ p q _ _ (by show 2048 * ib + p.val = 2048 * ((8 * ib + 0) / 8) + p.val; omega)
      (by show 0 = (8 * ib + 0) % 8; omega)
  | kb + 1, hkb, hlt => by
    rw [Fin.sum_univ_castSucc]
    have e : acc (8 * ib + (kb + 1)) hlt = _ := hstep ⟨8 * ib + (kb + 1), hlt⟩ (by show (8 * ib + (kb + 1)) % 8 ≠ 0; omega)
    rw [e, k4_pay2_apply]
    refine congrArg₂ (· + ·) ?_ ?_
    · exact (congrFun (acc_congr4 acc (show 8 * ib + (kb + 1) - 1 = 8 * ib + kb by omega) _ (by omega)) _).trans
        (acc4_apply a h acc hreset hstep ib hib p q kb (by omega) (by omega))
    · exact blocks_prod4 a h ⟨8 * ib + (kb + 1), hlt⟩ p q _ _
        (by show 2048 * ib + p.val = 2048 * ((8 * ib + (kb + 1)) / 8) + p.val; omega)
        (by show kb + 1 = (8 * ib + (kb + 1)) % 8; omega)

/-! ## From the blocks to the array -/

/-- What the output array ends holding: the product of the two input arrays, index by index. -/
abbrev G4 (a : S10240x10240.Idx → EReal) (h : S10240x1024.Idx → EReal) : S10240x1024.Idx → EReal :=
  fun i => ∑ k : Fin 10240, a (ix2 ⟨(i 0).val, idx2_lt0 i⟩ k) * h (ix2 k ⟨(i 1).val, idx2_lt1 i⟩)

/-- WHAT A STORING POINT WRITES BACK (t % 8 = 7) is block `t` of the product: the accumulator there holds all eight
    runs, and eight runs of 1280 are the whole contraction. -/
theorem flushed4_2_eq {c : Dev nD} (dat : Dat τ (Elt Ideal) Unit ℕ (UR sig nD τ) ℕ cfg4 c)
    (a : S10240x10240.Idx → EReal) (h : S10240x1024.Idx → EReal) (acc : (n : ℕ) → n < cfg4.N → Vec Ideal S2048x1024 .f32)
    (hreset : ∀ t : Fin cfg4.N, t.val % 8 = 0 → acc t.val t.isLt = k4_pay2 (ablk4 a t) (hblk4 h t) (k4_pay1 (F := Ideal)))
    (hstep : ∀ t : Fin cfg4.N, t.val % 8 ≠ 0 → acc t.val t.isLt = k4_pay2 (ablk4 a t) (hblk4 h t) (acc (t.val - 1) (Nat.lt_of_le_of_lt (Nat.sub_le _ _) t.isLt)))
    (hstore : ∀ t : Fin cfg4.N, t.val % 8 = 7 → dat.after 2 t = acc t.val t.isLt)
    (t : Fin cfg4.N) (ht : t.val % 8 = 7) :
    dat.flushed 2 t = ((cfg4.win 2).blk t).view.read (Elt Ideal) (G4 a h) := by
  show (cfg4.win 2).cut (grid4.coords t) (dat.after 2 t) = _
  rw [hstore t ht]
  funext j
  obtain ⟨p, q, rfl⟩ : ∃ (p : Fin 2048) (q : Fin 1024), j = ix2 p q := ⟨j 0, j 1, eq_ix2 j⟩
  show acc t.val t.isLt (ix2 p q) = G4 a h (((cfg4.win 2).blk t).view.emb (ix2 p q))
  obtain ⟨-, -, -, -, e4, e5⟩ := idx_facts4 t
  have hN := lt_N_4 t
  have hemb : ((cfg4.win 2).blk t).view.emb (ix2 p q) = ix2 ⟨2048 * (t.val / 8) + p.val, by omega⟩ q := by
    funext d; apply Fin.ext
    match d with
    | ⟨0, _⟩ => show win4_2.index t (0 : Fin 2) * 2048 + 1 * p.val = 2048 * (t.val / 8) + p.val; omega
    | ⟨1, _⟩ => show win4_2.index t (1 : Fin 2) * 1024 + 1 * q.val = q.val; omega
  rw [hemb, acc_congr4 acc (show t.val = 8 * (t.val / 8) + 7 by omega) t.isLt (by have := t.isLt; omega),
    acc4_apply a h acc hreset hstep (t.val / 8) (by omega) p q 7 (by omega)]
  show _ = ∑ k : Fin 10240, a (ix2 ⟨2048 * (t.val / 8) + p.val, by omega⟩ k) * h (ix2 k q)
  rw [sum_split4]
  exact Finset.sum_congr rfl fun s _ => rfl

/-- An index of the array is in point `t`'s block iff each coordinate is in the block's range on its axis. -/
theorem mem_blk4_2 (t : Fin cfg4.N) (i : S10240x1024.Idx) :
    i ∈ ((cfg4.win 2).blk t).view.set ↔ ∀ d : Fin 2, win4_2.index t d * S2048x1024.size d ≤ (i d).val ∧ (i d).val < win4_2.index t d * S2048x1024.size d + S2048x1024.size d := by
  show i ∈ ((View.whole (Pipeline.arrRef spec4 2)).slice (win4_2.rect t)).set ↔ _
  rw [View.set_slice_whole, Rect.mem_set_unit]
  exact Iff.rfl

/-- EVERY INDEX IS COVERED by a storing point: row `r` by point 8·(r / 2048) + 7. -/
theorem cover4_2 (i : S10240x1024.Idx) : ∃ t : Fin cfg4.N, (cfg4.win 2).flush t = true ∧ i ∈ ((cfg4.win 2).blk t).view.set := by
  have hi0 : (i 0).val < 10240 := idx2_lt0 i
  have hi1 : (i 1).val < 1024 := idx2_lt1 i
  have hN : cfg4.N = 40 := N_4
  obtain ⟨t, htv⟩ : ∃ t : Fin cfg4.N, t.val = 8 * ((i 0).val / 2048) + 7 := ⟨⟨8 * ((i 0).val / 2048) + 7, by omega⟩, rfl⟩
  refine ⟨t, (flush4_2 t).mpr (by omega), ?_⟩
  rw [mem_blk4_2]
  obtain ⟨-, -, -, -, e4, e5⟩ := idx_facts4 t
  intro d
  match d with
  | ⟨0, _⟩ => show win4_2.index t (0 : Fin 2) * 2048 ≤ (i 0).val ∧ (i 0).val < win4_2.index t (0 : Fin 2) * 2048 + 2048; omega
  | ⟨1, _⟩ => show win4_2.index t (1 : Fin 2) * 1024 ≤ (i 1).val ∧ (i 1).val < win4_2.index t (1 : Fin 2) * 1024 + 1024; omega

/-- THE VALUE OF REGION 0: the output array after the run is the product of the two input arrays. -/
theorem agg4_value {c : Dev nD} (dat : Dat τ (Elt Ideal) Unit ℕ (UR sig nD τ) ℕ cfg4 c)
    (a : S10240x10240.Idx → EReal) (h : S10240x1024.Idx → EReal) (acc : (n : ℕ) → n < cfg4.N → Vec Ideal S2048x1024 .f32)
    (hreset : ∀ t : Fin cfg4.N, t.val % 8 = 0 → acc t.val t.isLt = k4_pay2 (ablk4 a t) (hblk4 h t) (k4_pay1 (F := Ideal)))
    (hstep : ∀ t : Fin cfg4.N, t.val % 8 ≠ 0 → acc t.val t.isLt = k4_pay2 (ablk4 a t) (hblk4 h t) (acc (t.val - 1) (Nat.lt_of_le_of_lt (Nat.sub_le _ _) t.isLt)))
    (hstore : ∀ t : Fin cfg4.N, t.val % 8 = 7 → dat.after 2 t = acc t.val t.isLt) :
    dat.arrAt 2 cfg4.N = fun i : S10240x1024.Idx => ∑ k : Fin 10240, a (ix2 ⟨(i 0).val, idx2_lt0 i⟩ k) * h (ix2 k ⟨(i 1).val, idx2_lt1 i⟩) :=
  dat.arrAt_eq_of_cover 2 (G4 a h)
    (fun t hf => flushed4_2_eq dat a h acc hreset hstep hstore t ((flush4_2 t).mp hf)) cover4_2

end Cert.KernelIdeal.HandValue

end
-- ==== Proof.KI.LinValue5.lean ====
import proofs.«427327_j68599217652368_1_alg».proof.Proof.Gen.KernelIdeal.Launch
import proofs.«427327_j68599217652368_1_alg».proof.Proof.Gen.KernelIdeal.Skeleton
import proofs.«427327_j68599217652368_1_alg».proof.Proof.Gen.KernelIdeal.Points
import Idealize.ShloMosaic.Lib.Pipeline.Value
import Idealize.ShloMosaic.Lib.ValueIdx
import Idealize.ShloMosaic.Lib.ValueLayout
import Idealize.ShloMosaic.PureOps.Ideal.Laws

/-! # The last linear layer (custom_call 5): the value of its output array, at the ideal values

At the ideal values a float is an extended real, rounding to a narrower type is the identity, and a matrix product
into a zero accumulator is the plain sum of products. The region walks the grid's points, one block of 2048 rows
each. At point `t` the body reads rows `2048 t … 2048 t + 2047` of the aggregated features and of the layer's input,
the two weight matrices and the bias row whole, and leaves in the output block

  `(mean_block · wl + h_block · wr) + bias_row`

(this layer has no rectifier).

Every point writes its block back, and the blocks tile the output array, so the array ends holding, at row `r` and
column `q`, `(Σ_k mean r k * wl k q + Σ_k h r k * wr k q) + b 0 q` — whatever it held before.

The theorem is stated over any proof data of the pipeline whose recorded contents of the output window after each
point are the body's payload of the five input blocks read off five given arrays. Three steps: the payload at an
entry of its block (`pay5_apply`), the blocks as rows of the arrays (`blk5_0_apply` …), and the tiling
(`flushed5_eq`, `cover5`, `lin5_value`). -/

noncomputable section

namespace Cert.KernelIdeal.HandValue

open Cert.KernelIdeal Cert.KernelIdeal.Gen Idealize.ShloMosaic Idealize.ShloMosaic.TcCoe
open Idealize.ShloMosaic.ValueIdx Idealize.ShloMosaic.Pipeline

/-! ## The input windows' blocks -/

/-- Window `w`'s block at point `t`, read off a given array. -/
abbrev blk5_0 (x : S10240x1024.Idx → EReal) (t : Fin cfg5.N) : Vec Ideal S2048x1024 .f32 := ((cfg5.win 0).blk t).view.read (Elt Ideal) x
abbrev blk5_1 (x : S10240x1024.Idx → EReal) (t : Fin cfg5.N) : Vec Ideal S2048x1024 .f32 := ((cfg5.win 1).blk t).view.read (Elt Ideal) x
abbrev blk5_2 (x : S1024x64.Idx → EReal) (t : Fin cfg5.N) : Vec Ideal S1024x64 .f32 := ((cfg5.win 2).blk t).view.read (Elt Ideal) x
abbrev blk5_3 (x : S1024x64.Idx → EReal) (t : Fin cfg5.N) : Vec Ideal S1024x64 .f32 := ((cfg5.win 3).blk t).view.read (Elt Ideal) x
abbrev blk5_4 (x : S1x64.Idx → EReal) (t : Fin cfg5.N) : Vec Ideal S1x64 .f32 := ((cfg5.win 4).blk t).view.read (Elt Ideal) x

/-! ## The payload at an index -/

/-! The four coordinate facts of the product's dimension numbers: the left operand is read at (output row,
    contraction index), the right operand at (contraction index, output column). -/

theorem lhs5_0 (i : S2048x64.Idx) (q : dot_S2048x1024_S1024x64_S2048x64_1_0_0_1_n_n.contr.Idx) :
    (dot_S2048x1024_S1024x64_S2048x64_1_0_0_1_n_n.lhsIdx i q 0).val = (i 0).val := by
  unfold DotDims.lhsIdx
  rw [dif_neg (show ¬(0 : Fin S2048x1024.rank) ∈ dot_S2048x1024_S1024x64_S2048x64_1_0_0_1_n_n.lhsBatch by decide), dif_pos (show (0 : Fin S2048x1024.rank) ∈ dot_S2048x1024_S1024x64_S2048x64_1_0_0_1_n_n.lhsNonContracting by decide)]
  rfl
theorem lhs5_1 (i : S2048x64.Idx) (q : dot_S2048x1024_S1024x64_S2048x64_1_0_0_1_n_n.contr.Idx) :
    (dot_S2048x1024_S1024x64_S2048x64_1_0_0_1_n_n.lhsIdx i q 1).val = (q ⟨0, by decide⟩).val :=
  dot_S2048x1024_S1024x64_S2048x64_1_0_0_1_n_n.lhsIdx_val_of_single rfl i q
theorem rhs5_0 (i : S2048x64.Idx) (q : dot_S2048x1024_S1024x64_S2048x64_1_0_0_1_n_n.contr.Idx) :
    (dot_S2048x1024_S1024x64_S2048x64_1_0_0_1_n_n.rhsIdx i q 0).val = (q ⟨0, by decide⟩).val :=
  dot_S2048x1024_S1024x64_S2048x64_1_0_0_1_n_n.rhsIdx_val_of_single rfl i q
theorem rhs5_1 (i : S2048x64.Idx) (q : dot_S2048x1024_S1024x64_S2048x64_1_0_0_1_n_n.contr.Idx) :
    (dot_S2048x1024_S1024x64_S2048x64_1_0_0_1_n_n.rhsIdx i q 1).val = (i 1).val := by
  unfold DotDims.rhsIdx
  rw [dif_neg (show ¬(1 : Fin S1024x64.rank) ∈ dot_S2048x1024_S1024x64_S2048x64_1_0_0_1_n_n.rhsBatch by decide), dif_pos (show (1 : Fin S1024x64.rank) ∈ dot_S2048x1024_S1024x64_S2048x64_1_0_0_1_n_n.rhsNonContracting by decide)]
  rfl

/-- A product of a row block by a weight matrix into a zero accumulator, at an entry: the row times the column. -/
theorem matmul5_apply (x : FVec Ideal S2048x1024 .bf16) (y : FVec Ideal S1024x64 .bf16) (p : Fin 2048) (q : Fin 64) :
    matmul dot_S2048x1024_S1024x64_S2048x64_1_0_0_1_n_n none x y (constant (F := Ideal) S2048x64 .f32 0x00000000#32) (ix2 p q)
      = ∑ k : Fin 1024, x (ix2 p k) * y (ix2 k q) := by
  show FloatOps.matmul dot_S2048x1024_S1024x64_S2048x64_1_0_0_1_n_n none x y (constant S2048x64 .f32 0x00000000#32) (ix2 p q) = _
  rw [Ideal.matmul_constant_zero_apply, ← Equiv.sum_comp (contrEquiv1 dot_S2048x1024_S1024x64_S2048x64_1_0_0_1_n_n 1024 rfl rfl).symm]
  refine Finset.sum_congr rfl fun k _ => ?_
  have hk := contrEquiv1_symm_val dot_S2048x1024_S1024x64_S2048x64_1_0_0_1_n_n 1024 rfl rfl k
  have el : dot_S2048x1024_S1024x64_S2048x64_1_0_0_1_n_n.lhsIdx (ix2 p q) ((contrEquiv1 dot_S2048x1024_S1024x64_S2048x64_1_0_0_1_n_n 1024 rfl rfl).symm k) = ix2 p k := funext fun a => Fin.ext (by
    match a with
    | ⟨0, _⟩ => exact lhs5_0 _ _
    | ⟨1, _⟩ => exact (lhs5_1 _ _).trans hk)
  have er : dot_S2048x1024_S1024x64_S2048x64_1_0_0_1_n_n.rhsIdx (ix2 p q) ((contrEquiv1 dot_S2048x1024_S1024x64_S2048x64_1_0_0_1_n_n 1024 rfl rfl).symm k) = ix2 k q := funext fun a => Fin.ext (by
    match a with
    | ⟨0, _⟩ => exact (rhs5_0 _ _).trans hk
    | ⟨1, _⟩ => exact rhs5_1 _ _)
  rw [el, er]

/-- The body's result at an entry of its block: the two row-by-column products added, the bias of the column added. -/
theorem pay5_apply (x0 x1 : Vec Ideal S2048x1024 .f32) (x2 x3 : Vec Ideal S1024x64 .f32) (x4 : Vec Ideal S1x64 .f32) (p : Fin 2048) (q : Fin 64) :
    k5_pay1 x0 x1 x2 x3 x4 (ix2 p q)
      = ((∑ k : Fin 1024, x0 (ix2 p k) * x2 (ix2 k q)) + (∑ k : Fin 1024, x1 (ix2 p k) * x3 (ix2 k q))) + x4 (ix2 (0 : Fin 1) q) := by
  unfold k5_pay1
  simp only [shapeCast_self]
  rw [addf_apply, addf_apply, matmul5_apply, matmul5_apply, broadcastTo_1b_ab_apply]
  rfl

/-! ## The blocks read off the arrays -/

/-- The printed index maps over the grid: the row-block windows sit at the point's own block, the whole windows at block zero. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

/-- Row `x` of the point's block of the first operand is row `2048 t + x` of the array. -/
theorem blk5_0_apply (X : S10240x1024.Idx → EReal) (t : Fin cfg5.N) (x : S2048x1024.Idx) (k : S10240x1024.Idx)
    (hk0 : (k 0).val = 2048 * t.val + (x 0).val) (hk1 : (k 1).val = (x 1).val) : blk5_0 X t x = X k := by
  obtain ⟨e0, e1, -⟩ := idx_facts5 t
  show X (((cfg5.win 0).blk t).view.emb x) = X k
  congr 1
  funext a
  apply Fin.ext
  match a with
  | ⟨0, _⟩ => show win5_0.index t (0 : Fin 2) * 2048 + 1 * (x 0).val = (k 0).val; omega
  | ⟨1, _⟩ => show win5_0.index t (1 : Fin 2) * 1024 + 1 * (x 1).val = (k 1).val; omega

theorem blk5_1_apply (X : S10240x1024.Idx → EReal) (t : Fin cfg5.N) (x : S2048x1024.Idx) (k : S10240x1024.Idx)
    (hk0 : (k 0).val = 2048 * t.val + (x 0).val) (hk1 : (k 1).val = (x 1).val) : blk5_1 X t x = X k := by
  obtain ⟨-, -, e0, e1, -⟩ := idx_facts5 t
  show X (((cfg5.win 1).blk t).view.emb x) = X k
  congr 1
  funext a
  apply Fin.ext
  match a with
  | ⟨0, _⟩ => show win5_1.index t (0 : Fin 2) * 2048 + 1 * (x 0).val = (k 0).val; omega
  | ⟨1, _⟩ => show win5_1.index t (1 : Fin 2) * 1024 + 1 * (x 1).val = (k 1).val; omega

/-- The whole windows read the array itself. -/
theorem blk5_2_apply (X : S1024x64.Idx → EReal) (t : Fin cfg5.N) (x : S1024x64.Idx) : blk5_2 X t x = X x := by
  obtain ⟨-, -, -, -, e0, e1, -⟩ := idx_facts5 t
  show X (((cfg5.win 2).blk t).view.emb x) = X x
  congr 1
  funext a
  apply Fin.ext
  match a with
  | ⟨0, _⟩ => show win5_2.index t (0 : Fin 2) * 1024 + 1 * (x 0).val = (x 0).val; omega
  | ⟨1, _⟩ => show win5_2.index t (1 : Fin 2) * 64 + 1 * (x 1).val = (x 1).val; omega

theorem blk5_3_apply (X : S1024x64.Idx → EReal) (t : Fin cfg5.N) (x : S1024x64.Idx) : blk5_3 X t x = X x := by
  obtain ⟨-, -, -, -, -, -, e0, e1, -⟩ := idx_facts5 t
  show X (((cfg5.win 3).blk t).view.emb x) = X x
  congr 1
  funext a
  apply Fin.ext
  match a with
  | ⟨0, _⟩ => show win5_3.index t (0 : Fin 2) * 1024 + 1 * (x 0).val = (x 0).val; omega
  | ⟨1, _⟩ => show win5_3.index t (1 : Fin 2) * 64 + 1 * (x 1).val = (x 1).val; omega

theorem blk5_4_apply (X : S1x64.Idx → EReal) (t : Fin cfg5.N) (x : S1x64.Idx) : blk5_4 X t x = X x := by
  obtain ⟨-, -, -, -, -, -, -, -, e0, e1, -⟩ := idx_facts5 t
  show X (((cfg5.win 4).blk t).view.emb x) = X x
  congr 1
  funext a
  apply Fin.ext
  match a with
  | ⟨0, _⟩ => show win5_4.index t (0 : Fin 2) * 1 + 1 * (x 0).val = (x 0).val; omega
  | ⟨1, _⟩ => show win5_4.index t (1 : Fin 2) * 64 + 1 * (x 1).val = (x 1).val; omega

/-! ## From the blocks to the array -/

/-- The layer's output, entry by entry: row `i₀` of the aggregated features times column `i₁` of the first weight
    matrix, plus row `i₀` of the layer's input times column `i₁` of the second, plus the bias of column `i₁`. -/
abbrev out5 (mean h : S10240x1024.Idx → EReal) (wl wr : S1024x64.Idx → EReal) (b : S1x64.Idx → EReal) : S10240x64.Idx → EReal := fun i =>
  ((∑ k : Fin 1024, mean (ix2 ⟨(i 0).val, idx2_lt0 i⟩ k) * wl (ix2 k ⟨(i 1).val, idx2_lt1 i⟩))
      + (∑ k : Fin 1024, h (ix2 ⟨(i 0).val, idx2_lt0 i⟩ k) * wr (ix2 k ⟨(i 1).val, idx2_lt1 i⟩)))
    + b (ix2 ⟨0, Nat.one_pos⟩ ⟨(i 1).val, idx2_lt1 i⟩)

/-- The body's result at entry `j` of the point's block is the layer's output at row `2048 t + j₀`, column `j₁`. -/
theorem pay5_at (mean h : S10240x1024.Idx → EReal) (wl wr : S1024x64.Idx → EReal) (b : S1x64.Idx → EReal)
    (t : Fin cfg5.N) (j : S2048x64.Idx) (i : S10240x64.Idx)
    (hi0 : (i 0).val = 2048 * t.val + (j 0).val) (hi1 : (i 1).val = (j 1).val) :
    k5_pay1 (blk5_0 mean t) (blk5_1 h t) (blk5_2 wl t) (blk5_3 wr t) (blk5_4 b t) j = out5 mean h wl wr b i := by
  obtain ⟨p, q, rfl⟩ : ∃ (p : Fin 2048) (q : Fin 64), j = ix2 p q := ⟨j 0, j 1, eq_ix2 j⟩
  rw [pay5_apply]
  have hq : q = ⟨(i 1).val, idx2_lt1 i⟩ := Fin.ext hi1.symm
  subst hq
  refine congrArg₂ (· + ·) (congrArg₂ (· + ·) (Finset.sum_congr rfl fun k _ => ?_) (Finset.sum_congr rfl fun k _ => ?_)) ?_
  · rw [blk5_0_apply mean t (ix2 p k) (ix2 ⟨(i 0).val, idx2_lt0 i⟩ k) hi0 rfl, blk5_2_apply]
  · rw [blk5_1_apply h t (ix2 p k) (ix2 ⟨(i 0).val, idx2_lt0 i⟩ k) hi0 rfl, blk5_3_apply]
  · exact blk5_4_apply b t _

/-- An index of the output array is in point `t`'s block iff each coordinate is in the block's range on its axis. -/
theorem mem_blk5 (t : Fin cfg5.N) (i : S10240x64.Idx) :
    i ∈ ((cfg5.win 5).blk t).view.set ↔ ∀ a : Fin 2, win5_5.index t a * S2048x64.size a ≤ (i a).val ∧ (i a).val < win5_5.index t a * S2048x64.size a + S2048x64.size a := by
  show i ∈ ((View.whole (Pipeline.arrRef spec5 5)).slice (win5_5.rect t)).set ↔ _
  rw [View.set_slice_whole, Rect.mem_set_unit]
  exact Iff.rfl

/-- Every row of the output array lies in the block of the point `row / 2048`, and every point writes its block back. -/
theorem cover5 (i : S10240x64.Idx) : ∃ t : Fin cfg5.N, (cfg5.win 5).flush t = true ∧ i ∈ ((cfg5.win 5).blk t).view.set := by
  have hi0 : (i 0).val < 10240 := (i 0).isLt
  have hi1 : (i 1).val < 64 := (i 1).isLt
  have hN : cfg5.N = 5 := N_5
  obtain ⟨t, ht⟩ : ∃ t : Fin cfg5.N, t.val = (i 0).val / 2048 := ⟨⟨(i 0).val / 2048, by rw [hN]; omega⟩, rfl⟩
  obtain ⟨-, -, -, -, -, -, -, -, -, -, e0, e1⟩ := idx_facts5 t
  refine ⟨t, flush5_5 t, ?_⟩
  rw [mem_blk5]
  intro a
  match a with
  | ⟨0, _⟩ => show win5_5.index t (0 : Fin 2) * 2048 ≤ (i 0).val ∧ (i 0).val < win5_5.index t (0 : Fin 2) * 2048 + 2048; omega
  | ⟨1, _⟩ => show win5_5.index t (1 : Fin 2) * 64 ≤ (i 1).val ∧ (i 1).val < win5_5.index t (1 : Fin 2) * 64 + 64; omega

section
variable {c : Dev nD} (dat : Dat τ (Elt Ideal) Unit ℕ (UR sig nD τ) ℕ cfg5 c)
    (mean h : S10240x1024.Idx → EReal) (wl wr : S1024x64.Idx → EReal) (b : S1x64.Idx → EReal)
    (hafter : ∀ t : Fin cfg5.N, dat.after 5 t = k5_pay1 (blk5_0 mean t) (blk5_1 h t) (blk5_2 wl t) (blk5_3 wr t) (blk5_4 b t))
include hafter

/-- What point `t` writes back is block `t` of the layer's output. -/
theorem flushed5_eq (t : Fin cfg5.N) :
    dat.flushed 5 t = ((cfg5.win 5).blk t).view.read (Elt Ideal) (out5 mean h wl wr b) := by
  show (cfg5.win 5).cut (grid5.coords t) (dat.after 5 t) = _
  rw [hafter]
  obtain ⟨-, -, -, -, -, -, -, -, -, -, e0, e1⟩ := idx_facts5 t
  funext j
  refine pay5_at mean h wl wr b t _ _ ?_ ?_
  · show win5_5.index t (0 : Fin 2) * 2048 + 1 * (j 0).val = 2048 * t.val + (j 0).val; omega
  · show win5_5.index t (1 : Fin 2) * 64 + 1 * (j 1).val = (j 1).val; omega

/-- THE LAYER'S OUTPUT ARRAY after the region: every entry is the layer's output there. -/
theorem lin5_value :
    dat.arrAt 5 cfg5.N = fun i : S10240x64.Idx =>
      ((∑ k : Fin 1024, mean (ix2 ⟨(i 0).val, idx2_lt0 i⟩ k) * wl (ix2 k ⟨(i 1).val, idx2_lt1 i⟩))
          + (∑ k : Fin 1024, h (ix2 ⟨(i 0).val, idx2_lt0 i⟩ k) * wr (ix2 k ⟨(i 1).val, idx2_lt1 i⟩)))
        + b (ix2 ⟨0, Nat.one_pos⟩ ⟨(i 1).val, idx2_lt1 i⟩) :=
  dat.arrAt_eq_of_cover 5 (out5 mean h wl wr b) (fun t _ => flushed5_eq dat mean h wl wr b hafter t) cover5

end

end Cert.KernelIdeal.HandValue

end
-- ==== Proof.KI.Layer3.lean ====
/- Layer 3 of the kernel program as plain formulas, at the ideal values.
   The third aggregation region multiplies the normalised adjacency of the first host stretch by the second linear
   layer's output; the third linear region multiplies that product by the left weight matrix, the second linear
   layer's output by the right weight matrix, and adds the bias row to every row (no rectifier on the last layer).
   Each region's output array is what its proof data's write-backs leave; the regions' value theorems read that array
   as a formula of the arrays the region is entered with, and those are the arrays the earlier items left. -/
import proofs.«427327_j68599217652368_1_alg».proof.Proof.KI.Stages
import proofs.«427327_j68599217652368_1_alg».proof.Proof.KI.AggValue4
import proofs.«427327_j68599217652368_1_alg».proof.Proof.KI.LinValue5
import proofs.«427327_j68599217652368_1_alg».proof.Proof.KI.Transport
import proofs.«427327_j68599217652368_1_alg».proof.Proof.KI.AsE

-- the regions' value theorems are applied at the program's full-size arrays
set_option maxRecDepth 16384

noncomputable section

namespace Cert.KernelIdeal.HandValue

open Cert.KernelIdeal Cert.KernelIdeal.Gen Cert.KernelIdeal.Hand Idealize.ShloMosaic Idealize.ShloMosaic.TcCoe
open Idealize.ShloMosaic.ValueIdx Idealize.ShloMosaic.Pipeline
open scoped BigOperators

variable (m : (ℓ : Loc nD τ sig) → Buf (Elt Ideal) ℓ) (c : Dev nD)

/-! ## The third aggregation -/

/-- The third aggregation's output array is the product of the two arrays the region is entered with, under any
    names `a`, `h` for them. -/
theorem m3_of (a : S10240x10240.Idx → EReal) (h : S10240x1024.Idx → EReal)
    (ea : (X7 m c main_v31 : S10240x10240.Idx → EReal) = a) (eh : (X7 m c main_v40 : S10240x1024.Idx → EReal) = h) :
    (outs m 8 main_v41 c : S10240x1024.Idx → EReal)
      = fun i : S10240x1024.Idx => ∑ k : Fin 10240, a (ix2 ⟨(i 0).val, idx2_lt0 i⟩ k) * h (ix2 k ⟨(i 1).val, idx2_lt1 i⟩) := by
  subst ea
  subst eh
  exact (outs8 m c).trans
    (agg4_value (dat4 (atTc (X7 m)) c) (X7 m c main_v31) (X7 m c main_v40) (acc4 (atTc (X7 m)) c)
      (fun t ht => acc4_reset (atTc (X7 m)) c t ht) (fun t ht => acc4_step (atTc (X7 m)) c t ht)
      (fun t ht => after4_2_store (atTc (X7 m)) c t ht))

/-- The region is entered with the adjacency of the first host stretch … -/
theorem x7_v31 : (X7 m c main_v31 : S10240x10240.Idx → EReal) = V1 m c main_v31 :=
  (congrFun (V7_eq m c) main_v31).symm.trans (in7_v31 m (outs m) c)
/-- … and the second linear layer's output. -/
theorem x7_v40 : (X7 m c main_v40 : S10240x1024.Idx → EReal) = outs m 7 main_v40 c :=
  (congrFun (V7_eq m c) main_v40).symm.trans (in7_v40 m (outs m) c)

/-- THE THIRD AGGREGATION AT AN INDEX: row `i 0` of the adjacency against column `i 1` of the second linear layer's
    output. -/
theorem m3_apply (i : S10240x1024.Idx) :
    asE S10240x1024 (outs m 8 main_v41 c) i
      = ∑ k : Fin 10240, asE S10240x10240 (V1 m c main_v31) (ix2 ⟨(i 0).val, idx2_lt0 i⟩ k)
          * asE S10240x1024 (outs m 7 main_v40 c) (ix2 k ⟨(i 1).val, idx2_lt1 i⟩) :=
  congrFun (m3_of m c _ _ (x7_v31 m c) (x7_v40 m c)) i

/-- The same at row `r` and feature `f`. -/
theorem m3_at (r : Fin 10240) (f : Fin 1024) :
    asE S10240x1024 (outs m 8 main_v41 c) (ix2 r f)
      = ∑ k : Fin 10240, asE S10240x10240 (V1 m c main_v31) (ix2 r k) * asE S10240x1024 (outs m 7 main_v40 c) (ix2 k f) :=
  m3_apply m c (ix2 r f)

/-! ## The third linear layer -/

/-- The third linear region's output array at an index, under any names for the four matrices it is entered with
    and any vector `bias` whose entries the reshaped bias row holds. -/
theorem h3_of (mean h : S10240x1024.Idx → EReal) (wl wr : S1024x64.Idx → EReal) (bias : S64.Idx → EReal)
    (e0 : (X9 m c main_v41 : S10240x1024.Idx → EReal) = mean) (e1 : (X9 m c main_v40 : S10240x1024.Idx → EReal) = h)
    (e2 : (X9 m c main_arg8 : S1024x64.Idx → EReal) = wl) (e3 : (X9 m c main_arg9 : S1024x64.Idx → EReal) = wr)
    (e4 : ∀ q : Fin 64, (X9 m c main_v42 : S1x64.Idx → EReal) (ix2 ⟨0, Nat.one_pos⟩ q) = bias (ix1 q))
    (i : S10240x64.Idx) :
    (outs m 10 main_v43 c : S10240x64.Idx → EReal) i
      = ((∑ k : Fin 1024, mean (ix2 ⟨(i 0).val, idx2_lt0 i⟩ k) * wl (ix2 k ⟨(i 1).val, idx2_lt1 i⟩))
          + (∑ k : Fin 1024, h (ix2 ⟨(i 0).val, idx2_lt0 i⟩ k) * wr (ix2 k ⟨(i 1).val, idx2_lt1 i⟩)))
        + bias (ix1 ⟨(i 1).val, idx2_lt1 i⟩) := by
  subst e0
  subst e1
  subst e2
  subst e3
  have v := congrFun ((outs10 m c).trans
    (lin5_value (dat5 (atTc (X9 m)) c) (X9 m c main_v41) (X9 m c main_v40) (X9 m c main_arg8) (X9 m c main_arg9)
      (X9 m c main_v42) (fun t => after5_5 (atTc (X9 m)) c t))) i
  exact v.trans (congrArg (HAdd.hAdd _) (e4 ⟨(i 1).val, idx2_lt1 i⟩))

/-- The region is entered with the third aggregation's output … -/
theorem x9_v41 : (X9 m c main_v41 : S10240x1024.Idx → EReal) = outs m 8 main_v41 c :=
  (congrFun (V9_eq m c) main_v41).symm.trans (in9_v41 m (outs m) c)
/-- … the second linear layer's output … -/
theorem x9_v40 : (X9 m c main_v40 : S10240x1024.Idx → EReal) = outs m 7 main_v40 c :=
  (congrFun (V9_eq m c) main_v40).symm.trans (in9_v40 m (outs m) c)
/-- … its two weight matrices as launched … -/
theorem x9_arg8 : (X9 m c main_arg8 : S1024x64.Idx → EReal) = m ((c : Thread nD τ).loc main_arg8) :=
  (congrFun (V9_eq m c) main_arg8).symm.trans (in9_arg8 m (outs m) c)
theorem x9_arg9 : (X9 m c main_arg9 : S1024x64.Idx → EReal) = m ((c : Thread nD τ).loc main_arg9) :=
  (congrFun (V9_eq m c) main_arg9).symm.trans (in9_arg9 m (outs m) c)
/-- … and the bias reshaped to one row, whose entry (0, q) is the bias argument's entry q. -/
theorem x9_v42 (q : Fin 64) :
    (X9 m c main_v42 : S1x64.Idx → EReal) (ix2 ⟨0, Nat.one_pos⟩ q) = (m ((c : Thread nD τ).loc main_arg10) : S64.Idx → EReal) (ix1 q) := by
  have e : (V9 m (outs m) c main_v42 : S1x64.Idx → EReal) = X9 m c main_v42 := congrFun (V9_eq m c) main_v42
  exact (congrFun e _).symm.trans (bias9 m (outs m) c q)

/-- THE THIRD LINEAR LAYER AT AN INDEX: row `i 0` of the third aggregation against column `i 1` of the left weights,
    plus row `i 0` of the second linear layer's output against column `i 1` of the right weights, plus entry `i 1`
    of the bias. -/
theorem h3_apply (i : S10240x64.Idx) :
    asE S10240x64 (outs m 10 main_v43 c) i
      = ((∑ k : Fin 1024, asE S10240x1024 (outs m 8 main_v41 c) (ix2 ⟨(i 0).val, idx2_lt0 i⟩ k)
              * asE S1024x64 (m ((c : Thread nD τ).loc main_arg8)) (ix2 k ⟨(i 1).val, idx2_lt1 i⟩))
          + (∑ k : Fin 1024, asE S10240x1024 (outs m 7 main_v40 c) (ix2 ⟨(i 0).val, idx2_lt0 i⟩ k)
              * asE S1024x64 (m ((c : Thread nD τ).loc main_arg9)) (ix2 k ⟨(i 1).val, idx2_lt1 i⟩)))
        + asE S64 (m ((c : Thread nD τ).loc main_arg10)) (ix1 ⟨(i 1).val, idx2_lt1 i⟩) :=
  h3_of m c _ _ _ _ _ (x9_v41 m c) (x9_v40 m c) (x9_arg8 m c) (x9_arg9 m c) (x9_v42 m c) i

/-- The same at row `r` and class `g`. -/
theorem h3_at (r : Fin 10240) (g : Fin 64) :
    asE S10240x64 (outs m 10 main_v43 c) (ix2 r g)
      = ((∑ k : Fin 1024, asE S10240x1024 (outs m 8 main_v41 c) (ix2 r k) * asE S1024x64 (m ((c : Thread nD τ).loc main_arg8)) (ix2 k g))
          + (∑ k : Fin 1024, asE S10240x1024 (outs m 7 main_v40 c) (ix2 r k) * asE S1024x64 (m ((c : Thread nD τ).loc main_arg9)) (ix2 k g)))
        + asE S64 (m ((c : Thread nD τ).loc main_arg10)) (ix1 g) :=
  h3_apply m c (ix2 r g)

end Cert.KernelIdeal.HandValue

end
-- ==== Proof.PreFacts.lean ====
/-
  DECODING THE PRECONDITION. The precondition is the printed predicate `Cert.Pre_finite_inputs.fn`: the
  conjunction of twelve `jnp.all`s, one `all (|x| < +inf)` for each of the ten float inputs and, for the integer
  input, `all (0 ≤ e)` and `all (e < 10000)`. A claim assumes that the predicate's one word is 1. Here that
  assumption is read back element by element: every entry of every float input is a real number, and every entry
  of the integer input, read signed, lies in [0, 10000).
-/
import proofs.«427327_j68599217652368_1_alg».proof.Pre_finite_inputs
import proofs.«427327_j68599217652368_1_alg».proof.Proof.Gen.Pre_finite_inputs
import Idealize.ShloMosaic.PureOps.Ideal
import Idealize.ShloMosaic.Lib.ReduceAll
import Idealize.ShloMosaic.Lib.StableHlo.Predicate
import Idealize.ShloMosaic.Lib.ValueIdx

noncomputable section

namespace Cert.PreFacts

open Idealize.ShloMosaic Cert.Pre_finite_inputs

instance : Subsingleton S_.Idx := ⟨fun a b => funext fun d => d.elim0⟩

/-- An extended real whose absolute value `max x (-x)` lies strictly below the value of the pattern
    `0x7F800000` (which is `+∞`) is neither infinity: it is a real number. -/
theorem real_of_abs_lt_inf (x : EReal)
    (hx : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at hx
  induction x using EReal.rec with
  | bot => simp [Ideal.cmp] at hx
  | coe r => exact ⟨r, rfl⟩
  | top => simp [Ideal.cmp] at hx

/-- `jnp.all (|x| < +inf)` as it is printed, for a float input of any shape: the reduction by `and`, from 1, of the
    comparison of `|x|` with the broadcast constant `0x7F800000`. If its one word is 1, every entry of `x` is real. -/
theorem real_of_all {s : Shape} {axes : List (Fin s.rank)} (bc : S_.BroadcastsInDim s (![] : Fin 0 → Fin s.rank))
    (rd : s.ReducesTo axes S_) (hS : 0 < S_.numel) (x : FVec Ideal s .f32) (j : S_.Idx)
    (e : Host.reduce IntOp.andi
          (cmpf .olt (Host.absf x) (broadcastInDim s ![] bc (constant (F := Ideal) S_ .f32 0x7F800000#32)))
          (constantI S_ 1 1#1) rd hS j = 1#1) :
    ∀ i, ∃ r : ℝ, x i = (r : EReal) := fun i =>
  real_of_abs_lt_inf (x i) (Host.reduce_andi_all _ _ rd hS j e i)

/-- The two integer `jnp.all`s, for an integer input of any shape: `all (c ≤ e)` and `all (e < d)` against
    broadcast scalar constants, read signed at an entry. -/
theorem sge_of_all {s : Shape} {axes : List (Fin s.rank)} (bc : S_.BroadcastsInDim s (![] : Fin 0 → Fin s.rank))
    (rd : s.ReducesTo axes S_) (hS : 0 < S_.numel) (x : IVec s 32) (c : BitVec 32) (j : S_.Idx)
    (e : Host.reduce IntOp.andi (cmpi .sge x (broadcastInDim s ![] bc (constantI S_ 32 c)))
          (constantI S_ 1 1#1) rd hS j = 1#1) :
    ∀ i, c.toInt ≤ (x i).toInt := fun i =>
  IntOp.cmpi_sge.1 (Host.reduce_andi_all _ _ rd hS j e i)

theorem slt_of_all {s : Shape} {axes : List (Fin s.rank)} (bc : S_.BroadcastsInDim s (![] : Fin 0 → Fin s.rank))
    (rd : s.ReducesTo axes S_) (hS : 0 < S_.numel) (x : IVec s 32) (c : BitVec 32) (j : S_.Idx)
    (e : Host.reduce IntOp.andi (cmpi .slt x (broadcastInDim s ![] bc (constantI S_ 32 c)))
          (constantI S_ 1 1#1) rd hS j = 1#1) :
    ∀ i, (x i).toInt < c.toInt := fun i =>
  IntOp.cmpi_slt.1 (Host.reduce_andi_all _ _ rd hS j e i)

variable {a0 : FVec Ideal S10000x128 .f32} {a1 : IVec S2x160000 32} {a2 a3 : FVec Ideal S128x256 .f32}
  {a4 : FVec Ideal S256 .f32} {a5 a6 : FVec Ideal S256x1024 .f32} {a7 : FVec Ideal S1024 .f32}
  {a8 a9 : FVec Ideal S1024x64 .f32} {a10 : FVec Ideal S64 .f32}

/-- The precondition read back. Its one word is the `and` of twelve `jnp.all`s, nested to the left in program
    order; each conjunct is 1, and each `jnp.all` gives its fact at every entry. -/
theorem decode (h : fn (F := Ideal) a0 a1 a2 a3 a4 a5 a6 a7 a8 a9 a10 = fun _ => 1#1) :
    (∀ i, ∃ r : ℝ, a0 i = (r : EReal)) ∧ (∀ i, ∃ r : ℝ, a2 i = (r : EReal)) ∧ (∀ i, ∃ r : ℝ, a3 i = (r : EReal)) ∧
    (∀ i, ∃ r : ℝ, a4 i = (r : EReal)) ∧ (∀ i, ∃ r : ℝ, a5 i = (r : EReal)) ∧ (∀ i, ∃ r : ℝ, a6 i = (r : EReal)) ∧
    (∀ i, ∃ r : ℝ, a7 i = (r : EReal)) ∧ (∀ i, ∃ r : ℝ, a8 i = (r : EReal)) ∧ (∀ i, ∃ r : ℝ, a9 i = (r : EReal)) ∧
    (∀ i, ∃ r : ℝ, a10 i = (r : EReal)) ∧ (∀ i : S2x160000.Idx, 0 ≤ (a1 i).toInt ∧ (a1 i).toInt < 10000) := by
  have h0 := congrFun h ValueIdx.ix0
  dsimp only [fn, fn_part1, fn_part2, fn_part3] at h0
  simp only [andi, IntOp.andi_eq_one] at h0
  obtain ⟨⟨⟨⟨⟨⟨⟨⟨⟨⟨⟨e0, e2⟩, e3⟩, e4⟩, e5⟩, e6⟩, e7⟩, e8⟩, e9⟩, e10⟩, ege⟩, elt⟩ := h0
  have z0 : (0#32 : BitVec 32).toInt = 0 := by decide
  have z1 : (10000#32 : BitVec 32).toInt = 10000 := by decide
  exact ⟨real_of_all _ _ _ a0 _ e0, real_of_all _ _ _ a2 _ e2, real_of_all _ _ _ a3 _ e3, real_of_all _ _ _ a4 _ e4,
    real_of_all _ _ _ a5 _ e5, real_of_all _ _ _ a6 _ e6, real_of_all _ _ _ a7 _ e7, real_of_all _ _ _ a8 _ e8,
    real_of_all _ _ _ a9 _ e9, real_of_all _ _ _ a10 _ e10,
    fun i => ⟨z0 ▸ sge_of_all _ _ _ a1 _ _ ege i, z1 ▸ slt_of_all _ _ _ a1 _ _ elt i⟩⟩

theorem real_arg0 (h : fn (F := Ideal) a0 a1 a2 a3 a4 a5 a6 a7 a8 a9 a10 = fun _ => 1#1) :
    ∀ i, ∃ r : ℝ, a0 i = (r : EReal) := (decode h).1
theorem real_arg2 (h : fn (F := Ideal) a0 a1 a2 a3 a4 a5 a6 a7 a8 a9 a10 = fun _ => 1#1) :
    ∀ i, ∃ r : ℝ, a2 i = (r : EReal) := (decode h).2.1
theorem real_arg3 (h : fn (F := Ideal) a0 a1 a2 a3 a4 a5 a6 a7 a8 a9 a10 = fun _ => 1#1) :
    ∀ i, ∃ r : ℝ, a3 i = (r : EReal) := (decode h).2.2.1
theorem real_arg4 (h : fn (F := Ideal) a0 a1 a2 a3 a4 a5 a6 a7 a8 a9 a10 = fun _ => 1#1) :
    ∀ i, ∃ r : ℝ, a4 i = (r : EReal) := (decode h).2.2.2.1
theorem real_arg5 (h : fn (F := Ideal) a0 a1 a2 a3 a4 a5 a6 a7 a8 a9 a10 = fun _ => 1#1) :
    ∀ i, ∃ r : ℝ, a5 i = (r : EReal) := (decode h).2.2.2.2.1
theorem real_arg6 (h : fn (F := Ideal) a0 a1 a2 a3 a4 a5 a6 a7 a8 a9 a10 = fun _ => 1#1) :
    ∀ i, ∃ r : ℝ, a6 i = (r : EReal) := (decode h).2.2.2.2.2.1
theorem real_arg7 (h : fn (F := Ideal) a0 a1 a2 a3 a4 a5 a6 a7 a8 a9 a10 = fun _ => 1#1) :
    ∀ i, ∃ r : ℝ, a7 i = (r : EReal) := (decode h).2.2.2.2.2.2.1
theorem real_arg8 (h : fn (F := Ideal) a0 a1 a2 a3 a4 a5 a6 a7 a8 a9 a10 = fun _ => 1#1) :
    ∀ i, ∃ r : ℝ, a8 i = (r : EReal) := (decode h).2.2.2.2.2.2.2.1
theorem real_arg9 (h : fn (F := Ideal) a0 a1 a2 a3 a4 a5 a6 a7 a8 a9 a10 = fun _ => 1#1) :
    ∀ i, ∃ r : ℝ, a9 i = (r : EReal) := (decode h).2.2.2.2.2.2.2.2.1
theorem real_arg10 (h : fn (F := Ideal) a0 a1 a2 a3 a4 a5 a6 a7 a8 a9 a10 = fun _ => 1#1) :
    ∀ i, ∃ r : ℝ, a10 i = (r : EReal) := (decode h).2.2.2.2.2.2.2.2.2.1
theorem edge_range (h : fn (F := Ideal) a0 a1 a2 a3 a4 a5 a6 a7 a8 a9 a10 = fun _ => 1#1) :
    ∀ i : S2x160000.Idx, 0 ≤ (a1 i).toInt ∧ (a1 i).toInt < 10000 := (decode h).2.2.2.2.2.2.2.2.2.2

end Cert.PreFacts

end
-- ==== Proof.LibMeanAgg.lean ====
/-
  The neighbour mean of a graph layer, computed two ways, over the extended reals.

  One program builds a dense matrix of edge counts, scales each row by the reciprocal of
  the row's in-degree (at least 1), and multiplies the matrix with the feature matrix; the
  other sums the gathered source rows per destination and divides by the same in-degree.
  Over `EReal` multiplication does not distribute over addition at the infinities, so the
  two agree where the features that are actually summed are finite; a zero count times
  anything is zero, at `⊤` and `⊥` too, so features that no edge reads are unconstrained.

  The file is pure mathematics: it mentions no program.
-/
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Algebra.BigOperators.Group.Finset.Piecewise

namespace Idealize.ShloMosaic.MeanAgg

open Idealize.ShloMosaic
open scoped BigOperators

/-! ### Coercions out of sums and maxima -/

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The inclusion of the reals commutes with the maximum of two numbers. -/
theorem coe_max (a b : ℝ) : ((max a b : ℝ) : EReal) = max (a : EReal) (b : EReal) := by
  exact EReal.coe_strictMono.monotone.map_max

/-- A count of marked elements, as a sum of zeros and ones in `EReal`, is the inclusion of
    the same sum of real zeros and ones. -/
theorem count_coe {E : Type} [Fintype E] (q : E → Prop) [DecidablePred q] :
    (0 + ∑ e : E, if q e then (1 : EReal) else 0)
      = ((∑ e : E, if q e then (1 : ℝ) else 0 : ℝ) : EReal) := by
  rw [zero_add, coe_sum]
  refine Finset.sum_congr rfl fun e _ => ?_
  by_cases h : q e
  · rw [if_pos h, if_pos h, EReal.coe_one]
  · rw [if_neg h, if_neg h, EReal.coe_zero]

/-- The maximum of a real with one is a nonzero real, in `EReal` too. -/
theorem max_one_coe (c : ℝ) : max (c : EReal) 1 = ((max c 1 : ℝ) : EReal) := by
  rw [coe_max, EReal.coe_one]

/-- The maximum of a real with one is not zero. -/
theorem max_one_ne_zero (c : ℝ) : max c 1 ≠ 0 :=
  (lt_of_lt_of_le one_pos (le_max_right c 1)).ne'

/-! ### The identity -/

/-- The identity over the reals: summing, over source columns, the number of marked edges
    with that source times a common factor times the column's feature, is the sum of the
    marked edges' source features times the factor. -/
theorem real_mean_identity {E J : Type} [Fintype E] [Fintype J] [DecidableEq J] (srcJ : E → J)
    (on : E → Prop) [DecidablePred on] (h : J → ℝ) (w : ℝ) :
    ∑ j : J, ((∑ e : E, if on e ∧ srcJ e = j then (1 : ℝ) else 0) * w) * h j
      = (∑ e : E, if on e then h (srcJ e) else 0) * w := by
  simp_rw [Finset.sum_mul]
  rw [Finset.sum_comm]
  refine Finset.sum_congr rfl fun e _ => ?_
  by_cases he : on e
  · simp only [he, true_and, if_true]
    rw [Finset.sum_eq_single (srcJ e)]
    · rw [if_pos rfl, one_mul, mul_comm]
    · intro j _ hj
      rw [if_neg (Ne.symm hj), zero_mul, zero_mul]
    · intro hmem
      exact absurd (Finset.mem_univ _) hmem
  · simp [he]

/-- The neighbour mean as a row of a count matrix scaled by the reciprocal in-degree and
    multiplied with a feature column, equals the sum of the gathered features divided by the
    in-degree, when every feature an edge reads is finite. -/
theorem mean_agg_eq {E J : Type} [Fintype E] [Fintype J] [DecidableEq J] (srcJ : E → J)
    (on : E → Prop) [DecidablePred on] (H : J → EReal) (X : E → EReal)
    (hfin : ∀ e, on e → ∃ r : ℝ, H (srcJ e) = (r : EReal))
    (hX : ∀ e, on e → X e = H (srcJ e)) :
    (∑ j : J, ((0 + ∑ e : E, if on e ∧ srcJ e = j then (1 : EReal) else 0)
        * Ideal.div 1 (max (0 + ∑ e : E, if on e then (1 : EReal) else 0) 1)) * H j)
      = Ideal.div (0 + ∑ e : E, if on e then X e else 0)
          (max (0 + ∑ e : E, if on e then (1 : EReal) else 0) 1) := by
  classical
  obtain ⟨c, hc⟩ : ∃ c : ℝ, (0 + ∑ e : E, if on e then (1 : EReal) else 0) = (c : EReal) :=
    ⟨_, count_coe on⟩
  rw [hc, max_one_coe, Ideal.div_coe (max_one_ne_zero c), Ideal.div_coe (max_one_ne_zero c),
    one_mul]
  generalize (1 / max c 1 : ℝ) = w
  -- a real-valued feature column that agrees with `H` wherever an edge reads it
  let h : J → ℝ := fun j => if ∃ e, on e ∧ srcJ e = j then (H j).toReal else 0
  have hH : ∀ e, on e → H (srcJ e) = (h (srcJ e) : EReal) := by
    intro e he
    obtain ⟨r, hr⟩ := hfin e he
    have hex : ∃ e', on e' ∧ srcJ e' = srcJ e := ⟨e, he, rfl⟩
    simp only [h, if_pos hex, hr, EReal.toReal_coe]
  -- each term of the left side: a zero count annihilates the feature, a positive count
  -- finds it real
  have hL : ∀ j, ((0 + ∑ e : E, if on e ∧ srcJ e = j then (1 : EReal) else 0) * (w : EReal)) * H j
      = (((∑ e : E, if on e ∧ srcJ e = j then (1 : ℝ) else 0) * w * h j : ℝ) : EReal) := by
    intro j
    rw [count_coe]
    by_cases hj : ∃ e, on e ∧ srcJ e = j
    · obtain ⟨e, he, rfl⟩ := hj
      rw [hH e he, ← EReal.coe_mul, ← EReal.coe_mul]
    · have hz : (∑ e : E, if on e ∧ srcJ e = j then (1 : ℝ) else 0) = 0 := by
        refine Finset.sum_eq_zero fun e _ => ?_
        rw [if_neg]
        intro he
        exact hj ⟨e, he⟩
      rw [hz, zero_mul, zero_mul, EReal.coe_zero, zero_mul, zero_mul]
  have hR : (0 + ∑ e : E, if on e then X e else 0)
      = ((∑ e : E, if on e then h (srcJ e) else 0 : ℝ) : EReal) := by
    rw [zero_add, coe_sum]
    refine Finset.sum_congr rfl fun e _ => ?_
    by_cases he : on e
    · rw [if_pos he, if_pos he, hX e he, hH e he]
    · rw [if_neg he, if_neg he, EReal.coe_zero]
  rw [hR, ← EReal.coe_mul, Finset.sum_congr rfl (fun j _ => hL j), ← coe_sum,
    real_mean_identity]

/-- The same identity with the matrix entry's predicate given as any decidable relation
    equivalent to "the edge is marked and its source is this column". -/
theorem mean_agg_eq_of_iff {E J : Type} [Fintype E] [Fintype J] (srcJ : E → J)
    (on : E → Prop) [DecidablePred on] (q : E → J → Prop) [∀ e j, Decidable (q e j)]
    (hq : ∀ e j, q e j ↔ (on e ∧ srcJ e = j)) (H : J → EReal) (X : E → EReal)
    (hfin : ∀ e, on e → ∃ r : ℝ, H (srcJ e) = (r : EReal))
    (hX : ∀ e, on e → X e = H (srcJ e)) :
    (∑ j : J, ((0 + ∑ e : E, if q e j then (1 : EReal) else 0)
        * Ideal.div 1 (max (0 + ∑ e : E, if on e then (1 : EReal) else 0) 1)) * H j)
      = Ideal.div (0 + ∑ e : E, if on e then X e else 0)
          (max (0 + ∑ e : E, if on e then (1 : EReal) else 0) 1) := by
  classical
  rw [← mean_agg_eq srcJ on H X hfin hX]
  refine Finset.sum_congr rfl fun j _ => ?_
  congr 3
  exact Finset.sum_congr rfl fun e _ => if_congr (hq e j) rfl rfl

/-! ### Finiteness -/

/-- A finite sum of reals is real. -/
theorem real_sum {K : Type} [Fintype K] (a : K → EReal) (ha : ∀ k, ∃ r : ℝ, a k = r) :
    ∃ r : ℝ, (∑ k, a k) = r := by
  choose r hr using ha
  exact ⟨∑ k, r k, by rw [coe_sum]; exact Finset.sum_congr rfl fun k _ => hr k⟩

/-- A finite sum of products of reals is real. -/
theorem real_sum_mul {K : Type} [Fintype K] (a b : K → EReal) (ha : ∀ k, ∃ r : ℝ, a k = r)
    (hb : ∀ k, ∃ r : ℝ, b k = r) : ∃ r : ℝ, (∑ k, a k * b k) = r := by
  choose ra hra using ha
  choose rb hrb using hb
  refine ⟨∑ k, ra k * rb k, ?_⟩
  rw [coe_sum]
  exact Finset.sum_congr rfl fun k _ => by rw [hra k, hrb k, EReal.coe_mul]

/-- The sum of two reals is real. -/
theorem real_add {x y : EReal} (hx : ∃ r : ℝ, x = r) (hy : ∃ r : ℝ, y = r) :
    ∃ r : ℝ, x + y = r := by
  obtain ⟨a, rfl⟩ := hx
  obtain ⟨b, rfl⟩ := hy
  exact ⟨a + b, (EReal.coe_add a b).symm⟩

/-- The product of two reals is real. -/
theorem real_mul {x y : EReal} (hx : ∃ r : ℝ, x = r) (hy : ∃ r : ℝ, y = r) :
    ∃ r : ℝ, x * y = r := by
  obtain ⟨a, rfl⟩ := hx
  obtain ⟨b, rfl⟩ := hy
  exact ⟨a * b, (EReal.coe_mul a b).symm⟩

/-- The maximum of two reals is real. -/
theorem real_max {x y : EReal} (hx : ∃ r : ℝ, x = r) (hy : ∃ r : ℝ, y = r) :
    ∃ r : ℝ, max x y = r := by
  obtain ⟨a, rfl⟩ := hx
  obtain ⟨b, rfl⟩ := hy
  exact ⟨max a b, (coe_max a b).symm⟩

/-- Zero plus a real is real. -/
theorem real_zero_add {x : EReal} (hx : ∃ r : ℝ, x = r) : ∃ r : ℝ, 0 + x = r := by
  obtain ⟨a, rfl⟩ := hx
  exact ⟨a, zero_add _⟩

/-- The mean of finitely many reals over an in-degree of at least one is real. -/
theorem real_mean {E : Type} [Fintype E] (on : E → Prop) [DecidablePred on] (X : E → EReal)
    (hX : ∀ e, on e → ∃ r : ℝ, X e = r) :
    ∃ r : ℝ, Ideal.div (0 + ∑ e : E, if on e then X e else 0)
        (max (0 + ∑ e : E, if on e then (1 : EReal) else 0) 1) = r := by
  obtain ⟨c, hc⟩ : ∃ c : ℝ, (0 + ∑ e : E, if on e then (1 : EReal) else 0) = (c : EReal) :=
    ⟨_, count_coe on⟩
  have hnum : ∃ n : ℝ, (0 + ∑ e : E, if on e then X e else 0) = n := by
    refine real_zero_add (real_sum _ fun e => ?_)
    by_cases he : on e
    · rw [if_pos he]
      exact hX e he
    · rw [if_neg he]
      exact ⟨0, EReal.coe_zero.symm⟩
  obtain ⟨n, hn⟩ := hnum
  rw [hn, hc, max_one_coe, Ideal.div_coe (max_one_ne_zero c)]
  exact ⟨n * (1 / max c 1), (EReal.coe_mul _ _).symm⟩

/-- An affine layer of two real families against real weights, with a real bias, clamped
    below at zero, is real. -/
theorem real_layer {K : Type} [Fintype K] (m w h v : K → EReal) (b : EReal)
    (hm : ∀ k, ∃ r : ℝ, m k = r) (hw : ∀ k, ∃ r : ℝ, w k = r)
    (hh : ∀ k, ∃ r : ℝ, h k = r) (hv : ∀ k, ∃ r : ℝ, v k = r) (hb : ∃ r : ℝ, b = r) :
    ∃ r : ℝ, max (((∑ k, m k * w k) + (∑ k, h k * v k)) + b) 0 = r := by
  exact real_max (real_add (real_add (real_sum_mul m w hm hw) (real_sum_mul h v hh hv)) hb)
    ⟨0, EReal.coe_zero.symm⟩

/-- The same affine layer without the clamp is real. -/
theorem real_layer_lin {K : Type} [Fintype K] (m w h v : K → EReal) (b : EReal)
    (hm : ∀ k, ∃ r : ℝ, m k = r) (hw : ∀ k, ∃ r : ℝ, w k = r)
    (hh : ∀ k, ∃ r : ℝ, h k = r) (hv : ∀ k, ∃ r : ℝ, v k = r) (hb : ∃ r : ℝ, b = r) :
    ∃ r : ℝ, ((∑ k, m k * w k) + (∑ k, h k * v k)) + b = r := by
  exact real_add (real_add (real_sum_mul m w hm hw) (real_sum_mul h v hh hv)) hb

/-! ### Padding -/

/-- A weighted sum whose weights vanish off a subset depends on the summand only on that
    subset. -/
theorem sum_split_zero {J : Type} [Fintype J] (p : J → Prop) (a H H' : J → EReal)
    (h0 : ∀ j, ¬ p j → a j = 0) (hH : ∀ j, p j → H j = H' j) :
    ∑ j, a j * H j = ∑ j, a j * H' j := by
  classical
  refine Finset.sum_congr rfl fun j _ => ?_
  by_cases hj : p j
  · rw [hH j hj]
  · rw [h0 j hj, zero_mul, zero_mul]

end Idealize.ShloMosaic.MeanAgg
-- ==== Proof.LibSageLayer.lean ====
/-
  One layer of a graph network with neighbour-mean aggregation, computed two ways.

  One way multiplies a dense, row-normalised matrix of edge counts, held on `P` padded
  rows, with the feature matrix, then applies two weight matrices, a bias and an
  activation. The other gathers the source rows of the edges, sums them per destination,
  divides by the in-degree (at least 1), and applies the same weights, bias and activation
  on the `N ≤ P` true rows. On the true rows the two agree, and the result is finite,
  provided the true rows' features, the weights and the bias are finite and the activation
  keeps finite values finite.

  The file is pure mathematics: it mentions no program.
-/
import proofs.«427327_j68599217652368_1_alg».proof.Proof.LibMeanAgg

namespace Idealize.ShloMosaic.MeanAgg

open Idealize.ShloMosaic
open scoped BigOperators

/-- Clamping below at zero keeps a real real. -/
theorem real_act_relu :
    ∀ x : EReal, (∃ r : ℝ, x = r) → ∃ r : ℝ, (fun x : EReal => max x 0) x = r :=
  fun _ hx => real_max hx ⟨0, EReal.coe_zero.symm⟩

/-- The identity keeps a real real. -/
theorem real_act_id : ∀ x : EReal, (∃ r : ℝ, x = r) → ∃ r : ℝ, (id : EReal → EReal) x = r :=
  fun _ hx => hx

/-- A neighbour-mean layer on padded rows, as a normalised count matrix times the features,
    agrees on the true rows with the layer that gathers, sums per destination and divides,
    and its values there are real.

    `up` embeds the true rows in the padded ones; `srcP`, `srcN` are an edge's source as a
    padded and as a true row; `onK e i`, `onR e i` say that edge `e` ends at row `i`, and
    `prK e i j` that it ends at `i` and starts at `j`. -/
theorem sage_layer {E : Type} [Fintype E] {P N D D' : ℕ} (up : Fin N → Fin P)
    (hup : ∀ i, (up i).val = i.val)
    (srcP : E → Fin P) (srcN : E → Fin N) (hsrc : ∀ e, srcP e = up (srcN e))
    (onK : E → Fin P → Prop) [∀ e i, Decidable (onK e i)]
    (prK : E → Fin P → Fin P → Prop) [∀ e i j, Decidable (prK e i j)]
    (onR : E → Fin N → Prop) [∀ e i, Decidable (onR e i)]
    (hpr : ∀ e i j, prK e i j ↔ (onK e i ∧ srcP e = j))
    (hon : ∀ e i, onK e (up i) ↔ onR e i)
    (Ahat : Fin P → Fin P → EReal)
    (hA : ∀ i j, Ahat i j = (0 + ∑ e : E, if prK e i j then (1 : EReal) else 0)
      * Ideal.div 1 (max (0 + ∑ e : E, if onK e i then (1 : EReal) else 0) 1))
    (H : Fin P → Fin D → EReal) (R : Fin N → Fin D → EReal)
    (hH : ∀ i f, H (up i) f = R i f) (hR : ∀ i f, ∃ r : ℝ, R i f = r)
    (Wl Wr : Fin D → Fin D' → EReal) (b : Fin D' → EReal)
    (hWl : ∀ k g, ∃ r : ℝ, Wl k g = r) (hWr : ∀ k g, ∃ r : ℝ, Wr k g = r)
    (hb : ∀ g, ∃ r : ℝ, b g = r)
    (act : EReal → EReal) (hact : ∀ x : EReal, (∃ r : ℝ, x = r) → ∃ r : ℝ, act x = r)
    (M : Fin P → Fin D → EReal) (hM : ∀ i f, M i f = ∑ j : Fin P, Ahat i j * H j f)
    (H' : Fin P → Fin D' → EReal)
    (hH' : ∀ i g, H' i g
      = act (((∑ k : Fin D, M i k * Wl k g) + (∑ k : Fin D, H i k * Wr k g)) + b g))
    (mean : Fin N → Fin D → EReal)
    (hmean : ∀ i f, mean i f
      = Ideal.div (0 + ∑ e : E, if onR e i then R (srcN e) f else 0)
          (max (0 + ∑ e : E, if onR e i then (1 : EReal) else 0) 1))
    (R' : Fin N → Fin D' → EReal)
    (hR' : ∀ i g, R' i g
      = act (((∑ k : Fin D, mean i k * Wl k g) + (∑ k : Fin D, R i k * Wr k g)) + b g)) :
    (∀ i g, H' (up i) g = R' i g) ∧ (∀ i g, ∃ r : ℝ, R' i g = r) := by
  classical
  -- the aggregated true rows agree with the means
  have hMm : ∀ i f, M (up i) f = mean i f := by
    intro i f
    have key := mean_agg_eq_of_iff srcP (fun e => onK e (up i)) (fun e j => prK e (up i) j)
      (fun e j => hpr e (up i) j) (fun j => H j f) (fun e => R (srcN e) f)
      (fun e _ => by
        obtain ⟨r, hr⟩ := hR (srcN e) f
        exact ⟨r, by rw [hsrc e, hH, hr]⟩)
      (fun e _ => by rw [hsrc e, hH])
    have hc : (∑ e : E, if onK e (up i) then (1 : EReal) else 0)
        = ∑ e : E, if onR e i then (1 : EReal) else 0 :=
      Finset.sum_congr rfl fun e _ => if_congr (hon e i) rfl rfl
    have hn : (∑ e : E, if onK e (up i) then R (srcN e) f else 0)
        = ∑ e : E, if onR e i then R (srcN e) f else 0 :=
      Finset.sum_congr rfl fun e _ => if_congr (hon e i) rfl rfl
    rw [hM, hmean]
    refine Eq.trans (Finset.sum_congr rfl fun j _ => by rw [hA]) (key.trans ?_)
    rw [hn, hc]
  -- the means are real
  have hmr : ∀ i f, ∃ r : ℝ, mean i f = r := by
    intro i f
    rw [hmean]
    exact real_mean (fun e => onR e i) (fun e => R (srcN e) f) (fun e _ => hR _ _)
  refine ⟨fun i g => ?_, fun i g => ?_⟩
  · rw [hH', hR']
    simp only [hMm, hH]
  · rw [hR']
    exact hact _ (real_add (real_add
      (real_sum_mul _ _ (fun k => hmr i k) (fun k => hWl k g))
      (real_sum_mul _ _ (fun k => hR i k) (fun k => hWr k g))) (hb g))

end Idealize.ShloMosaic.MeanAgg
-- ==== Proof.TailEq.lean ====
import proofs.«427327_j68599217652368_1_alg».proof.Proof.KI.Transport
import proofs.«427327_j68599217652368_1_alg».proof.Proof.Ref.RefValue

/-! # The two programs' log-softmax tails are one function

Both programs end with the same chain of eleven operations on the last layer's output `y` (10000 rows, 64 columns):
the row maximum folded from −∞, its maximum with −∞ once more, that column broadcast back over the rows' entries and
subtracted, the exponentials, their row sum folded from 0, its logarithm, broadcast back and subtracted:

  `(y − rowmax y) − log (Σ_columns exp (y − rowmax y))`.

The kernel program's chain is written over its own names for the shapes and for the side conditions of the
operations (that the reduced shape is the rows, that a broadcast's dimensions fit), the reference's over its own.
The shapes are the same literals under two names, and the side conditions are proofs of the same propositions, so the
two chains are the same term: the equality holds by unfolding the two definitions. Nothing is computed over the
arrays. -/

noncomputable section

namespace Cert.TailEq

open Idealize.ShloMosaic

/-- The kernel program's log-softmax chain and the reference's are the same function of the last layer's output. -/
theorem ktail_eq_tailR (y : Cert.KernelIdeal.S10000x64.Idx → EReal) :
    Cert.KernelIdeal.HandValue.ktail y = Cert.ReferenceIdeal.HandValue.tailR y := by
  unfold Cert.KernelIdeal.HandValue.ktail Cert.ReferenceIdeal.HandValue.tailR
  rfl

end Cert.TailEq

end
-- ==== Proof.Bridge.lean ====
/- The last step of the value claim at the ideal instance: the reference's result term is the kernel program's last
   valuation at the result buffer.

   Both programs end with the same row-wise log-softmax of a three-layer network's last output, so it is enough that the
   last layers agree on the 10000 true rows. Each layer is a neighbour-mean layer: the kernel program computes it on
   10240 padded rows as a row-normalised count matrix times the features, the reference by gathering the edges' source
   rows, summing them per destination and dividing by the in-degree. On the true rows the two agree, layer by layer,
   provided the inputs are finite and the edge array's entries are row numbers — which the precondition says. -/
import proofs.«427327_j68599217652368_1_alg».proof.Proof.Ref.RefValue
import proofs.«427327_j68599217652368_1_alg».proof.Proof.KI.Transport
import proofs.«427327_j68599217652368_1_alg».proof.Proof.KI.AsE
import proofs.«427327_j68599217652368_1_alg».proof.Proof.KI.HostStage
import proofs.«427327_j68599217652368_1_alg».proof.Proof.KI.Layer1
import proofs.«427327_j68599217652368_1_alg».proof.Proof.KI.Layer2
import proofs.«427327_j68599217652368_1_alg».proof.Proof.KI.Layer3
import proofs.«427327_j68599217652368_1_alg».proof.Proof.PreFacts
import proofs.«427327_j68599217652368_1_alg».proof.Proof.LibSageLayer
import proofs.«427327_j68599217652368_1_alg».proof.Proof.TailEq

noncomputable section

namespace Cert.Bridge

open Idealize.ShloMosaic Idealize.ShloMosaic.TcCoe Idealize.ShloMosaic.ValueIdx Idealize.ShloMosaic.MeanAgg
open Idealize.SL.Sem
open scoped BigOperators

section
variable (m : (ℓ : Loc Cert.KernelIdeal.nD Cert.KernelIdeal.τ Cert.KernelIdeal.sig) → Buf (Elt Ideal) ℓ) (c : Dev Cert.KernelIdeal.nD)

/-! ## The kernel program's arguments, as the reference's stages take them -/

abbrev x0 : Cert.ReferenceIdeal.S10000x128.Idx → EReal := m ((c.tc : Thread Cert.KernelIdeal.nD Cert.KernelIdeal.τ).loc Cert.KernelIdeal.main_arg0)
abbrev x1 : IVec Cert.ReferenceIdeal.S2x160000 32 := m ((c.tc : Thread Cert.KernelIdeal.nD Cert.KernelIdeal.τ).loc Cert.KernelIdeal.main_arg1)
abbrev x2 : (⟨Cert.ReferenceIdeal.S128x256, .f32⟩ : BufTy).Contents (Elt Ideal) := m ((c.tc : Thread Cert.KernelIdeal.nD Cert.KernelIdeal.τ).loc Cert.KernelIdeal.main_arg2)
abbrev x3 : (⟨Cert.ReferenceIdeal.S128x256, .f32⟩ : BufTy).Contents (Elt Ideal) := m ((c.tc : Thread Cert.KernelIdeal.nD Cert.KernelIdeal.τ).loc Cert.KernelIdeal.main_arg3)
abbrev x4 : (⟨Cert.ReferenceIdeal.S256, .f32⟩ : BufTy).Contents (Elt Ideal) := m ((c.tc : Thread Cert.KernelIdeal.nD Cert.KernelIdeal.τ).loc Cert.KernelIdeal.main_arg4)
abbrev x5 : (⟨Cert.ReferenceIdeal.S256x1024, .f32⟩ : BufTy).Contents (Elt Ideal) := m ((c.tc : Thread Cert.KernelIdeal.nD Cert.KernelIdeal.τ).loc Cert.KernelIdeal.main_arg5)
abbrev x6 : (⟨Cert.ReferenceIdeal.S256x1024, .f32⟩ : BufTy).Contents (Elt Ideal) := m ((c.tc : Thread Cert.KernelIdeal.nD Cert.KernelIdeal.τ).loc Cert.KernelIdeal.main_arg6)
abbrev x7 : (⟨Cert.ReferenceIdeal.S1024, .f32⟩ : BufTy).Contents (Elt Ideal) := m ((c.tc : Thread Cert.KernelIdeal.nD Cert.KernelIdeal.τ).loc Cert.KernelIdeal.main_arg7)
abbrev x8 : (⟨Cert.ReferenceIdeal.S1024x64, .f32⟩ : BufTy).Contents (Elt Ideal) := m ((c.tc : Thread Cert.KernelIdeal.nD Cert.KernelIdeal.τ).loc Cert.KernelIdeal.main_arg8)
abbrev x9 : (⟨Cert.ReferenceIdeal.S1024x64, .f32⟩ : BufTy).Contents (Elt Ideal) := m ((c.tc : Thread Cert.KernelIdeal.nD Cert.KernelIdeal.τ).loc Cert.KernelIdeal.main_arg9)
abbrev x10 : (⟨Cert.ReferenceIdeal.S64, .f32⟩ : BufTy).Contents (Elt Ideal) := m ((c.tc : Thread Cert.KernelIdeal.nD Cert.KernelIdeal.τ).loc Cert.KernelIdeal.main_arg10)

/-- A true row among the padded rows. -/
abbrev up (i : Fin 10000) : Fin 10240 := ⟨i.val, by have := i.isLt; omega⟩

section Edges
variable (hr : ∀ i : Cert.ReferenceIdeal.S2x160000.Idx, 0 ≤ ((x1 m c) i).toInt ∧ ((x1 m c) i).toInt < 10000)

/-- An edge's source, a true row. -/
abbrev srcN (e : Fin 160000) : Fin 10000 := ⟨(Cert.ReferenceIdeal.HandValue.srcR (x1 m c) e).toNat, Cert.ReferenceIdeal.HandValue.srcR_toNat_lt (x1 m c) hr e⟩

/-- An edge ends at row i and starts at row j exactly when it ends at i and its source, as a padded row, is j. -/
theorem hpr_ (e : Fin 160000) (i j : Fin 10240) :
    (Cert.KernelIdeal.HandValue.dstOf m c e = (i.val : Int) ∧ Cert.KernelIdeal.HandValue.srcOf m c e = (j.val : Int))
      ↔ (Cert.KernelIdeal.HandValue.dstOf m c e = (i.val : Int) ∧ up (srcN m c hr e) = j) := by
  refine and_congr_right fun _ => ?_
  have h0 : 0 ≤ Cert.ReferenceIdeal.HandValue.srcR (x1 m c) e := (hr (ix2 ⟨0, by omega⟩ e)).1
  constructor
  · intro h
    apply Fin.ext
    show (Cert.ReferenceIdeal.HandValue.srcR (x1 m c) e).toNat = j.val
    have h' : Cert.ReferenceIdeal.HandValue.srcR (x1 m c) e = (j.val : Int) := h
    omega
  · intro h
    have h' : (Cert.ReferenceIdeal.HandValue.srcR (x1 m c) e).toNat = j.val := congrArg Fin.val h
    show Cert.ReferenceIdeal.HandValue.srcR (x1 m c) e = (j.val : Int)
    omega

end Edges

/-- The two programs read an edge's destination off the same array. -/
theorem hon_ (e : Fin 160000) (i : Fin 10000) :
    Cert.KernelIdeal.HandValue.dstOf m c e = ((up i).val : Int) ↔ Cert.ReferenceIdeal.HandValue.dstR (x1 m c) e = (i.val : Int) :=
  Iff.rfl

/-- Layer 1: on the true rows the kernel program's layer output is the reference's, and it is real there. -/
theorem layer1_agree (hpre : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)) :
    (∀ (i : Fin 10000) (g : Fin 256), (Cert.KernelIdeal.HandValue.asE Cert.KernelIdeal.S10240x256 (Cert.KernelIdeal.Hand.outs m 4 Cert.KernelIdeal.main_v37 c)) (ix2 (up i) g) = (Cert.KernelIdeal.HandValue.asE Cert.ReferenceIdeal.S10000x256 (Cert.ReferenceIdeal.ReadP.val_main_v29 (F := Ideal) (x0 m c) (x1 m c) (x2 m c) (x3 m c) (x4 m c))) (ix2 i g))
    ∧ (∀ (i : Fin 10000) (g : Fin 256), ∃ r : ℝ, (Cert.KernelIdeal.HandValue.asE Cert.ReferenceIdeal.S10000x256 (Cert.ReferenceIdeal.ReadP.val_main_v29 (F := Ideal) (x0 m c) (x1 m c) (x2 m c) (x3 m c) (x4 m c))) (ix2 i g) = (r : EReal)) := by
  have hr : ∀ i : Cert.ReferenceIdeal.S2x160000.Idx, 0 ≤ ((x1 m c) i).toInt ∧ ((x1 m c) i).toInt < 10000 := Cert.PreFacts.edge_range hpre
  exact sage_layer (E := Fin 160000) (P := 10240) (N := 10000) (D := 128) (D' := 256) up (fun _ => rfl)
    (fun e => up (srcN m c hr e)) (srcN m c hr) (fun _ => rfl)
    (fun e i => Cert.KernelIdeal.HandValue.dstOf m c e = (i.val : Int))
    (fun e i j => Cert.KernelIdeal.HandValue.dstOf m c e = (i.val : Int) ∧ Cert.KernelIdeal.HandValue.srcOf m c e = (j.val : Int))
    (fun e i => Cert.ReferenceIdeal.HandValue.dstR (x1 m c) e = (i.val : Int))
    (hpr_ m c hr) (hon_ m c)
    (fun i j => (Cert.KernelIdeal.HandValue.asE Cert.KernelIdeal.S10240x10240 (Cert.KernelIdeal.Gen.V1 m c Cert.KernelIdeal.main_v31)) (ix2 i j))
    (fun i j => Cert.KernelIdeal.HandValue.ahat_apply m c hr (ix2 i j))
    (fun i f => (Cert.KernelIdeal.HandValue.asE Cert.KernelIdeal.S10240x128 (Cert.KernelIdeal.Gen.V1 m c Cert.KernelIdeal.main_v34)) (ix2 i f)) (fun i f => (Cert.KernelIdeal.HandValue.asE Cert.ReferenceIdeal.S10000x128 (x0 m c)) (ix2 i f))
    (fun i f => (Cert.KernelIdeal.HandValue.hpad_apply m c (ix2 (up i) f)).trans (dif_pos i.isLt)) (fun i f => Cert.PreFacts.real_arg0 hpre (ix2 i f))
    (fun k g => (Cert.KernelIdeal.HandValue.asE Cert.ReferenceIdeal.S128x256 (x2 m c)) (ix2 k g)) (fun k g => (Cert.KernelIdeal.HandValue.asE Cert.ReferenceIdeal.S128x256 (x3 m c)) (ix2 k g)) (fun g => (Cert.KernelIdeal.HandValue.asE Cert.ReferenceIdeal.S256 (x4 m c)) (ix1 g))
    (fun k g => Cert.PreFacts.real_arg2 hpre (ix2 k g)) (fun k g => Cert.PreFacts.real_arg3 hpre (ix2 k g))
    (fun g => Cert.PreFacts.real_arg4 hpre (ix1 g))
    (fun x : EReal => max x 0) real_act_relu
    (fun i f => (Cert.KernelIdeal.HandValue.asE Cert.KernelIdeal.S10240x128 (Cert.KernelIdeal.Hand.outs m 2 Cert.KernelIdeal.main_v35 c)) (ix2 i f)) (fun i f => Cert.KernelIdeal.HandValue.m1_apply m c (ix2 i f))
    (fun i g => (Cert.KernelIdeal.HandValue.asE Cert.KernelIdeal.S10240x256 (Cert.KernelIdeal.Hand.outs m 4 Cert.KernelIdeal.main_v37 c)) (ix2 i g)) (fun i g => Cert.KernelIdeal.HandValue.h1_apply m c (ix2 i g))
    (fun i f => (Cert.KernelIdeal.HandValue.asE Cert.ReferenceIdeal.S10000x128 (Cert.ReferenceIdeal.ReadP.val_main_v22 (F := Ideal) (x0 m c) (x1 m c))) (ix2 i f)) (fun i f => Cert.ReferenceIdeal.HandValue.mean1_apply (x0 m c) (x1 m c) hr (ix2 i f))
    (fun i g => (Cert.KernelIdeal.HandValue.asE Cert.ReferenceIdeal.S10000x256 (Cert.ReferenceIdeal.ReadP.val_main_v29 (F := Ideal) (x0 m c) (x1 m c) (x2 m c) (x3 m c) (x4 m c))) (ix2 i g)) (fun i g => Cert.ReferenceIdeal.HandValue.layer1_apply (x0 m c) (x1 m c) (x2 m c) (x3 m c) (x4 m c) (ix2 i g))

/-- Layer 2: on the true rows the kernel program's layer output is the reference's, and it is real there. -/
theorem layer2_agree (hpre : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1))
    (hHp : ∀ (i : Fin 10000) (f : Fin 256), (Cert.KernelIdeal.HandValue.asE Cert.KernelIdeal.S10240x256 (Cert.KernelIdeal.Hand.outs m 4 Cert.KernelIdeal.main_v37 c)) (ix2 (up i) f) = (Cert.KernelIdeal.HandValue.asE Cert.ReferenceIdeal.S10000x256 (Cert.ReferenceIdeal.ReadP.val_main_v29 (F := Ideal) (x0 m c) (x1 m c) (x2 m c) (x3 m c) (x4 m c))) (ix2 i f))
    (hRp : ∀ (i : Fin 10000) (f : Fin 256), ∃ r : ℝ, (Cert.KernelIdeal.HandValue.asE Cert.ReferenceIdeal.S10000x256 (Cert.ReferenceIdeal.ReadP.val_main_v29 (F := Ideal) (x0 m c) (x1 m c) (x2 m c) (x3 m c) (x4 m c))) (ix2 i f) = (r : EReal)) :
    (∀ (i : Fin 10000) (g : Fin 1024), (Cert.KernelIdeal.HandValue.asE Cert.KernelIdeal.S10240x1024 (Cert.KernelIdeal.Hand.outs m 7 Cert.KernelIdeal.main_v40 c)) (ix2 (up i) g) = (Cert.KernelIdeal.HandValue.asE Cert.ReferenceIdeal.S10000x1024 (Cert.ReferenceIdeal.ReadP.val_main_v59 (F := Ideal) (x0 m c) (x1 m c) (x2 m c) (x3 m c) (x4 m c) (x5 m c) (x6 m c) (x7 m c))) (ix2 i g))
    ∧ (∀ (i : Fin 10000) (g : Fin 1024), ∃ r : ℝ, (Cert.KernelIdeal.HandValue.asE Cert.ReferenceIdeal.S10000x1024 (Cert.ReferenceIdeal.ReadP.val_main_v59 (F := Ideal) (x0 m c) (x1 m c) (x2 m c) (x3 m c) (x4 m c) (x5 m c) (x6 m c) (x7 m c))) (ix2 i g) = (r : EReal)) := by
  have hr : ∀ i : Cert.ReferenceIdeal.S2x160000.Idx, 0 ≤ ((x1 m c) i).toInt ∧ ((x1 m c) i).toInt < 10000 := Cert.PreFacts.edge_range hpre
  exact sage_layer (E := Fin 160000) (P := 10240) (N := 10000) (D := 256) (D' := 1024) up (fun _ => rfl)
    (fun e => up (srcN m c hr e)) (srcN m c hr) (fun _ => rfl)
    (fun e i => Cert.KernelIdeal.HandValue.dstOf m c e = (i.val : Int))
    (fun e i j => Cert.KernelIdeal.HandValue.dstOf m c e = (i.val : Int) ∧ Cert.KernelIdeal.HandValue.srcOf m c e = (j.val : Int))
    (fun e i => Cert.ReferenceIdeal.HandValue.dstR (x1 m c) e = (i.val : Int))
    (hpr_ m c hr) (hon_ m c)
    (fun i j => (Cert.KernelIdeal.HandValue.asE Cert.KernelIdeal.S10240x10240 (Cert.KernelIdeal.Gen.V1 m c Cert.KernelIdeal.main_v31)) (ix2 i j))
    (fun i j => Cert.KernelIdeal.HandValue.ahat_apply m c hr (ix2 i j))
    (fun i f => (Cert.KernelIdeal.HandValue.asE Cert.KernelIdeal.S10240x256 (Cert.KernelIdeal.Hand.outs m 4 Cert.KernelIdeal.main_v37 c)) (ix2 i f)) (fun i f => (Cert.KernelIdeal.HandValue.asE Cert.ReferenceIdeal.S10000x256 (Cert.ReferenceIdeal.ReadP.val_main_v29 (F := Ideal) (x0 m c) (x1 m c) (x2 m c) (x3 m c) (x4 m c))) (ix2 i f))
    hHp hRp
    (fun k g => (Cert.KernelIdeal.HandValue.asE Cert.ReferenceIdeal.S256x1024 (x5 m c)) (ix2 k g)) (fun k g => (Cert.KernelIdeal.HandValue.asE Cert.ReferenceIdeal.S256x1024 (x6 m c)) (ix2 k g)) (fun g => (Cert.KernelIdeal.HandValue.asE Cert.ReferenceIdeal.S1024 (x7 m c)) (ix1 g))
    (fun k g => Cert.PreFacts.real_arg5 hpre (ix2 k g)) (fun k g => Cert.PreFacts.real_arg6 hpre (ix2 k g))
    (fun g => Cert.PreFacts.real_arg7 hpre (ix1 g))
    (fun x : EReal => max x 0) real_act_relu
    (fun i f => (Cert.KernelIdeal.HandValue.asE Cert.KernelIdeal.S10240x256 (Cert.KernelIdeal.Hand.outs m 5 Cert.KernelIdeal.main_v38 c)) (ix2 i f)) (fun i f => Cert.KernelIdeal.HandValue.m2_apply m c (ix2 i f))
    (fun i g => (Cert.KernelIdeal.HandValue.asE Cert.KernelIdeal.S10240x1024 (Cert.KernelIdeal.Hand.outs m 7 Cert.KernelIdeal.main_v40 c)) (ix2 i g)) (fun i g => Cert.KernelIdeal.HandValue.h2_apply m c (ix2 i g))
    (fun i f => (Cert.KernelIdeal.HandValue.asE Cert.ReferenceIdeal.S10000x256 (Cert.ReferenceIdeal.ReadP.val_main_v52 (F := Ideal) (x0 m c) (x1 m c) (x2 m c) (x3 m c) (x4 m c))) (ix2 i f)) (fun i f => Cert.ReferenceIdeal.HandValue.mean2_apply (x0 m c) (x1 m c) (x2 m c) (x3 m c) (x4 m c) hr (ix2 i f))
    (fun i g => (Cert.KernelIdeal.HandValue.asE Cert.ReferenceIdeal.S10000x1024 (Cert.ReferenceIdeal.ReadP.val_main_v59 (F := Ideal) (x0 m c) (x1 m c) (x2 m c) (x3 m c) (x4 m c) (x5 m c) (x6 m c) (x7 m c))) (ix2 i g)) (fun i g => Cert.ReferenceIdeal.HandValue.layer2_apply (x0 m c) (x1 m c) (x2 m c) (x3 m c) (x4 m c) (x5 m c) (x6 m c) (x7 m c) (ix2 i g))

/-- Layer 3: on the true rows the kernel program's layer output is the reference's, and it is real there. -/
theorem layer3_agree (hpre : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1))
    (hHp : ∀ (i : Fin 10000) (f : Fin 1024), (Cert.KernelIdeal.HandValue.asE Cert.KernelIdeal.S10240x1024 (Cert.KernelIdeal.Hand.outs m 7 Cert.KernelIdeal.main_v40 c)) (ix2 (up i) f) = (Cert.KernelIdeal.HandValue.asE Cert.ReferenceIdeal.S10000x1024 (Cert.ReferenceIdeal.ReadP.val_main_v59 (F := Ideal) (x0 m c) (x1 m c) (x2 m c) (x3 m c) (x4 m c) (x5 m c) (x6 m c) (x7 m c))) (ix2 i f))
    (hRp : ∀ (i : Fin 10000) (f : Fin 1024), ∃ r : ℝ, (Cert.KernelIdeal.HandValue.asE Cert.ReferenceIdeal.S10000x1024 (Cert.ReferenceIdeal.ReadP.val_main_v59 (F := Ideal) (x0 m c) (x1 m c) (x2 m c) (x3 m c) (x4 m c) (x5 m c) (x6 m c) (x7 m c))) (ix2 i f) = (r : EReal)) :
    (∀ (i : Fin 10000) (g : Fin 64), (Cert.KernelIdeal.HandValue.asE Cert.KernelIdeal.S10240x64 (Cert.KernelIdeal.Hand.outs m 10 Cert.KernelIdeal.main_v43 c)) (ix2 (up i) g) = (Cert.KernelIdeal.HandValue.asE Cert.ReferenceIdeal.S10000x64 (Cert.ReferenceIdeal.ReadP.val_main_v88 (F := Ideal) (x0 m c) (x1 m c) (x2 m c) (x3 m c) (x4 m c) (x5 m c) (x6 m c) (x7 m c) (x8 m c) (x9 m c) (x10 m c))) (ix2 i g))
    ∧ (∀ (i : Fin 10000) (g : Fin 64), ∃ r : ℝ, (Cert.KernelIdeal.HandValue.asE Cert.ReferenceIdeal.S10000x64 (Cert.ReferenceIdeal.ReadP.val_main_v88 (F := Ideal) (x0 m c) (x1 m c) (x2 m c) (x3 m c) (x4 m c) (x5 m c) (x6 m c) (x7 m c) (x8 m c) (x9 m c) (x10 m c))) (ix2 i g) = (r : EReal)) := by
  have hr : ∀ i : Cert.ReferenceIdeal.S2x160000.Idx, 0 ≤ ((x1 m c) i).toInt ∧ ((x1 m c) i).toInt < 10000 := Cert.PreFacts.edge_range hpre
  exact sage_layer (E := Fin 160000) (P := 10240) (N := 10000) (D := 1024) (D' := 64) up (fun _ => rfl)
    (fun e => up (srcN m c hr e)) (srcN m c hr) (fun _ => rfl)
    (fun e i => Cert.KernelIdeal.HandValue.dstOf m c e = (i.val : Int))
    (fun e i j => Cert.KernelIdeal.HandValue.dstOf m c e = (i.val : Int) ∧ Cert.KernelIdeal.HandValue.srcOf m c e = (j.val : Int))
    (fun e i => Cert.ReferenceIdeal.HandValue.dstR (x1 m c) e = (i.val : Int))
    (hpr_ m c hr) (hon_ m c)
    (fun i j => (Cert.KernelIdeal.HandValue.asE Cert.KernelIdeal.S10240x10240 (Cert.KernelIdeal.Gen.V1 m c Cert.KernelIdeal.main_v31)) (ix2 i j))
    (fun i j => Cert.KernelIdeal.HandValue.ahat_apply m c hr (ix2 i j))
    (fun i f => (Cert.KernelIdeal.HandValue.asE Cert.KernelIdeal.S10240x1024 (Cert.KernelIdeal.Hand.outs m 7 Cert.KernelIdeal.main_v40 c)) (ix2 i f)) (fun i f => (Cert.KernelIdeal.HandValue.asE Cert.ReferenceIdeal.S10000x1024 (Cert.ReferenceIdeal.ReadP.val_main_v59 (F := Ideal) (x0 m c) (x1 m c) (x2 m c) (x3 m c) (x4 m c) (x5 m c) (x6 m c) (x7 m c))) (ix2 i f))
    hHp hRp
    (fun k g => (Cert.KernelIdeal.HandValue.asE Cert.ReferenceIdeal.S1024x64 (x8 m c)) (ix2 k g)) (fun k g => (Cert.KernelIdeal.HandValue.asE Cert.ReferenceIdeal.S1024x64 (x9 m c)) (ix2 k g)) (fun g => (Cert.KernelIdeal.HandValue.asE Cert.ReferenceIdeal.S64 (x10 m c)) (ix1 g))
    (fun k g => Cert.PreFacts.real_arg8 hpre (ix2 k g)) (fun k g => Cert.PreFacts.real_arg9 hpre (ix2 k g))
    (fun g => Cert.PreFacts.real_arg10 hpre (ix1 g))
    (fun x : EReal => x) (fun _ hx => hx)
    (fun i f => (Cert.KernelIdeal.HandValue.asE Cert.KernelIdeal.S10240x1024 (Cert.KernelIdeal.Hand.outs m 8 Cert.KernelIdeal.main_v41 c)) (ix2 i f)) (fun i f => Cert.KernelIdeal.HandValue.m3_apply m c (ix2 i f))
    (fun i g => (Cert.KernelIdeal.HandValue.asE Cert.KernelIdeal.S10240x64 (Cert.KernelIdeal.Hand.outs m 10 Cert.KernelIdeal.main_v43 c)) (ix2 i g)) (fun i g => Cert.KernelIdeal.HandValue.h3_apply m c (ix2 i g))
    (fun i f => (Cert.KernelIdeal.HandValue.asE Cert.ReferenceIdeal.S10000x1024 (Cert.ReferenceIdeal.ReadP.val_main_v82 (F := Ideal) (x0 m c) (x1 m c) (x2 m c) (x3 m c) (x4 m c) (x5 m c) (x6 m c) (x7 m c))) (ix2 i f)) (fun i f => Cert.ReferenceIdeal.HandValue.mean3_apply (x0 m c) (x1 m c) (x2 m c) (x3 m c) (x4 m c) (x5 m c) (x6 m c) (x7 m c) hr (ix2 i f))
    (fun i g => (Cert.KernelIdeal.HandValue.asE Cert.ReferenceIdeal.S10000x64 (Cert.ReferenceIdeal.ReadP.val_main_v88 (F := Ideal) (x0 m c) (x1 m c) (x2 m c) (x3 m c) (x4 m c) (x5 m c) (x6 m c) (x7 m c) (x8 m c) (x9 m c) (x10 m c))) (ix2 i g)) (fun i g => Cert.ReferenceIdeal.HandValue.layer3_apply (x0 m c) (x1 m c) (x2 m c) (x3 m c) (x4 m c) (x5 m c) (x6 m c) (x7 m c) (x8 m c) (x9 m c) (x10 m c) (ix2 i g))

end

/-- The reference's result term is the kernel program's last valuation at the result buffer. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (hpre : (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1))
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) :
    Cert.ReferenceIdeal.ValueP.res_main_v89 m' c = Cert.KernelIdeal.Gen.V12 m (Cert.KernelIdeal.Hand.outs m) c Cert.KernelIdeal.main_v45 := by
  obtain ⟨e0, e1, e2, e3, e4, e5, e6, e7, e8, e9, e10⟩ := hagree
  -- the three layers, on the true rows
  have L1 := layer1_agree m c hpre
  have L2 := layer2_agree m c hpre L1.1 L1.2
  have L3 := layer3_agree m c hpre L2.1 L2.2
  -- the reference's side: its result stage at the kernel program's arguments, the tail of its last layer
  have eR : Cert.ReferenceIdeal.ValueP.res_main_v89 m' c = Cert.ReferenceIdeal.HandValue.tailR (Cert.ReferenceIdeal.ReadP.val_main_v88 (F := Ideal) (x0 m c) (x1 m c) (x2 m c) (x3 m c) (x4 m c) (x5 m c) (x6 m c) (x7 m c) (x8 m c) (x9 m c) (x10 m c)) := by
    rw [Cert.ReferenceIdeal.ReadP.val_main_v89_eq m' c, e0, e1, e2, e3, e4, e5, e6, e7, e8, e9, e10]
    exact Cert.ReferenceIdeal.HandValue.result_eq (x0 m c) (x1 m c) (x2 m c) (x3 m c) (x4 m c) (x5 m c) (x6 m c) (x7 m c) (x8 m c) (x9 m c) (x10 m c)
  -- the kernel program's side: the same tail of the true rows of its last region's output
  have eK := Cert.KernelIdeal.HandValue.result_tail m (Cert.KernelIdeal.Hand.outs m) c
  rw [eR]
  refine Eq.trans ?_ (eK.trans (Cert.TailEq.ktail_eq_tailR _)).symm
  refine congrArg Cert.ReferenceIdeal.HandValue.tailR (funext fun i => ?_)
  exact (congrArg (Cert.ReferenceIdeal.ReadP.val_main_v88 (F := Ideal) (x0 m c) (x1 m c) (x2 m c) (x3 m c) (x4 m c) (x5 m c) (x6 m c) (x7 m c) (x8 m c) (x9 m c) (x10 m c)) (eq_ix2 i)).trans (L3.1 (i 0) (i 1)).symm

end Cert.Bridge

end
-- ==== Proof.lean ====
/- The certificate of a three-layer GraphSAGE network (mean aggregation) written as a dense kernel program against its plain
   reference: `Cert.Claim` — the three frames, the (empty) idealization ledger, and equality of the two idealized programs'
   results over the extended reals — under the precondition that every float input is finite and every entry of the edge list
   lies in [0, 10000).

   The kernel program turns the edge list into a row-normalised adjacency matrix (an edge-count matrix scaled, row by row, by
   the reciprocal of the row's in-degree, at least one), pads the features to 10240 rows, and runs per layer two pipelined
   regions: the product of the adjacency matrix with the features, accumulated over eight column blocks in a scratch
   buffer, and `act (mean · Wl + h · Wr + b)` row block by row block; then it keeps the first 10000 rows and applies
   log-softmax. The reference gathers the source rows, sums them per destination, divides by the same in-degree, and applies
   the same linear map, activation and log-softmax. With finite features the two neighbour means agree (a count matrix times
   the features is the per-destination sum: a finite sum regrouped by source; a zero count times anything is zero, so the
   padded rows never matter), and the rest is the same function of equal arguments.

   The frames: each kernel region's body is run symbolically on its staging buffers (the aggregation kernel in three cases —
   the accumulator reset, updated, stored —, with the accumulator's contents tracked in the region's invariant); the six
   regions' segment records discharge the program's conditional frame. The reference's frame is its run with the result dropped. -/
import proofs.«427327_j68599217652368_1_alg».proof.Defs
import proofs.«427327_j68599217652368_1_alg».proof.Proof.Gen.Kernel
import proofs.«427327_j68599217652368_1_alg».proof.Proof.Gen.KernelIdeal
import proofs.«427327_j68599217652368_1_alg».proof.Proof.Gen.ReferenceIdeal
import proofs.«427327_j68599217652368_1_alg».proof.Proof.Gen.Pre_finite_inputs
import proofs.«427327_j68599217652368_1_alg».proof.Proof.K.RunFrame
import proofs.«427327_j68599217652368_1_alg».proof.Proof.KI.RunValue
import proofs.«427327_j68599217652368_1_alg».proof.Proof.Ref.Run
import proofs.«427327_j68599217652368_1_alg».proof.Proof.Bridge
import Idealize.ShloMosaic.Adequacy
import Idealize.ShloMosaic.Init

noncomputable section

namespace Cert.Proof

open Idealize.ShloMosaic Idealize.ShloMosaic.TcCoe Idealize.SL.Sem

/-- The word-level program runs and leaves its arguments unchanged. -/
theorem frame_k : Cert.frame_Kernel := fun m ρ _ => Cert.Kernel.Hand.frame (F := Bits) m ρ

/-- So does the idealized kernel program. -/
theorem frame_ki : Cert.frame_KernelIdeal := fun m ρ _ => Cert.KernelIdeal.Hand.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing: the ledger is empty. -/
theorem preserves : Cert.preserves_Kernel_KernelIdeal := trivial

/-- Both idealized programs end with the kernel program's last valuation at the result buffer: the kernel program by its run
    with the result named, the reference by its run and the equality of the two result terms. -/
theorem algebraic : Cert.algebraic_KernelIdeal_ReferenceIdeal := by
  intro m ρ m' ρ' hpre hagree
  refine ⟨fun c => Cert.KernelIdeal.Gen.V12 m (Cert.KernelIdeal.Hand.outs m) c Cert.KernelIdeal.main_v45,
    Cert.KernelIdeal.Hand.run_value (F := Ideal) m ρ, ?_⟩
  exact (θ_run Cert.ReferenceIdeal.defs _ _).mono
    (fun _ h c => ⟨(h c).1.trans (Cert.Bridge.result_eq m m' c (hpre c) (hagree c)), (h c).2⟩)
    (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
